-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S2048x1024 : Shape := ⟨2, ![2048, 1024]⟩
abbrev S32 : Shape := ⟨1, ![32]⟩
abbrev S1 : Shape := ⟨1, ![1]⟩
abbrev S_ : Shape := ⟨0, ![]⟩
abbrev S64x1024 : Shape := ⟨2, ![64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S2048x1024, .f32⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 192 → Bool
  | ⟨i, _⟩ => dmaSemScopedAt i

abbrev sig : RefSig :=
  (ofTc nBuf bufTy 1 192 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v9 : BitVec 32 := Scalar.addi v8 c0_i32
  let c0_i32_7 : BitVec 32 := 0#32
  ![v9.toNat, 0]
def k0_dev1 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v179 : BitVec 32 := Scalar.muli v6 c2_i32_111
  let v180 : BitVec 32 := Scalar.addi c0_i32_112 v179
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v181 : BitVec 32 := Scalar.muli v5 c1_i32_113
  let v182 : BitVec 32 := Scalar.addi v180 v181
  v182.toNat
def k0_dev2 (d0 : Dev nD) : Nat :=
  let c0_i32_116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_115 : BitVec 32 := 2#32
  let v183 : BitVec 32 := Scalar.muli v2 c2_i32_115
  let v184 : BitVec 32 := Scalar.addi c0_i32_116 v183
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_117 : BitVec 32 := 1#32
  let v185 : BitVec 32 := Scalar.muli v7 c1_i32_117
  let v186 : BitVec 32 := Scalar.addi v184 v185
  v186.toNat
def k0_dev3 (d0 : Dev nD) : Nat :=
  let c0_i32_122 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_121 : BitVec 32 := 2#32
  let v187 : BitVec 32 := Scalar.muli v6 c2_i32_121
  let v188 : BitVec 32 := Scalar.addi c0_i32_122 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v189 : BitVec 32 := Scalar.muli v5 c1_i32_123
  let v190 : BitVec 32 := Scalar.addi v188 v189
  v190.toNat
def k0_dev4 (d0 : Dev nD) : Nat :=
  let c0_i32_138 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_137 : BitVec 32 := 2#32
  let v206 : BitVec 32 := Scalar.muli v6 c2_i32_137
  let v207 : BitVec 32 := Scalar.addi c0_i32_138 v206
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v208 : BitVec 32 := Scalar.muli v5 c1_i32_139
  let v209 : BitVec 32 := Scalar.addi v207 v208
  v209.toNat
def k0_dev5 (d0 : Dev nD) : Nat :=
  let c0_i32_154 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_153 : BitVec 32 := 2#32
  let v225 : BitVec 32 := Scalar.muli v6 c2_i32_153
  let v226 : BitVec 32 := Scalar.addi c0_i32_154 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v227 : BitVec 32 := Scalar.muli v5 c1_i32_155
  let v228 : BitVec 32 := Scalar.addi v226 v227
  v228.toNat
def k0_dev6 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v244 : BitVec 32 := Scalar.muli v6 c2_i32_169
  let v245 : BitVec 32 := Scalar.addi c0_i32_170 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v246 : BitVec 32 := Scalar.muli v5 c1_i32_171
  let v247 : BitVec 32 := Scalar.addi v245 v246
  v247.toNat
def k0_dev7 (d0 : Dev nD) : Nat :=
  let c0_i32_186 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_185 : BitVec 32 := 2#32
  let v263 : BitVec 32 := Scalar.muli v6 c2_i32_185
  let v264 : BitVec 32 := Scalar.addi c0_i32_186 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_187 : BitVec 32 := 1#32
  let v265 : BitVec 32 := Scalar.muli v5 c1_i32_187
  let v266 : BitVec 32 := Scalar.addi v264 v265
  v266.toNat
def k0_dev8 (d0 : Dev nD) : Nat :=
  let c0_i32_202 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_201 : BitVec 32 := 2#32
  let v282 : BitVec 32 := Scalar.muli v6 c2_i32_201
  let v283 : BitVec 32 := Scalar.addi c0_i32_202 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_203 : BitVec 32 := 1#32
  let v284 : BitVec 32 := Scalar.muli v5 c1_i32_203
  let v285 : BitVec 32 := Scalar.addi v283 v284
  v285.toNat
def k0_dev9 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v301 : BitVec 32 := Scalar.muli v6 c2_i32_217
  let v302 : BitVec 32 := Scalar.addi c0_i32_218 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v303 : BitVec 32 := Scalar.muli v5 c1_i32_219
  let v304 : BitVec 32 := Scalar.addi v302 v303
  v304.toNat
def k0_dev10 (d0 : Dev nD) : Nat :=
  let c0_i32_234 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_233 : BitVec 32 := 2#32
  let v320 : BitVec 32 := Scalar.muli v6 c2_i32_233
  let v321 : BitVec 32 := Scalar.addi c0_i32_234 v320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v322 : BitVec 32 := Scalar.muli v5 c1_i32_235
  let v323 : BitVec 32 := Scalar.addi v321 v322
  v323.toNat
def k0_dev11 (d0 : Dev nD) : Nat :=
  let c0_i32_250 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_249 : BitVec 32 := 2#32
  let v339 : BitVec 32 := Scalar.muli v6 c2_i32_249
  let v340 : BitVec 32 := Scalar.addi c0_i32_250 v339
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_251 : BitVec 32 := 1#32
  let v341 : BitVec 32 := Scalar.muli v5 c1_i32_251
  let v342 : BitVec 32 := Scalar.addi v340 v341
  v342.toNat
def k0_dev12 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v358 : BitVec 32 := Scalar.muli v6 c2_i32_265
  let v359 : BitVec 32 := Scalar.addi c0_i32_266 v358
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v360 : BitVec 32 := Scalar.muli v5 c1_i32_267
  let v361 : BitVec 32 := Scalar.addi v359 v360
  v361.toNat
def k0_dev13 (d0 : Dev nD) : Nat :=
  let c0_i32_282 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_281 : BitVec 32 := 2#32
  let v377 : BitVec 32 := Scalar.muli v6 c2_i32_281
  let v378 : BitVec 32 := Scalar.addi c0_i32_282 v377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_283 : BitVec 32 := 1#32
  let v379 : BitVec 32 := Scalar.muli v5 c1_i32_283
  let v380 : BitVec 32 := Scalar.addi v378 v379
  v380.toNat
def k0_dev14 (d0 : Dev nD) : Nat :=
  let c0_i32_298 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_297 : BitVec 32 := 2#32
  let v396 : BitVec 32 := Scalar.muli v6 c2_i32_297
  let v397 : BitVec 32 := Scalar.addi c0_i32_298 v396
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_299 : BitVec 32 := 1#32
  let v398 : BitVec 32 := Scalar.muli v5 c1_i32_299
  let v399 : BitVec 32 := Scalar.addi v397 v398
  v399.toNat
def k0_dev15 (d0 : Dev nD) : Nat :=
  let c0_i32_314 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_313 : BitVec 32 := 2#32
  let v415 : BitVec 32 := Scalar.muli v6 c2_i32_313
  let v416 : BitVec 32 := Scalar.addi c0_i32_314 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_315 : BitVec 32 := 1#32
  let v417 : BitVec 32 := Scalar.muli v5 c1_i32_315
  let v418 : BitVec 32 := Scalar.addi v416 v417
  v418.toNat
def k0_dev16 (d0 : Dev nD) : Nat :=
  let c0_i32_330 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_329 : BitVec 32 := 2#32
  let v434 : BitVec 32 := Scalar.muli v6 c2_i32_329
  let v435 : BitVec 32 := Scalar.addi c0_i32_330 v434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_331 : BitVec 32 := 1#32
  let v436 : BitVec 32 := Scalar.muli v5 c1_i32_331
  let v437 : BitVec 32 := Scalar.addi v435 v436
  v437.toNat
def k0_dev17 (d0 : Dev nD) : Nat :=
  let c0_i32_346 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_345 : BitVec 32 := 2#32
  let v453 : BitVec 32 := Scalar.muli v6 c2_i32_345
  let v454 : BitVec 32 := Scalar.addi c0_i32_346 v453
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_347 : BitVec 32 := 1#32
  let v455 : BitVec 32 := Scalar.muli v5 c1_i32_347
  let v456 : BitVec 32 := Scalar.addi v454 v455
  v456.toNat
def k0_dev18 (d0 : Dev nD) : Nat :=
  let c0_i32_362 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_361 : BitVec 32 := 2#32
  let v472 : BitVec 32 := Scalar.muli v6 c2_i32_361
  let v473 : BitVec 32 := Scalar.addi c0_i32_362 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_363 : BitVec 32 := 1#32
  let v474 : BitVec 32 := Scalar.muli v5 c1_i32_363
  let v475 : BitVec 32 := Scalar.addi v473 v474
  v475.toNat
def k0_dev19 (d0 : Dev nD) : Nat :=
  let c0_i32_378 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_377 : BitVec 32 := 2#32
  let v491 : BitVec 32 := Scalar.muli v6 c2_i32_377
  let v492 : BitVec 32 := Scalar.addi c0_i32_378 v491
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_379 : BitVec 32 := 1#32
  let v493 : BitVec 32 := Scalar.muli v5 c1_i32_379
  let v494 : BitVec 32 := Scalar.addi v492 v493
  v494.toNat
def k0_dev20 (d0 : Dev nD) : Nat :=
  let c0_i32_394 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_393 : BitVec 32 := 2#32
  let v510 : BitVec 32 := Scalar.muli v6 c2_i32_393
  let v511 : BitVec 32 := Scalar.addi c0_i32_394 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_395 : BitVec 32 := 1#32
  let v512 : BitVec 32 := Scalar.muli v5 c1_i32_395
  let v513 : BitVec 32 := Scalar.addi v511 v512
  v513.toNat
def k0_dev21 (d0 : Dev nD) : Nat :=
  let c0_i32_410 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_409 : BitVec 32 := 2#32
  let v529 : BitVec 32 := Scalar.muli v6 c2_i32_409
  let v530 : BitVec 32 := Scalar.addi c0_i32_410 v529
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_411 : BitVec 32 := 1#32
  let v531 : BitVec 32 := Scalar.muli v5 c1_i32_411
  let v532 : BitVec 32 := Scalar.addi v530 v531
  v532.toNat
def k0_dev22 (d0 : Dev nD) : Nat :=
  let c0_i32_426 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_425 : BitVec 32 := 2#32
  let v548 : BitVec 32 := Scalar.muli v6 c2_i32_425
  let v549 : BitVec 32 := Scalar.addi c0_i32_426 v548
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_427 : BitVec 32 := 1#32
  let v550 : BitVec 32 := Scalar.muli v5 c1_i32_427
  let v551 : BitVec 32 := Scalar.addi v549 v550
  v551.toNat
def k0_dev23 (d0 : Dev nD) : Nat :=
  let c0_i32_442 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_441 : BitVec 32 := 2#32
  let v567 : BitVec 32 := Scalar.muli v6 c2_i32_441
  let v568 : BitVec 32 := Scalar.addi c0_i32_442 v567
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v569 : BitVec 32 := Scalar.muli v5 c1_i32_443
  let v570 : BitVec 32 := Scalar.addi v568 v569
  v570.toNat
def k0_dev24 (d0 : Dev nD) : Nat :=
  let c0_i32_458 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_457 : BitVec 32 := 2#32
  let v586 : BitVec 32 := Scalar.muli v6 c2_i32_457
  let v587 : BitVec 32 := Scalar.addi c0_i32_458 v586
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_459 : BitVec 32 := 1#32
  let v588 : BitVec 32 := Scalar.muli v5 c1_i32_459
  let v589 : BitVec 32 := Scalar.addi v587 v588
  v589.toNat
def k0_dev25 (d0 : Dev nD) : Nat :=
  let c0_i32_474 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_473 : BitVec 32 := 2#32
  let v605 : BitVec 32 := Scalar.muli v6 c2_i32_473
  let v606 : BitVec 32 := Scalar.addi c0_i32_474 v605
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_475 : BitVec 32 := 1#32
  let v607 : BitVec 32 := Scalar.muli v5 c1_i32_475
  let v608 : BitVec 32 := Scalar.addi v606 v607
  v608.toNat
def k0_dev26 (d0 : Dev nD) : Nat :=
  let c0_i32_490 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_489 : BitVec 32 := 2#32
  let v624 : BitVec 32 := Scalar.muli v6 c2_i32_489
  let v625 : BitVec 32 := Scalar.addi c0_i32_490 v624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_491 : BitVec 32 := 1#32
  let v626 : BitVec 32 := Scalar.muli v5 c1_i32_491
  let v627 : BitVec 32 := Scalar.addi v625 v626
  v627.toNat
def k0_dev27 (d0 : Dev nD) : Nat :=
  let c0_i32_506 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_505 : BitVec 32 := 2#32
  let v643 : BitVec 32 := Scalar.muli v6 c2_i32_505
  let v644 : BitVec 32 := Scalar.addi c0_i32_506 v643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_507 : BitVec 32 := 1#32
  let v645 : BitVec 32 := Scalar.muli v5 c1_i32_507
  let v646 : BitVec 32 := Scalar.addi v644 v645
  v646.toNat
def k0_dev28 (d0 : Dev nD) : Nat :=
  let c0_i32_522 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_521 : BitVec 32 := 2#32
  let v662 : BitVec 32 := Scalar.muli v6 c2_i32_521
  let v663 : BitVec 32 := Scalar.addi c0_i32_522 v662
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_523 : BitVec 32 := 1#32
  let v664 : BitVec 32 := Scalar.muli v5 c1_i32_523
  let v665 : BitVec 32 := Scalar.addi v663 v664
  v665.toNat
def k0_dev29 (d0 : Dev nD) : Nat :=
  let c0_i32_538 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_537 : BitVec 32 := 2#32
  let v681 : BitVec 32 := Scalar.muli v6 c2_i32_537
  let v682 : BitVec 32 := Scalar.addi c0_i32_538 v681
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_539 : BitVec 32 := 1#32
  let v683 : BitVec 32 := Scalar.muli v5 c1_i32_539
  let v684 : BitVec 32 := Scalar.addi v682 v683
  v684.toNat
def k0_dev30 (d0 : Dev nD) : Nat :=
  let c0_i32_554 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_553 : BitVec 32 := 2#32
  let v700 : BitVec 32 := Scalar.muli v6 c2_i32_553
  let v701 : BitVec 32 := Scalar.addi c0_i32_554 v700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_555 : BitVec 32 := 1#32
  let v702 : BitVec 32 := Scalar.muli v5 c1_i32_555
  let v703 : BitVec 32 := Scalar.addi v701 v702
  v703.toNat
def k0_dev31 (d0 : Dev nD) : Nat :=
  let c0_i32_570 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_569 : BitVec 32 := 2#32
  let v719 : BitVec 32 := Scalar.muli v6 c2_i32_569
  let v720 : BitVec 32 := Scalar.addi c0_i32_570 v719
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_571 : BitVec 32 := 1#32
  let v721 : BitVec 32 := Scalar.muli v5 c1_i32_571
  let v722 : BitVec 32 := Scalar.addi v720 v721
  v722.toNat
def k0_dev32 (d0 : Dev nD) : Nat :=
  let c0_i32_586 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_585 : BitVec 32 := 2#32
  let v738 : BitVec 32 := Scalar.muli v6 c2_i32_585
  let v739 : BitVec 32 := Scalar.addi c0_i32_586 v738
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_587 : BitVec 32 := 1#32
  let v740 : BitVec 32 := Scalar.muli v5 c1_i32_587
  let v741 : BitVec 32 := Scalar.addi v739 v740
  v741.toNat
def k0_dev33 (d0 : Dev nD) : Nat :=
  let c0_i32_602 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_601 : BitVec 32 := 2#32
  let v757 : BitVec 32 := Scalar.muli v6 c2_i32_601
  let v758 : BitVec 32 := Scalar.addi c0_i32_602 v757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_603 : BitVec 32 := 1#32
  let v759 : BitVec 32 := Scalar.muli v5 c1_i32_603
  let v760 : BitVec 32 := Scalar.addi v758 v759
  v760.toNat
def k0_dev34 (d0 : Dev nD) : Nat :=
  let c0_i32_618 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_617 : BitVec 32 := 2#32
  let v776 : BitVec 32 := Scalar.muli v6 c2_i32_617
  let v777 : BitVec 32 := Scalar.addi c0_i32_618 v776
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_619 : BitVec 32 := 1#32
  let v778 : BitVec 32 := Scalar.muli v5 c1_i32_619
  let v779 : BitVec 32 := Scalar.addi v777 v778
  v779.toNat
def k0_dev35 (d0 : Dev nD) : Nat :=
  let c0_i32_643 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_642 : BitVec 32 := 2#32
  let v801 : BitVec 32 := Scalar.muli v2 c2_i32_642
  let v802 : BitVec 32 := Scalar.addi c0_i32_643 v801
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_644 : BitVec 32 := 1#32
  let v803 : BitVec 32 := Scalar.muli v7 c1_i32_644
  let v804 : BitVec 32 := Scalar.addi v802 v803
  v804.toNat
def k0_dev36 (d0 : Dev nD) : Nat :=
  let c0_i32_671 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_670 : BitVec 32 := 2#32
  let v830 : BitVec 32 := Scalar.muli v2 c2_i32_670
  let v831 : BitVec 32 := Scalar.addi c0_i32_671 v830
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_672 : BitVec 32 := 1#32
  let v832 : BitVec 32 := Scalar.muli v7 c1_i32_672
  let v833 : BitVec 32 := Scalar.addi v831 v832
  v833.toNat
def k0_dev37 (d0 : Dev nD) : Nat :=
  let c0_i32_699 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_698 : BitVec 32 := 2#32
  let v859 : BitVec 32 := Scalar.muli v2 c2_i32_698
  let v860 : BitVec 32 := Scalar.addi c0_i32_699 v859
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_700 : BitVec 32 := 1#32
  let v861 : BitVec 32 := Scalar.muli v7 c1_i32_700
  let v862 : BitVec 32 := Scalar.addi v860 v861
  v862.toNat
def k0_dev38 (d0 : Dev nD) : Nat :=
  let c0_i32_727 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_726 : BitVec 32 := 2#32
  let v888 : BitVec 32 := Scalar.muli v2 c2_i32_726
  let v889 : BitVec 32 := Scalar.addi c0_i32_727 v888
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_728 : BitVec 32 := 1#32
  let v890 : BitVec 32 := Scalar.muli v7 c1_i32_728
  let v891 : BitVec 32 := Scalar.addi v889 v890
  v891.toNat
def k0_dev39 (d0 : Dev nD) : Nat :=
  let c0_i32_755 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_754 : BitVec 32 := 2#32
  let v917 : BitVec 32 := Scalar.muli v2 c2_i32_754
  let v918 : BitVec 32 := Scalar.addi c0_i32_755 v917
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_756 : BitVec 32 := 1#32
  let v919 : BitVec 32 := Scalar.muli v7 c1_i32_756
  let v920 : BitVec 32 := Scalar.addi v918 v919
  v920.toNat
def k0_dev40 (d0 : Dev nD) : Nat :=
  let c0_i32_783 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_782 : BitVec 32 := 2#32
  let v946 : BitVec 32 := Scalar.muli v2 c2_i32_782
  let v947 : BitVec 32 := Scalar.addi c0_i32_783 v946
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_784 : BitVec 32 := 1#32
  let v948 : BitVec 32 := Scalar.muli v7 c1_i32_784
  let v949 : BitVec 32 := Scalar.addi v947 v948
  v949.toNat
def k0_dev41 (d0 : Dev nD) : Nat :=
  let c0_i32_811 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_810 : BitVec 32 := 2#32
  let v975 : BitVec 32 := Scalar.muli v2 c2_i32_810
  let v976 : BitVec 32 := Scalar.addi c0_i32_811 v975
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_812 : BitVec 32 := 1#32
  let v977 : BitVec 32 := Scalar.muli v7 c1_i32_812
  let v978 : BitVec 32 := Scalar.addi v976 v977
  v978.toNat
def k0_dev42 (d0 : Dev nD) : Nat :=
  let c0_i32_839 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_838 : BitVec 32 := 2#32
  let v1004 : BitVec 32 := Scalar.muli v2 c2_i32_838
  let v1005 : BitVec 32 := Scalar.addi c0_i32_839 v1004
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_840 : BitVec 32 := 1#32
  let v1006 : BitVec 32 := Scalar.muli v7 c1_i32_840
  let v1007 : BitVec 32 := Scalar.addi v1005 v1006
  v1007.toNat
def k0_dev43 (d0 : Dev nD) : Nat :=
  let c0_i32_867 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_866 : BitVec 32 := 2#32
  let v1033 : BitVec 32 := Scalar.muli v2 c2_i32_866
  let v1034 : BitVec 32 := Scalar.addi c0_i32_867 v1033
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_868 : BitVec 32 := 1#32
  let v1035 : BitVec 32 := Scalar.muli v7 c1_i32_868
  let v1036 : BitVec 32 := Scalar.addi v1034 v1035
  v1036.toNat
def k0_dev44 (d0 : Dev nD) : Nat :=
  let c0_i32_895 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_894 : BitVec 32 := 2#32
  let v1062 : BitVec 32 := Scalar.muli v2 c2_i32_894
  let v1063 : BitVec 32 := Scalar.addi c0_i32_895 v1062
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_896 : BitVec 32 := 1#32
  let v1064 : BitVec 32 := Scalar.muli v7 c1_i32_896
  let v1065 : BitVec 32 := Scalar.addi v1063 v1064
  v1065.toNat
def k0_dev45 (d0 : Dev nD) : Nat :=
  let c0_i32_923 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_922 : BitVec 32 := 2#32
  let v1091 : BitVec 32 := Scalar.muli v2 c2_i32_922
  let v1092 : BitVec 32 := Scalar.addi c0_i32_923 v1091
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_924 : BitVec 32 := 1#32
  let v1093 : BitVec 32 := Scalar.muli v7 c1_i32_924
  let v1094 : BitVec 32 := Scalar.addi v1092 v1093
  v1094.toNat
def k0_dev46 (d0 : Dev nD) : Nat :=
  let c0_i32_951 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_950 : BitVec 32 := 2#32
  let v1120 : BitVec 32 := Scalar.muli v2 c2_i32_950
  let v1121 : BitVec 32 := Scalar.addi c0_i32_951 v1120
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_952 : BitVec 32 := 1#32
  let v1122 : BitVec 32 := Scalar.muli v7 c1_i32_952
  let v1123 : BitVec 32 := Scalar.addi v1121 v1122
  v1123.toNat
def k0_dev47 (d0 : Dev nD) : Nat :=
  let c0_i32_979 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_978 : BitVec 32 := 2#32
  let v1149 : BitVec 32 := Scalar.muli v2 c2_i32_978
  let v1150 : BitVec 32 := Scalar.addi c0_i32_979 v1149
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_980 : BitVec 32 := 1#32
  let v1151 : BitVec 32 := Scalar.muli v7 c1_i32_980
  let v1152 : BitVec 32 := Scalar.addi v1150 v1151
  v1152.toNat
def k0_dev48 (d0 : Dev nD) : Nat :=
  let c0_i32_1007 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1006 : BitVec 32 := 2#32
  let v1178 : BitVec 32 := Scalar.muli v2 c2_i32_1006
  let v1179 : BitVec 32 := Scalar.addi c0_i32_1007 v1178
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1008 : BitVec 32 := 1#32
  let v1180 : BitVec 32 := Scalar.muli v7 c1_i32_1008
  let v1181 : BitVec 32 := Scalar.addi v1179 v1180
  v1181.toNat
def k0_dev49 (d0 : Dev nD) : Nat :=
  let c0_i32_1035 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1034 : BitVec 32 := 2#32
  let v1207 : BitVec 32 := Scalar.muli v2 c2_i32_1034
  let v1208 : BitVec 32 := Scalar.addi c0_i32_1035 v1207
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1036 : BitVec 32 := 1#32
  let v1209 : BitVec 32 := Scalar.muli v7 c1_i32_1036
  let v1210 : BitVec 32 := Scalar.addi v1208 v1209
  v1210.toNat
def k0_dev50 (d0 : Dev nD) : Nat :=
  let c0_i32_1063 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1062 : BitVec 32 := 2#32
  let v1236 : BitVec 32 := Scalar.muli v2 c2_i32_1062
  let v1237 : BitVec 32 := Scalar.addi c0_i32_1063 v1236
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1064 : BitVec 32 := 1#32
  let v1238 : BitVec 32 := Scalar.muli v7 c1_i32_1064
  let v1239 : BitVec 32 := Scalar.addi v1237 v1238
  v1239.toNat
def k0_dev51 (d0 : Dev nD) : Nat :=
  let c0_i32_1091 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1090 : BitVec 32 := 2#32
  let v1265 : BitVec 32 := Scalar.muli v2 c2_i32_1090
  let v1266 : BitVec 32 := Scalar.addi c0_i32_1091 v1265
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1092 : BitVec 32 := 1#32
  let v1267 : BitVec 32 := Scalar.muli v7 c1_i32_1092
  let v1268 : BitVec 32 := Scalar.addi v1266 v1267
  v1268.toNat
def k0_dev52 (d0 : Dev nD) : Nat :=
  let c0_i32_1119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1118 : BitVec 32 := 2#32
  let v1294 : BitVec 32 := Scalar.muli v2 c2_i32_1118
  let v1295 : BitVec 32 := Scalar.addi c0_i32_1119 v1294
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1120 : BitVec 32 := 1#32
  let v1296 : BitVec 32 := Scalar.muli v7 c1_i32_1120
  let v1297 : BitVec 32 := Scalar.addi v1295 v1296
  v1297.toNat
def k0_dev53 (d0 : Dev nD) : Nat :=
  let c0_i32_1147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1146 : BitVec 32 := 2#32
  let v1323 : BitVec 32 := Scalar.muli v2 c2_i32_1146
  let v1324 : BitVec 32 := Scalar.addi c0_i32_1147 v1323
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1148 : BitVec 32 := 1#32
  let v1325 : BitVec 32 := Scalar.muli v7 c1_i32_1148
  let v1326 : BitVec 32 := Scalar.addi v1324 v1325
  v1326.toNat
def k0_dev54 (d0 : Dev nD) : Nat :=
  let c0_i32_1175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1174 : BitVec 32 := 2#32
  let v1352 : BitVec 32 := Scalar.muli v2 c2_i32_1174
  let v1353 : BitVec 32 := Scalar.addi c0_i32_1175 v1352
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1176 : BitVec 32 := 1#32
  let v1354 : BitVec 32 := Scalar.muli v7 c1_i32_1176
  let v1355 : BitVec 32 := Scalar.addi v1353 v1354
  v1355.toNat
def k0_dev55 (d0 : Dev nD) : Nat :=
  let c0_i32_1203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1202 : BitVec 32 := 2#32
  let v1381 : BitVec 32 := Scalar.muli v2 c2_i32_1202
  let v1382 : BitVec 32 := Scalar.addi c0_i32_1203 v1381
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1204 : BitVec 32 := 1#32
  let v1383 : BitVec 32 := Scalar.muli v7 c1_i32_1204
  let v1384 : BitVec 32 := Scalar.addi v1382 v1383
  v1384.toNat
def k0_dev56 (d0 : Dev nD) : Nat :=
  let c0_i32_1231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1230 : BitVec 32 := 2#32
  let v1410 : BitVec 32 := Scalar.muli v2 c2_i32_1230
  let v1411 : BitVec 32 := Scalar.addi c0_i32_1231 v1410
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1232 : BitVec 32 := 1#32
  let v1412 : BitVec 32 := Scalar.muli v7 c1_i32_1232
  let v1413 : BitVec 32 := Scalar.addi v1411 v1412
  v1413.toNat
def k0_dev57 (d0 : Dev nD) : Nat :=
  let c0_i32_1259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1258 : BitVec 32 := 2#32
  let v1439 : BitVec 32 := Scalar.muli v2 c2_i32_1258
  let v1440 : BitVec 32 := Scalar.addi c0_i32_1259 v1439
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1260 : BitVec 32 := 1#32
  let v1441 : BitVec 32 := Scalar.muli v7 c1_i32_1260
  let v1442 : BitVec 32 := Scalar.addi v1440 v1441
  v1442.toNat
def k0_dev58 (d0 : Dev nD) : Nat :=
  let c0_i32_1287 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1286 : BitVec 32 := 2#32
  let v1468 : BitVec 32 := Scalar.muli v2 c2_i32_1286
  let v1469 : BitVec 32 := Scalar.addi c0_i32_1287 v1468
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1288 : BitVec 32 := 1#32
  let v1470 : BitVec 32 := Scalar.muli v7 c1_i32_1288
  let v1471 : BitVec 32 := Scalar.addi v1469 v1470
  v1471.toNat
def k0_dev59 (d0 : Dev nD) : Nat :=
  let c0_i32_1315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1314 : BitVec 32 := 2#32
  let v1497 : BitVec 32 := Scalar.muli v2 c2_i32_1314
  let v1498 : BitVec 32 := Scalar.addi c0_i32_1315 v1497
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1316 : BitVec 32 := 1#32
  let v1499 : BitVec 32 := Scalar.muli v7 c1_i32_1316
  let v1500 : BitVec 32 := Scalar.addi v1498 v1499
  v1500.toNat
def k0_dev60 (d0 : Dev nD) : Nat :=
  let c0_i32_1343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1342 : BitVec 32 := 2#32
  let v1526 : BitVec 32 := Scalar.muli v2 c2_i32_1342
  let v1527 : BitVec 32 := Scalar.addi c0_i32_1343 v1526
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1344 : BitVec 32 := 1#32
  let v1528 : BitVec 32 := Scalar.muli v7 c1_i32_1344
  let v1529 : BitVec 32 := Scalar.addi v1527 v1528
  v1529.toNat
def k0_dev61 (d0 : Dev nD) : Nat :=
  let c0_i32_1371 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1370 : BitVec 32 := 2#32
  let v1555 : BitVec 32 := Scalar.muli v2 c2_i32_1370
  let v1556 : BitVec 32 := Scalar.addi c0_i32_1371 v1555
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1372 : BitVec 32 := 1#32
  let v1557 : BitVec 32 := Scalar.muli v7 c1_i32_1372
  let v1558 : BitVec 32 := Scalar.addi v1556 v1557
  v1558.toNat
def k0_dev62 (d0 : Dev nD) : Nat :=
  let c0_i32_1399 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1398 : BitVec 32 := 2#32
  let v1584 : BitVec 32 := Scalar.muli v2 c2_i32_1398
  let v1585 : BitVec 32 := Scalar.addi c0_i32_1399 v1584
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1400 : BitVec 32 := 1#32
  let v1586 : BitVec 32 := Scalar.muli v7 c1_i32_1400
  let v1587 : BitVec 32 := Scalar.addi v1585 v1586
  v1587.toNat
def k0_dev63 (d0 : Dev nD) : Nat :=
  let c0_i32_1427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1426 : BitVec 32 := 2#32
  let v1613 : BitVec 32 := Scalar.muli v2 c2_i32_1426
  let v1614 : BitVec 32 := Scalar.addi c0_i32_1427 v1613
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1428 : BitVec 32 := 1#32
  let v1615 : BitVec 32 := Scalar.muli v7 c1_i32_1428
  let v1616 : BitVec 32 := Scalar.addi v1614 v1615
  v1616.toNat
def k0_dev64 (d0 : Dev nD) : Nat :=
  let c0_i32_1455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1454 : BitVec 32 := 2#32
  let v1642 : BitVec 32 := Scalar.muli v2 c2_i32_1454
  let v1643 : BitVec 32 := Scalar.addi c0_i32_1455 v1642
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1456 : BitVec 32 := 1#32
  let v1644 : BitVec 32 := Scalar.muli v7 c1_i32_1456
  let v1645 : BitVec 32 := Scalar.addi v1643 v1644
  v1645.toNat
def k0_dev65 (d0 : Dev nD) : Nat :=
  let c0_i32_1483 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1482 : BitVec 32 := 2#32
  let v1671 : BitVec 32 := Scalar.muli v2 c2_i32_1482
  let v1672 : BitVec 32 := Scalar.addi c0_i32_1483 v1671
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1484 : BitVec 32 := 1#32
  let v1673 : BitVec 32 := Scalar.muli v7 c1_i32_1484
  let v1674 : BitVec 32 := Scalar.addi v1672 v1673
  v1674.toNat
def k0_dev66 (d0 : Dev nD) : Nat :=
  let c0_i32_1511 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1510 : BitVec 32 := 2#32
  let v1700 : BitVec 32 := Scalar.muli v2 c2_i32_1510
  let v1701 : BitVec 32 := Scalar.addi c0_i32_1511 v1700
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1512 : BitVec 32 := 1#32
  let v1702 : BitVec 32 := Scalar.muli v7 c1_i32_1512
  let v1703 : BitVec 32 := Scalar.addi v1701 v1702
  v1703.toNat

class Facts₀ : Prop where
  inb_S32_S1_0 : ∀ a, (![0] : Fin 1 → Nat) a + S1.size a ≤ S32.size a
  squeezes_S1_S_ : S1.Squeezes S_
  inb_S2048x1024_S64x1024_0_0 : ∀ a, (![0, 0] : Fin 2 → Nat) a + S64x1024.size a ≤ S2048x1024.size a
  inb_S32_S1_1 : ∀ a, (![1] : Fin 1 → Nat) a + S1.size a ≤ S32.size a
  inb_S2048x1024_S64x1024_64_0 : ∀ a, (![64, 0] : Fin 2 → Nat) a + S64x1024.size a ≤ S2048x1024.size a
  inb_S32_S1_2 : ∀ a, (![2] : Fin 1 → Nat) a + S1.size a ≤ S32.size a
  inb_S2048x1024_S64x1024_128_0 : ∀ a, (![128, 0] : Fin 2 → Nat) a + S64x1024.size a ≤ S2048x1024.size a
  inb_S32_S1_3 : ∀ a, (![3] : Fin 1 → Nat) a + S1.size a ≤ S32.size a
  inb_S2048x1024_S64x1024_192_0 : ∀ a, (![192, 0] : Fin 2 → Nat) a + S64x1024.size a ≤ S2048x1024.size a
  inb_S32_S1_4 : ∀ a, (![4] : Fin 1 → Nat) a + S1.size a ≤ S32.size a
  inb_S2048x1024_S64x1024_256_0 : ∀ a, (![256, 0] : Fin 2 → Nat) a + S64x1024.size a ≤ S2048x1024.size a
  inb_S32_S1_5 : ∀ a, (![5] : Fin 1 → Nat) a + S1.size a ≤ S32.size a
  inb_S2048x1024_S64x1024_320_0 : ∀ a, (![320, 0] : Fin 2 → Nat) a + S64x1024.size a ≤ S2048x1024.size a
  inb_S32_S1_6 : ∀ a, (![6] : Fin 1 → Nat) a + S1.size a ≤ S32.size a
  inb_S2048x1024_S64x1024_384_0 : ∀ a, (![384, 0] : Fin 2 → Nat) a + S64x1024.size a ≤ S2048x1024.size a
  inb_S32_S1_7 : ∀ a, (![7] : Fin 1 → Nat) a + S1.size a ≤ S32.size a
  inb_S2048x1024_S64x1024_448_0 : ∀ a, (![448, 0] : Fin 2 → Nat) a + S64x1024.size a ≤ S2048x1024.size a
  inb_S32_S1_8 : ∀ a, (![8] : Fin 1 → Nat) a + S1.size a ≤ S32.size a
  inb_S2048x1024_S64x1024_512_0 : ∀ a, (![512, 0] : Fin 2 → Nat) a + S64x1024.size a ≤ S2048x1024.size a
  inb_S32_S1_9 : ∀ a, (![9] : Fin 1 → Nat) a + S1.size a ≤ S32.size a
  inb_S2048x1024_S64x1024_576_0 : ∀ a, (![576, 0] : Fin 2 → Nat) a + S64x1024.size a ≤ S2048x1024.size a
  inb_S32_S1_10 : ∀ a, (![10] : Fin 1 → Nat) a + S1.size a ≤ S32.size a
  inb_S2048x1024_S64x1024_640_0 : ∀ a, (![640, 0] : Fin 2 → Nat) a + S64x1024.size a ≤ S2048x1024.size a
  inb_S32_S1_11 : ∀ a, (![11] : Fin 1 → Nat) a + S1.size a ≤ S32.size a
  inb_S2048x1024_S64x1024_704_0 : ∀ a, (![704, 0] : Fin 2 → Nat) a + S64x1024.size a ≤ S2048x1024.size a
  inb_S32_S1_12 : ∀ a, (![12] : Fin 1 → Nat) a + S1.size a ≤ S32.size a
  inb_S2048x1024_S64x1024_768_0 : ∀ a, (![768, 0] : Fin 2 → Nat) a + S64x1024.size a ≤ S2048x1024.size a
  inb_S32_S1_13 : ∀ a, (![13] : Fin 1 → Nat) a + S1.size a ≤ S32.size a
  inb_S2048x1024_S64x1024_832_0 : ∀ a, (![832, 0] : Fin 2 → Nat) a + S64x1024.size a ≤ S2048x1024.size a
  inb_S32_S1_14 : ∀ a, (![14] : Fin 1 → Nat) a + S1.size a ≤ S32.size a
  inb_S2048x1024_S64x1024_896_0 : ∀ a, (![896, 0] : Fin 2 → Nat) a + S64x1024.size a ≤ S2048x1024.size a
  inb_S32_S1_15 : ∀ a, (![15] : Fin 1 → Nat) a + S1.size a ≤ S32.size a
  inb_S2048x1024_S64x1024_960_0 : ∀ a, (![960, 0] : Fin 2 → Nat) a + S64x1024.size a ≤ S2048x1024.size a
  inb_S32_S1_16 : ∀ a, (![16] : Fin 1 → Nat) a + S1.size a ≤ S32.size a
  inb_S2048x1024_S64x1024_1024_0 : ∀ a, (![1024, 0] : Fin 2 → Nat) a + S64x1024.size a ≤ S2048x1024.size a
  inb_S32_S1_17 : ∀ a, (![17] : Fin 1 → Nat) a + S1.size a ≤ S32.size a
  inb_S2048x1024_S64x1024_1088_0 : ∀ a, (![1088, 0] : Fin 2 → Nat) a + S64x1024.size a ≤ S2048x1024.size a
  inb_S32_S1_18 : ∀ a, (![18] : Fin 1 → Nat) a + S1.size a ≤ S32.size a
  inb_S2048x1024_S64x1024_1152_0 : ∀ a, (![1152, 0] : Fin 2 → Nat) a + S64x1024.size a ≤ S2048x1024.size a
  inb_S32_S1_19 : ∀ a, (![19] : Fin 1 → Nat) a + S1.size a ≤ S32.size a
  inb_S2048x1024_S64x1024_1216_0 : ∀ a, (![1216, 0] : Fin 2 → Nat) a + S64x1024.size a ≤ S2048x1024.size a
  inb_S32_S1_20 : ∀ a, (![20] : Fin 1 → Nat) a + S1.size a ≤ S32.size a
  inb_S2048x1024_S64x1024_1280_0 : ∀ a, (![1280, 0] : Fin 2 → Nat) a + S64x1024.size a ≤ S2048x1024.size a
  inb_S32_S1_21 : ∀ a, (![21] : Fin 1 → Nat) a + S1.size a ≤ S32.size a
  inb_S2048x1024_S64x1024_1344_0 : ∀ a, (![1344, 0] : Fin 2 → Nat) a + S64x1024.size a ≤ S2048x1024.size a
  inb_S32_S1_22 : ∀ a, (![22] : Fin 1 → Nat) a + S1.size a ≤ S32.size a
  inb_S2048x1024_S64x1024_1408_0 : ∀ a, (![1408, 0] : Fin 2 → Nat) a + S64x1024.size a ≤ S2048x1024.size a
  inb_S32_S1_23 : ∀ a, (![23] : Fin 1 → Nat) a + S1.size a ≤ S32.size a
  inb_S2048x1024_S64x1024_1472_0 : ∀ a, (![1472, 0] : Fin 2 → Nat) a + S64x1024.size a ≤ S2048x1024.size a
  inb_S32_S1_24 : ∀ a, (![24] : Fin 1 → Nat) a + S1.size a ≤ S32.size a
  inb_S2048x1024_S64x1024_1536_0 : ∀ a, (![1536, 0] : Fin 2 → Nat) a + S64x1024.size a ≤ S2048x1024.size a
  inb_S32_S1_25 : ∀ a, (![25] : Fin 1 → Nat) a + S1.size a ≤ S32.size a
  inb_S2048x1024_S64x1024_1600_0 : ∀ a, (![1600, 0] : Fin 2 → Nat) a + S64x1024.size a ≤ S2048x1024.size a
  inb_S32_S1_26 : ∀ a, (![26] : Fin 1 → Nat) a + S1.size a ≤ S32.size a
  inb_S2048x1024_S64x1024_1664_0 : ∀ a, (![1664, 0] : Fin 2 → Nat) a + S64x1024.size a ≤ S2048x1024.size a
  inb_S32_S1_27 : ∀ a, (![27] : Fin 1 → Nat) a + S1.size a ≤ S32.size a
  inb_S2048x1024_S64x1024_1728_0 : ∀ a, (![1728, 0] : Fin 2 → Nat) a + S64x1024.size a ≤ S2048x1024.size a
  inb_S32_S1_28 : ∀ a, (![28] : Fin 1 → Nat) a + S1.size a ≤ S32.size a
  inb_S2048x1024_S64x1024_1792_0 : ∀ a, (![1792, 0] : Fin 2 → Nat) a + S64x1024.size a ≤ S2048x1024.size a
  inb_S32_S1_29 : ∀ a, (![29] : Fin 1 → Nat) a + S1.size a ≤ S32.size a
  inb_S2048x1024_S64x1024_1856_0 : ∀ a, (![1856, 0] : Fin 2 → Nat) a + S64x1024.size a ≤ S2048x1024.size a
  inb_S32_S1_30 : ∀ a, (![30] : Fin 1 → Nat) a + S1.size a ≤ S32.size a
  inb_S2048x1024_S64x1024_1920_0 : ∀ a, (![1920, 0] : Fin 2 → Nat) a + S64x1024.size a ≤ S2048x1024.size a
  inb_S32_S1_31 : ∀ a, (![31] : Fin 1 → Nat) a + S1.size a ≤ S32.size a
  inb_S2048x1024_S64x1024_1984_0 : ∀ a, (![1984, 0] : Fin 2 → Nat) a + S64x1024.size a ≤ S2048x1024.size a
  h_S64x1024 : 0 < S64x1024.numel
  bitsLt_bf16_f32 : FTy.bits .bf16 < FTy.bits .f32
  shapeCasts_S64x1024_S64x1024 : S64x1024.ShapeCasts S64x1024
  packedbf16_S2048x1024_S64x1024_0_0 : (Rect.unit (s := S2048x1024) ![0, 0] S64x1024.size inb_S2048x1024_S64x1024_0_0).PackedRows (EltTy.packing .bf16)
  hamt_1 : (1#32 : BitVec 32).msb = false
  hamt_2 : (2#32 : BitVec 32).msb = false
  wordsbf16_S2048x1024_S64x1024_0_0 : (Rect.unit (s := S2048x1024) ![0, 0] S64x1024.size inb_S2048x1024_S64x1024_0_0).WholeWords (EltTy.packing .bf16)
  packedbf16_S2048x1024_S64x1024_64_0 : (Rect.unit (s := S2048x1024) ![64, 0] S64x1024.size inb_S2048x1024_S64x1024_64_0).PackedRows (EltTy.packing .bf16)
  wordsbf16_S2048x1024_S64x1024_64_0 : (Rect.unit (s := S2048x1024) ![64, 0] S64x1024.size inb_S2048x1024_S64x1024_64_0).WholeWords (EltTy.packing .bf16)
  packedbf16_S2048x1024_S64x1024_128_0 : (Rect.unit (s := S2048x1024) ![128, 0] S64x1024.size inb_S2048x1024_S64x1024_128_0).PackedRows (EltTy.packing .bf16)
  wordsbf16_S2048x1024_S64x1024_128_0 : (Rect.unit (s := S2048x1024) ![128, 0] S64x1024.size inb_S2048x1024_S64x1024_128_0).WholeWords (EltTy.packing .bf16)
  packedbf16_S2048x1024_S64x1024_192_0 : (Rect.unit (s := S2048x1024) ![192, 0] S64x1024.size inb_S2048x1024_S64x1024_192_0).PackedRows (EltTy.packing .bf16)
  wordsbf16_S2048x1024_S64x1024_192_0 : (Rect.unit (s := S2048x1024) ![192, 0] S64x1024.size inb_S2048x1024_S64x1024_192_0).WholeWords (EltTy.packing .bf16)
  packedbf16_S2048x1024_S64x1024_256_0 : (Rect.unit (s := S2048x1024) ![256, 0] S64x1024.size inb_S2048x1024_S64x1024_256_0).PackedRows (EltTy.packing .bf16)
  wordsbf16_S2048x1024_S64x1024_256_0 : (Rect.unit (s := S2048x1024) ![256, 0] S64x1024.size inb_S2048x1024_S64x1024_256_0).WholeWords (EltTy.packing .bf16)
  packedbf16_S2048x1024_S64x1024_320_0 : (Rect.unit (s := S2048x1024) ![320, 0] S64x1024.size inb_S2048x1024_S64x1024_320_0).PackedRows (EltTy.packing .bf16)
  wordsbf16_S2048x1024_S64x1024_320_0 : (Rect.unit (s := S2048x1024) ![320, 0] S64x1024.size inb_S2048x1024_S64x1024_320_0).WholeWords (EltTy.packing .bf16)
  packedbf16_S2048x1024_S64x1024_384_0 : (Rect.unit (s := S2048x1024) ![384, 0] S64x1024.size inb_S2048x1024_S64x1024_384_0).PackedRows (EltTy.packing .bf16)
  wordsbf16_S2048x1024_S64x1024_384_0 : (Rect.unit (s := S2048x1024) ![384, 0] S64x1024.size inb_S2048x1024_S64x1024_384_0).WholeWords (EltTy.packing .bf16)
  packedbf16_S2048x1024_S64x1024_448_0 : (Rect.unit (s := S2048x1024) ![448, 0] S64x1024.size inb_S2048x1024_S64x1024_448_0).PackedRows (EltTy.packing .bf16)
  wordsbf16_S2048x1024_S64x1024_448_0 : (Rect.unit (s := S2048x1024) ![448, 0] S64x1024.size inb_S2048x1024_S64x1024_448_0).WholeWords (EltTy.packing .bf16)
  packedbf16_S2048x1024_S64x1024_512_0 : (Rect.unit (s := S2048x1024) ![512, 0] S64x1024.size inb_S2048x1024_S64x1024_512_0).PackedRows (EltTy.packing .bf16)
  wordsbf16_S2048x1024_S64x1024_512_0 : (Rect.unit (s := S2048x1024) ![512, 0] S64x1024.size inb_S2048x1024_S64x1024_512_0).WholeWords (EltTy.packing .bf16)
  packedbf16_S2048x1024_S64x1024_576_0 : (Rect.unit (s := S2048x1024) ![576, 0] S64x1024.size inb_S2048x1024_S64x1024_576_0).PackedRows (EltTy.packing .bf16)
  wordsbf16_S2048x1024_S64x1024_576_0 : (Rect.unit (s := S2048x1024) ![576, 0] S64x1024.size inb_S2048x1024_S64x1024_576_0).WholeWords (EltTy.packing .bf16)
  packedbf16_S2048x1024_S64x1024_640_0 : (Rect.unit (s := S2048x1024) ![640, 0] S64x1024.size inb_S2048x1024_S64x1024_640_0).PackedRows (EltTy.packing .bf16)
  wordsbf16_S2048x1024_S64x1024_640_0 : (Rect.unit (s := S2048x1024) ![640, 0] S64x1024.size inb_S2048x1024_S64x1024_640_0).WholeWords (EltTy.packing .bf16)
  packedbf16_S2048x1024_S64x1024_704_0 : (Rect.unit (s := S2048x1024) ![704, 0] S64x1024.size inb_S2048x1024_S64x1024_704_0).PackedRows (EltTy.packing .bf16)
  wordsbf16_S2048x1024_S64x1024_704_0 : (Rect.unit (s := S2048x1024) ![704, 0] S64x1024.size inb_S2048x1024_S64x1024_704_0).WholeWords (EltTy.packing .bf16)
  packedbf16_S2048x1024_S64x1024_768_0 : (Rect.unit (s := S2048x1024) ![768, 0] S64x1024.size inb_S2048x1024_S64x1024_768_0).PackedRows (EltTy.packing .bf16)
  wordsbf16_S2048x1024_S64x1024_768_0 : (Rect.unit (s := S2048x1024) ![768, 0] S64x1024.size inb_S2048x1024_S64x1024_768_0).WholeWords (EltTy.packing .bf16)
  packedbf16_S2048x1024_S64x1024_832_0 : (Rect.unit (s := S2048x1024) ![832, 0] S64x1024.size inb_S2048x1024_S64x1024_832_0).PackedRows (EltTy.packing .bf16)
  wordsbf16_S2048x1024_S64x1024_832_0 : (Rect.unit (s := S2048x1024) ![832, 0] S64x1024.size inb_S2048x1024_S64x1024_832_0).WholeWords (EltTy.packing .bf16)
  packedbf16_S2048x1024_S64x1024_896_0 : (Rect.unit (s := S2048x1024) ![896, 0] S64x1024.size inb_S2048x1024_S64x1024_896_0).PackedRows (EltTy.packing .bf16)
  wordsbf16_S2048x1024_S64x1024_896_0 : (Rect.unit (s := S2048x1024) ![896, 0] S64x1024.size inb_S2048x1024_S64x1024_896_0).WholeWords (EltTy.packing .bf16)
  packedbf16_S2048x1024_S64x1024_960_0 : (Rect.unit (s := S2048x1024) ![960, 0] S64x1024.size inb_S2048x1024_S64x1024_960_0).PackedRows (EltTy.packing .bf16)
  wordsbf16_S2048x1024_S64x1024_960_0 : (Rect.unit (s := S2048x1024) ![960, 0] S64x1024.size inb_S2048x1024_S64x1024_960_0).WholeWords (EltTy.packing .bf16)
  packedbf16_S2048x1024_S64x1024_1024_0 : (Rect.unit (s := S2048x1024) ![1024, 0] S64x1024.size inb_S2048x1024_S64x1024_1024_0).PackedRows (EltTy.packing .bf16)
  wordsbf16_S2048x1024_S64x1024_1024_0 : (Rect.unit (s := S2048x1024) ![1024, 0] S64x1024.size inb_S2048x1024_S64x1024_1024_0).WholeWords (EltTy.packing .bf16)
  packedbf16_S2048x1024_S64x1024_1088_0 : (Rect.unit (s := S2048x1024) ![1088, 0] S64x1024.size inb_S2048x1024_S64x1024_1088_0).PackedRows (EltTy.packing .bf16)
  wordsbf16_S2048x1024_S64x1024_1088_0 : (Rect.unit (s := S2048x1024) ![1088, 0] S64x1024.size inb_S2048x1024_S64x1024_1088_0).WholeWords (EltTy.packing .bf16)
  packedbf16_S2048x1024_S64x1024_1152_0 : (Rect.unit (s := S2048x1024) ![1152, 0] S64x1024.size inb_S2048x1024_S64x1024_1152_0).PackedRows (EltTy.packing .bf16)
  wordsbf16_S2048x1024_S64x1024_1152_0 : (Rect.unit (s := S2048x1024) ![1152, 0] S64x1024.size inb_S2048x1024_S64x1024_1152_0).WholeWords (EltTy.packing .bf16)
  packedbf16_S2048x1024_S64x1024_1216_0 : (Rect.unit (s := S2048x1024) ![1216, 0] S64x1024.size inb_S2048x1024_S64x1024_1216_0).PackedRows (EltTy.packing .bf16)
  wordsbf16_S2048x1024_S64x1024_1216_0 : (Rect.unit (s := S2048x1024) ![1216, 0] S64x1024.size inb_S2048x1024_S64x1024_1216_0).WholeWords (EltTy.packing .bf16)
  packedbf16_S2048x1024_S64x1024_1280_0 : (Rect.unit (s := S2048x1024) ![1280, 0] S64x1024.size inb_S2048x1024_S64x1024_1280_0).PackedRows (EltTy.packing .bf16)
  wordsbf16_S2048x1024_S64x1024_1280_0 : (Rect.unit (s := S2048x1024) ![1280, 0] S64x1024.size inb_S2048x1024_S64x1024_1280_0).WholeWords (EltTy.packing .bf16)
  packedbf16_S2048x1024_S64x1024_1344_0 : (Rect.unit (s := S2048x1024) ![1344, 0] S64x1024.size inb_S2048x1024_S64x1024_1344_0).PackedRows (EltTy.packing .bf16)
  wordsbf16_S2048x1024_S64x1024_1344_0 : (Rect.unit (s := S2048x1024) ![1344, 0] S64x1024.size inb_S2048x1024_S64x1024_1344_0).WholeWords (EltTy.packing .bf16)
  packedbf16_S2048x1024_S64x1024_1408_0 : (Rect.unit (s := S2048x1024) ![1408, 0] S64x1024.size inb_S2048x1024_S64x1024_1408_0).PackedRows (EltTy.packing .bf16)
  wordsbf16_S2048x1024_S64x1024_1408_0 : (Rect.unit (s := S2048x1024) ![1408, 0] S64x1024.size inb_S2048x1024_S64x1024_1408_0).WholeWords (EltTy.packing .bf16)
  packedbf16_S2048x1024_S64x1024_1472_0 : (Rect.unit (s := S2048x1024) ![1472, 0] S64x1024.size inb_S2048x1024_S64x1024_1472_0).PackedRows (EltTy.packing .bf16)
  wordsbf16_S2048x1024_S64x1024_1472_0 : (Rect.unit (s := S2048x1024) ![1472, 0] S64x1024.size inb_S2048x1024_S64x1024_1472_0).WholeWords (EltTy.packing .bf16)
  packedbf16_S2048x1024_S64x1024_1536_0 : (Rect.unit (s := S2048x1024) ![1536, 0] S64x1024.size inb_S2048x1024_S64x1024_1536_0).PackedRows (EltTy.packing .bf16)
  wordsbf16_S2048x1024_S64x1024_1536_0 : (Rect.unit (s := S2048x1024) ![1536, 0] S64x1024.size inb_S2048x1024_S64x1024_1536_0).WholeWords (EltTy.packing .bf16)
  packedbf16_S2048x1024_S64x1024_1600_0 : (Rect.unit (s := S2048x1024) ![1600, 0] S64x1024.size inb_S2048x1024_S64x1024_1600_0).PackedRows (EltTy.packing .bf16)
  wordsbf16_S2048x1024_S64x1024_1600_0 : (Rect.unit (s := S2048x1024) ![1600, 0] S64x1024.size inb_S2048x1024_S64x1024_1600_0).WholeWords (EltTy.packing .bf16)
  packedbf16_S2048x1024_S64x1024_1664_0 : (Rect.unit (s := S2048x1024) ![1664, 0] S64x1024.size inb_S2048x1024_S64x1024_1664_0).PackedRows (EltTy.packing .bf16)
  wordsbf16_S2048x1024_S64x1024_1664_0 : (Rect.unit (s := S2048x1024) ![1664, 0] S64x1024.size inb_S2048x1024_S64x1024_1664_0).WholeWords (EltTy.packing .bf16)
  packedbf16_S2048x1024_S64x1024_1728_0 : (Rect.unit (s := S2048x1024) ![1728, 0] S64x1024.size inb_S2048x1024_S64x1024_1728_0).PackedRows (EltTy.packing .bf16)
  wordsbf16_S2048x1024_S64x1024_1728_0 : (Rect.unit (s := S2048x1024) ![1728, 0] S64x1024.size inb_S2048x1024_S64x1024_1728_0).WholeWords (EltTy.packing .bf16)
  packedbf16_S2048x1024_S64x1024_1792_0 : (Rect.unit (s := S2048x1024) ![1792, 0] S64x1024.size inb_S2048x1024_S64x1024_1792_0).PackedRows (EltTy.packing .bf16)
  wordsbf16_S2048x1024_S64x1024_1792_0 : (Rect.unit (s := S2048x1024) ![1792, 0] S64x1024.size inb_S2048x1024_S64x1024_1792_0).WholeWords (EltTy.packing .bf16)
  packedbf16_S2048x1024_S64x1024_1856_0 : (Rect.unit (s := S2048x1024) ![1856, 0] S64x1024.size inb_S2048x1024_S64x1024_1856_0).PackedRows (EltTy.packing .bf16)
  wordsbf16_S2048x1024_S64x1024_1856_0 : (Rect.unit (s := S2048x1024) ![1856, 0] S64x1024.size inb_S2048x1024_S64x1024_1856_0).WholeWords (EltTy.packing .bf16)
  packedbf16_S2048x1024_S64x1024_1920_0 : (Rect.unit (s := S2048x1024) ![1920, 0] S64x1024.size inb_S2048x1024_S64x1024_1920_0).PackedRows (EltTy.packing .bf16)
  wordsbf16_S2048x1024_S64x1024_1920_0 : (Rect.unit (s := S2048x1024) ![1920, 0] S64x1024.size inb_S2048x1024_S64x1024_1920_0).WholeWords (EltTy.packing .bf16)
  packedbf16_S2048x1024_S64x1024_1984_0 : (Rect.unit (s := S2048x1024) ![1984, 0] S64x1024.size inb_S2048x1024_S64x1024_1984_0).PackedRows (EltTy.packing .bf16)
  wordsbf16_S2048x1024_S64x1024_1984_0 : (Rect.unit (s := S2048x1024) ![1984, 0] S64x1024.size inb_S2048x1024_S64x1024_1984_0).WholeWords (EltTy.packing .bf16)
  hcc0_scratch4 : 0 + S32.numel ≤ 192
  hcc0_scratch5 : 32 + S32.numel ≤ 192
  hcc0_scratch6 : 64 + S32.numel ≤ 192
  hcc0_scratch7 : 96 + S32.numel ≤ 192
  hcc0_scratch8 : 128 + S32.numel ≤ 192
  hcc0_scratch9 : 160 + S32.numel ≤ 192
  k0_off1_inb : ∀ d0 : Dev nD, ∀ (r : Fin 32), ∀ a, (k0_off1 d0 (BitVec.ofNat 32 (64 * r.val))) a + S64x1024.size a ≤ S4096x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off1_wordsbf16 : ∀ d0 : Dev nD, ∀ (r : Fin 32), (Rect.unit (s := S4096x1024) (k0_off1 d0 (BitVec.ofNat 32 (64 * r.val))) S64x1024.size (k0_off1_inb d0 r)).WholeWords (EltTy.packing .bf16)
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch4 : DmaSems sig S32 := SemArray.consecutive 0 S32 hcc0_scratch4
abbrev cc0_scratch5 : DmaSems sig S32 := SemArray.consecutive 32 S32 hcc0_scratch5
abbrev cc0_scratch6 : DmaSems sig S32 := SemArray.consecutive 64 S32 hcc0_scratch6
abbrev cc0_scratch7 : DmaSems sig S32 := SemArray.consecutive 96 S32 hcc0_scratch7
abbrev cc0_scratch8 : DmaSems sig S32 := SemArray.consecutive 128 S32 hcc0_scratch8
abbrev cc0_scratch9 : DmaSems sig S32 := SemArray.consecutive 160 S32 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8192x1024_S2x4096x1024 : S8192x1024.ShapeCasts S2x4096x1024
  reducesTo_S2x4096x1024_S4096x1024_d0 : S2x4096x1024.ReducesTo [0] S4096x1024
  h_S_ : 0 < S_.numel
  bitsLt_bf16_f32 : FTy.bits .bf16 < FTy.bits .f32

variable [Facts₀]

class Facts : Prop extends Facts₀ where

variable [Facts]
-- ==== Proof.Prog.lean ====
/-
  The kernel's body as five runs over the chunk index.

  The half of the block a device works on is cut into 32 chunks of 64 rows; chunk `k` is rows `64 k … 64 k + 63` of
  each scratch buffer and rows `2048·y + 64 k …` of the device's block and of its result (`y` the device's coordinate
  on the second mesh axis).  The body does, in order: start the 32 loads of the chunks of the block into `stage`;
  wait for chunk 0 and narrow it into `xsend`; exchange one unit with both neighbours on the barrier semaphore and wait
  for two; for each chunk (after chunk 0: wait for its load and narrow it) send it to the neighbour on the first mesh
  axis; for each chunk wait for the neighbour's, add the two into `ssum`, send the sum to the neighbour on the second
  mesh axis and copy it into the own result; finally wait, chunk by chunk, for the four transfers of that chunk.
  Each of these per-chunk pieces is written ONCE here as a function of `k : Fin 32`, and the printed body is their
  sequence at `k = 0, …, 31`: `body_eq`, by unfolding.
-/
import proofs.«900132_g7700000000000133_dist_ar_v7x_xy2x2_x_m4096_n1024_bf16_1_alg».proof.Proof.Gen.KernelIdeal.Skeleton
import Idealize.ShloMosaic.Lib.Tactic

set_option synthInstance.maxSize 4096

noncomputable section

namespace Cert.KernelIdeal.Hand

open Idealize.ShloMosaic Idealize.SL.Sem
open Cert.KernelIdeal Cert.KernelIdeal.Gen
open Idealize.ShloMosaic.Tactic

variable {F : FTy → Type} [FloatOps F]

/-! ## Chunk geometry -/

/-- Chunk `k`'s first row inside a half, and column 0. -/
abbrev offK (k : Fin 32) : Fin 2 → Nat := ![64 * k.val, 0]

theorem inbK : ∀ (k : Fin 32) a, offK k a + S64x1024.size a ≤ S2048x1024.size a := by decide +kernel
theorem inbS : ∀ (k : Fin 32) a, (![k.val] : Fin 1 → Nat) a + S1.size a ≤ S32.size a := by decide +kernel

/-- Chunk `k` of a scratch buffer: 64 whole rows. -/
abbrev rectK (k : Fin 32) : Rect S2048x1024 := Rect.unit (s := S2048x1024) (offK k) S64x1024.size (inbK k)
/-- Chunk `k` of the half of a 4096-row array that device `d0` works on. -/
abbrev rectG (d0 : Dev nD) (k : Fin 32) : Rect S4096x1024 :=
  Rect.unit (s := S4096x1024) (k0_off1 d0 (BitVec.ofNat 32 (64 * k.val))) S64x1024.size (k0_off1_inb d0 k)

theorem wordsK : ∀ k : Fin 32, (rectK k).WholeWords (EltTy.packing .bf16) := by decide +kernel
theorem packedK : ∀ k : Fin 32, (rectK k).PackedRows (EltTy.packing .bf16) := by decide +kernel

/-- Semaphore `k` of an array of 32. -/
abbrev semK (a : DmaSems sig S32) (k : Fin 32) : DmaSem sig :=
  ((a.slice (Rect.unit (s := S32) ![k.val] S1.size (inbS k))).squeeze S_ Facts₀.squeezes_S1_S_).sem

/-- The runtime's barrier semaphore of collective id 0. -/
abbrev barSem : Sem sig := (SemArray.scalar (sig.barrier 0 rfl) : Sems sig S_).sem

/-! ## The values stored -/

/-- A chunk narrowed to bf16. -/
def castPay (v : Vec F S64x1024 .f32) : FVec F S64x1024 .bf16 :=
  shapeCast S64x1024 (truncf .bf16 v Facts₀.bitsLt_bf16_f32) Facts₀.shapeCasts_S64x1024_S64x1024
/-- The sum of the own chunk and the neighbour's. -/
def addPay (a b : Vec F S64x1024 .bf16) : FVec F S64x1024 .bf16 :=
  shapeCast S64x1024 (addf a b) Facts₀.shapeCasts_S64x1024_S64x1024

/-- A piece of the body: a program of the TensorCore's effects with no result. -/
abbrev PR (F : FTy → Type) [FloatOps F] := Prog (TpuEff nD τ sig (Elt F) Λ₀ .tc) PUnit

/-- The body's operands: the block, the result, the four scratch buffers (whole), and the six arrays of 32 DMA semaphores. -/
structure Args where
  arg0 : Memref sig .tc .hbm S4096x1024 .f32
  harg0 : arg0.IsWhole
  arg1 : Memref sig .tc .hbm S4096x1024 .bf16
  harg1 : arg1.IsWhole
  arg2 : Memref sig .tc .vmem S2048x1024 .f32
  harg2 : arg2.IsWhole
  arg3 : Memref sig .tc .vmem S2048x1024 .bf16
  harg3 : arg3.IsWhole
  arg4 : Memref sig .tc .vmem S2048x1024 .bf16
  harg4 : arg4.IsWhole
  arg5 : Memref sig .tc .vmem S2048x1024 .bf16
  harg5 : arg5.IsWhole
  arg6 : DmaSems sig S32
  arg7 : DmaSems sig S32
  arg8 : DmaSems sig S32
  arg9 : DmaSems sig S32
  arg10 : DmaSems sig S32
  arg11 : DmaSems sig S32

section Body

variable (A : Args)

/-! ## The per-chunk pieces -/

/-- Start the load of chunk `k` of the block into `stage`. -/
def ldEnq (d0 : Dev nD) (k : Fin 32) : PR F :=
  Prog.lift (.enqueueDma (A.arg0.slice (rectG d0 k) (fun _ => rfl)) (.here (A.arg2.slice (rectK k) (fun _ => rfl))) (.dma (semK A.arg6 k)) (View.wordExact_bits rfl) (View.wordExact_bits rfl) ⟨Or.inl rfl, trivial⟩)

/-- Wait for that load. -/
def ldWait (d0 : Dev nD) (k : Fin 32) : PR F :=
  Prog.lift (.waitDma2 (semK A.arg6 k) (A.arg0.slice (rectG d0 k) (fun _ => rfl)) (A.arg2.slice (rectK k) (fun _ => rfl)) (View.wordExact_bits rfl) (View.wordExact_bits rfl))

/-- Narrow chunk `k` of `stage` into `xsend`. -/
def narrow (k : Fin 32) : PR F := do
  let v : Vec F S64x1024 .f32 ← Prog.lift (.load A.arg2 (rectK k).toLoadRect (View.loadsAt_vmem Facts₀.h_S64x1024))
  let _w : Vec F S64x1024 .bf16 ← Prog.lift (.load A.arg3 (rectK k).toLoadRect (View.loadsAt_vmem Facts₀.h_S64x1024))
  Prog.lift (.store A.arg3 (rectK k) (castPay v) Finset.univ (View.stores_vmem Facts₀.h_S64x1024 (A.harg3.storeExact_slice rfl _ (packedK k)) (fun _ => rfl)) (.inl rfl))

/-- Wait for chunk `k`'s load, then narrow it. -/
def ldNarrow (d0 : Dev nD) (k : Fin 32) : PR F := do
  ldWait (F := F) A d0 k
  narrow (F := F) A k

/-- One unit to each neighbour's barrier semaphore, then wait for two. -/
def handshake (d0 : Dev nD) : PR F := do
  semSignalWord (⟨k0_dev1 d0, k0_dev1_lt d0⟩ : Dev nD) barSem 1#32 Facts₀.hamt_1
  semSignalWord (⟨k0_dev2 d0, k0_dev2_lt d0⟩ : Dev nD) barSem 1#32 Facts₀.hamt_1
  semWaitWord barSem 2#32 Facts₀.hamt_2

/-- Send chunk `k` of `xsend` into chunk `k` of the first-axis neighbour's `xrecv`. -/
def sendX (d0 : Dev nD) (k : Fin 32) : PR F :=
  Prog.lift (.enqueueDma (A.arg3.slice (rectK k) (fun _ => rfl)) (.remote (Dev.tc (⟨k0_dev3 d0, k0_dev3_lt d0⟩ : Dev nD)) (A.arg4.slice (rectK k) (fun _ => rfl)) (.dma (semK A.arg8 k))) (.dma (semK A.arg9 k)) (A.harg3.wordExact_slice rfl _ (wordsK k)) (A.harg4.wordExact_slice rfl _ (wordsK k)) ⟨⟨rfl, Or.inl rfl⟩, trivial⟩)

/-- Wait for the neighbour's chunk `k`, add, and send the sum on: to the second-axis neighbour's result and to the own. -/
def reduceSend (d0 : Dev nD) (k : Fin 32) : PR F := do
  Prog.lift (.waitDma2 (semK A.arg9 k) (A.arg3.slice (rectK k) (fun _ => rfl)) (A.arg4.slice (rectK k) (fun _ => rfl)) (A.harg3.wordExact_slice rfl _ (wordsK k)) (A.harg4.wordExact_slice rfl _ (wordsK k)))
  let a : Vec F S64x1024 .bf16 ← Prog.lift (.load A.arg3 (rectK k).toLoadRect (View.loadsAt_vmem Facts₀.h_S64x1024))
  let b : Vec F S64x1024 .bf16 ← Prog.lift (.load A.arg4 (rectK k).toLoadRect (View.loadsAt_vmem Facts₀.h_S64x1024))
  let _w : Vec F S64x1024 .bf16 ← Prog.lift (.load A.arg5 (rectK k).toLoadRect (View.loadsAt_vmem Facts₀.h_S64x1024))
  Prog.lift (.store A.arg5 (rectK k) (addPay a b) Finset.univ (View.stores_vmem Facts₀.h_S64x1024 (A.harg5.storeExact_slice rfl _ (packedK k)) (fun _ => rfl)) (.inl rfl))
  Prog.lift (.enqueueDma (A.arg5.slice (rectK k) (fun _ => rfl)) (.remote (Dev.tc (⟨k0_dev35 d0, k0_dev35_lt d0⟩ : Dev nD)) (A.arg1.slice (rectG d0 k) (fun _ => rfl)) (.dma (semK A.arg10 k))) (.dma (semK A.arg11 k)) (A.harg5.wordExact_slice rfl _ (wordsK k)) (A.harg1.wordExact_slice rfl _ (k0_off1_wordsbf16 d0 k)) ⟨⟨rfl, Or.inl rfl⟩, trivial⟩)
  Prog.lift (.enqueueDma (A.arg5.slice (rectK k) (fun _ => rfl)) (.here (A.arg1.slice (rectG d0 k) (fun _ => rfl))) (.dma (semK A.arg7 k)) (A.harg5.wordExact_slice rfl _ (wordsK k)) (A.harg1.wordExact_slice rfl _ (k0_off1_wordsbf16 d0 k)) ⟨Or.inl rfl, trivial⟩)

/-- Wait for chunk `k`'s four transfers: both sends' departures, the second-axis neighbour's arrival, the own copy. -/
def drain (d0 : Dev nD) (k : Fin 32) : PR F := do
  Prog.lift (.waitDma2 (semK A.arg8 k) (A.arg4.slice (rectK k) (fun _ => rfl)) (A.arg3.slice (rectK k) (fun _ => rfl)) (A.harg4.wordExact_slice rfl _ (wordsK k)) (A.harg3.wordExact_slice rfl _ (wordsK k)))
  Prog.lift (.waitDma2 (semK A.arg10 k) (A.arg1.slice (rectG d0 k) (fun _ => rfl)) (A.arg5.slice (rectK k) (fun _ => rfl)) (A.harg1.wordExact_slice rfl _ (k0_off1_wordsbf16 d0 k)) (A.harg5.wordExact_slice rfl _ (wordsK k)))
  Prog.lift (.waitDma2 (semK A.arg11 k) (A.arg5.slice (rectK k) (fun _ => rfl)) (A.arg1.slice (rectG d0 k) (fun _ => rfl)) (A.harg5.wordExact_slice rfl _ (wordsK k)) (A.harg1.wordExact_slice rfl _ (k0_off1_wordsbf16 d0 k)))
  Prog.lift (.waitDma2 (semK A.arg7 k) (A.arg5.slice (rectK k) (fun _ => rfl)) (A.arg1.slice (rectG d0 k) (fun _ => rfl)) (A.harg5.wordExact_slice rfl _ (wordsK k)) (A.harg1.wordExact_slice rfl _ (k0_off1_wordsbf16 d0 k)))

/-! ## Runs over the chunk index -/

/-- `f i, f (i+1), …`: `n` pieces from chunk `i` on (nothing past chunk 31). -/
def runFrom (f : Fin 32 → PR F) : ℕ → ℕ → PR F
  | _, 0 => pure ⟨⟩
  | i, n + 1 => do
      (if h : i < 32 then f ⟨i, h⟩ else pure ⟨⟩)
      runFrom f (i + 1) n

/-- The body, phase by phase. -/
def body : PR F := do
  let d0 : Dev nD ← Prog.lift .deviceId
  runFrom (ldEnq (F := F) A d0) 0 32
  ldNarrow (F := F) A d0 0
  handshake (F := F) d0
  sendX (F := F) A d0 0
  runFrom (fun k => do ldNarrow (F := F) A d0 k; sendX (F := F) A d0 k) 1 31
  runFrom (reduceSend (F := F) A d0) 0 32
  runFrom (drain (F := F) A d0) 0 32

set_option maxRecDepth 1000000 in
/-- The printed body is that sequence: both sides unfold to the same operations in the same order. -/
theorem body_eq (arg0 : Memref sig .tc .hbm S4096x1024 .f32) (harg0 : arg0.IsWhole) (arg1 : Memref sig .tc .hbm S4096x1024 .bf16) (harg1 : arg1.IsWhole) (arg2 : Memref sig .tc .vmem S2048x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : DmaSems sig S32) (arg7 : DmaSems sig S32) (arg8 : DmaSems sig S32) (arg9 : DmaSems sig S32) (arg10 : DmaSems sig S32) (arg11 : DmaSems sig S32) :
    cc0_body (F := F) arg0 harg0 arg1 harg1 arg2 harg2 arg3 harg3 arg4 harg4 arg5 harg5 arg6 arg7 arg8 arg9 arg10 arg11 = body (F := F) ⟨arg0, harg0, arg1, harg1, arg2, harg2, arg3, harg3, arg4, harg4, arg5, harg5, arg6, arg7, arg8, arg9, arg10, arg11⟩ := by
  sl_kernel_rfl

end Body

end Cert.KernelIdeal.Hand

end
-- ==== Proof.Sched.lean ====
/-
  The protocol of the two-phase all-reduce on the 2 × 2 mesh, under the rounds discipline.

  Device `c` has a neighbour on each mesh axis: `xpeer c` (the other coordinate on the first axis) and `ypeer c` (on the
  second).  Per device there are 193 semaphore cells: the barrier cell and, for each of the 32 chunks, six DMA cells —
  the load of the chunk into `stage` (`l`), the copy of the summed chunk into the own result (`o`), the departure
  (`xs`) and the arrival (`xr`) of the first-axis exchange, the departure (`ys`) and the arrival (`yr`) of the
  second-axis one.  Every cell has ONE round.  The barrier cell's round has two duties of one unit: `false`, paid by
  `xpeer c`, which hands `c` that neighbour's 32 `xrecv` chunks to write into, and `true`, paid by `ypeer c`, which
  hands `c` the 32 chunks of that neighbour's result that `c` will write.  A DMA cell's round has the one duty
  `false`, of the chunk's credit, whose payload says what the landing leaves where:
    l   the chunk of `stage` holding the block's chunk, and the block's chunk back;
    xs  the lent share of the `xsend` chunk back;          xr  the own `xrecv` chunk holding the neighbour's narrowed chunk;
    ys  a lent share of the `ssum` chunk back;              yr  the result's chunk in the neighbour's half holding the neighbour's sum;
    o   the result's chunk in the own half holding the own sum, and the other lent share of the `ssum` chunk back.
  Levels: a device waits on a barrier cell (level 1) while it still owes arrivals on `xr` (2) and `yr` (3) cells, on an
  `xr` cell while it owes only `yr` arrivals, and on a `yr` cell owing nothing; every other cell is at level 0.
-/
import proofs.«900132_g7700000000000133_dist_ar_v7x_xy2x2_x_m4096_n1024_bf16_1_alg».proof.Proof.Prog
import proofs.«900132_g7700000000000133_dist_ar_v7x_xy2x2_x_m4096_n1024_bf16_1_alg».proof.Proof.Gen.KernelIdeal.Launch
import Idealize.ShloMosaic.Lib.Pipeline.Launch
import Idealize.ShloMosaic.Lib.Pipeline.Kit
import Idealize.ShloMosaic.Lib.Tactic

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The neighbours -/

/-- The neighbour on the first mesh axis (as the kernel computes its id), and on the second. -/
abbrev xpeer (c : Dev nD) : Dev nD := ⟨k0_dev3 c, k0_dev3_lt c⟩
abbrev ypeer (c : Dev nD) : Dev nD := ⟨k0_dev35 c, k0_dev35_lt c⟩

theorem xpeer_xpeer : ∀ c : Dev nD, xpeer (xpeer c) = c := by decide +kernel
theorem ypeer_ypeer : ∀ c : Dev nD, ypeer (ypeer c) = c := by decide +kernel
theorem xpeer_ypeer : ∀ c : Dev nD, xpeer (ypeer c) = ypeer (xpeer c) := by decide +kernel
theorem xpeer_ne : ∀ c : Dev nD, xpeer c ≠ c := by decide +kernel
theorem ypeer_ne : ∀ c : Dev nD, ypeer c ≠ c := by decide +kernel
theorem xpeer_ne_ypeer : ∀ c : Dev nD, xpeer c ≠ ypeer c := by decide +kernel
/-- The two barrier signals address the first-axis neighbour, then the second-axis one. -/
theorem dev1_eq : ∀ c : Dev nD, (⟨k0_dev1 c, k0_dev1_lt c⟩ : Dev nD) = xpeer c := by decide +kernel
theorem dev2_eq : ∀ c : Dev nD, (⟨k0_dev2 c, k0_dev2_lt c⟩ : Dev nD) = ypeer c := by decide +kernel
/-- The two neighbours work on the same half (first axis) and on the other half (second axis) of a 4096-row array. -/
theorem rectG_xpeer : ∀ (c : Dev nD) (k : Fin 32), k0_off1 (xpeer c) (BitVec.ofNat 32 (64 * k.val)) = k0_off1 c (BitVec.ofNat 32 (64 * k.val)) := by decide +kernel

def xring : Dev nD ≃ Dev nD := ⟨xpeer, xpeer, xpeer_xpeer, xpeer_xpeer⟩
def yring : Dev nD ≃ Dev nD := ⟨ypeer, ypeer, ypeer_ypeer, ypeer_ypeer⟩

/-! ## The buffers and their chunks -/

abbrev xM : Memref sig .tc .hbm S4096x1024 .f32 := Memref.whole main_arg0
abbrev oM : Memref sig .tc .hbm S4096x1024 .bf16 := Memref.whole main_v1
abbrev stM : Memref sig .tc .vmem S2048x1024 .f32 := Memref.whole cc0_scratch0
abbrev sdM : Memref sig .tc .vmem S2048x1024 .bf16 := Memref.whole cc0_scratch1
abbrev rvM : Memref sig .tc .vmem S2048x1024 .bf16 := Memref.whole cc0_scratch2
abbrev smM : Memref sig .tc .vmem S2048x1024 .bf16 := Memref.whole cc0_scratch3

/-- The body's operands as the launch passes them. -/
abbrev theArgs : Args :=
  ⟨xM, Memref.isWhole_whole _, oM, Memref.isWhole_whole _, stM, Memref.isWhole_whole _, sdM, Memref.isWhole_whole _,
   rvM, Memref.isWhole_whole _, smM, Memref.isWhole_whole _, cc0_scratch4, cc0_scratch5, cc0_scratch6, cc0_scratch7, cc0_scratch8, cc0_scratch9⟩

/-- Chunk `k` of `stage`, `xsend`, `xrecv`, `ssum`. -/
abbrev stK (k : Fin 32) : Memref sig .tc .vmem S64x1024 .f32 := stM.slice (rectK k) (fun _ => rfl)
abbrev sdK (k : Fin 32) : Memref sig .tc .vmem S64x1024 .bf16 := sdM.slice (rectK k) (fun _ => rfl)
abbrev rvK (k : Fin 32) : Memref sig .tc .vmem S64x1024 .bf16 := rvM.slice (rectK k) (fun _ => rfl)
abbrev smK (k : Fin 32) : Memref sig .tc .vmem S64x1024 .bf16 := smM.slice (rectK k) (fun _ => rfl)
/-- Chunk `k` of the half device `d` works on, in a block and in a result (in whichever device's memory). -/
abbrev xK (d : Dev nD) (k : Fin 32) : Memref sig .tc .hbm S64x1024 .f32 := xM.slice (rectG d k) (fun _ => rfl)
abbrev oK (d : Dev nD) (k : Fin 32) : Memref sig .tc .hbm S64x1024 .bf16 := oM.slice (rectG d k) (fun _ => rfl)

/-! ## The cells -/

/-- The six families of DMA cells, in the order of the kernel's semaphore arrays:
    loads, result copies, first-axis departures and arrivals, second-axis departures and arrivals. -/
inductive Fam | l | o | xs | xr | ys | yr
  deriving DecidableEq

instance : Fintype Fam := ⟨{.l, .o, .xs, .xr, .ys, .yr}, fun f => by cases f <;> decide⟩

abbrev famSems : Fam → DmaSems sig S32
  | .l => cc0_scratch4 | .o => cc0_scratch5 | .xs => cc0_scratch6 | .xr => cc0_scratch7 | .ys => cc0_scratch8 | .yr => cc0_scratch9

abbrev dsem (f : Fam) (k : Fin 32) : SemLoc sig := .dma (semK (famSems f) k)
abbrev dcell (c : Dev nD) (f : Fam) (k : Fin 32) : GSem nD τ sig := ((c : Thread nD τ), dsem f k)
abbrev barCell (c : Dev nD) : GSem nD τ sig := ((c : Thread nD τ), .reg barSem)

/-- Which family and chunk a DMA semaphore belongs to (32 consecutive semaphores per family). -/
def famOf (i : DmaSem sig) : Fam :=
  match i.val / 32 with | 0 => .l | 1 => .o | 2 => .xs | 3 => .xr | 4 => .ys | _ => .yr
def idxOf (i : DmaSem sig) : Fin 32 := ⟨i.val % 32, Nat.mod_lt _ (by decide)⟩

theorem famOf_semK : ∀ (f : Fam) (k : Fin 32), famOf (semK (famSems f) k) = f := by decide +kernel
theorem idxOf_semK : ∀ (f : Fam) (k : Fin 32), idxOf (semK (famSems f) k) = k := by decide +kernel
theorem dsem_injective : ∀ (f f' : Fam) (k k' : Fin 32), dsem f k = dsem f' k' → f = f' ∧ k = k' := by
  intro f f' k k' h
  have h' : semK (famSems f) k = semK (famSems f') k' := by injection h
  exact ⟨by rw [← famOf_semK f k, h', famOf_semK], by rw [← idxOf_semK f k, h', idxOf_semK]⟩

/-- The credit of a chunk's transfer: into `stage` (f32), and everywhere else (bf16). -/
abbrev N32 : ℕ := (stK 0).view.dmaCredit
abbrev N16 : ℕ := (rvK 0).view.dmaCredit
theorem N32_pos : 0 < N32 := View.dmaCredit_pos _ (by decide)
theorem N16_pos : 0 < N16 := View.dmaCredit_pos _ (by decide)
abbrev amt : Fam → ℕ | .l => N32 | _ => N16

/-! ## What the chunks hold -/

/-- Device `c`'s block of the input, as launched. -/
abbrev blk (c : Dev nD) : Buf (Elt F) ((c : Thread nD τ).loc main_arg0) := m ((c : Thread nD τ).loc main_arg0)

/-- Chunk `k` of the half of its block that device `c` works on; that chunk narrowed; the first-axis neighbour's; their sum. -/
def xchunk (c : Dev nD) (k : Fin 32) : Vec F S64x1024 .f32 := (xK c k).view.read (Elt F) (blk m c)
def schunk (c : Dev nD) (k : Fin 32) : Vec F S64x1024 .bf16 := castPay (xchunk m c k)
def rchunk (c : Dev nD) (k : Fin 32) : Vec F S64x1024 .bf16 := schunk m (xpeer c) k
def tchunk (c : Dev nD) (k : Fin 32) : Vec F S64x1024 .bf16 := addPay (schunk m c k) (rchunk m c k)

/-- The block's chunk, held in place (never written: always at the launch contents). -/
def xPts (c : Dev nD) (k : Fin 32) : sProp 𝕄 :=
  (xK c k).view.loc (c : Thread nD τ) ↦[(xK c k).view.set]{fullShare} blk m c
/-- A chunk held outright at contents of no interest. -/
def anyK {sp : Space} {e : EltTy} (c : Dev nD) (M : Memref sig .tc sp S64x1024 e) : sProp 𝕄 :=
  iprop(∃ f, M.view.loc (c : Thread nD τ) ↦[M.view.set]{fullShare} f)

abbrev hL : PosShare TreeShare := fullShare.left
abbrev hR : PosShare TreeShare := fullShare.right

/-! ## The schedule -/

/-- What a DMA cell's one duty hands its owner `c`. -/
def chunkPay (c : Dev nD) : Fam → Fin 32 → sProp 𝕄
  | .l, k => iprop(owns (c : Thread nD τ) (stK k) fullShare (xchunk m c k) ∗ xPts m c k)
  | .xs, k => owns (c : Thread nD τ) (sdK k) hL (schunk m c k)
  | .xr, k => owns (c : Thread nD τ) (rvK k) fullShare (rchunk m c k)
  | .ys, k => owns (c : Thread nD τ) (smK k) hL (tchunk m c k)
  | .yr, k => owns (c : Thread nD τ) (oK (ypeer c) k) fullShare (tchunk m (ypeer c) k)
  | .o, k => iprop(owns (c : Thread nD τ) (oK c k) fullShare (tchunk m c k) ∗ owns (c : Thread nD τ) (smK k) hR (tchunk m c k))

/-- Device `c`'s 32 `xrecv` chunks, and the 32 chunks of its result in its second-axis neighbour's half: what it lends. -/
def lendX (c : Dev nD) : sProp 𝕄 := bigSep Finset.univ fun k : Fin 32 => anyK (F := F) c (rvK k)
def lendY (c : Dev nD) : sProp 𝕄 := bigSep Finset.univ fun k : Fin 32 => anyK (F := F) c (oK (ypeer c) k)

/-- What the two duties of `c`'s barrier cell hand `c`: `false` (from `xpeer c`) that neighbour's `xrecv` chunks,
    `true` (from `ypeer c`) that neighbour's result chunks in `c`'s half. -/
def barPay (c : Dev nD) : Bool → sProp 𝕄
  | false => lendX (F := F) (xpeer c)
  | true => lendY (F := F) (ypeer c)

/-- One round, round 0: a barrier cell has two duties of one unit; a DMA cell one duty of its chunk's credit. -/
def sched : Rounds.Schedule (GSem nD τ sig) Bool 𝕄 where
  duties g r := if r = 0 ∧ g.1.2 = .tc then (match g.2 with | .reg s => if s = barSem then Finset.univ else ∅ | .dma _ => {false}) else ∅
  unitless _ := False
  amount g _ _ := match g.2 with | .reg _ => 1 | .dma i => amt (famOf i)
  payload g _ d := match g.2 with
    | .reg s => if s = barSem then barPay (F := F) g.1.1 d else iprop(emp)
    | .dma i => chunkPay m g.1.1 (famOf i) (idxOf i)
  amount_pos g _ _ _ := by
    cases hg : g.2 with
    | reg s => exact Nat.one_pos
    | dma i =>
      show 0 < amt (famOf i)
      generalize famOf i = f
      cases f <;> first | exact N32_pos | exact N16_pos

/-- The schedule's payloads may sit in a cell's invariant. -/
instance sched_payload_storable (g : GSem nD τ sig) (r : ℕ) (d : Bool) :
    BI.Storable (upEmb : UEmb _ 𝕄) ((sched (F := F) m).payload g r d) := by
  obtain ⟨⟨c, q⟩, s | i⟩ := g
  · show BI.Storable upEmb (if s = barSem then barPay (F := F) c d else iprop(emp))
    split
    · cases d <;> (unfold barPay lendX lendY anyK; infer_instance)
    · infer_instance
  · show BI.Storable upEmb (chunkPay m c (famOf i) (idxOf i))
    generalize famOf i = f
    cases f <;> (unfold chunkPay xPts; infer_instance)

/-! ### Its tables (each a rewrite the steps use) -/

section Tables
variable (c : Dev nD) (f : Fam) (k : Fin 32)

theorem duties_bar : (sched (F := F) m).duties (barCell c) 0 = Finset.univ := by
  dsimp only [sched]; rw [if_pos ⟨rfl, rfl⟩]; exact if_pos rfl
theorem duties_dma : (sched (F := F) m).duties (dcell c f k) 0 = {false} := by
  dsimp only [sched]; exact if_pos ⟨rfl, rfl⟩
theorem duties_later (g : GSem nD τ sig) : ∀ r, 1 ≤ r → (sched (F := F) m).duties g r = ∅ :=
  fun r hr => by dsimp only [sched]; exact if_neg fun h => by have := h.1; omega
theorem amount_bar (d : Bool) : (sched (F := F) m).amount (barCell c) 0 d = 1 := rfl
theorem amount_dma (d : Bool) : (sched (F := F) m).amount (dcell c f k) 0 d = amt f := by
  show amt (famOf (semK (famSems f) k)) = amt f
  rw [famOf_semK]
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (sched (F := F) m).expect (dcell c f k) 0 = amt f := by
  unfold Schedule.expect Schedule.amountOf
  rw [duties_dma, Finset.sum_singleton, amount_dma]
theorem payload_bar (d : Bool) : (sched (F := F) m).payload (barCell c) 0 d = barPay (F := F) c d := by
  dsimp only [sched]; exact if_pos rfl
theorem payload_dma (d : Bool) : (sched (F := F) m).payload (dcell c f k) 0 d = chunkPay m c f k := by
  show chunkPay m c (famOf (semK (famSems f) k)) (idxOf (semK (famSems f) k)) = chunkPay m c f k
  rw [famOf_semK, idxOf_semK]
/-- The rest of a round no duty of which has been taken. -/
theorem rest_bar : bigSep ((sched (F := F) m).duties (barCell c) 0 \ ∅) (fun d => (sched (F := F) m).payload (barCell c) 0 d)
    = iprop(lendX (F := F) (xpeer c) ∗ lendY (F := F) (ypeer c)) := by
  rw [Finset.sdiff_empty, duties_bar, bigSep_univ_eq_bigSepL [false, true] (by decide) (by decide), bigSepL_cons_cons, bigSepL_singleton,
    payload_bar, payload_bar]
  rfl
theorem rest_dma : bigSep ((sched (F := F) m).duties (dcell c f k) 0 \ ∅) (fun d => (sched (F := F) m).payload (dcell c f k) 0 d)
    = chunkPay m c f k := by
  rw [Finset.sdiff_empty, duties_dma, bigSep_singleton, payload_dma]

end Tables

/-! ## What a device owes, payment by payment -/

/-- Device `c`'s payments to other devices' cells, in program order: the two barrier units, the 32 first-axis
    arrivals, the 32 second-axis arrivals. -/
def owedAt (c : Dev nD) (j : ℕ) : GSem nD τ sig × ℕ :=
  if j = 0 then (barCell (xpeer c), 1) else if j = 1 then (barCell (ypeer c), 1)
  else if j < 34 then (dcell (xpeer c) .xr ⟨(j - 2) % 32, Nat.mod_lt _ (by decide)⟩, N16)
  else (dcell (ypeer c) .yr ⟨(j - 34) % 32, Nat.mod_lt _ (by decide)⟩, N16)

/-- The last `n` of the 66 payments. -/
def Orem (c : Dev nD) : ℕ → CellTallies nD τ sig Unit
  | 0 => 0
  | n + 1 => Orem c n + tallyAt (owedAt c (65 - n)).1 () (owedAt c (65 - n)).2
/-- What `c` still owes when its first `j` payments are made. -/
abbrev Oat (c : Dev nD) (j : ℕ) : CellTallies nD τ sig Unit := Orem c (66 - j)

theorem Oat_succ (c : Dev nD) (j : ℕ) (hj : j < 66) :
    Oat c j = Oat c (j + 1) + tallyAt (owedAt c j).1 () (owedAt c j).2 := by
  have h1 : 66 - j = (65 - j) + 1 := by omega
  have h2 : 66 - (j + 1) = 65 - j := by omega
  have h3 : 65 - (65 - j) = j := by omega
  show Orem c (66 - j) = Orem c (66 - (j + 1)) + _
  rw [h1, h2]; show Orem c (65 - j) + _ = _; rw [h3]
theorem Oat_done (c : Dev nD) : Oat c 66 = 0 := rfl
theorem owedAt_x (c : Dev nD) (k : Fin 32) : owedAt c (2 + k.val) = (dcell (xpeer c) .xr k, N16) := by
  have hk := k.isLt
  unfold owedAt
  rw [if_neg (show ¬ (2 + k.val = 0) by omega), if_neg (show ¬ (2 + k.val = 1) by omega), if_pos (show 2 + k.val < 34 by omega)]
  exact congrArg (fun q : Fin 32 => ((dcell (xpeer c) Fam.xr q, N16) : GSem nD τ sig × ℕ))
    (Fin.ext (show (2 + k.val - 2) % 32 = k.val by omega))
theorem owedAt_y (c : Dev nD) (k : Fin 32) : owedAt c (34 + k.val) = (dcell (ypeer c) .yr k, N16) := by
  have hk := k.isLt
  unfold owedAt
  rw [if_neg (show ¬ (34 + k.val = 0) by omega), if_neg (show ¬ (34 + k.val = 1) by omega), if_neg (show ¬ (34 + k.val < 34) by omega)]
  exact congrArg (fun q : Fin 32 => ((dcell (ypeer c) Fam.yr q, N16) : GSem nD τ sig × ℕ))
    (Fin.ext (show (34 + k.val - 34) % 32 = k.val by omega))
/-- A cell that is still owed something is one of the payments not yet made. -/
theorem Oat_pos {c : Dev nD} {j : ℕ} {g : GSem nD τ sig} {u : Unit} (h : 0 < Oat c j g u) : ∃ i, j ≤ i ∧ i < 66 ∧ g = (owedAt c i).1 := by
  -- the last `n` payments are the payments `66 - n, …, 65`
  have key : ∀ n, 0 < Orem c n g u → ∃ i, 66 - n ≤ i ∧ i < 66 ∧ g = (owedAt c i).1 := by
    intro n
    induction n with
    | zero =>
      intro h0
      change 0 < (0 : CellTallies nD τ sig Unit) g u at h0
      rw [Pi.zero_apply, Finsupp.coe_zero, Pi.zero_apply] at h0
      exact absurd h0 (Nat.lt_irrefl 0)
    | succ n ih =>
      intro hn
      change 0 < (Orem c n + tallyAt (owedAt c (65 - n)).1 () (owedAt c (65 - n)).2) g u at hn
      rw [Pi.add_apply, Finsupp.add_apply, tallyAt_apply] at hn
      by_cases hg : g = (owedAt c (65 - n)).1 ∧ u = ()
      · exact ⟨65 - n, by omega, by omega, hg.1⟩
      · rw [if_neg hg, Nat.add_zero] at hn
        obtain ⟨i, h1, h2, h3⟩ := ih hn
        exact ⟨i, by omega, h2, h3⟩
  obtain ⟨i, h1, h2, h3⟩ := key (66 - j) h
  exact ⟨i, by omega, h2, h3⟩

/-! ## Levels -/

def L (g : GSem nD τ sig) : Finset Unit := if g.1.2 = .tc then {()} else ∅
def lvl : SemLoc sig → ℕ
  | .reg _ => 1
  | .dma i => match famOf i with | .xr => 2 | .yr => 3 | _ => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- The level of a family's cells, and of the cell of each payment. -/
theorem lvl_dsem : ∀ (f : Fam) (k : Fin 32), lvl (dsem f k) = (match f with | .xr => 2 | .yr => 3 | _ => 0) := by decide +kernel
theorem lvl_owedAt (c : Dev nD) (i : ℕ) : lvl (owedAt c i).1.2 = if i < 2 then 1 else if i < 34 then 2 else 3 := by
  unfold owedAt
  by_cases h0 : i = 0
  · rw [if_pos h0, if_pos (show i < 2 by omega)]; rfl
  · by_cases h1 : i = 1
    · rw [if_neg h0, if_pos h1, if_pos (show i < 2 by omega)]; rfl
    · by_cases h2 : i < 34
      · rw [if_neg h0, if_neg h1, if_pos h2, if_neg (show ¬ i < 2 by omega), if_pos h2]; exact lvl_dsem .xr _
      · rw [if_neg h0, if_neg h1, if_neg h2, if_neg (show ¬ i < 2 by omega), if_neg h2]; exact lvl_dsem .yr _
/-- Every payment goes to a TensorCore's cell. -/
theorem owedAt_tc (c : Dev nD) (i : ℕ) : (owedAt c i).1.1.2 = .tc := by
  unfold owedAt
  by_cases h0 : i = 0
  · rw [if_pos h0]
  · by_cases h1 : i = 1
    · rw [if_neg h0, if_pos h1]
    · by_cases h2 : i < 34
      · rw [if_neg h0, if_neg h1, if_pos h2]
      · rw [if_neg h0, if_neg h1, if_neg h2]

/-- A device may wait on a cell of its own whose level is below that of every payment it has not yet made. -/
theorem mayWait_of_lvl (c : Dev nD) (sm : SemLoc sig) (j : ℕ) (h : ∀ i, j ≤ i → i < 66 → lvl sm < lvl (owedAt c i).1.2) :
    (levAts L lv : sProp 𝕄) ⊢ MayWait (c : Thread nD τ) sm () (Oat c j) :=
  MayOwe.of_cut (L := L) (lev := lv) (lvl sm)
    (fun p hp => by rw [Finset.mem_singleton.mp hp, L_tc]; exact Finset.mem_singleton_self _)
    (fun g u hg => by
      obtain ⟨i, _, _, rfl⟩ := Oat_pos hg
      unfold L; rw [if_pos (owedAt_tc c i)]; exact Finset.mem_singleton_self _)
    (fun p hp => by rw [Finset.mem_singleton.mp hp]; exact le_refl _)
    (fun g u hg => by
      obtain ⟨i, h1, h2, rfl⟩ := Oat_pos hg
      exact h i h1 h2)
/-- The instances the body uses: a level-0 cell at any time; the barrier cell once both units are paid; an `xr` cell once
    every first-axis chunk is sent. -/
theorem mayWait_low (c : Dev nD) (f : Fam) (k : Fin 32) (hf : f ≠ .xr ∧ f ≠ .yr) (j : ℕ) :
    (levAts L lv : sProp 𝕄) ⊢ MayWait (c : Thread nD τ) (dsem f k) () (Oat c j) := by
  have h0 : lvl (dsem f k) = 0 := by
    rw [lvl_dsem]; cases f <;> first | rfl | exact absurd rfl hf.1 | exact absurd rfl hf.2
  refine mayWait_of_lvl c (dsem f k) j fun i _ _ => ?_
  rw [h0, lvl_owedAt]
  by_cases a : i < 2
  · rw [if_pos a]; decide
  · rw [if_neg a]; by_cases b : i < 34
    · rw [if_pos b]; decide
    · rw [if_neg b]; decide
theorem mayWait_bar (c : Dev nD) : (levAts L lv : sProp 𝕄) ⊢ MayWait (c : Thread nD τ) (.reg barSem) () (Oat c 2) := by
  refine mayWait_of_lvl c (.reg barSem) 2 fun i hi _ => ?_
  rw [show lvl (SemLoc.reg barSem : SemLoc sig) = 1 from rfl, lvl_owedAt, if_neg (show ¬ i < 2 by omega)]
  by_cases b : i < 34
  · rw [if_pos b]; decide
  · rw [if_neg b]; decide
theorem mayWait_xr (c : Dev nD) (k : Fin 32) (j : ℕ) (hj : 34 ≤ j) :
    (levAts L lv : sProp 𝕄) ⊢ MayWait (c : Thread nD τ) (dsem .xr k) () (Oat c j) := by
  refine mayWait_of_lvl c (dsem .xr k) j fun i hi _ => ?_
  rw [show lvl (dsem .xr k) = 2 from lvl_dsem .xr k, lvl_owedAt, if_neg (show ¬ i < 2 by omega), if_neg (show ¬ i < 34 by omega)]
  decide

/-! ## The cells' invariants, as every device knows them -/

/-- A device's cells: the barrier cell, or a family's chunk. -/
abbrev CellIx : Type := Option (Fam × Fin 32)
abbrev csem : CellIx → SemLoc sig
  | none => .reg barSem
  | some (f, k) => dsem f k
abbrev kcell (ck : Dev nD × CellIx) : GSem nD τ sig := ((ck.1 : Thread nD τ), csem ck.2)

/-- Every cell's invariant (at the names `K` the launch allocated) and that its round 0 is reached: persistent,
    known to every device. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records (F := F) m K) := by unfold records; infer_instance

theorem inv_at (K : Dev nD × CellIx → ℕ) (ck : Dev nD × CellIx) : records (F := F) m K ⊢ cellInv ER (sched m) (K ck) (kcell ck) := by
  have h1 : records (F := F) m K ⊢ (bigSep Finset.univ fun ck : Dev nD × CellIx => cellInv ER (sched m) (K ck) (kcell ck)) := by
    unfold records; iintro ⟨H, -⟩; iexact H
  exact h1.trans (bigSep_elim (Finset.mem_univ ck))
theorem reached_at (K : Dev nD × CellIx → ℕ) (ck : Dev nD × CellIx) : records (F := F) m K ⊢ reached ER (kcell ck) 0 := by
  have h1 : records (F := F) m K ⊢ (bigSep Finset.univ fun ck : Dev nD × CellIx => (reached ER (kcell ck) 0 : sProp 𝕄)) := by
    unfold records; iintro ⟨-, H⟩; iexact H
  exact h1.trans (bigSep_elim (Finset.mem_univ ck))

/-! ## A chunk's resources on device `c`, stage by stage -/

/-- The positions of the chunk's six cells, all at round `r`. -/
def posAll (c : Dev nD) (k : Fin 32) (r : Fam → ℕ) : sProp 𝕄 :=
  iprop(atPos ER (dcell c .l k) (r .l) ∅ 0 ∗ atPos ER (dcell c .o k) (r .o) ∅ 0 ∗ atPos ER (dcell c .xs k) (r .xs) ∅ 0
    ∗ atPos ER (dcell c .xr k) (r .xr) ∅ 0 ∗ atPos ER (dcell c .ys k) (r .ys) ∅ 0 ∗ atPos ER (dcell c .yr k) (r .yr) ∅ 0)

/-- As dealt: the block's chunk; the chunks of `stage`, `xsend`, `ssum` and of the result's own half at anything; the six
    positions at round 0; the tokens of the six duties `c` pays for this chunk; the credit of the two arrivals. -/
def C0 (c : Dev nD) (k : Fin 32) : sProp 𝕄 :=
  iprop(xPts m c k ∗ anyK (F := F) c (stK k) ∗ anyK (F := F) c (sdK k) ∗ anyK (F := F) c (smK k) ∗ anyK (F := F) c (oK c k)
    ∗ posAll (F := F) c k (fun _ => 0)
    ∗ dutyTok ER (dcell c .l k) 0 false ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- The load under way: the block's chunk and the `stage` chunk lent, the load's credit in hand. -/
def C1 (c : Dev nD) (k : Fin 32) : sProp 𝕄 :=
  iprop(cred (tallyAt (dcell c .l k) () N32) ∗ anyK (F := F) c (sdK k) ∗ anyK (F := F) c (smK k) ∗ anyK (F := F) c (oK c k)
    ∗ posAll (F := F) c k (fun _ => 0)
    ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- Loaded and narrowed. -/
def C2 (c : Dev nD) (k : Fin 32) : sProp 𝕄 :=
  iprop(xPts m c k ∗ owns (c : Thread nD τ) (stK k) fullShare (xchunk m c k) ∗ owns (c : Thread nD τ) (sdK k) fullShare (schunk m c k)
    ∗ anyK (F := F) c (smK k) ∗ anyK (F := F) c (oK c k)
    ∗ posAll (F := F) c k (fun f => if f = .l then 1 else 0)
    ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- Sent on the first axis: one share of the `xsend` chunk lent, the other kept to read; the departure's credit in hand. -/
def C3 (c : Dev nD) (k : Fin 32) : sProp 𝕄 :=
  iprop(xPts m c k ∗ owns (c : Thread nD τ) (stK k) fullShare (xchunk m c k) ∗ owns (c : Thread nD τ) (sdK k) hR (schunk m c k)
    ∗ cred (tallyAt (dcell c .xs k) () N16)
    ∗ anyK (F := F) c (smK k) ∗ anyK (F := F) c (oK c k)
    ∗ posAll (F := F) c k (fun f => if f = .l then 1 else 0)
    ∗ dutyTok ER (dcell c .o k) 0 false ∗ dutyTok ER (dcell c .ys k) 0 false ∗ dutyTok ER (dcell (ypeer c) .yr k) 0 false
    ∗ cred (tallyAt (dcell c .xr k) () N16) ∗ cred (tallyAt (dcell c .yr k) () N16))

/-- Reduced and sent on: the neighbour's chunk received, the sum's chunk lent whole (half to each copy), the result's own
    chunk lent to the copy; three credits in hand beside the second-axis arrival's. -/
def C4 (c : Dev nD) (k : Fin 32) : sProp 𝕄 :=
  iprop(xPts m c k ∗ owns (c : Thread nD τ) (stK k) fullShare (xchunk m c k) ∗ owns (c : Thread nD τ) (sdK k) hR (schunk m c k)
    ∗ owns (c : Thread nD τ) (rvK k) fullShare (rchunk m c k)
    ∗ cred (tallyAt (dcell c .xs k) () N16) ∗ cred (tallyAt (dcell c .ys k) () N16) ∗ cred (tallyAt (dcell c .o k) () N16)
    ∗ posAll (F := F) c k (fun f => if f = .l ∨ f = .xr then 1 else 0)
    ∗ cred (tallyAt (dcell c .yr k) () N16))

/-- Drained: every buffer's chunk back, the result's two chunks (own half, neighbour's half) at the sums, the six counters
    at zero. -/
def C5 (c : Dev nD) (k : Fin 32) : sProp 𝕄 :=
  iprop(xPts m c k ∗ owns (c : Thread nD τ) (stK k) fullShare (xchunk m c k) ∗ owns (c : Thread nD τ) (sdK k) fullShare (schunk m c k)
    ∗ owns (c : Thread nD τ) (rvK k) fullShare (rchunk m c k) ∗ owns (c : Thread nD τ) (smK k) fullShare (tchunk m c k)
    ∗ owns (c : Thread nD τ) (oK c k) fullShare (tchunk m c k) ∗ owns (c : Thread nD τ) (oK (ypeer c) k) fullShare (tchunk m (ypeer c) k)
    ∗ semVal (dcell c .l k) 0 ∗ semVal (dcell c .o k) 0 ∗ semVal (dcell c .xs k) 0 ∗ semVal (dcell c .xr k) 0 ∗ semVal (dcell c .ys k) 0 ∗ semVal (dcell c .yr k) 0)

end Cert.KernelIdeal.Hand

end
-- ==== Proof.Runs.lean ====
/-
  Running a per-chunk piece over the chunks in order.

  If one piece, run on chunk `k`, takes the chunk's resources from `B k` to `A k` and what is shared among the chunks
  from `R k` to `R (k + 1)`, then the pieces run on chunks `i, …, i + n − 1` take `R i` and the chunks below `i` at `A`,
  the others at `B`, to `R (i + n)` and the chunks below `i + n` at `A`, the others at `B`.
-/
import proofs.«900132_g7700000000000133_dist_ar_v7x_xy2x2_x_m4096_n1024_bf16_1_alg».proof.Proof.Sched

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Pieces in sequence, one invariant per position. -/
theorem wp_runFrom (c : Dev nD) (f : Fin 32 → Prog (TpuEff nD τ sig (Elt F) Λ₀ .tc) PUnit) (I : ℕ → sProp 𝕄)
    (hstep : ∀ k : Fin 32, I k.val ⊢ WP c (f k) (fun _ => I (k.val + 1))) :
    ∀ (n i : ℕ), i + n ≤ 32 → I i ⊢ WP c (runFrom f i n) (fun _ => I (i + n)) := by
  intro n
  induction n with
  | zero =>
    intro i _
    unfold runFrom
    exact fupd_intro
  | succ n ih =>
    intro i hi
    have hlt : i < 32 := by omega
    unfold runFrom
    rw [dif_pos hlt]
    show I i ⊢ wp frame _ Set.univ ((f ⟨i, hlt⟩) >>= fun _ => runFrom f (i + 1) n) _
    rw [wp_bind]
    refine (hstep ⟨i, hlt⟩).trans (wp_mono _ _ _ fun _ => ?_)
    have h := ih (i + 1) (by omega)
    rw [show i + 1 + n = i + (n + 1) from by omega] at h
    exact h

/-- The chunks' resources when the chunks below `i` are done. -/
def upTo (A B : Fin 32 → sProp 𝕄) (i : ℕ) : sProp 𝕄 :=
  bigSep Finset.univ fun k : Fin 32 => if k.val < i then A k else B k

theorem upTo_zero (A B : Fin 32 → sProp 𝕄) : upTo A B 0 = bigSep Finset.univ B :=
  bigSep_congr fun k _ => if_neg (Nat.not_lt_zero _)
theorem upTo_all (A B : Fin 32 → sProp 𝕄) : upTo A B 32 = bigSep Finset.univ A :=
  bigSep_congr fun k _ => if_pos k.isLt

/-- Taking chunk `k` out, at `B` before its turn and put back at `A` after it. -/
theorem upTo_at (A B : Fin 32 → sProp 𝕄) (k : Fin 32) :
    upTo A B k.val = iprop(B k ∗ bigSep (Finset.univ.erase k) fun j : Fin 32 => if j.val < k.val then A j else B j) := by
  unfold upTo; rw [bigSep_univ_at _ k, if_neg (Nat.lt_irrefl _)]
theorem upTo_at_succ (A B : Fin 32 → sProp 𝕄) (k : Fin 32) :
    upTo A B (k.val + 1) = iprop(A k ∗ bigSep (Finset.univ.erase k) fun j : Fin 32 => if j.val < k.val then A j else B j) := by
  unfold upTo; rw [bigSep_univ_at _ k, if_pos (Nat.lt_succ_self _)]
  refine congrArg (fun X => iprop(A k ∗ X)) (bigSep_congr fun j hj => ?_)
  have hne : j.val ≠ k.val := fun h => (Finset.mem_erase.mp hj).1 (Fin.ext h)
  by_cases h : j.val < k.val
  · rw [if_pos h, if_pos (Nat.lt_succ_of_lt h)]
  · rw [if_neg h, if_neg (by omega)]

/-- A per-chunk piece run over the chunks `i, …, i + n − 1`. -/
theorem wp_chunks (c : Dev nD) (f : Fin 32 → Prog (TpuEff nD τ sig (Elt F) Λ₀ .tc) PUnit) (R : ℕ → sProp 𝕄) (A B : Fin 32 → sProp 𝕄)
    (hstep : ∀ k : Fin 32, iprop(R k.val ∗ B k) ⊢ WP c (f k) (fun _ => iprop(R (k.val + 1) ∗ A k)))
    (n i : ℕ) (h : i + n ≤ 32) :
    iprop(R i ∗ upTo A B i) ⊢ WP c (runFrom f i n) (fun _ => iprop(R (i + n) ∗ upTo A B (i + n))) := by
  refine wp_runFrom c f (fun j => iprop(R j ∗ upTo A B j)) (fun k => ?_) n i h
  show iprop(R k.val ∗ upTo A B k.val) ⊢ WP c (f k) (fun _ => iprop(R (k.val + 1) ∗ upTo A B (k.val + 1)))
  rw [upTo_at, upTo_at_succ]
  iintro ⟨HR, HB, Hrest⟩
  iapply (wp_mono _ _ _ (fun _ => (show iprop((R (k.val + 1) ∗ A k) ∗ bigSep (Finset.univ.erase k) fun j : Fin 32 => if j.val < k.val then A j else B j)
      ⊢ iprop(R (k.val + 1) ∗ A k ∗ bigSep (Finset.univ.erase k) fun j : Fin 32 => if j.val < k.val then A j else B j) from sep_assoc.1)))
  iapply (wp_frame_r _ _ _)
  isplitl [HR HB]
  · iapply (hstep k); isplitl [HR] <;> iassumption
  · iexact Hrest

end Cert.KernelIdeal.Hand

end
-- ==== Proof.BodySpec.lean ====
/-
  What the body is proved to do, and what the launch hands it and takes back.

  The body starts from the cells' invariants, the level facts, what it owes (all 66 payments), its barrier cell's
  position, credit and the two barrier tokens it pays with, the chunks it lends its neighbours, and every chunk's
  resources as dealt (`C0`); it ends owing nothing with every chunk drained (`C5`).  The launch hands a device its block
  and its result buffer whole, its four scratch buffers whole, the ghost state and the credit of the arrivals it will wait
  for; the body's first act is to cut the buffers into chunks and its last to put them together again.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's specification over the chunk states -/

/-- The barrier cell's part of a device's start. -/
def barStart (c : Dev nD) : sProp 𝕄 :=
  iprop(atPos ER (barCell c) 0 ∅ 0 ∗ cred (tallyAt (barCell c) () 2)
    ∗ dutyTok ER (barCell (xpeer c)) 0 false ∗ dutyTok ER (barCell (ypeer c)) 0 true)

def bodyPre (K : Dev nD × CellIx → ℕ) (c : Dev nD) : sProp 𝕄 :=
  iprop(records m K ∗ levAts L lv ∗ (∃ W, owes (c : Thread nD τ) (Oat c 0) W) ∗ barStart (F := F) c
    ∗ lendX (F := F) c ∗ lendY (F := F) c ∗ bigSep Finset.univ fun k : Fin 32 => C0 m c k)

def bodyPost (c : Dev nD) : sProp 𝕄 :=
  iprop((∃ W, owes (c : Thread nD τ) 0 W) ∗ bigSep Finset.univ fun k : Fin 32 => C5 m c k)

/-! ## What the launch hands a device, and what it takes back -/

/-- Per chunk, as the launch deals it: the six positions at round 0 and the tokens of the six duties the device pays. -/
def chunkGhost (c : Dev nD) (k : Fin 32) : sProp 𝕄 :=
  iprop(posAll (F := F) c k (fun _ => 0)
    ∗ dutyTok ER (dcell c .l k) 0 false ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false)

def ghost (K : Dev nD × CellIx → ℕ) (c : Dev nD) : sProp 𝕄 :=
  iprop(records m K ∗ atPos ER (barCell c) 0 ∅ 0 ∗ dutyTok ER (barCell (xpeer c)) 0 false ∗ dutyTok ER (barCell (ypeer c)) 0 true
    ∗ bigSep Finset.univ fun k : Fin 32 => chunkGhost (F := F) c k)

/-- The credit of what the neighbours owe the device: two barrier units, and per chunk the two arrivals. -/
def creds (c : Dev nD) : sProp 𝕄 :=
  iprop(cred (tallyAt (barCell c) () 2)
    ∗ bigSep Finset.univ fun k : Fin 32 => iprop(cred (tallyAt (dcell c .xr k) () N16) ∗ cred (tallyAt (dcell c .yr k) () N16)))

def start (c : Dev nD) : sProp 𝕄 :=
  iprop((∃ K, ghost m K c) ∗ creds (F := F) c ∗ levAts L lv
    ∗ (((c : Thread nD τ).loc main_arg0) ↦{fullShare} blk m c) ∗ ∃ f : Buf (Elt F) ((c : Thread nD τ).loc main_v1), ((c : Thread nD τ).loc main_v1) ↦{fullShare} f)

/-- The four scratch buffers, whole, at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

/-- The result after the body: its 64 chunks, the own half's and the neighbour's half's, at the sums. -/
def outDone (c : Dev nD) : sProp 𝕄 :=
  bigSep Finset.univ fun k : Fin 32 =>
    iprop(owns (c : Thread nD τ) (oK c k) fullShare (tchunk m c k) ∗ owns (c : Thread nD τ) (oK (ypeer c) k) fullShare (tchunk m (ypeer c) k))
/-- The kernel's 192 DMA semaphores back at zero. -/
def zeros (c : Dev nD) : sProp 𝕄 := bigSep Finset.univ fun fk : Fam × Fin 32 => semVal (dcell c fk.1 fk.2) 0

def Φ₁ (c : Dev nD) : sProp 𝕄 :=
  iprop((((c : Thread nD τ).loc main_arg0) ↦{fullShare} blk m c) ∗ outDone m c ∗ zeros (F := F) c ∗ scratch (F := F) c)

/-- The pipeline's proof data: no window; before the one point `Φ₀`, after it `Φ₁`; the device owes its 66 payments
    before and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Oat c 0
    | ⟨_ + 1, _⟩ => 0

end Cert.KernelIdeal.Hand

end
-- ==== Proof.StepLoad.lean ====
/-
  The load of a chunk: its start, and its wait followed by the narrowing.

  Starting the load lends the block's chunk and the `stage` chunk to the transfer and pays the load cell's one duty,
  whose payload is those two chunks with the `stage` chunk now holding the block's chunk.  Waiting for the rest of
  that cell's round hands the payload back; the narrowing then reads the `stage` chunk and stores it, narrowed, over the
  `xsend` chunk.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small facts about the chunks -/

/-- The credit of a transfer into a chunk of `stage` is the same for every chunk: it depends on the buffer, the chunk's
    shape and the element type only. -/
theorem credit_st (k : Fin 32) : (stK k).view.dmaCredit = N32 := rfl

/-- The load cell's payload, spelt out. -/
theorem chunkPay_l {F : FTy → Type} [FloatOps F] (m : (ℓ : Loc nD τ sig) → Buf (Elt F) ℓ) (c : Dev nD) (k : Fin 32) :
    chunkPay m c .l k = iprop(owns (c : Thread nD τ) (stK k) fullShare (xchunk m c k) ∗ xPts m c k) := rfl

/-- A memref's elements at contents that it reads as `X` are owned at `X`. -/
theorem owns_of {F : FTy → Type} [FloatOps F] (c : Dev nD) {sp : Space} {sh : Shape} {e : EltTy} (M : Memref sig .tc sp sh e)
    (q : PosShare TreeShare) (f : Buf (Elt F) (M.view.loc (c : Thread nD τ))) (X : sh.Idx → Elt F e) (h : M.view.read (Elt F) f = X) :
    (M.view.loc (c : Thread nD τ) ↦[M.view.set]{q} f : sProp (MT nD τ sig Unit (Elt F) ℕ UU ℕ)) ⊢ owns (c : Thread nD τ) M q X := by
  subst h; exact owns_intro (c : Thread nD τ) M q f

/-- Owning a memref at `X` is holding its elements at some contents that it reads as `X`. -/
theorem owns_elim {F : FTy → Type} [FloatOps F] (c : Dev nD) {sp : Space} {sh : Shape} {e : EltTy} (M : Memref sig .tc sp sh e)
    (q : PosShare TreeShare) (X : sh.Idx → Elt F e) :
    (owns (c : Thread nD τ) M q X : sProp (MT nD τ sig Unit (Elt F) ℕ UU ℕ))
      ⊢ iprop(∃ f : Buf (Elt F) (M.view.loc (c : Thread nD τ)), ⌜M.view.read (Elt F) f = X⌝ ∗ (M.view.loc (c : Thread nD τ) ↦[M.view.set]{q} f)) := .rfl

/-- A chunk held at anything is held at some contents. -/
theorem anyK_elim {F : FTy → Type} [FloatOps F] (c : Dev nD) {sp : Space} {e : EltTy} (M : Memref sig .tc sp S64x1024 e) :
    (anyK (F := F) c M : sProp (MT nD τ sig Unit (Elt F) ℕ UU ℕ))
      ⊢ iprop(∃ f : Buf (Elt F) (M.view.loc (c : Thread nD τ)), M.view.loc (c : Thread nD τ) ↦[M.view.set]{fullShare} f) := .rfl

/-- What the landing of the load leaves — the `stage` chunk overwritten with what the block's chunk reads, and the
    block's chunk back — is the load cell's payload. -/
theorem pay_l {F : FTy → Type} [FloatOps F] (m : (ℓ : Loc nD τ sig) → Buf (Elt F) ℓ) (c : Dev nD) (k : Fin 32)
    (fd : Buf (Elt F) ((stK k).view.loc (c : Thread nD τ))) :
    (iprop(((stK k).view.loc (c : Thread nD τ) ↦[(stK k).view.set]{fullShare}
              ((stK k).view.write (Elt F) fd ((xK c k).view.read (Elt F) (blk m c)) Finset.univ))
          ∗ ((xK c k).view.loc (c : Thread nD τ) ↦[(xK c k).view.set]{fullShare} blk m c)) : sProp (MT nD τ sig Unit (Elt F) ℕ UU ℕ))
      ⊢ chunkPay m c .l k := by
  rw [chunkPay_l]
  exact sep_mono (owns_of c (stK k) fullShare _ _ (View.read_write_univ _ _)) .rfl

/-- The six positions, the load cell's apart: all at round 0, and the load cell's at round 1. -/
def posRest {F : FTy → Type} [FloatOps F] (c : Dev nD) (k : Fin 32) : sProp (MT nD τ sig Unit (Elt F) ℕ UU ℕ) :=
  iprop(atPos ER (dcell c .o k) 0 ∅ 0 ∗ atPos ER (dcell c .xs k) 0 ∅ 0
    ∗ atPos ER (dcell c .xr k) 0 ∅ 0 ∗ atPos ER (dcell c .ys k) 0 ∅ 0 ∗ atPos ER (dcell c .yr k) 0 ∅ 0)

theorem posAll_0 {F : FTy → Type} [FloatOps F] (c : Dev nD) (k : Fin 32) :
    posAll (F := F) c k (fun _ => 0) = iprop(atPos ER (dcell c .l k) 0 ∅ 0 ∗ posRest (F := F) c k) := rfl
theorem posAll_1 {F : FTy → Type} [FloatOps F] (c : Dev nD) (k : Fin 32) :
    posAll (F := F) c k (fun f => if f = .l then 1 else 0) = iprop(atPos ER (dcell c .l k) 1 ∅ 0 ∗ posRest (F := F) c k) := rfl

/-- The load cell's round, whole: its one duty's payload. -/
theorem round_l {F : FTy → Type} [FloatOps F] (m : (ℓ : Loc nD τ sig) → Buf (Elt F) ℓ) (c : Dev nD) (k : Fin 32) :
    bigSep ((sched (F := F) m).duties (dcell c .l k) 0) (fun d => (sched (F := F) m).payload (dcell c .l k) 0 d)
      = iprop(owns (c : Thread nD τ) (stK k) fullShare (xchunk m c k) ∗ xPts m c k) := by
  have h := rest_dma m c .l k
  rw [Finset.sdiff_empty] at h
  exact h.trans (chunkPay_l m c k)

/-- Start the load of chunk `k`. -/
theorem step_ldEnq (K : Dev nD × CellIx → ℕ) (c : Dev nD) (k : Fin 32) :
    iprop(records m K ∗ C0 m c k) ⊢ WP c (ldEnq (F := F) theArgs c k) (fun _ => C1 (F := F) c k) := by
  unfold ldEnq C0 C1 xPts
  simp only [Prog.lift]
  iintro ⟨#Hrec, Hx, Hst, Hsd, Hsm, Ho, Hpos, HtL, Hrest⟩
  ihave #HI := (inv_at m K (c, some (.l, k))) $$ Hrec
  ihave #Hr := (reached_at m K (c, some (.l, k))) $$ Hrec
  ihave Hst' := (anyK_elim (F := F) c (stK k)) $$ Hst
  icases Hst' with ⟨%fd, Hst⟩
  -- the copy pays the load cell's one duty; its landing leaves the cell's payload
  iapply (Rounds.wp_copy_pointsTo 𝒱₀ ER (sched m) (c : Thread nD τ) none (src := xK c k) (dst := stK k) (sem := dsem .l k)
      (q := fullShare) (fs := blk m c) (fd := fd) (r := 0) (d := false) (κ := K (c, some (.l, k)))
      (by rw [duties_dma m c .l k]; exact Finset.mem_singleton_self _) () N32 (credit_st k) (amount_dma m c .l k false)
      (by rw [payload_dma m c .l k false]; exact pay_l m c k fd)) $$ [Hx Hst HtL]
  · isplitr; · iexact HI
    isplitl [Hx]; · iexact Hx
    isplitl [Hst]; · iexact Hst
    isplitl [HtL]; · iexact HtL
    iexact Hr
  iintro Hc
  rw [wp_ret]; imodintro
  isplitl [Hc]; · iexact Hc
  isplitl [Hsd]; · iexact Hsd
  isplitl [Hsm]; · iexact Hsm
  isplitl [Ho]; · iexact Ho
  isplitl [Hpos]; · iexact Hpos
  iexact Hrest

open Idealize.ShloMosaic.Tactic in
attribute [local sl_rounds] duties_dma amount_dma expect_dma payload_dma rest_dma credit_st

open Idealize.ShloMosaic.Tactic in
/-- Wait for the load of chunk `k` and narrow it into `xsend`; allowed whatever the device still owes, the load cells
    being at the lowest level. -/
theorem step_ldNarrow (K : Dev nD × CellIx → ℕ) (c : Dev nD) (k : Fin 32) (O : CellTallies nD τ sig Unit) (W : Waits sig Unit)
    (hO : (levAts L lv : sProp 𝕄) ⊢ MayWait (c : Thread nD τ) (dsem .l k) () O) :
    iprop(records m K ∗ levAts L lv ∗ owes (c : Thread nD τ) O W ∗ C1 (F := F) c k)
      ⊢ WP c (ldNarrow (F := F) theArgs c k) (fun _ => iprop((∃ W', owes (c : Thread nD τ) O W') ∗ C2 m c k)) := by
  unfold WP ldNarrow ldWait narrow C1 C2
  rw [posAll_0, posAll_1]
  simp only [theArgs]
  iintro ⟨#Hrec, #Hlev, HO, HcL, Hsd, Hsm, Ho, ⟨HatL, Hpos⟩, Hrest⟩
  ihave #HI := (show records m K ⊢ cellInv ER (sched m) (K (c, some (.l, k))) (dcell c .l k) from inv_at m K (c, some (.l, k))) $$ Hrec
  -- the wait for the rest of the load cell's one round: the round's payload comes back
  sl_exec (disch := first | (rw [Nat.zero_add]; exact (expect_dma m c .l k).symm) | (exact (expect_dma m c .l k).symm) | omega)
  ihave Hp := (Entails.of_eq (round_l m c k)) $$ HatL_pay1
  icases Hp with ⟨Hst, Hx⟩
  ihave Hst' := (owns_elim (F := F) c (stK k) fullShare (xchunk m c k)) $$ Hst
  icases Hst' with ⟨%f, %hf, Hst⟩
  ihave Hsd' := (anyK_elim (F := F) c (sdK k)) $$ Hsd
  icases Hsd' with ⟨%g, Hsd⟩
  -- the chunk of `stage` is read through the whole buffer at the chunk's rectangle (what is read is the block's chunk);
  -- the chunk of `xsend` is read (the value is not used) and overwritten with the narrowed chunk
  sl_exec
  sl_step
  isplitl [HO]; · iexists _; iexact HO
  isplitl [Hx]; · iexact Hx
  isplitl [Hst]; · iapply (owns_of (F := F) c (stK k) fullShare f _ hf); iexact Hst
  -- reading back what was written over the whole chunk gives what was written
  isplitl [Hsd]; · iapply (owns_of (F := F) c (sdK k) fullShare _ _ (View.read_write_univ _ _)); iexact Hsd
  isplitl [Hsm]; · iexact Hsm
  isplitl [Ho]; · iexact Ho
  isplitl [HatL Hpos]
  · isplitl [HatL]; · iexact HatL
    iexact Hpos
  iexact Hrest

/-- info: 'Cert.KernelIdeal.Hand.step_ldEnq' depends on axioms: [propext, Classical.choice, Quot.sound] -/
#guard_msgs in #print axioms step_ldEnq

/-- info: 'Cert.KernelIdeal.Hand.step_ldNarrow' depends on axioms: [propext, Classical.choice, Quot.sound] -/
#guard_msgs in #print axioms step_ldNarrow

end Cert.KernelIdeal.Hand

end
-- ==== Proof.StepBar.lean ====
/-
  The entry handshake on the barrier semaphore.

  The device pays its unit to each neighbour's barrier cell, handing the first-axis neighbour its 32 `xrecv` chunks and
  the second-axis neighbour the 32 chunks of its result in that neighbour's half; it then waits for the two units of its
  own barrier cell, which hand it the neighbours' corresponding chunks.  At that wait it owes only arrivals, which lie
  above the barrier cells.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two barrier units are the first two of the device's payments. -/
theorem handshake_Oat_zero (c : Dev nD) : Oat c 0 = Oat c 1 + tallyAt (barCell (xpeer c)) () 1 := by
  have h := Oat_succ c 0 (by decide)
  rw [show owedAt c 0 = (barCell (xpeer c), 1) from if_pos rfl] at h
  exact h
theorem handshake_Oat_one (c : Dev nD) : Oat c 1 = Oat c 2 + tallyAt (barCell (ypeer c)) () 1 := by
  have h := Oat_succ c 1 (by decide)
  rw [show owedAt c 1 = (barCell (ypeer c), 1) from (if_neg (by decide)).trans (if_pos rfl)] at h
  exact h

/-- The barrier cell's round has the two duties. -/
theorem handshake_duties (c : Dev nD) : (sched (F := F) m).duties (barCell c) 0 = {false, true} := by
  rw [duties_bar]; decide
/-- What each duty of `c`'s barrier cell hands `c`: the first-axis neighbour's `xrecv` chunks, and the second-axis
    neighbour's result chunks in `c`'s half.  Paid by `c` to a neighbour's cell, the neighbour's neighbour is `c` again: the
    unit to the first-axis neighbour hands over `c`'s own `xrecv` chunks, the unit to the second-axis neighbour `c`'s result
    chunks in that neighbour's half. -/
theorem handshake_pay_false (c : Dev nD) : barPay (F := F) c false = lendX (F := F) (xpeer c) := rfl
theorem handshake_pay_true (c : Dev nD) : barPay (F := F) c true = lendY (F := F) (ypeer c) := rfl

open Idealize.ShloMosaic.Tactic

attribute [local sl_rounds] handshake_duties amount_bar expect_bar payload_bar handshake_pay_false handshake_pay_true xpeer_xpeer ypeer_ypeer

theorem step_handshake (K : Dev nD × CellIx → ℕ) (c : Dev nD) (W : Waits sig Unit) :
    iprop(records m K ∗ levAts L lv ∗ owes (c : Thread nD τ) (Oat c 0) W
        ∗ atPos ER (barCell c) 0 ∅ 0 ∗ cred (tallyAt (barCell c) () 2)
        ∗ dutyTok ER (barCell (xpeer c)) 0 false ∗ dutyTok ER (barCell (ypeer c)) 0 true
        ∗ lendX (F := F) c ∗ lendY (F := F) c)
      ⊢ WP c (handshake (F := F) c) (fun _ => iprop((∃ W', owes (c : Thread nD τ) (Oat c 2) W') ∗ lendX (F := F) (xpeer c) ∗ lendY (F := F) (ypeer c))) := by
  unfold WP handshake
  simp only [semSignalWord, semWaitWord, Prog.lift, Prog.bind_op, Prog.bind_ret, Prog.pure_eq_ret, dev1_eq c, dev2_eq c,
    show (1#32 : BitVec 32).toNat = 1 from rfl, show (2#32 : BitVec 32).toNat = 2 from rfl]
  -- what is owed, with the two barrier units as summands
  rw [handshake_Oat_zero c, handshake_Oat_one c]
  iintro ⟨#Hrec, #Hlev, HO, Hat, Hc, Htx, Hty, HX, HY⟩
  -- the three barrier cells' invariants, and that round 0 of the neighbours' is reached
  ihave #HIx := (show records (F := F) m K ⊢ cellInv ER (sched m) (K (xpeer c, none)) (barCell (xpeer c)) from inv_at m K (xpeer c, none)) $$ Hrec
  ihave #HIy := (show records (F := F) m K ⊢ cellInv ER (sched m) (K (ypeer c, none)) (barCell (ypeer c)) from inv_at m K (ypeer c, none)) $$ Hrec
  ihave #HIc := (show records (F := F) m K ⊢ cellInv ER (sched m) (K (c, none)) (barCell c) from inv_at m K (c, none)) $$ Hrec
  ihave #HRx := (show records (F := F) m K ⊢ reached ER (barCell (xpeer c)) 0 from reached_at m K (xpeer c, none)) $$ Hrec
  ihave #HRy := (show records (F := F) m K ⊢ reached ER (barCell (ypeer c)) 0 from reached_at m K (ypeer c, none)) $$ Hrec
  -- once both units are paid the device owes only arrivals, which lie above its barrier cell
  have hmw := mayWait_bar (F := F) c
  -- the unit to the first-axis neighbour (duty `false`, the own `xrecv` chunks), the unit to the second-axis neighbour
  -- (duty `true`, the result chunks in its half), and the wait for the two units of the own cell, which brings both
  -- neighbours' chunks
  sl_exec
  sl_step
  isplitl [HO]; · iexists _; iexact HO
  iexact Hat_pay1

end Cert.KernelIdeal.Hand

end
-- ==== Proof.StepSendX.lean ====
/-
  Sending a narrowed chunk to the first-axis neighbour.

  The `xsend` chunk is split in two shares: one is lent to the transfer (and comes back with the departure cell's
  round), the other is kept, to be read when the sum is formed.  The neighbour's `xrecv` chunk, received at the
  handshake, is written by the transfer and becomes the payload of the neighbour's arrival cell: that chunk holding this
  device's narrowed chunk.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts and payloads -/

/-- A transfer into any chunk of `xrecv` credits what the transfer into chunk 0 does: the credit depends on the
    buffer, the chunk's shape and the element type only. -/
theorem credit_rvK (k : Fin 32) : (rvK k).view.amount (dsem .xr k) = N16 := rfl

/-- The lent share of the `xsend` chunk, holding the narrowed chunk, is what the departure cell's duty hands back. -/
theorem departed_xs (m : (ℓ : Loc nD τ sig) → Buf (Elt F) ℓ) (c : Dev nD) (k : Fin 32)
    (f : Buf (Elt F) ((sdK k).view.loc (c : Thread nD τ))) (hf : (sdK k).view.read (Elt F) f = schunk m c k) :
    ((sdK k).view.loc (c : Thread nD τ) ↦[(sdK k).view.set]{hL} f : sProp 𝕄) ⊢ (sched m).payload (dcell c .xs k) 0 false := by
  rw [payload_dma]
  show _ ⊢ owns (c : Thread nD τ) (sdK k) hL (schunk m c k)
  rw [← hf]
  exact owns_intro (c : Thread nD τ) (sdK k) hL f

/-- The neighbour's `xrecv` chunk, overwritten whole by what the `xsend` chunk reads, reads as this device's narrowed
    chunk — which is, for the neighbour, its first-axis neighbour's: the arrival cell's payload. -/
theorem landed_xr (m : (ℓ : Loc nD τ sig) → Buf (Elt F) ℓ) (c : Dev nD) (k : Fin 32)
    (f : Buf (Elt F) ((sdK k).view.loc (c : Thread nD τ))) (fd : Buf (Elt F) ((rvK k).view.loc (xpeer c : Thread nD τ)))
    (hf : (sdK k).view.read (Elt F) f = schunk m c k) :
    ((rvK k).view.loc (xpeer c : Thread nD τ) ↦[(rvK k).view.set]{fullShare}
        ((rvK k).view.write (Elt F) fd ((sdK k).view.read (Elt F) f) Finset.univ) : sProp 𝕄)
      ⊢ (sched m).payload (dcell (xpeer c) .xr k) 0 false := by
  rw [payload_dma]
  show _ ⊢ owns (xpeer c : Thread nD τ) (rvK k) fullShare (rchunk m (xpeer c) k)
  have hv : (rvK k).view.read (Elt F) ((rvK k).view.write (Elt F) fd ((sdK k).view.read (Elt F) f) Finset.univ) = rchunk m (xpeer c) k := by
    rw [View.read_write_univ, hf]; unfold rchunk; rw [xpeer_xpeer]
  rw [← hv]
  exact owns_intro (xpeer c : Thread nD τ) (rvK k) fullShare _

/-- The payment of the first-axis arrival of chunk `k` is the `(2 + k)`-th of the device's payments. -/
theorem Oat_sendX (c : Dev nD) (k : Fin 32) :
    Oat c (2 + k.val) = Oat c (2 + k.val + 1) + tallyAt (dcell (xpeer c) .xr k) () N16 := by
  have h := Oat_succ c (2 + k.val) (by have := k.isLt; omega)
  rw [owedAt_x] at h
  exact h

/-! ## The step -/

theorem step_sendX (K : Dev nD × CellIx → ℕ) (c : Dev nD) (k : Fin 32) (W : Waits sig Unit) :
    iprop(records m K ∗ owes (c : Thread nD τ) (Oat c (2 + k.val)) W ∗ C2 m c k ∗ anyK (F := F) (xpeer c) (rvK k))
      ⊢ WP c (sendX (F := F) theArgs c k) (fun _ => iprop((∃ W', owes (c : Thread nD τ) (Oat c (2 + k.val + 1)) W') ∗ C3 m c k)) := by
  have hIs : records (F := F) m K ⊢ cellInv ER (sched m) (K (c, some (.xs, k))) (dcell c .xs k) := inv_at m K (c, some (.xs, k))
  have hIr : records (F := F) m K ⊢ cellInv ER (sched m) (K (xpeer c, some (.xr, k))) (dcell (xpeer c) .xr k) := inv_at m K (xpeer c, some (.xr, k))
  have hRs : records (F := F) m K ⊢ reached ER (dcell c .xs k) 0 := reached_at m K (c, some (.xs, k))
  have hRr : records (F := F) m K ⊢ reached ER (dcell (xpeer c) .xr k) 0 := reached_at m K (xpeer c, some (.xr, k))
  unfold C2 C3 anyK owns sendX
  simp only [Prog.lift]
  show _ ⊢ wp frame (wpE (defs₀ (F := F)) 𝒱₀ (c : Thread nD τ) none) Set.univ
    (.op (.enqueueDma (sdK k) (.remote (xpeer c : Thread nD τ) (rvK k) (dsem .xs k)) (dsem .xr k) _ _ _) .ret) _
  iintro ⟨#Hrec, HO, ⟨Hx, Hst, ⟨%f, %hf, Hsd⟩, Hsm, Ho, Hpos, HtO, HtXs, HtYs, HtXr, HtYr, HcXr, HcYr⟩, ⟨%fd, Hrv⟩⟩
  ihave #HIs := hIs $$ Hrec
  ihave #HIr := hIr $$ Hrec
  ihave #HRs := hRs $$ Hrec
  ihave #HRr := hRr $$ Hrec
  -- one share of the chunk is lent to the transfer, the other kept
  ihave Hsd2 := (pointsTo_share (PosShare.mem_left_op_right fullShare)).1 $$ Hsd
  icases Hsd2 with ⟨HsdL, HsdR⟩
  iapply (Rounds.wp_send_pointsTo 𝒱₀ ER (sched m) (c : Thread nD τ) none
      (κ₁ := K (c, some (.xs, k))) (κ₂ := K (xpeer c, some (.xr, k)))
      (c' := (xpeer c : Thread nD τ)) (src := sdK k) (dst := rvK k) (sS := dsem .xs k) (sem := dsem .xr k)
      (q := hL) (fs := f) (fd := fd) (r₁ := 0) (r₂ := 0) (d₁ := false) (d₂ := false)
      (by rw [duties_dma]; exact Finset.mem_singleton_self _) (by rw [duties_dma]; exact Finset.mem_singleton_self _)
      () () N16 (credit_rvK k) (amount_dma m c .xs k false) (amount_dma m (xpeer c) .xr k false)
      (Oat c (2 + k.val + 1)) (Oat_sendX c k) (W := W)
      (departed_xs m c k f hf) (landed_xr m c k f fd hf)) $$ [HsdL Hrv HO HtXs HtXr]
  · isplitr; · iexact HIs
    isplitr; · iexact HIr
    isplitl [HsdL]; · iexact HsdL
    isplitl [Hrv]; · iexact Hrv
    isplitl [HO]; · iexact HO
    isplitl [HtXs]; · iexact HtXs
    isplitr; · iexact HRs
    isplitl [HtXr]; · iexact HtXr
    iexact HRr
  iintro ⟨HcXs, HO⟩
  iapply (le_wp_ret _ _ _ _ _)
  isplitl [HO]
  · iexists W; iexact HO
  isplitl [Hx]; · iexact Hx
  isplitl [Hst]; · iexact Hst
  isplitl [HsdR]
  · iexists f; isplitr
    · ipureintro; exact hf
    · iexact HsdR
  isplitl [HcXs]; · iexact HcXs
  isplitl [Hsm]; · iexact Hsm
  isplitl [Ho]; · iexact Ho
  isplitl [Hpos]; · iexact Hpos
  isplitl [HtO]; · iexact HtO
  isplitl [HtYs]; · iexact HtYs
  isplitl [HtYr]; · iexact HtYr
  isplitl [HcXr]; · iexact HcXr
  iexact HcYr

end Cert.KernelIdeal.Hand

end
-- ==== Proof.StepReduce.lean ====
/-
  Forming a chunk of the sum and sending it on.

  The device waits for the neighbour's narrowed chunk (owing only second-axis arrivals, which lie above), adds it to its
  own narrowed chunk, stores the sum over the `ssum` chunk, and lends that chunk in two shares: one to the transfer into
  the second-axis neighbour's result (the chunk received at the handshake), one to the copy into its own result.

  Each of the seven operations is stepped once, over an arbitrary rest of the program: the wait, a load through a whole
  scratch buffer of a chunk held by its own elements, the store of the sum, the addressed transfer, the local copy.
  The step is their sequence.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts -/

/-- A chunk of a bf16 scratch buffer credits the amount of chunk 0's. -/
theorem credit_rv (k : Fin 32) : (rvK k).view.dmaCredit = N16 := rfl
/-- So does a chunk of the result, in either half. -/
theorem credit_o (d : Dev nD) (k : Fin 32) : (oK d k).view.dmaCredit = N16 := rfl

/-! ## The positions of a chunk's cells, spelt out -/

theorem posAll_l (c : Dev nD) (k : Fin 32) :
    posAll (F := F) c k (fun f => if f = .l then 1 else 0)
      = iprop(atPos ER (dcell c .l k) 1 ∅ 0 ∗ atPos ER (dcell c .o k) 0 ∅ 0 ∗ atPos ER (dcell c .xs k) 0 ∅ 0
          ∗ atPos ER (dcell c .xr k) 0 ∅ 0 ∗ atPos ER (dcell c .ys k) 0 ∅ 0 ∗ atPos ER (dcell c .yr k) 0 ∅ 0) := rfl
theorem posAll_lxr (c : Dev nD) (k : Fin 32) :
    posAll (F := F) c k (fun f => if f = .l ∨ f = .xr then 1 else 0)
      = iprop(atPos ER (dcell c .l k) 1 ∅ 0 ∗ atPos ER (dcell c .o k) 0 ∅ 0 ∗ atPos ER (dcell c .xs k) 0 ∅ 0
          ∗ atPos ER (dcell c .xr k) 1 ∅ 0 ∗ atPos ER (dcell c .ys k) 0 ∅ 0 ∗ atPos ER (dcell c .yr k) 0 ∅ 0) := rfl

/-! ## What the device still owes once chunk `k`'s sum is sent -/

theorem Oat_y (c : Dev nD) (k : Fin 32) :
    Oat c (34 + k.val) = Oat c (34 + k.val + 1) + tallyAt (dcell (ypeer c) .yr k) () N16 := by
  have h := Oat_succ c (34 + k.val) (by have := k.isLt; omega)
  rw [owedAt_y] at h
  exact h

/-! ## The payloads of the four cells of this step, spelt out -/

theorem chunkPay_xr (c : Dev nD) (k : Fin 32) : chunkPay m c .xr k = owns (c : Thread nD τ) (rvK k) fullShare (rchunk m c k) := rfl
theorem chunkPay_ys (c : Dev nD) (k : Fin 32) : chunkPay m c .ys k = owns (c : Thread nD τ) (smK k) hL (tchunk m c k) := rfl
/-- The arrival cell of the neighbour's neighbour's half is the own half. -/
theorem chunkPay_yr (c : Dev nD) (k : Fin 32) :
    chunkPay m (ypeer c) .yr k = owns (ypeer c : Thread nD τ) (oK c k) fullShare (tchunk m c k) := by
  show owns (ypeer c : Thread nD τ) (oK (ypeer (ypeer c)) k) fullShare (tchunk m (ypeer (ypeer c)) k) = _
  rw [ypeer_ypeer]
theorem chunkPay_o (c : Dev nD) (k : Fin 32) : chunkPay m c .o k
    = iprop(owns (c : Thread nD τ) (oK c k) fullShare (tchunk m c k) ∗ owns (c : Thread nD τ) (smK k) hR (tchunk m c k)) := rfl

/-! ## The wait for the neighbour's chunk -/

/-- The wait on the first-axis arrival cell of chunk `k`: the rest of its one round, whose payload is the own `xrecv`
    chunk holding the neighbour's narrowed chunk. Every payment still owed is a second-axis arrival, above the cell. -/
theorem wp_waitXr (K : Dev nD × CellIx → ℕ) (c : Dev nD) (k : Fin 32) (W : Waits sig Unit) {α : Type} (Q : α → sProp 𝕄)
    {hs : (sdK k).view.WordExact} {hd : (rvK k).view.WordExact}
    (kont : PUnit → Prog (TpuEff nD τ sig (Elt F) Λ₀ .tc) α) :
    iprop(records m K ∗ levAts L lv ∗ owes (c : Thread nD τ) (Oat c (34 + k.val)) W
        ∗ cred (tallyAt (dcell c .xr k) () N16) ∗ atPos ER (dcell c .xr k) 0 ∅ 0)
      ⊢ iprop(((owes (c : Thread nD τ) (Oat c (34 + k.val)) (insert (dsem .xr k, ()) W)
              ∗ atPos ER (dcell c .xr k) 1 ∅ 0 ∗ owns (c : Thread nD τ) (rvK k) fullShare (rchunk m c k))
            -∗ WP c (kont ⟨⟩) Q)
          -∗ WP c (.op (.waitDma2 (semK cc0_scratch7 k) (sdK k) (rvK k) hs hd) kont) Q) := by
  iintro ⟨#Hrec, #Hlev, HO, Hc, Hat⟩ Hk
  iapply (Rounds.wp_wait_rest_token 𝒱₀ ER (sched m) (c : Thread nD τ) none (κ := K (c, some (.xr, k)))
      (w := .waitDma2 (semK cc0_scratch7 k) (sdK k) (rvK k) hs hd)
      (wpE_waitDma2_eq 𝒱₀ (c : Thread nD τ) none Set.univ) (Set.mem_univ _) () (O := Oat c (34 + k.val)) (W := W) (R := 0) (m := 0) (T := ∅)
      (by rw [Nat.zero_add]; exact (expect_dma m c .xr k).symm)) $$ [HO Hc Hat]
  · isplitr; · iapply (inv_at m K (c, some (.xr, k))); iexact Hrec
    isplitl [Hc]; · iexact Hc
    isplitl [HO]; · iexact HO
    isplitr; · iapply (mayWait_xr (F := F) c k (34 + k.val) (Nat.le_add_right _ _)); iexact Hlev
    iexact Hat
  iintro ⟨HO, Hat, -, Hpay⟩
  ihave Hp := (Entails.of_eq ((rest_dma m c .xr k).trans (chunkPay_xr m c k))) $$ Hpay
  iapply Hk
  isplitl [HO]; · iexact HO
  isplitl [Hat]; · iexact Hat
  iexact Hp

/-! ## A load of chunk `k` through a whole scratch buffer -/

/-- The chunk's elements, held at any share by the chunk's own view, serve the load through the whole buffer at the
    chunk's rectangle; what is loaded is what the chunk's view reads. -/
theorem wp_loadK {e : EltTy} (c : Dev nD) (k : Fin 32) (M : Memref sig .tc .vmem S2048x1024 e) (q : PosShare TreeShare)
    (X : Vec F S64x1024 e) {hl : M.view.LoadsAt (rectK k).toLoadRect} {α : Type} (Q : α → sProp 𝕄)
    (kont : Vec F S64x1024 e → Prog (TpuEff nD τ sig (Elt F) Λ₀ .tc) α) :
    owns (c : Thread nD τ) (M.slice (rectK k) (fun _ => rfl)) q X
      ⊢ iprop((owns (c : Thread nD τ) (M.slice (rectK k) (fun _ => rfl)) q X -∗ WP c (kont X) Q)
          -∗ WP c (.op (.load M (rectK k).toLoadRect hl) kont) Q) := by
  unfold owns
  iintro ⟨%f, %hf, H⟩ Hk
  subst hf
  iapply (wp_load_rect 𝒱₀ (c : Thread nD τ) none Set.univ (m := M) (r := rectK k) (Finset.Subset.refl _)) $$ H
  iintro H
  iapply Hk
  iexists f
  isplitr; · ipureintro; rfl
  iexact H

/-- The same of a chunk held at contents of no interest. -/
theorem wp_loadAny {e : EltTy} (c : Dev nD) (k : Fin 32) (M : Memref sig .tc .vmem S2048x1024 e)
    {hl : M.view.LoadsAt (rectK k).toLoadRect} {α : Type} (Q : α → sProp 𝕄)
    (kont : Vec F S64x1024 e → Prog (TpuEff nD τ sig (Elt F) Λ₀ .tc) α) :
    anyK (F := F) c (M.slice (rectK k) (fun _ => rfl))
      ⊢ iprop((∀ X, anyK (F := F) c (M.slice (rectK k) (fun _ => rfl)) -∗ WP c (kont X) Q)
          -∗ WP c (.op (.load M (rectK k).toLoadRect hl) kont) Q) := by
  unfold anyK
  iintro ⟨%f, H⟩ Hk
  iapply (wp_load_rect 𝒱₀ (c : Thread nD τ) none Set.univ (m := M) (r := rectK k) (Finset.Subset.refl _)) $$ H
  iintro H
  iapply Hk $$ %((M.access (rectK k)).read (Elt F) f)
  iexists f
  iexact H

/-! ## The store of the sum -/

/-- Storing `w` over the whole `ssum` chunk, held outright: the chunk then reads `w`. -/
theorem wp_storeSum (c : Dev nD) (k : Fin 32) (w : Vec F S64x1024 .bf16)
    {hx : (smM.access (rectK k)).Stores Finset.univ} {hm : (Finset.univ : Finset (rectK k).shape.Idx) = Finset.univ ∨ ∀ a, (rectK k).stride a = 1}
    {α : Type} (Q : α → sProp 𝕄) (kont : PUnit → Prog (TpuEff nD τ sig (Elt F) Λ₀ .tc) α) :
    anyK (F := F) c (smK k)
      ⊢ iprop((owns (c : Thread nD τ) (smK k) fullShare w -∗ WP c (kont ⟨⟩) Q)
          -∗ WP c (.op (.store smM (rectK k) w Finset.univ hx hm) kont) Q) := by
  unfold anyK
  iintro ⟨%f, H⟩ Hk
  iapply (wp_store 𝒱₀ (c : Thread nD τ) none Set.univ (m := smM) (r := rectK k) (w := w) (Mk := Finset.univ) (S := (smK k).view.set) (f := f)
      (show (smM.access (rectK k)).setOn Finset.univ ⊆ (smK k).view.set from Finset.Subset.refl _)) $$ H
  iintro H
  iapply Hk
  have h : ((smK k).view.loc (c : Thread nD τ) ↦[(smK k).view.set]{fullShare} ((smK k).view.write (Elt F) f w Finset.univ) : sProp 𝕄)
      ⊢ owns (c : Thread nD τ) (smK k) fullShare w := by
    refine (owns_intro (c : Thread nD τ) (smK k) fullShare _).trans (Entails.of_eq ?_)
    rw [View.read_write_univ]
  iapply h
  iexact H

/-! ## The transfer of the sum into the second-axis neighbour's result -/

/-- The addressed copy of the `ssum` chunk (one share lent) into chunk `k` of the own half of the neighbour's result,
    which the neighbour lent at the handshake: it pays the departure cell's duty (the lent share back) and the
    neighbour's arrival cell's duty (that chunk of its result holding the sum), the latter off what is owed. -/
theorem wp_sendY (K : Dev nD × CellIx → ℕ) (c : Dev nD) (k : Fin 32) (W : Waits sig Unit)
    (fs : Buf (Elt F) ((smK k).view.loc (c : Thread nD τ))) (hfs : (smK k).view.read (Elt F) fs = tchunk m c k)
    {hsc : (oK c k : Memref sig (Dev.tc (ypeer c) : Thread nD τ).2.kind .hbm S64x1024 .bf16).view.ref.isScScratch = false}
    {hsrc : (smK k).view.WordExact} {hdst : (oK c k).view.WordExact}
    {hsem : DmaTarget.Typed .vmem (dsem .yr k) (.remote (Dev.tc (ypeer c) : Thread nD τ) (oK c k) (dsem .ys k) hsc)}
    {α : Type} (Q : α → sProp 𝕄) (kont : PUnit → Prog (TpuEff nD τ sig (Elt F) Λ₀ .tc) α) :
    iprop(records m K ∗ ((smK k).view.loc (c : Thread nD τ) ↦[(smK k).view.set]{hL} fs) ∗ anyK (F := F) (ypeer c) (oK c k)
        ∗ owes (c : Thread nD τ) (Oat c (34 + k.val)) W
        ∗ dutyTok ER (dcell c .ys k) 0 false ∗ dutyTok ER (dcell (ypeer c) .yr k) 0 false)
      ⊢ iprop(((cred (tallyAt (dcell c .ys k) () N16) ∗ owes (c : Thread nD τ) (Oat c (34 + k.val + 1)) W) -∗ WP c (kont ⟨⟩) Q)
          -∗ WP c (.op (.enqueueDma (smK k) (.remote (Dev.tc (ypeer c) : Thread nD τ) (oK c k) (dsem .ys k) hsc) (dsem .yr k) hsrc hdst hsem) kont) Q) := by
  unfold anyK
  iintro ⟨#Hrec, Hsrc, ⟨%fd, Hdst⟩, HO, Ht1, Ht2⟩ Hk
  iapply (Rounds.wp_send_pointsTo 𝒱₀ ER (sched m) (c : Thread nD τ) none (c' := (ypeer c : Thread nD τ)) (src := smK k) (dst := oK c k)
      (sS := dsem .ys k) (sem := dsem .yr k) (q := hL) (fs := fs) (fd := fd)
      (κ₁ := K (c, some (.ys, k))) (κ₂ := K (ypeer c, some (.yr, k))) (r₁ := 0) (r₂ := 0) (d₁ := false) (d₂ := false)
      (by rw [duties_dma]; exact Finset.mem_singleton_self _) (by rw [duties_dma]; exact Finset.mem_singleton_self _)
      () () N16 (credit_o c k) (amount_dma m c .ys k false) (amount_dma m (ypeer c) .yr k false)
      (Oat c (34 + k.val + 1)) (Oat_y c k) (W := W)
      (by
        rw [payload_dma, chunkPay_ys]
        refine (owns_intro (c : Thread nD τ) (smK k) hL fs).trans (Entails.of_eq ?_)
        rw [hfs])
      (by
        rw [payload_dma, chunkPay_yr]
        refine (owns_intro (ypeer c : Thread nD τ) (oK c k) fullShare _).trans (Entails.of_eq ?_)
        rw [View.read_write_univ, hfs])) $$ [Hsrc Hdst HO Ht1 Ht2]
  · isplitr; · iapply (inv_at m K (c, some (.ys, k))); iexact Hrec
    isplitr; · iapply (inv_at m K (ypeer c, some (.yr, k))); iexact Hrec
    isplitl [Hsrc]; · iexact Hsrc
    isplitl [Hdst]; · iexact Hdst
    isplitl [HO]; · iexact HO
    isplitl [Ht1]; · iexact Ht1
    isplitr; · iapply (reached_at m K (c, some (.ys, k))); iexact Hrec
    isplitl [Ht2]; · iexact Ht2
    iapply (reached_at m K (ypeer c, some (.yr, k))); iexact Hrec
  iexact Hk

/-! ## The copy of the sum into the own result -/

/-- The local copy of the `ssum` chunk (the other share lent) into chunk `k` of the own half of the own result: it pays
    the copy cell's duty, whose payload is that chunk of the result holding the sum and the lent share back. -/
theorem wp_copyO (K : Dev nD × CellIx → ℕ) (c : Dev nD) (k : Fin 32)
    (fs : Buf (Elt F) ((smK k).view.loc (c : Thread nD τ))) (hfs : (smK k).view.read (Elt F) fs = tchunk m c k)
    {hsrc : (smK k).view.WordExact} {hdst : (oK c k).view.WordExact}
    {hsem : DmaTarget.Typed .vmem (dsem .o k) (.here (oK c k) : DmaTarget nD τ sig .tc .hbm S64x1024 .bf16)}
    {α : Type} (Q : α → sProp 𝕄) (kont : PUnit → Prog (TpuEff nD τ sig (Elt F) Λ₀ .tc) α) :
    iprop(records m K ∗ ((smK k).view.loc (c : Thread nD τ) ↦[(smK k).view.set]{hR} fs) ∗ anyK (F := F) c (oK c k)
        ∗ dutyTok ER (dcell c .o k) 0 false)
      ⊢ iprop((cred (tallyAt (dcell c .o k) () N16) -∗ WP c (kont ⟨⟩) Q)
          -∗ WP c (.op (.enqueueDma (smK k) (.here (oK c k)) (dsem .o k) hsrc hdst hsem) kont) Q) := by
  unfold anyK
  iintro ⟨#Hrec, Hsrc, ⟨%fd, Hdst⟩, Ht⟩ Hk
  iapply (Rounds.wp_copy_pointsTo 𝒱₀ ER (sched m) (c : Thread nD τ) none (src := smK k) (dst := oK c k) (sem := dsem .o k)
      (q := hR) (fs := fs) (fd := fd) (κ := K (c, some (.o, k))) (r := 0) (d := false)
      (by rw [duties_dma]; exact Finset.mem_singleton_self _) () N16 (credit_o c k) (amount_dma m c .o k false)
      (by
        rw [payload_dma, chunkPay_o]
        refine BIClass.sep_mono ?_ ?_
        · refine (owns_intro (c : Thread nD τ) (oK c k) fullShare _).trans (Entails.of_eq ?_)
          rw [View.read_write_univ, hfs]
        · refine (owns_intro (c : Thread nD τ) (smK k) hR fs).trans (Entails.of_eq ?_)
          rw [hfs])) $$ [Hsrc Hdst Ht]
  · isplitr; · iapply (inv_at m K (c, some (.o, k))); iexact Hrec
    isplitl [Hsrc]; · iexact Hsrc
    isplitl [Hdst]; · iexact Hdst
    isplitl [Ht]; · iexact Ht
    iapply (reached_at m K (c, some (.o, k))); iexact Hrec
  iexact Hk

/-! ## The step -/

/-- The sum's chunk, held whole, in the two shares it is lent in. -/
theorem owns_halves (c : Dev nD) (k : Fin 32) (X : Vec F S64x1024 .bf16) :
    (owns (c : Thread nD τ) (smK k) fullShare X : sProp 𝕄)
      ⊢ iprop(∃ fs : Buf (Elt F) ((smK k).view.loc (c : Thread nD τ)), ⌜(smK k).view.read (Elt F) fs = X⌝
          ∗ ((smK k).view.loc (c : Thread nD τ) ↦[(smK k).view.set]{hL} fs) ∗ ((smK k).view.loc (c : Thread nD τ) ↦[(smK k).view.set]{hR} fs)) := by
  unfold owns
  iintro ⟨%fs, %hfs, H⟩
  ihave H' := (pointsTo_share (PosShare.mem_left_op_right fullShare)).1 $$ H
  iexists fs
  isplitr; · ipureintro; exact hfs
  iexact H'

theorem step_reduceSend (K : Dev nD × CellIx → ℕ) (c : Dev nD) (k : Fin 32) (W : Waits sig Unit) :
    iprop(records m K ∗ levAts L lv ∗ owes (c : Thread nD τ) (Oat c (34 + k.val)) W ∗ C3 m c k ∗ anyK (F := F) (ypeer c) (oK c k))
      ⊢ WP c (reduceSend (F := F) theArgs c k) (fun _ => iprop((∃ W', owes (c : Thread nD τ) (Oat c (34 + k.val + 1)) W') ∗ C4 m c k)) := by
  unfold reduceSend C3 C4
  rw [posAll_l, posAll_lxr]
  simp only [Prog.lift, Prog.bind_op, Prog.bind_ret, Prog.pure_eq_ret]
  iintro ⟨#Hrec, #Hlev, HO, ⟨Hx, Hst, Hsd, Hcxs, Hsm, Ho, ⟨Pl, Po, Pxs, Pxr, Pys, Pyr⟩, Tko, Tkys, Tkyr, Hcxr, Hcyr⟩, Hoy⟩
  -- the wait: the neighbour's chunk
  iapply (wp_waitXr m K c k W) $$ [HO Hcxr Pxr]
  · isplitr; · iexact Hrec
    isplitr; · iexact Hlev
    isplitl [HO]; · iexact HO
    isplitl [Hcxr]; · iexact Hcxr
    iexact Pxr
  iintro ⟨HO, Pxr, Hrv⟩
  -- the three loads
  iapply (wp_loadK c k sdM hR (schunk m c k)) $$ Hsd; iintro Hsd
  iapply (wp_loadK c k rvM fullShare (rchunk m c k)) $$ Hrv; iintro Hrv
  iapply (wp_loadAny c k smM) $$ Hsm; iintro %X0 Hsm
  -- the store of the sum, then its two shares
  iapply (wp_storeSum c k (addPay (schunk m c k) (rchunk m c k))) $$ Hsm; iintro Hsm
  ihave Hsm' := (owns_halves c k (addPay (schunk m c k) (rchunk m c k))) $$ Hsm
  icases Hsm' with ⟨%fs, %hfs, HsmL, HsmR⟩
  -- the transfer to the second-axis neighbour
  iapply (wp_sendY m K c k (insert (dsem .xr k, ()) W) fs hfs) $$ [HsmL Hoy HO Tkys Tkyr]
  · isplitr; · iexact Hrec
    isplitl [HsmL]; · iexact HsmL
    isplitl [Hoy]; · iexact Hoy
    isplitl [HO]; · iexact HO
    isplitl [Tkys]; · iexact Tkys
    iexact Tkyr
  iintro ⟨Hcys, HO⟩
  -- the copy into the own result
  iapply (wp_copyO m K c k fs hfs) $$ [HsmR Ho Tko]
  · isplitr; · iexact Hrec
    isplitl [HsmR]; · iexact HsmR
    isplitl [Ho]; · iexact Ho
    iexact Tko
  iintro Hco
  iapply (le_wp_ret _ _ _ _ _)
  isplitl [HO]; · iexists _; iexact HO
  isplitl [Hx]; · iexact Hx
  isplitl [Hst]; · iexact Hst
  isplitl [Hsd]; · iexact Hsd
  isplitl [Hrv]; · iexact Hrv
  isplitl [Hcxs]; · iexact Hcxs
  isplitl [Hcys]; · iexact Hcys
  isplitl [Hco]; · iexact Hco
  isplitl [Pl Po Pxs Pxr Pys Pyr]
  · isplitl [Pl]; · iexact Pl
    isplitl [Po]; · iexact Po
    isplitl [Pxs]; · iexact Pxs
    isplitl [Pxr]; · iexact Pxr
    isplitl [Pys]; · iexact Pys
    iexact Pyr
  iexact Hcyr

/-- info: 'Cert.KernelIdeal.Hand.step_reduceSend' depends on axioms: [propext, Classical.choice, Quot.sound] -/
#guard_msgs in #print axioms step_reduceSend

end Cert.KernelIdeal.Hand

end
-- ==== Proof.StepDrain.lean ====
/-
  Draining a chunk's four transfers, and closing its six cells.

  Owing nothing any more, the device waits for the rest of the one round of the chunk's two departure cells (the lent
  shares of the `xsend` and `ssum` chunks come back), of its second-axis arrival cell (the result's chunk in the
  neighbour's half, holding the neighbour's sum) and of its copy cell (the result's own chunk holding the own sum, and the
  other share of the `ssum` chunk).  The six cells of the chunk have then no round left and are closed: their counters,
  at zero, are the device's again.
-/
import proofs.«900132_g7700000000000133_dist_ar_v7x_xy2x2_x_m4096_n1024_bf16_1_alg».proof.Proof.Runs

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts: the credit of a chunk's transfer depends on the core's kind, the shape and the element type only -/

theorem credit_sd (k : Fin 32) : (sdK k).view.dmaCredit = N16 := rfl
theorem credit_sm (k : Fin 32) : (smK k).view.dmaCredit = N16 := rfl
theorem drain_credit_o (d : Dev nD) (k : Fin 32) : (oK d k).view.dmaCredit = N16 := rfl
theorem amt_xs : amt .xs = N16 := rfl
theorem amt_ys : amt .ys = N16 := rfl
theorem amt_yr : amt .yr = N16 := rfl
theorem amt_o : amt .o = N16 := rfl

/-! ## The schedule's tables at a chunk's cell, as the records name it, and the payloads spelt out -/

theorem expect_k (c : Dev nD) (f : Fam) (k : Fin 32) : (sched (F := F) m).expect (kcell (c, some (f, k))) 0 = amt f := expect_dma m c f k
theorem duties_k (c : Dev nD) (f : Fam) (k : Fin 32) : (sched (F := F) m).duties (kcell (c, some (f, k))) 0 = {false} := duties_dma m c f k
theorem payload_k (c : Dev nD) (f : Fam) (k : Fin 32) (d : Bool) :
    (sched (F := F) m).payload (kcell (c, some (f, k))) 0 d = chunkPay m c f k := payload_dma m c f k d
theorem chunkPay_xs (c : Dev nD) (k : Fin 32) : chunkPay m c .xs k = owns (c : Thread nD τ) (sdK k) hL (schunk m c k) := rfl
theorem drain_chunkPay_ys (c : Dev nD) (k : Fin 32) : chunkPay m c .ys k = owns (c : Thread nD τ) (smK k) hL (tchunk m c k) := rfl
theorem drain_chunkPay_yr (c : Dev nD) (k : Fin 32) :
    chunkPay m c .yr k = owns (c : Thread nD τ) (oK (ypeer c) k) fullShare (tchunk m (ypeer c) k) := rfl
theorem drain_chunkPay_o (c : Dev nD) (k : Fin 32) :
    chunkPay m c .o k = iprop(owns (c : Thread nD τ) (oK c k) fullShare (tchunk m c k) ∗ owns (c : Thread nD τ) (smK k) hR (tchunk m c k)) := rfl

attribute [local sl_rounds] duties_dma duties_later amount_dma expect_dma payload_dma rest_dma chunkPay_xs drain_chunkPay_ys drain_chunkPay_yr drain_chunkPay_o
  expect_k duties_k payload_k amt_xs amt_ys amt_yr amt_o credit_sd credit_sm drain_credit_o

/-! ## Two halves of a chunk -/

/-- Two halves of a chunk that read the same vector are the chunk held whole at that vector: the two contents agree on
    the chunk's elements, so the second half may be restated at the first's contents, and the shares add up. -/
theorem drain_owns_halves (c : Dev nD) (M : Memref sig .tc .vmem S64x1024 .bf16) (X : Vec F S64x1024 .bf16) :
    iprop(owns (c : Thread nD τ) M hL X ∗ owns (c : Thread nD τ) M hR X) ⊢ (owns (c : Thread nD τ) M fullShare X : sProp 𝕄) := by
  unfold owns
  iintro ⟨⟨%f, %hf, Hf⟩, ⟨%g, %hg, Hg⟩⟩
  ihave H := (persistent_entails_right pointsTo_agree) $$ [Hf Hg]
  · isplitl [Hf] <;> iassumption
  icases H with ⟨%hag, Hf, Hg⟩
  iexists f
  isplitr; · ipureintro; exact hf
  have hcg : (M.view.loc (c : Thread nD τ) ↦[M.view.set]{hR} g : sProp 𝕄) = (M.view.loc (c : Thread nD τ) ↦[M.view.set]{hR} f) :=
    pointsTo_congr (fun i hi => ((hag i (Finset.mem_inter.mpr ⟨hi, hi⟩)).1).symm)
  ihave Hg' := (Entails.of_eq hcg) $$ Hg
  iapply (show iprop((M.view.loc (c : Thread nD τ) ↦[M.view.set]{hL} f) ∗ (M.view.loc (c : Thread nD τ) ↦[M.view.set]{hR} f))
      ⊢ (M.view.loc (c : Thread nD τ) ↦[M.view.set]{fullShare} f : sProp 𝕄) from (pointsTo_share (PosShare.mem_left_op_right fullShare)).2)
  isplitl [Hf]; · iexact Hf
  iexact Hg'

/-! ## Positions, and closing a cell -/

/-- The positions of a chunk's cells once its load and its first-axis arrival have been waited for. -/
theorem posAll_C4 (c : Dev nD) (k : Fin 32) :
    posAll (F := F) c k (fun f => if f = .l ∨ f = .xr then 1 else 0)
      = iprop(atPos ER (dcell c .l k) 1 ∅ 0 ∗ atPos ER (dcell c .o k) 0 ∅ 0 ∗ atPos ER (dcell c .xs k) 0 ∅ 0
          ∗ atPos ER (dcell c .xr k) 1 ∅ 0 ∗ atPos ER (dcell c .ys k) 0 ∅ 0 ∗ atPos ER (dcell c .yr k) 0 ∅ 0) := rfl

/-- A chunk's cell at round 1, where no round has a duty any more, is closed: its counter, at zero, is the device's. -/
theorem close_chunk_cell (K : Dev nD × CellIx → ℕ) (c : Dev nD) (f : Fam) (k : Fin 32) :
    iprop(records m K ∗ atPos ER (dcell c f k) 1 ∅ 0) ⊢ (iprop(|={Set.univ}=> semVal (dcell c f k) 0) : sProp 𝕄) := by
  iintro ⟨#Hrec, Hat⟩
  ihave #HI := (inv_at m K (c, some (f, k))) $$ Hrec
  iapply (Rounds.cell_close ER (sched m) (Set.mem_univ (K (c, some (f, k)))) (fun h => h) (R := 1) (duties_later m (dcell c f k)))
  isplitr; · iexact HI
  iexact Hat

/-- Draining chunk `k`: the four waits are for the whole of the one round of the `xs`, `ys`, `yr` and `o` cells, each
    covered by the credit in hand and allowed because the device owes nothing; their payloads bring back the lent halves
    and the result's two chunks; the halves are rejoined and the six cells, all at round 1, closed. -/
theorem step_drain (K : Dev nD × CellIx → ℕ) (c : Dev nD) (k : Fin 32) (W : Waits sig Unit) :
    iprop(records m K ∗ owes (c : Thread nD τ) 0 W ∗ C4 m c k)
      ⊢ WP c (drain (F := F) theArgs c k) (fun _ => iprop((∃ W', owes (c : Thread nD τ) 0 W') ∗ C5 m c k)) := by
  unfold WP drain
  simp only [Prog.lift, Prog.bind_op, Prog.bind_ret, Prog.pure_eq_ret]
  unfold C4
  rw [posAll_C4]
  iintro ⟨#Hrec, HO, Hx, Hst, Hsd, Hrv, Hcxs, Hcys, Hco, ⟨Hpl, Hpo, Hpxs, Hpxr, Hpys, Hpyr⟩, Hcyr⟩
  ihave #Ixs := (inv_at m K (c, some (.xs, k))) $$ Hrec
  ihave #Iys := (inv_at m K (c, some (.ys, k))) $$ Hrec
  ihave #Iyr := (inv_at m K (c, some (.yr, k))) $$ Hrec
  ihave #Io := (inv_at m K (c, some (.o, k))) $$ Hrec
  -- the four waits: each cell's payload comes back, each position moves to round 1
  sl_exec
  -- the two halves of the `xsend` chunk, and of the `ssum` chunk, are whole chunks again
  ihave Hsdf := (drain_owns_halves c (sdK k) (schunk m c k)) $$ [Hpxs_pay1 Hsd]
  · isplitl [Hpxs_pay1] <;> iassumption
  ihave Hsmf := (drain_owns_halves c (smK k) (tchunk m c k)) $$ [Hpys_pay1 Hpo_pay2]
  · isplitl [Hpys_pay1] <;> iassumption
  -- the chunk's six cells, all at round 1, are closed
  imod (close_chunk_cell m K c .l k) $$ [Hpl] with Hzl
  · isplitr; · iexact Hrec
    iexact Hpl
  imod (close_chunk_cell m K c .o k) $$ [Hpo] with Hzo
  · isplitr; · iexact Hrec
    iexact Hpo
  imod (close_chunk_cell m K c .xs k) $$ [Hpxs] with Hzxs
  · isplitr; · iexact Hrec
    iexact Hpxs
  imod (close_chunk_cell m K c .xr k) $$ [Hpxr] with Hzxr
  · isplitr; · iexact Hrec
    iexact Hpxr
  imod (close_chunk_cell m K c .ys k) $$ [Hpys] with Hzys
  · isplitr; · iexact Hrec
    iexact Hpys
  imod (close_chunk_cell m K c .yr k) $$ [Hpyr] with Hzyr
  · isplitr; · iexact Hrec
    iexact Hpyr
  rw [wp_ret]; imodintro
  isplitl [HO]; · iexists _; iexact HO
  unfold C5
  isplitl [Hx]; · iexact Hx
  isplitl [Hst]; · iexact Hst
  isplitl [Hsdf]; · iexact Hsdf
  isplitl [Hrv]; · iexact Hrv
  isplitl [Hsmf]; · iexact Hsmf
  isplitl [Hpo_pay1]; · iexact Hpo_pay1
  isplitl [Hpyr_pay1]; · iexact Hpyr_pay1
  isplitl [Hzl]; · iexact Hzl
  isplitl [Hzo]; · iexact Hzo
  isplitl [Hzxs]; · iexact Hzxs
  isplitl [Hzxr]; · iexact Hzxr
  isplitl [Hzys]; · iexact Hzys
  iexact Hzyr

/-- info: 'Cert.KernelIdeal.Hand.step_drain' depends on axioms: [propext, Classical.choice, Quot.sound] -/
#guard_msgs in #print axioms step_drain

end Cert.KernelIdeal.Hand

end
-- ==== Proof.Phases.lean ====
/-
  The body, phase by phase, from the per-chunk steps.

  Five runs over the chunks: start the 32 loads; (chunk 0 loaded and narrowed, the handshake, chunk 0 sent;) load, narrow
  and send chunks 1 … 31; reduce and send on chunks 0 … 31; drain chunks 0 … 31.  Between the runs the chunks' resources
  are regrouped: the neighbours' chunks received at the handshake are dealt to the chunks that will write them.  What the
  device owes goes down by one payment at each barrier signal, each first-axis send and each second-axis send.
-/
import proofs.«900132_g7700000000000133_dist_ar_v7x_xy2x2_x_m4096_n1024_bf16_1_alg».proof.Proof.BodySpec
import proofs.«900132_g7700000000000133_dist_ar_v7x_xy2x2_x_m4096_n1024_bf16_1_alg».proof.Proof.StepLoad
import proofs.«900132_g7700000000000133_dist_ar_v7x_xy2x2_x_m4096_n1024_bf16_1_alg».proof.Proof.StepBar
import proofs.«900132_g7700000000000133_dist_ar_v7x_xy2x2_x_m4096_n1024_bf16_1_alg».proof.Proof.StepSendX
import proofs.«900132_g7700000000000133_dist_ar_v7x_xy2x2_x_m4096_n1024_bf16_1_alg».proof.Proof.StepReduce
import proofs.«900132_g7700000000000133_dist_ar_v7x_xy2x2_x_m4096_n1024_bf16_1_alg».proof.Proof.StepDrain

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sequencing -/

/-- One piece after another. -/
theorem wp_then (c : Dev nD) {α β : Type} (p : Prog (TpuEff nD τ sig (Elt F) Λ₀ .tc) α) (k : α → Prog (TpuEff nD τ sig (Elt F) Λ₀ .tc) β)
    (P : sProp 𝕄) (Q : α → sProp 𝕄) (R : β → sProp 𝕄) (h₁ : P ⊢ WP c p Q) (h₂ : ∀ a, Q a ⊢ WP c (k a) R) : P ⊢ WP c (p >>= k) R := by
  show P ⊢ wp frame _ Set.univ (p >>= k) R
  rw [wp_bind]
  exact h₁.trans (wp_mono _ _ _ h₂)

/-- A piece runs beside resources it does not touch, and its post may be weakened. -/
theorem wp_use (c : Dev nD) {α : Type} (p : Prog (TpuEff nD τ sig (Elt F) Λ₀ .tc) α) (P Fr : sProp 𝕄) (Q Q' : α → sProp 𝕄)
    (h : P ⊢ WP c p Q) (hQ : ∀ a, iprop(Q a ∗ Fr) ⊢ Q' a) : iprop(P ∗ Fr) ⊢ WP c p Q' :=
  ((sep_mono_left h).trans (wp_frame_r _ _ _)).trans (wp_mono _ _ _ hQ)

/-- The persistent part of a device's knowledge: the cells' invariants and the levels. -/
abbrev known (K : Dev nD × CellIx → ℕ) : sProp 𝕄 := iprop(records m K ∗ levAts L lv)

/-- Pairing two families over the chunks. -/
theorem upTo_pair (A B B' : Fin 32 → sProp 𝕄) (i : ℕ) (hi : i = 0 ∨ True) :
    iprop(bigSep Finset.univ B ∗ bigSep Finset.univ B') = bigSep Finset.univ fun k : Fin 32 => iprop(B k ∗ B' k) :=
  (bigSep_sep' Finset.univ B B').symm

/-! ## The states between the runs -/

/-- The loads started. -/
def S1 (K : Dev nD × CellIx → ℕ) (c : Dev nD) : sProp 𝕄 :=
  iprop(known m K ∗ (∃ W, owes (c : Thread nD τ) (Oat c 0) W) ∗ barStart (F := F) c ∗ lendX (F := F) c ∗ lendY (F := F) c
    ∗ bigSep Finset.univ fun k : Fin 32 => C1 (F := F) c k)
/-- Chunk 0 loaded and narrowed. -/
def S2 (K : Dev nD × CellIx → ℕ) (c : Dev nD) : sProp 𝕄 :=
  iprop(known m K ∗ (∃ W, owes (c : Thread nD τ) (Oat c 0) W) ∗ barStart (F := F) c ∗ lendX (F := F) c ∗ lendY (F := F) c
    ∗ upTo (fun k => C2 m c k) (fun k => C1 (F := F) c k) 1)
/-- The handshake done: the neighbours' chunks in hand, the two barrier units paid. -/
def S3 (K : Dev nD × CellIx → ℕ) (c : Dev nD) : sProp 𝕄 :=
  iprop(known m K ∗ (∃ W, owes (c : Thread nD τ) (Oat c 2) W) ∗ lendX (F := F) (xpeer c) ∗ lendY (F := F) (ypeer c)
    ∗ upTo (fun k => C2 m c k) (fun k => C1 (F := F) c k) 1)
/-- Chunks below `i` sent on the first axis; the others loading, each beside the neighbour's chunk it will write. -/
def S4 (K : Dev nD × CellIx → ℕ) (c : Dev nD) (i : ℕ) : sProp 𝕄 :=
  iprop((known m K ∗ ∃ W, owes (c : Thread nD τ) (Oat c (2 + i)) W) ∗ lendY (F := F) (ypeer c)
    ∗ upTo (fun k => C3 m c k) (fun k => iprop(C1 (F := F) c k ∗ anyK (F := F) (xpeer c) (rvK k))) i)
/-- Chunks below `i` reduced and sent on; the others sent on the first axis, each beside the neighbour's result chunk. -/
def S5 (K : Dev nD × CellIx → ℕ) (c : Dev nD) (i : ℕ) : sProp 𝕄 :=
  iprop((known m K ∗ ∃ W, owes (c : Thread nD τ) (Oat c (34 + i)) W)
    ∗ upTo (fun k => C4 m c k) (fun k => iprop(C3 m c k ∗ anyK (F := F) (ypeer c) (oK c k))) i)
/-- Chunks below `i` drained. -/
def S6 (K : Dev nD × CellIx → ℕ) (c : Dev nD) (i : ℕ) : sProp 𝕄 :=
  iprop((known m K ∗ ∃ W, owes (c : Thread nD τ) 0 W) ∗ upTo (fun k => C5 m c k) (fun k => C4 m c k) i)

/-! ## The runs -/

/-- Start the 32 loads. -/
theorem run_loads (K : Dev nD × CellIx → ℕ) (c : Dev nD) :
    bodyPre m K c ⊢ WP c (runFrom (ldEnq (F := F) theArgs c) 0 32) (fun _ => S1 m K c) := by
  have h := wp_chunks c (ldEnq (F := F) theArgs c) (fun _ => records m K) (fun k => C1 (F := F) c k) (fun k => C0 m c k)
    (fun k => by
      iintro ⟨#HR, HC⟩
      iapply (wp_use c _ (iprop(records m K ∗ C0 m c k)) (records m K) _ _ (step_ldEnq m K c k) (fun _ => sep_comm.1))
      isplitl [HC]
      · isplitr; · iexact HR
        iexact HC
      · iexact HR) 32 0 (by omega)
  rw [upTo_zero, Nat.zero_add, upTo_all] at h
  unfold bodyPre S1 known
  iintro ⟨#HR, #HL, HO, HB, HX, HY, HC⟩
  iapply (wp_wand_r _ _ _)
  isplitl [HC]
  · iapply h
    isplitr; · iexact HR
    iexact HC
  · iintro %_ ⟨-, HC⟩
    isplitr; · (isplitr <;> iassumption)
    isplitl [HO]; · iexact HO
    isplitl [HB]; · iexact HB
    isplitl [HX]; · iexact HX
    isplitl [HY]; · iexact HY
    iexact HC

/-- Load, narrow and send one chunk. -/
theorem chunk_loadSend (K : Dev nD × CellIx → ℕ) (c : Dev nD) (k : Fin 32) :
    iprop((known m K ∗ ∃ W, owes (c : Thread nD τ) (Oat c (2 + k.val)) W) ∗ (C1 (F := F) c k ∗ anyK (F := F) (xpeer c) (rvK k)))
      ⊢ WP c (do ldNarrow (F := F) theArgs c k; sendX (F := F) theArgs c k)
          (fun _ => iprop((known m K ∗ ∃ W, owes (c : Thread nD τ) (Oat c (2 + (k.val + 1))) W) ∗ C3 m c k)) := by
  show _ ⊢ wp frame _ Set.univ (ldNarrow (F := F) theArgs c k >>= fun _ => sendX (F := F) theArgs c k) _
  rw [wp_bind]
  iintro ⟨⟨⟨#HR, #HL⟩, ⟨%W, HO⟩⟩, HC, HA⟩
  iapply (wp_wand_r _ _ _)
  isplitl [HO HC]
  · iapply (step_ldNarrow m K c k (Oat c (2 + k.val)) W (mayWait_low c .l k ⟨by decide, by decide⟩ (2 + k.val)))
    isplitr; · iexact HR
    isplitr; · iexact HL
    isplitl [HO] <;> iassumption
  · iintro %_ ⟨⟨%W', HO⟩, HC⟩
    iapply (wp_wand_r _ _ _)
    isplitl [HO HC HA]
    · iapply (step_sendX m K c k W')
      isplitr; · iexact HR
      isplitl [HO]; · iexact HO
      isplitl [HC] <;> iassumption
    · iintro %_ ⟨HO, HC⟩
      isplitl [HO]
      · isplitr; · (isplitr <;> iassumption)
        iexact HO
      · iexact HC

/-- Chunks 1 … 31 loaded, narrowed and sent. -/
theorem run_x (K : Dev nD × CellIx → ℕ) (c : Dev nD) :
    S4 m K c 1 ⊢ WP c (runFrom (fun k => do ldNarrow (F := F) theArgs c k; sendX (F := F) theArgs c k) 1 31) (fun _ => S4 m K c 32) := by
  have h := wp_chunks c (fun k => do ldNarrow (F := F) theArgs c k; sendX (F := F) theArgs c k)
    (fun i => iprop(known m K ∗ ∃ W, owes (c : Thread nD τ) (Oat c (2 + i)) W))
    (fun k => C3 m c k) (fun k => iprop(C1 (F := F) c k ∗ anyK (F := F) (xpeer c) (rvK k)))
    (fun k => chunk_loadSend m K c k) 31 1 (by omega)
  unfold S4
  iintro ⟨HR, HY, HU⟩
  iapply (wp_use c _ _ (lendY (F := F) (ypeer c)) _ _ h (fun _ => by
    iintro ⟨⟨HR, HU⟩, HY⟩
    isplitl [HR]; · iexact HR
    isplitl [HY]; · iexact HY
    iexact HU))
  isplitl [HR HU]
  · isplitl [HR] <;> iassumption
  · iexact HY

/-- Reduce and send on one chunk. -/
theorem chunk_reduce (K : Dev nD × CellIx → ℕ) (c : Dev nD) (k : Fin 32) :
    iprop((known m K ∗ ∃ W, owes (c : Thread nD τ) (Oat c (34 + k.val)) W) ∗ (C3 m c k ∗ anyK (F := F) (ypeer c) (oK c k)))
      ⊢ WP c (reduceSend (F := F) theArgs c k)
          (fun _ => iprop((known m K ∗ ∃ W, owes (c : Thread nD τ) (Oat c (34 + (k.val + 1))) W) ∗ C4 m c k)) := by
  iintro ⟨⟨⟨#HR, #HL⟩, ⟨%W, HO⟩⟩, HC, HA⟩
  iapply (wp_wand_r _ _ _)
  isplitl [HO HC HA]
  · iapply (step_reduceSend m K c k W)
    isplitr; · iexact HR
    isplitr; · iexact HL
    isplitl [HO]; · iexact HO
    isplitl [HC] <;> iassumption
  · iintro %_ ⟨HO, HC⟩
    isplitl [HO]
    · isplitr; · (isplitr <;> iassumption)
      iexact HO
    · iexact HC

theorem run_y (K : Dev nD × CellIx → ℕ) (c : Dev nD) :
    S5 m K c 0 ⊢ WP c (runFrom (reduceSend (F := F) theArgs c) 0 32) (fun _ => S5 m K c 32) := by
  have h := wp_chunks c (reduceSend (F := F) theArgs c)
    (fun i => iprop(known m K ∗ ∃ W, owes (c : Thread nD τ) (Oat c (34 + i)) W))
    (fun k => C4 m c k) (fun k => iprop(C3 m c k ∗ anyK (F := F) (ypeer c) (oK c k)))
    (fun k => chunk_reduce m K c k) 32 0 (by omega)
  rw [Nat.zero_add] at h
  exact h

/-- Drain one chunk. -/
theorem chunk_drain (K : Dev nD × CellIx → ℕ) (c : Dev nD) (k : Fin 32) :
    iprop((known m K ∗ ∃ W, owes (c : Thread nD τ) 0 W) ∗ C4 m c k)
      ⊢ WP c (drain (F := F) theArgs c k) (fun _ => iprop((known m K ∗ ∃ W, owes (c : Thread nD τ) 0 W) ∗ C5 m c k)) := by
  iintro ⟨⟨⟨#HR, #HL⟩, ⟨%W, HO⟩⟩, HC⟩
  iapply (wp_wand_r _ _ _)
  isplitl [HO HC]
  · iapply (step_drain m K c k W)
    isplitr; · iexact HR
    isplitl [HO] <;> iassumption
  · iintro %_ ⟨HO, HC⟩
    isplitl [HO]
    · isplitr; · (isplitr <;> iassumption)
      iexact HO
    · iexact HC

theorem run_d (K : Dev nD × CellIx → ℕ) (c : Dev nD) :
    S6 m K c 0 ⊢ WP c (runFrom (drain (F := F) theArgs c) 0 32) (fun _ => S6 m K c 32) := by
  have h := wp_chunks c (drain (F := F) theArgs c)
    (fun _ => iprop(known m K ∗ ∃ W, owes (c : Thread nD τ) 0 W))
    (fun k => C5 m c k) (fun k => C4 m c k)
    (fun k => chunk_drain m K c k) 32 0 (by omega)
  rw [Nat.zero_add] at h
  exact h

/-- Chunk 0 loaded and narrowed, beside everything else. -/
theorem first0 (K : Dev nD × CellIx → ℕ) (c : Dev nD) (Z : sProp 𝕄) :
    iprop((records m K ∗ levAts L lv) ∗ (∃ W, owes (c : Thread nD τ) (Oat c 0) W) ∗ barStart (F := F) c ∗ lendX (F := F) c ∗ lendY (F := F) c ∗ C1 (F := F) c 0 ∗ Z)
      ⊢ WP c (ldNarrow (F := F) theArgs c 0) (fun _ => iprop((records m K ∗ levAts L lv) ∗ (∃ W, owes (c : Thread nD τ) (Oat c 0) W) ∗ barStart (F := F) c ∗ lendX (F := F) c ∗ lendY (F := F) c ∗ C2 m c 0 ∗ Z)) := by
  iintro ⟨⟨#HR, #HL⟩, ⟨%W, HO⟩, HB, HX, HY, HC, HZ⟩
  iapply (wp_use c _ _ (iprop(records m K ∗ levAts L lv ∗ barStart (F := F) c ∗ lendX (F := F) c ∗ lendY (F := F) c ∗ Z)) _ _
    (step_ldNarrow m K c 0 (Oat c 0) W (mayWait_low c .l 0 ⟨by decide, by decide⟩ 0))
    (fun _ => by
      iintro ⟨⟨HO, HC⟩, #HR, #HL, HB, HX, HY, HZ⟩
      iframe HR HL HO HB HX HY HC HZ))
  isplitl [HO HC]
  · iframe HR HL HO HC
  · iframe HR HL HB HX HY HZ

theorem run_first (K : Dev nD × CellIx → ℕ) (c : Dev nD) :
    S1 m K c ⊢ WP c (ldNarrow (F := F) theArgs c 0) (fun _ => S2 m K c) := by
  unfold S1 S2
  rw [← upTo_zero (fun k => C2 m c k) (fun k => C1 (F := F) c k),
    show upTo (fun k => C2 m c k) (fun k => C1 (F := F) c k) 0 = _ from upTo_at _ _ (0 : Fin 32),
    show upTo (fun k => C2 m c k) (fun k => C1 (F := F) c k) 1 = _ from upTo_at_succ _ _ (0 : Fin 32)]
  exact first0 m K c _

/-- The handshake, beside the chunks. -/
theorem run_shake (K : Dev nD × CellIx → ℕ) (c : Dev nD) :
    S2 m K c ⊢ WP c (handshake (F := F) c) (fun _ => S3 m K c) := by
  unfold S2 S3 barStart known
  iintro ⟨⟨#HR, #HL⟩, ⟨%W, HO⟩, ⟨Hp, Hc, Hx, Hy⟩, HX, HY, HU⟩
  iapply (wp_use c _ _ (iprop(records m K ∗ levAts L lv ∗ upTo (fun k => C2 m c k) (fun k => C1 (F := F) c k) 1)) _ _
    (step_handshake m K c W)
    (fun _ => by
      iintro ⟨⟨HO, HX, HY⟩, #HR, #HL, HU⟩
      iframe HR HL HO HX HY HU))
  isplitl [HO Hp Hc Hx Hy HX HY]
  · iframe HR HL HO Hp Hc Hx Hy HX HY
  · iframe HR HL HU

/-- Chunk 0 sent on the first axis, beside everything else. -/
theorem send0 (K : Dev nD × CellIx → ℕ) (c : Dev nD) (Z1 Z2 : sProp 𝕄) :
    iprop((records m K ∗ levAts L lv) ∗ (∃ W, owes (c : Thread nD τ) (Oat c 2) W) ∗ (anyK (F := F) (xpeer c) (rvK 0) ∗ Z2) ∗ lendY (F := F) (ypeer c) ∗ (C2 m c 0 ∗ Z1))
      ⊢ WP c (sendX (F := F) theArgs c 0) (fun _ => iprop(((records m K ∗ levAts L lv) ∗ ∃ W, owes (c : Thread nD τ) (Oat c (2 + 1)) W) ∗ lendY (F := F) (ypeer c) ∗ (C3 m c 0 ∗ (Z1 ∗ Z2)))) := by
  iintro ⟨⟨#HR, #HL⟩, ⟨%W, HO⟩, ⟨HA, HZ2⟩, HY, HC, HZ1⟩
  have h : iprop(records m K ∗ owes (c : Thread nD τ) (Oat c 2) W ∗ C2 m c 0 ∗ anyK (F := F) (xpeer c) (rvK 0))
      ⊢ WP c (sendX (F := F) theArgs c 0) (fun _ => iprop((∃ W', owes (c : Thread nD τ) (Oat c (2 + 1)) W') ∗ C3 m c 0)) := step_sendX m K c 0 W
  iapply (wp_use c _ _ (iprop(records m K ∗ levAts L lv ∗ lendY (F := F) (ypeer c) ∗ Z1 ∗ Z2)) _ _ h
    (fun _ => by
      iintro ⟨⟨HO, HC⟩, #HR, #HL, HY, HZ1, HZ2⟩
      iframe HR HL HO HY HC HZ1 HZ2))
  isplitl [HO HC HA]
  · iframe HR HO HC HA
  · iframe HR HL HY HZ1 HZ2

theorem run_send0 (K : Dev nD × CellIx → ℕ) (c : Dev nD) :
    S3 m K c ⊢ WP c (sendX (F := F) theArgs c 0) (fun _ => S4 m K c 1) := by
  have hz : (bigSep (Finset.univ.erase (0 : Fin 32)) fun j : Fin 32 => if j.val < (0 : Fin 32).val then C3 m c j else iprop(C1 (F := F) c j ∗ anyK (F := F) (xpeer c) (rvK j)))
      = iprop((bigSep (Finset.univ.erase (0 : Fin 32)) fun j : Fin 32 => if j.val < (0 : Fin 32).val then C2 m c j else C1 (F := F) c j)
          ∗ bigSep (Finset.univ.erase (0 : Fin 32)) fun j : Fin 32 => anyK (F := F) (xpeer c) (rvK j)) := by
    rw [← bigSep_sep']
    refine bigSep_congr fun j _ => ?_
    have hj : ¬ j.val < (0 : Fin 32).val := Nat.not_lt_zero _
    rw [if_neg hj, if_neg hj]
  unfold S3 S4 lendX known
  rw [show upTo (fun k => C2 m c k) (fun k => C1 (F := F) c k) 1 = _ from upTo_at_succ _ _ (0 : Fin 32),
    show upTo (fun k => C3 m c k) (fun k => iprop(C1 (F := F) c k ∗ anyK (F := F) (xpeer c) (rvK k))) 1 = _ from upTo_at_succ _ _ (0 : Fin 32),
    bigSep_univ_at (fun k : Fin 32 => anyK (F := F) (xpeer c) (rvK k)) 0, hz]
  exact send0 m K c _ _

/-- All chunks sent on the first axis: the second-axis neighbour's result chunks are dealt to the chunks. -/
theorem regroup45 (K : Dev nD × CellIx → ℕ) (c : Dev nD) : S4 m K c 32 ⊢ S5 m K c 0 := by
  unfold S4 S5 lendY
  rw [upTo_all, upTo_zero, bigSep_sep', ypeer_ypeer, show 2 + 32 = 34 from rfl]
  iintro ⟨HRO, HY, HU⟩
  iframe HRO HU HY

/-- All chunks reduced and sent on: every payment is made. -/
theorem regroup56 (K : Dev nD × CellIx → ℕ) (c : Dev nD) : S5 m K c 32 ⊢ S6 m K c 0 := by
  unfold S5 S6
  rw [upTo_all, upTo_zero, show Oat c (34 + 32) = 0 from Oat_done c]

/-- All chunks drained. -/
theorem regroup6 (K : Dev nD × CellIx → ℕ) (c : Dev nD) : S6 m K c 32 ⊢ bodyPost m c := by
  unfold S6 bodyPost
  rw [upTo_all]
  iintro ⟨⟨-, HO⟩, HU⟩
  iframe HO HU

/-! ## The body -/

set_option maxRecDepth 100000 in
/-- The whole body on device `c`: the device id is its own, and the seven pieces follow one another. -/
theorem body_spec (K : Dev nD × CellIx → ℕ) (c : Dev nD) :
    bodyPre m K c ⊢ WP c (body (F := F) theArgs) (fun _ => bodyPost m c) := by
  unfold body
  simp only [Prog.lift, Prog.bind_op, Prog.bind_ret, Prog.pure_eq_ret]
  show bodyPre m K c ⊢ wp frame (wpE (defs₀ (F := F)) 𝒱₀ (c : Thread nD τ) none) Set.univ (.op .deviceId _) _
  rw [wp_deviceId]
  refine wp_then c _ _ _ (fun _ => S1 m K c) _ (run_loads m K c) fun _ => ?_
  refine wp_then c _ _ _ (fun _ => S2 m K c) _ (run_first m K c) fun _ => ?_
  refine wp_then c _ _ _ (fun _ => S3 m K c) _ (run_shake m K c) fun _ => ?_
  refine wp_then c _ _ _ (fun _ => S4 m K c 1) _ (run_send0 m K c) fun _ => ?_
  refine wp_then c _ _ _ (fun _ => S4 m K c 32) _ (run_x m K c) fun _ => ?_
  refine wp_then c _ _ _ (fun _ => S5 m K c 32) _ ((regroup45 m K c).trans (run_y m K c)) fun _ => ?_
  exact (regroup56 m K c).trans ((run_d m K c).trans (wp_mono _ _ _ fun _ => regroup6 m K c))

end Cert.KernelIdeal.Hand

end
-- ==== Proof.Entry.lean ====
/-
  Entering and leaving the body: the buffers cut into chunks and put together again, and the library's body obligation.

  At entry the block is cut into the half the device works on, chunk by chunk, and the rest; the result into its 64 chunks
  (32 to keep, 32 lent to the second-axis neighbour); `stage`, `xsend`, `ssum` into their 32 chunks each and `xrecv` into
  the 32 chunks lent to the first-axis neighbour.  The 32 chunks of a 2048-row buffer are pairwise disjoint and cover it.
  At exit the block's chunks, never written, give the block back at its launch contents, and the scratch buffers' chunks
  give the four buffers back whole.
-/
import proofs.«900132_g7700000000000133_dist_ar_v7x_xy2x2_x_m4096_n1024_bf16_1_alg».proof.Proof.Phases

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The geometry: rows `64 k … 64 k + 63`, for `k` below 32, are disjoint and make up 2048 rows -/

/-- Two different chunks of a 2048-row shape share no index. -/
theorem rectK_disjoint (k k' : Fin 32) (h : k ≠ k') : Disjoint (rectK k).set (rectK k').set := by
  refine Rect.unit_disjoint (s := S2048x1024) (0 : Fin 2) ?_
  have hne : k.val ≠ k'.val := fun e => h (Fin.ext e)
  show 64 * k.val + 64 ≤ 64 * k'.val ∨ 64 * k'.val + 64 ≤ 64 * k.val
  omega

/-- Every index of a 2048-row shape lies in the chunk of its row divided by 64. -/
theorem rectK_cover (i : S2048x1024.Idx) : ∃ k : Fin 32, i ∈ (rectK k).set := by
  have h0 : (i (0 : Fin 2)).val < 2048 := (i (0 : Fin 2)).isLt
  have h1 : (i (1 : Fin 2)).val < 1024 := (i (1 : Fin 2)).isLt
  have hk : (i (0 : Fin 2)).val / 64 < 32 := by omega
  refine ⟨⟨(i (0 : Fin 2)).val / 64, hk⟩, Rect.mem_set_unit.mpr (Fin.forall_fin_two.mpr ⟨?_, ?_⟩)⟩
  · show 64 * ((i (0 : Fin 2)).val / 64) ≤ (i (0 : Fin 2)).val ∧ (i (0 : Fin 2)).val < 64 * ((i (0 : Fin 2)).val / 64) + 64
    omega
  · show 0 ≤ (i (1 : Fin 2)).val ∧ (i (1 : Fin 2)).val < 0 + 1024
    omega

/-- The first row of chunk `k` of the half device `d` works on, and its first column. -/
theorem off1_row (d : Dev nD) (k : Fin 32) :
    k0_off1 d (BitVec.ofNat 32 (64 * k.val)) 0 = 2048 * (d.val % 2) + 64 * k.val := congrFun (k0_off1_eq d k) 0
theorem off1_col (d : Dev nD) (k : Fin 32) : k0_off1 d (BitVec.ofNat 32 (64 * k.val)) 1 = 0 := congrFun (k0_off1_eq d k) 1

/-- Chunks of a 4096-row shape in different halves, or different chunks of one half, share no index. -/
theorem rectG_disjoint (d d' : Dev nD) (k k' : Fin 32) (h : d.val % 2 ≠ d'.val % 2 ∨ k ≠ k') :
    Disjoint (rectG d k).set (rectG d' k').set := by
  refine Rect.unit_disjoint (s := S4096x1024) (0 : Fin 2) ?_
  have hne : d.val % 2 ≠ d'.val % 2 ∨ k.val ≠ k'.val := h.imp id fun h e => h (Fin.ext e)
  have hk := k.isLt
  have hk' := k'.isLt
  have e := off1_row d k
  have e' := off1_row d' k'
  show k0_off1 d (BitVec.ofNat 32 (64 * k.val)) 0 + 64 ≤ k0_off1 d' (BitVec.ofNat 32 (64 * k'.val)) 0
    ∨ k0_off1 d' (BitVec.ofNat 32 (64 * k'.val)) 0 + 64 ≤ k0_off1 d (BitVec.ofNat 32 (64 * k.val)) 0
  omega

/-- An index whose row lies in chunk `k` of `d`'s half is in that chunk. -/
theorem mem_rectG (d : Dev nD) (k : Fin 32) (i : S4096x1024.Idx)
    (hlo : 2048 * (d.val % 2) + 64 * k.val ≤ (i (0 : Fin 2)).val)
    (hhi : (i (0 : Fin 2)).val < 2048 * (d.val % 2) + 64 * k.val + 64) : i ∈ (rectG d k).set := by
  have h1 : (i (1 : Fin 2)).val < 1024 := (i (1 : Fin 2)).isLt
  have e0 := off1_row d k
  have e1 := off1_col d k
  refine Rect.mem_set_unit.mpr (Fin.forall_fin_two.mpr ⟨?_, ?_⟩)
  · show k0_off1 d (BitVec.ofNat 32 (64 * k.val)) 0 ≤ (i (0 : Fin 2)).val
      ∧ (i (0 : Fin 2)).val < k0_off1 d (BitVec.ofNat 32 (64 * k.val)) 0 + 64
    omega
  · show k0_off1 d (BitVec.ofNat 32 (64 * k.val)) 1 ≤ (i (1 : Fin 2)).val
      ∧ (i (1 : Fin 2)).val < k0_off1 d (BitVec.ofNat 32 (64 * k.val)) 1 + 1024
    omega

/-- The second-axis neighbour works on the other half. -/
theorem ypeer_parity : ∀ c : Dev nD, (ypeer c).val % 2 = 1 - c.val % 2 := by decide +kernel

/-- Every index of a 4096-row shape lies in a chunk of the device's half or of its second-axis neighbour's. -/
theorem rectG_cover (c : Dev nD) (i : S4096x1024.Idx) :
    (∃ k : Fin 32, i ∈ (rectG c k).set) ∨ ∃ k : Fin 32, i ∈ (rectG (ypeer c) k).set := by
  have h0 : (i (0 : Fin 2)).val < 4096 := (i (0 : Fin 2)).isLt
  have hp := ypeer_parity c
  have hk : ((i (0 : Fin 2)).val % 2048) / 64 < 32 := by omega
  by_cases hc : c.val % 2 = (i (0 : Fin 2)).val / 2048
  · refine Or.inl ⟨⟨((i (0 : Fin 2)).val % 2048) / 64, hk⟩, mem_rectG c _ i ?_ ?_⟩
    · show 2048 * (c.val % 2) + 64 * (((i (0 : Fin 2)).val % 2048) / 64) ≤ (i (0 : Fin 2)).val
      omega
    · show (i (0 : Fin 2)).val < 2048 * (c.val % 2) + 64 * (((i (0 : Fin 2)).val % 2048) / 64) + 64
      omega
  · refine Or.inr ⟨⟨((i (0 : Fin 2)).val % 2048) / 64, hk⟩, mem_rectG (ypeer c) _ i ?_ ?_⟩
    · show 2048 * ((ypeer c).val % 2) + 64 * (((i (0 : Fin 2)).val % 2048) / 64) ≤ (i (0 : Fin 2)).val
      omega
    · show (i (0 : Fin 2)).val < 2048 * ((ypeer c).val % 2) + 64 * (((i (0 : Fin 2)).val % 2048) / 64) + 64
      omega

/-! ## The same of the elements of a buffer seen through a view -/

theorem chunkK_disjoint {sp : Space} {e : EltTy} (v : View sig .tc sp S2048x1024 e) (k k' : Fin 32) (h : k ≠ k') :
    Disjoint (v.slice (rectK k)).set (v.slice (rectK k')).set := by
  rw [View.set_slice, View.set_slice]; exact (Finset.disjoint_map _).mpr (rectK_disjoint k k' h)

theorem chunkK_cover {sp : Space} {e : EltTy} (v : View sig .tc sp S2048x1024 e) :
    v.set = Finset.univ.biUnion fun k : Fin 32 => (v.slice (rectK k)).set := by
  ext i; constructor
  · intro hi
    rw [View.set, Finset.mem_map] at hi
    obtain ⟨x, -, rfl⟩ := hi
    obtain ⟨k, hk⟩ := rectK_cover x
    exact Finset.mem_biUnion.mpr ⟨k, Finset.mem_univ _, by rw [View.set_slice]; exact Finset.mem_map_of_mem _ hk⟩
  · intro hi
    obtain ⟨k, -, hi⟩ := Finset.mem_biUnion.mp hi
    exact View.set_slice_subset _ _ hi

/-- The elements of a 4096-row view under chunk `k` of the half device `d` works on. -/
abbrev gset {sp : Space} {e : EltTy} (v : View sig .tc sp S4096x1024 e) (d : Dev nD) (k : Fin 32) : Finset v.ty.Idx :=
  (rectG d k).set.map v.emb

theorem gset_disjoint {sp : Space} {e : EltTy} (v : View sig .tc sp S4096x1024 e) (d d' : Dev nD) (k k' : Fin 32)
    (h : d.val % 2 ≠ d'.val % 2 ∨ k ≠ k') : Disjoint (gset v d k) (gset v d' k') :=
  (Finset.disjoint_map _).mpr (rectG_disjoint d d' k k' h)

/-- The elements of a 4096-row view in the 32 chunks of the half device `d` works on. -/
abbrev halfSet {sp : Space} {e : EltTy} (v : View sig .tc sp S4096x1024 e) (d : Dev nD) : Finset v.ty.Idx :=
  Finset.univ.biUnion fun k : Fin 32 => gset v d k

theorem halves_disjoint {sp : Space} {e : EltTy} (c : Dev nD) (v : View sig .tc sp S4096x1024 e) :
    Disjoint (halfSet v c) (halfSet v (ypeer c)) := by
  refine (Finset.disjoint_biUnion_left _ _ _).mpr fun k _ => (Finset.disjoint_biUnion_right _ _ _).mpr fun k' _ => ?_
  exact gset_disjoint v c (ypeer c) k k' (Or.inl (by have := ypeer_parity c; omega))

theorem halves_cover {sp : Space} {e : EltTy} (c : Dev nD) (v : View sig .tc sp S4096x1024 e) :
    v.set = halfSet v c ∪ halfSet v (ypeer c) := by
  ext i; constructor
  · intro hi
    rw [View.set, Finset.mem_map] at hi
    obtain ⟨x, -, rfl⟩ := hi
    rcases rectG_cover c x with ⟨k, hk⟩ | ⟨k, hk⟩
    · exact Finset.mem_union_left _ (Finset.mem_biUnion.mpr ⟨k, Finset.mem_univ _, Finset.mem_map_of_mem _ hk⟩)
    · exact Finset.mem_union_right _ (Finset.mem_biUnion.mpr ⟨k, Finset.mem_univ _, Finset.mem_map_of_mem _ hk⟩)
  · intro hi
    rcases Finset.mem_union.mp hi with hi | hi
    · obtain ⟨k, -, hi⟩ := Finset.mem_biUnion.mp hi
      obtain ⟨x, -, rfl⟩ := Finset.mem_map.mp hi
      exact v.emb_mem_set x
    · obtain ⟨k, -, hi⟩ := Finset.mem_biUnion.mp hi
      obtain ⟨x, -, rfl⟩ := Finset.mem_map.mp hi
      exact v.emb_mem_set x

/-! ## A buffer's points-to, chunk by chunk -/

/-- A 2048-row buffer held at contents `g` is its 32 chunks held at `g`. -/
theorem cutK (c : Dev nD) {sp : Space} {e : EltTy} (M : Memref sig .tc sp S2048x1024 e) (q : PosShare TreeShare)
    (g : Buf (Elt F) (M.view.loc (c : Thread nD τ))) :
    (M.view.loc (c : Thread nD τ) ↦[M.view.set]{q} g : sProp 𝕄)
      = bigSep Finset.univ fun k : Fin 32 => M.view.loc (c : Thread nD τ) ↦[(M.view.slice (rectK k)).set]{q} g := by
  rw [chunkK_cover M.view]
  exact pointsTo_biUnion _ _ fun k _ k' _ h => chunkK_disjoint M.view k k' h

/-- A 4096-row buffer held at `g` is the 32 chunks of the device's half and the 32 of the other half, held at `g`. -/
theorem cutG (c : Dev nD) {sp : Space} {e : EltTy} (M : Memref sig .tc sp S4096x1024 e) (q : PosShare TreeShare)
    (g : Buf (Elt F) (M.view.loc (c : Thread nD τ))) :
    (M.view.loc (c : Thread nD τ) ↦[M.view.set]{q} g : sProp 𝕄)
      = iprop((bigSep Finset.univ fun k : Fin 32 => M.view.loc (c : Thread nD τ) ↦[(M.view.slice (rectG c k)).set]{q} g)
          ∗ bigSep Finset.univ fun k : Fin 32 => M.view.loc (c : Thread nD τ) ↦[(M.view.slice (rectG (ypeer c) k)).set]{q} g) := by
  have hu : (M.view.loc (c : Thread nD τ) ↦[halfSet M.view c ∪ halfSet M.view (ypeer c)]{q} g : sProp 𝕄)
      ⊣⊢ iprop((M.view.loc (c : Thread nD τ) ↦[halfSet M.view c]{q} g) ∗ M.view.loc (c : Thread nD τ) ↦[halfSet M.view (ypeer c)]{q} g) :=
    pointsTo_union (halves_disjoint c M.view)
  have hA : (M.view.loc (c : Thread nD τ) ↦[halfSet M.view c]{q} g : sProp 𝕄)
      = bigSep Finset.univ fun k : Fin 32 => M.view.loc (c : Thread nD τ) ↦[gset M.view c k]{q} g :=
    pointsTo_biUnion _ _ fun k _ k' _ h => gset_disjoint M.view c c k k' (Or.inr h)
  have hB : (M.view.loc (c : Thread nD τ) ↦[halfSet M.view (ypeer c)]{q} g : sProp 𝕄)
      = bigSep Finset.univ fun k : Fin 32 => M.view.loc (c : Thread nD τ) ↦[gset M.view (ypeer c) k]{q} g :=
    pointsTo_biUnion _ _ fun k _ k' _ h => gset_disjoint M.view (ypeer c) (ypeer c) k k' (Or.inr h)
  have h1 : (M.view.loc (c : Thread nD τ) ↦[halfSet M.view c ∪ halfSet M.view (ypeer c)]{q} g : sProp 𝕄)
      = iprop((M.view.loc (c : Thread nD τ) ↦[halfSet M.view c]{q} g) ∗ M.view.loc (c : Thread nD τ) ↦[halfSet M.view (ypeer c)]{q} g) :=
    BI.equiv_iff.mp ⟨hu.1, hu.2⟩
  have hk : ∀ (d : Dev nD) (k : Fin 32), (M.view.loc (c : Thread nD τ) ↦[(M.view.slice (rectG d k)).set]{q} g : sProp 𝕄)
      = (M.view.loc (c : Thread nD τ) ↦[gset M.view d k]{q} g) := by
    intro d k
    rw [View.set_slice]
  rw [halves_cover c M.view, h1, hA, hB, bigSep_congr (fun k _ => hk c k), bigSep_congr (fun k _ => hk (ypeer c) k)]

/-- A chunk owned at known contents is held at some contents. -/
theorem anyK_of_owns (c : Dev nD) {sp : Space} {e : EltTy} (M : Memref sig .tc sp S64x1024 e) (X : S64x1024.Idx → Elt F e) :
    (owns (c : Thread nD τ) M fullShare X : sProp 𝕄) ⊢ anyK (F := F) c M := by
  unfold owns anyK
  iintro ⟨%f, %hf, H⟩
  iexists f
  iexact H

/-- A whole 2048-row buffer at contents `f`: each of its chunks at some contents. -/
theorem whole_cutK (c : Dev nD) {sp : Space} {e : EltTy} (M : Memref sig .tc sp S2048x1024 e) (hM : M.view.set = Finset.univ)
    (f : Buf (Elt F) (M.view.loc (c : Thread nD τ))) :
    (M.view.loc (c : Thread nD τ) ↦{fullShare} f : sProp 𝕄)
      ⊢ bigSep Finset.univ fun k : Fin 32 => anyK (F := F) c (M.slice (rectK k) (fun _ => rfl)) := by
  have h := cutK (F := F) c M fullShare f
  rw [hM] at h
  have hk : ∀ k : Fin 32, (M.view.loc (c : Thread nD τ) ↦[(M.view.slice (rectK k)).set]{fullShare} f : sProp 𝕄)
      ⊢ anyK (F := F) c (M.slice (rectK k) (fun _ => rfl)) := by
    intro k
    unfold anyK
    iintro H
    iexists f
    iexact H
  exact (Entails.of_eq h).trans (BI.bigSep_mono fun k _ => hk k)

/-- Every element type has a value (zero bits). -/
instance elt_nonempty (e : EltTy) : Nonempty (Elt F e) := by
  cases e
  · exact ⟨(0 : BitVec 1)⟩
  · exact ⟨(0 : BitVec 4)⟩
  · exact ⟨(0 : BitVec 8)⟩
  · exact ⟨(0 : BitVec 16)⟩
  · exact ⟨(0 : BitVec 32)⟩
  · exact ⟨(0 : BitVec 64)⟩
  · exact ⟨FloatOps.ofBits (F := F) .fp8e4m3 0⟩
  · exact ⟨FloatOps.ofBits (F := F) .fp8e5m2 0⟩
  · exact ⟨FloatOps.ofBits (F := F) .bf16 0⟩
  · exact ⟨FloatOps.ofBits (F := F) .f16 0⟩
  · exact ⟨FloatOps.ofBits (F := F) .f32 0⟩

/-- The 32 chunks of a whole 2048-row buffer, each at some contents, are the buffer at some contents. -/
theorem whole_joinK (c : Dev nD) {sp : Space} {e : EltTy} (M : Memref sig .tc sp S2048x1024 e) (hM : M.view.set = Finset.univ) :
    (bigSep Finset.univ fun k : Fin 32 => anyK (F := F) c (M.slice (rectK k) (fun _ => rfl)))
      ⊢ (iprop(∃ f : Buf (Elt F) (M.view.loc (c : Thread nD τ)), M.view.loc (c : Thread nD τ) ↦{fullShare} f) : sProp 𝕄) := by
  have h1 : (bigSep Finset.univ fun k : Fin 32 => anyK (F := F) c (M.slice (rectK k) (fun _ => rfl)))
      ⊢ (iprop(∃ y : Fin 32 → Buf (Elt F) (M.view.loc (c : Thread nD τ)),
          bigSep Finset.univ fun k : Fin 32 => M.view.loc (c : Thread nD τ) ↦[(M.view.slice (rectK k)).set]{fullShare} y k) : sProp 𝕄) :=
    bigSep_exists_pi Finset.univ (fun (k : Fin 32) (f : Buf (Elt F) (M.view.loc (c : Thread nD τ))) =>
      (M.view.loc (c : Thread nD τ) ↦[(M.view.slice (rectK k)).set]{fullShare} f : sProp 𝕄))
  refine h1.trans ?_
  iintro ⟨%y, H⟩
  ihave H' := (pointsTo_biUnion_join (ℓ := M.view.loc (c : Thread nD τ)) (q := fullShare) Finset.univ
      (fun k : Fin 32 => (M.view.slice (rectK k)).set) y (y 0) (fun k _ k' _ h => chunkK_disjoint M.view k k' h)) $$ H
  icases H' with ⟨%g, %hg, H⟩
  have hS : (Finset.univ.biUnion fun k : Fin 32 => (M.view.slice (rectK k)).set)
      = (Finset.univ : Finset (Idx (M.view.loc (c : Thread nD τ)))) := (chunkK_cover M.view).symm.trans hM
  iexists g
  rw [hS]
  iexact H

/-- The same from the chunks owned at known contents. -/
theorem owns_joinK (c : Dev nD) {sp : Space} {e : EltTy} (M : Memref sig .tc sp S2048x1024 e) (hM : M.view.set = Finset.univ)
    (X : Fin 32 → S64x1024.Idx → Elt F e) :
    (bigSep Finset.univ fun k : Fin 32 => owns (c : Thread nD τ) (M.slice (rectK k) (fun _ => rfl)) fullShare (X k))
      ⊢ (iprop(∃ f : Buf (Elt F) (M.view.loc (c : Thread nD τ)), M.view.loc (c : Thread nD τ) ↦{fullShare} f) : sProp 𝕄) :=
  (bigSep_mono fun k _ => anyK_of_owns (F := F) c (M.slice (rectK k) (fun _ => rfl)) (X k)).trans (whole_joinK (F := F) c M hM)

/-- A list of the six families. -/
theorem bigSep_fam (Φ : Fam → sProp 𝕄) : bigSep Finset.univ Φ = iprop(Φ .l ∗ Φ .o ∗ Φ .xs ∗ Φ .xr ∗ Φ .ys ∗ Φ .yr) :=
  bigSep_univ_eq_bigSepL [Fam.l, Fam.o, Fam.xs, Fam.xr, Fam.ys, Fam.yr] (by decide) (by decide) Φ

/-- The 192 counters, family by family. -/
theorem zeros_eq (c : Dev nD) : zeros (F := F) c = iprop(
    (bigSep Finset.univ fun k : Fin 32 => semVal (dcell c .l k) 0) ∗ (bigSep Finset.univ fun k : Fin 32 => semVal (dcell c .o k) 0)
    ∗ (bigSep Finset.univ fun k : Fin 32 => semVal (dcell c .xs k) 0) ∗ (bigSep Finset.univ fun k : Fin 32 => semVal (dcell c .xr k) 0)
    ∗ (bigSep Finset.univ fun k : Fin 32 => semVal (dcell c .ys k) 0) ∗ (bigSep Finset.univ fun k : Fin 32 => semVal (dcell c .yr k) 0)) := by
  unfold zeros
  exact (bigSep_univ_prod _).trans (bigSep_fam _)

/-- No window: the pipeline's conjunction over its windows is empty. -/
theorem bigSep_noWin (Φ : Fin cfg0.W → sProp 𝕄) : bigSep Finset.univ Φ = iprop(emp) := by
  have h : (Finset.univ : Finset (Fin cfg0.W)) = ∅ := by ext w; exact w.elim0
  exact (congrArg (fun S => bigSep S Φ) h).trans bigSep_empty

theorem sep_emp_eq (P : sProp 𝕄) : iprop(P ∗ emp) = P := BI.equiv_iff.mp ⟨BI.sep_emp_elim, BI.sep_emp_intro⟩

/-! ## The block and the result -/

/-- The other half of the block, kept aside while the body runs: never touched. -/
def restBlk (c : Dev nD) : sProp 𝕄 :=
  bigSep Finset.univ fun k : Fin 32 =>
    xM.view.loc (c : Thread nD τ) ↦[(xM.view.slice (rectG (ypeer c) k)).set]{fullShare} blk m c

/-- The block whole is the 32 chunks of the own half and the other half. -/
theorem blk_eq (c : Dev nD) :
    ((((c : Thread nD τ).loc main_arg0) ↦{fullShare} blk m c : sProp 𝕄))
      = iprop((bigSep Finset.univ fun k : Fin 32 => xPts m c k) ∗ restBlk m c) := by
  have h := cutG (F := F) c xM fullShare (blk m c)
  rw [show xM.view.set = Finset.univ from View.set_whole _] at h
  exact h

/-- The result whole at anything: the 32 chunks to keep and the 32 to lend, at anything. -/
theorem out_cut (c : Dev nD) (fo : Buf (Elt F) ((c : Thread nD τ).loc main_v1)) :
    ((((c : Thread nD τ).loc main_v1) ↦{fullShare} fo : sProp 𝕄))
      ⊢ iprop((bigSep Finset.univ fun k : Fin 32 => anyK (F := F) c (oK c k)) ∗ lendY (F := F) c) := by
  unfold lendY
  have h := cutG (F := F) c oM fullShare fo
  rw [show oM.view.set = Finset.univ from View.set_whole _] at h
  have hk : ∀ (d : Dev nD) (k : Fin 32),
      (oM.view.loc (c : Thread nD τ) ↦[(oM.view.slice (rectG d k)).set]{fullShare} fo : sProp 𝕄) ⊢ anyK (F := F) c (oK d k) := by
    intro d k
    unfold anyK
    iintro H
    iexists fo
    iexact H
  have hA : (bigSep Finset.univ fun k : Fin 32 => oM.view.loc (c : Thread nD τ) ↦[(oM.view.slice (rectG c k)).set]{fullShare} fo : sProp 𝕄)
      ⊢ bigSep Finset.univ fun k : Fin 32 => anyK (F := F) c (oK c k) := BI.bigSep_mono fun k _ => hk c k
  have hB : (bigSep Finset.univ fun k : Fin 32 => oM.view.loc (c : Thread nD τ) ↦[(oM.view.slice (rectG (ypeer c) k)).set]{fullShare} fo : sProp 𝕄)
      ⊢ bigSep Finset.univ fun k : Fin 32 => anyK (F := F) c (oK (ypeer c) k) := BI.bigSep_mono fun k _ => hk (ypeer c) k
  refine (Entails.of_eq h).trans ?_
  iintro ⟨HA, HB⟩
  isplitl [HA]
  · iapply hA
    iexact HA
  · iapply hB
    iexact HB

/-! ## Dealing the chunks, and collecting them -/

set_option maxRecDepth 4000 in
/-- What the launch hands over, the buffers already cut, is the body's precondition. -/
theorem deal (K : Dev nD × CellIx → ℕ) (c : Dev nD) :
    iprop(ghost m K c ∗ creds (F := F) c ∗ levAts L lv ∗ (∃ W, owes (c : Thread nD τ) (Oat c 0) W)
      ∗ (bigSep Finset.univ fun k : Fin 32 => xPts m c k)
      ∗ (bigSep Finset.univ fun k : Fin 32 => anyK (F := F) c (stK k))
      ∗ (bigSep Finset.univ fun k : Fin 32 => anyK (F := F) c (sdK k))
      ∗ (bigSep Finset.univ fun k : Fin 32 => anyK (F := F) c (rvK k))
      ∗ (bigSep Finset.univ fun k : Fin 32 => anyK (F := F) c (smK k))
      ∗ (bigSep Finset.univ fun k : Fin 32 => anyK (F := F) c (oK c k))
      ∗ lendY (F := F) c)
    ⊢ bodyPre m K c := by
  unfold bodyPre ghost creds barStart lendX lendY C0 chunkGhost
  simp only [bigSep_sep']
  iintro ⟨⟨Hrec, HatB, HtX, HtY, Hpos, Ht1, Ht2, Ht3, Ht4, Ht5, Ht6⟩, ⟨HcB, Hcx, Hcy⟩, Hlev, Ho, Hx, Hst, Hsd, Hrv, Hsm, Hoc, Hoy⟩
  isplitl [Hrec]; · iexact Hrec
  isplitl [Hlev]; · iexact Hlev
  isplitl [Ho]; · iexact Ho
  isplitl [HatB HcB HtX HtY]
  · isplitl [HatB]; · iexact HatB
    isplitl [HcB]; · iexact HcB
    isplitl [HtX]; · iexact HtX
    iexact HtY
  isplitl [Hrv]; · iexact Hrv
  isplitl [Hoy]; · iexact Hoy
  isplitl [Hx]; · iexact Hx
  isplitl [Hst]; · iexact Hst
  isplitl [Hsd]; · iexact Hsd
  isplitl [Hsm]; · iexact Hsm
  isplitl [Hoc]; · iexact Hoc
  isplitl [Hpos]; · iexact Hpos
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Hcx]; · iexact Hcx
  iexact Hcy

set_option maxRecDepth 4000 in
/-- What the body leaves, buffer by buffer. -/
theorem undeal (c : Dev nD) :
    bodyPost m c ⊢ iprop((∃ W, owes (c : Thread nD τ) 0 W)
      ∗ (bigSep Finset.univ fun k : Fin 32 => xPts m c k)
      ∗ (bigSep Finset.univ fun k : Fin 32 => owns (c : Thread nD τ) (stK k) fullShare (xchunk m c k))
      ∗ (bigSep Finset.univ fun k : Fin 32 => owns (c : Thread nD τ) (sdK k) fullShare (schunk m c k))
      ∗ (bigSep Finset.univ fun k : Fin 32 => owns (c : Thread nD τ) (rvK k) fullShare (rchunk m c k))
      ∗ (bigSep Finset.univ fun k : Fin 32 => owns (c : Thread nD τ) (smK k) fullShare (tchunk m c k))
      ∗ outDone m c ∗ zeros (F := F) c) := by
  rw [zeros_eq]
  unfold bodyPost C5 outDone
  simp only [bigSep_sep']
  iintro ⟨Ho, Hx, Hst, Hsd, Hrv, Hsm, Hoc, Hoy, Hl, Hoo, Hxs, Hxr, Hys, Hyr⟩
  isplitl [Ho]; · iexact Ho
  isplitl [Hx]; · iexact Hx
  isplitl [Hst]; · iexact Hst
  isplitl [Hsd]; · iexact Hsd
  isplitl [Hrv]; · iexact Hrv
  isplitl [Hsm]; · iexact Hsm
  isplitl [Hoc Hoy]
  · isplitl [Hoc]; · iexact Hoc
    iexact Hoy
  isplitl [Hl]; · iexact Hl
  isplitl [Hoo]; · iexact Hoo
  isplitl [Hxs]; · iexact Hxs
  isplitl [Hxr]; · iexact Hxr
  isplitl [Hys]; · iexact Hys
  iexact Hyr

/-! ## Entry and exit -/

set_option maxRecDepth 4000 in
/-- Entry: the launch's invariant and what the device owes give, at some names, the body's precondition and the
    other half of the block. -/
theorem entry_ (c : Dev nD) :
    iprop(Φ₀ m c ∗ (dats (F := F) m 0 c).owesAt () t0_0.castSucc) ⊢ iprop(∃ K, bodyPre m K c ∗ restBlk m c) := by
  unfold Φ₀ start scratch Dat.owesAt Pipeline.owesWithin
  rw [show (dats (F := F) m 0 c).owed t0_0.castSucc = Oat c 0 from rfl]
  iintro ⟨⟨⟨⟨%K, Hg⟩, Hcr, Hlev, Hblk, ⟨%fo, Hout⟩⟩, ⟨%f0, H0⟩, ⟨%f1, H1⟩, ⟨%f2, H2⟩, ⟨%f3, H3⟩⟩, ⟨%W, %hW, HO⟩⟩
  iexists K
  ihave Hb := (Entails.of_eq (blk_eq m c)) $$ Hblk
  icases Hb with ⟨Hx, Hrest⟩
  ihave Ho := (out_cut (F := F) c fo) $$ Hout
  icases Ho with ⟨Hoc, Hoy⟩
  ihave Hst := (show ((((c : Thread nD τ).loc cc0_scratch0) ↦{fullShare} f0 : sProp 𝕄))
      ⊢ bigSep Finset.univ (fun k : Fin 32 => anyK (F := F) c (stK k)) from whole_cutK (F := F) c stM (View.set_whole _) f0) $$ H0
  ihave Hsd := (show ((((c : Thread nD τ).loc cc0_scratch1) ↦{fullShare} f1 : sProp 𝕄))
      ⊢ bigSep Finset.univ (fun k : Fin 32 => anyK (F := F) c (sdK k)) from whole_cutK (F := F) c sdM (View.set_whole _) f1) $$ H1
  ihave Hrv := (show ((((c : Thread nD τ).loc cc0_scratch2) ↦{fullShare} f2 : sProp 𝕄))
      ⊢ bigSep Finset.univ (fun k : Fin 32 => anyK (F := F) c (rvK k)) from whole_cutK (F := F) c rvM (View.set_whole _) f2) $$ H2
  ihave Hsm := (show ((((c : Thread nD τ).loc cc0_scratch3) ↦{fullShare} f3 : sProp 𝕄))
      ⊢ bigSep Finset.univ (fun k : Fin 32 => anyK (F := F) c (smK k)) from whole_cutK (F := F) c smM (View.set_whole _) f3) $$ H3
  isplitr [Hrest]
  · iapply (deal m K c)
    isplitl [Hg]; · iexact Hg
    isplitl [Hcr]; · iexact Hcr
    isplitl [Hlev]; · iexact Hlev
    isplitl [HO]
    · iexists W
      iexact HO
    isplitl [Hx]; · iexact Hx
    isplitl [Hst]; · iexact Hst
    isplitl [Hsd]; · iexact Hsd
    isplitl [Hrv]; · iexact Hrv
    isplitl [Hsm]; · iexact Hsm
    isplitl [Hoc]; · iexact Hoc
    iexact Hoy
  · iexact Hrest

set_option maxRecDepth 4000 in
/-- Exit: what the body leaves and the other half of the block give the invariant after the point, owing nothing. -/
theorem exit_ (c : Dev nD) :
    iprop(bodyPost m c ∗ restBlk m c) ⊢ iprop(Φ₁ m c ∗ (dats (F := F) m 0 c).owesAt () t0_0.succ) := by
  iintro ⟨Hpost, Hrest⟩
  ihave Hp := (undeal m c) $$ Hpost
  icases Hp with ⟨⟨%W, HO⟩, Hx, Hst, Hsd, Hrv, Hsm, Hout, Hz⟩
  ihave Hb := (Entails.of_eq (blk_eq m c).symm) $$ [Hx Hrest]
  · isplitl [Hx]; · iexact Hx
    iexact Hrest
  ihave H0 := (show (bigSep Finset.univ fun k : Fin 32 => owns (c : Thread nD τ) (stK k) fullShare (xchunk m c k))
      ⊢ (iprop(∃ f : Buf (Elt F) ((c : Thread nD τ).loc cc0_scratch0), ((c : Thread nD τ).loc cc0_scratch0) ↦{fullShare} f) : sProp 𝕄)
      from owns_joinK (F := F) c stM (View.set_whole _) (fun k => xchunk m c k)) $$ Hst
  ihave H1 := (show (bigSep Finset.univ fun k : Fin 32 => owns (c : Thread nD τ) (sdK k) fullShare (schunk m c k))
      ⊢ (iprop(∃ f : Buf (Elt F) ((c : Thread nD τ).loc cc0_scratch1), ((c : Thread nD τ).loc cc0_scratch1) ↦{fullShare} f) : sProp 𝕄)
      from owns_joinK (F := F) c sdM (View.set_whole _) (fun k => schunk m c k)) $$ Hsd
  ihave H2 := (show (bigSep Finset.univ fun k : Fin 32 => owns (c : Thread nD τ) (rvK k) fullShare (rchunk m c k))
      ⊢ (iprop(∃ f : Buf (Elt F) ((c : Thread nD τ).loc cc0_scratch2), ((c : Thread nD τ).loc cc0_scratch2) ↦{fullShare} f) : sProp 𝕄)
      from owns_joinK (F := F) c rvM (View.set_whole _) (fun k => rchunk m c k)) $$ Hrv
  ihave H3 := (show (bigSep Finset.univ fun k : Fin 32 => owns (c : Thread nD τ) (smK k) fullShare (tchunk m c k))
      ⊢ (iprop(∃ f : Buf (Elt F) ((c : Thread nD τ).loc cc0_scratch3), ((c : Thread nD τ).loc cc0_scratch3) ↦{fullShare} f) : sProp 𝕄)
      from owns_joinK (F := F) c smM (View.set_whole _) (fun k => tchunk m c k)) $$ Hsm
  unfold Φ₁ scratch Dat.owesAt Pipeline.owesWithin
  rw [show (dats (F := F) m 0 c).owed t0_0.succ = 0 from rfl]
  isplitr [HO]
  · isplitl [Hb]; · iexact Hb
    isplitl [Hout]; · iexact Hout
    isplitl [Hz]; · iexact Hz
    isplitl [H0]; · iexact H0
    isplitl [H1]; · iexact H1
    isplitl [H2]; · iexact H2
    iexact H3
  · iexists W
    isplitr
    · ipureintro
      exact fun _ _ => Or.inl trivial
    iexact HO

set_option maxRecDepth 4000 in
/-- The library's body obligation on device `c`: from `Φ₀` and what the device owes at the one point, the printed body
    runs to `Φ₁` owing nothing. -/
theorem body_obligation (c : Dev nD) : BodyObligation (dats (F := F) m 0 c) (defs₀ (F := F)) 𝒱₀ () Set.univ := fun t => by
  rw [fin_N0 t]
  rw [bigSep_noWin, bigSep_noWin, sep_emp_eq, sep_emp_eq]
  have hb : (defs₀ (F := F)) .tc cfg0.body (cfg0.bodyArgs t0_0 (cfg0.slots t0_0)) = body (F := F) theArgs :=
    body_eq _ _ _ _ _ _ _ _ _ _ _ _ _ _ _ _ _ _
  rw [hb]
  refine (entry_ m c).trans ?_
  iintro ⟨%K, Hpre, Hrest⟩
  iapply (wp_mono _ _ _ (fun _ => exit_ m c))
  iapply (wp_frame_r _ _ _)
  isplitl [Hpre]
  · iapply (body_spec m K c)
    iexact Hpre
  · iexact Hrest

/-- info: 'Cert.KernelIdeal.Hand.body_obligation' depends on axioms: [propext, Classical.choice, Quot.sound] -/
#guard_msgs in #print axioms body_obligation

end Cert.KernelIdeal.Hand

end
-- ==== Proof.Launch.lean ====
/-
  The launch: every device's body obligation becomes a run of the program on the whole mesh.
-/
import proofs.«900132_g7700000000000133_dist_ar_v7x_xy2x2_x_m4096_n1024_bf16_1_alg».proof.Proof.Entry

set_option synthInstance.maxSize 4096

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens, as the launch mints them -/

theorem csem_injective : Function.Injective (csem : CellIx → SemLoc sig) := by
  rintro (_ | ⟨f, k⟩) (_ | ⟨f', k'⟩) h
  · rfl
  · have h2 : (SemLoc.reg barSem : SemLoc sig) = dsem f' k' := h
    cases h2
  · have h2 : dsem f k = (SemLoc.reg barSem : SemLoc sig) := h
    cases h2
  · obtain ⟨rfl, rfl⟩ := dsem_injective f f' k k' h; rfl

theorem kcell_injective : Function.Injective (kcell : Dev nD × CellIx → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

/-- Every device's 193 cells. -/
def allCells : Finset (GSem nD τ sig) := Finset.univ.map ⟨kcell, kcell_injective⟩

/-- A device's cells' duties: the barrier cell's two, and each DMA cell's one. -/
abbrev TokIx : Type := Bool ⊕ (Fam × Fin 32)
abbrev tokOf (cj : Dev nD × TokIx) : GSem nD τ sig × ℕ × Bool := match cj.2 with
  | .inl b => (barCell cj.1, 0, b)
  | .inr fk => (dcell cj.1 fk.1 fk.2, 0, false)

theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    rcases j with b | fk <;> rcases j' with b' | fk' <;> exact this
  subst h1
  rcases j with b | ⟨f, k⟩ <;> rcases j' with b' | ⟨f', k'⟩
  · have h2 : b = b' := congrArg (fun x : GSem nD τ sig × ℕ × Bool => x.2.2) h
    subst h2; rfl
  · have h2 : (SemLoc.reg barSem : SemLoc sig) = dsem f' k' := congrArg (fun x : GSem nD τ sig × ℕ × Bool => x.1.2) h
    cases h2
  · have h2 : dsem f k = (SemLoc.reg barSem : SemLoc sig) := congrArg (fun x : GSem nD τ sig × ℕ × Bool => x.1.2) h
    cases h2
  · obtain ⟨rfl, rfl⟩ := dsem_injective f f' k k' (congrArg (fun x : GSem nD τ sig × ℕ × Bool => x.1.2) h); rfl

def allToks : Finset (GSem nD τ sig × ℕ × Bool) := Finset.univ.map ⟨tokOf, tokOf_injective⟩

/-- The launch element: the pipeline library's copy (no staging cell here) and the protocol's. -/
def u₀ : UU :=
  (initOf (Pipeline.cells cfgs cellOf_inj) (Pipeline.launchToks cfgs cellOf_inj), initOf allCells allToks)

/-! ## Sums over the index types -/

theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]; rfl

theorem bigSep_fam6 (Φ : Fam → sProp 𝕄) : bigSep Finset.univ Φ = iprop(Φ .l ∗ Φ .o ∗ Φ .xs ∗ Φ .xr ∗ Φ .ys ∗ Φ .yr) :=
  bigSep_univ_eq_bigSepL [Fam.l, Fam.o, Fam.xs, Fam.xr, Fam.ys, Fam.yr] (by decide) (by decide) Φ

theorem bigSep_bool (Φ : Bool → sProp 𝕄) : bigSep Finset.univ Φ = iprop(Φ false ∗ Φ true) :=
  bigSep_univ_eq_bigSepL [false, true] (by decide) (by decide) Φ

/-- Over the DMA cells, chunk by chunk and family by family. -/
theorem bigSep_famChunk (Φ : Fam × Fin 32 → sProp 𝕄) :
    bigSep Finset.univ Φ = bigSep Finset.univ fun k : Fin 32 =>
      iprop(Φ (.l, k) ∗ Φ (.o, k) ∗ Φ (.xs, k) ∗ Φ (.xr, k) ∗ Φ (.ys, k) ∗ Φ (.yr, k)) := by
  rw [bigSep_univ_prod, bigSep_univ_comm]
  exact bigSep_congr fun k _ => bigSep_fam6 fun f => Φ (f, k)

/-- Over a device's cells: the barrier cell, then the DMA cells chunk by chunk. -/
theorem bigSep_cellIx (Φ : CellIx → sProp 𝕄) :
    bigSep Finset.univ Φ = iprop(Φ none ∗ bigSep Finset.univ fun k : Fin 32 =>
      iprop(Φ (some (.l, k)) ∗ Φ (some (.o, k)) ∗ Φ (some (.xs, k)) ∗ Φ (some (.xr, k)) ∗ Φ (some (.ys, k)) ∗ Φ (some (.yr, k)))) := by
  rw [bigSep_univ_option, bigSep_famChunk]

/-- One summand out of a sum over a whole index type. -/
theorem bigSep_univ_elim {I : Type} [Fintype I] [DecidableEq I] (Φ : I → sProp 𝕄) (i : I) : bigSep Finset.univ Φ ⊢ Φ i :=
  bigSep_elim (Finset.mem_univ i)

/-! ## What the launch element deals a device, and what the global step makes of it -/

/-- The tokens of the duties of device c's own cells. -/
def toks (c : Dev nD) : sProp 𝕄 :=
  bigSep Finset.univ fun j : TokIx => dutyTok ER (tokOf (c, j)).1 (tokOf (c, j)).2.1 (tokOf (c, j)).2.2

def G (c : Dev nD) : sProp 𝕄 :=
  iprop((bigSep Finset.univ fun i : CellIx => roundState ER (sched m) (kcell (c, i)) 0)
    ∗ (bigSep Finset.univ fun i : CellIx => iprop(atPos ER (kcell (c, i)) 0 ∅ 0 ∗ reached ER (kcell (c, i)) 0)) ∗ toks (F := F) c)

def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun i : CellIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores, as the launch theorem indexes them: the 192 DMA semaphores by family and chunk. -/
abbrev osem : Fam × Fin 32 → SemLoc sig := fun fk => dsem fk.1 fk.2

theorem ownSemFacts : Pipeline.OwnSemFacts cfg0.spec osem :=
  ⟨by decide +kernel, fun a b h => by obtain ⟨h1, h2⟩ := dsem_injective _ _ _ _ h; exact Prod.ext h1 h2, fun _ w => w.elim0⟩

theorem ownSems0_eq (c : Dev nD) :
    (Pipeline.ownSems0 (Ix := Unit) (Name := ℕ) (U := UU) (Lvl := ℕ) (Val := Elt F) (τ := τ) osem c : sProp 𝕄) = zeros (F := F) c := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CellIx => iprop(∃ κ : ℕ, cellInv ER (sched m) κ (kcell (c, i))))
          ∗ (bigSep Finset.univ fun i : CellIx => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell (c, i)) 0) ∗ bigSep Finset.univ fun i : CellIx => roundState ER (sched m) (kcell (c, i)) 0)
      ⊢ (|={Set.univ}=> bigSep Finset.univ fun i : CellIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the devices that pay them -/

/-- The tokens device c pays with: its first-axis neighbour's barrier duty false, its second-axis neighbour's barrier duty
    true, and per chunk its own load, copy and two departures, the first-axis neighbour's arrival and the second-axis
    neighbour's arrival. -/
def payToks (c : Dev nD) : sProp 𝕄 :=
  iprop(dutyTok ER (barCell (xpeer c)) 0 false ∗ dutyTok ER (barCell (ypeer c)) 0 true
    ∗ bigSep Finset.univ fun k : Fin 32 =>
      iprop(dutyTok ER (dcell c .l k) 0 false ∗ dutyTok ER (dcell c .o k) 0 false ∗ dutyTok ER (dcell c .xs k) 0 false ∗ dutyTok ER (dcell c .ys k) 0 false
        ∗ dutyTok ER (dcell (xpeer c) .xr k) 0 false ∗ dutyTok ER (dcell (ypeer c) .yr k) 0 false))

/-- What stays with device c: its positions and the tokens it pays with. -/
def linear (c : Dev nD) : sProp 𝕄 :=
  iprop((atPos ER (barCell c) 0 ∅ 0 ∗ bigSep Finset.univ fun k : Fin 32 => posAll (F := F) c k (fun _ => 0)) ∗ payToks (F := F) c)

theorem toks_eq (c : Dev nD) : toks (F := F) c = iprop((dutyTok ER (barCell c) 0 false ∗ dutyTok ER (barCell c) 0 true)
    ∗ bigSep Finset.univ fun k : Fin 32 => iprop(dutyTok ER (dcell c .l k) 0 false ∗ dutyTok ER (dcell c .o k) 0 false ∗ dutyTok ER (dcell c .xs k) 0 false
        ∗ dutyTok ER (dcell c .xr k) 0 false ∗ dutyTok ER (dcell c .ys k) 0 false ∗ dutyTok ER (dcell c .yr k) 0 false)) := by
  unfold toks; rw [bigSep_univ_sum, bigSep_bool, bigSep_famChunk]; rfl

/-- A barrier cell's duty false goes to the first-axis neighbour and its duty true to the second-axis one; an arrival
    cell's duty goes to the neighbour on its axis; the other duties stay. Both neighbour maps are involutions. -/
theorem toks_around : (bigSep Finset.univ fun c : Dev nD => (toks (F := F) c : sProp 𝕄)) ⊢ bigSep Finset.univ fun c : Dev nD => payToks (F := F) c := by
  rw [bigSep_congr (s := Finset.univ) fun (c : Dev nD) _ => toks_eq (F := F) c]
  unfold payToks
  simp only [bigSep_sep']
  iintro ⟨⟨HBF, HBT⟩, Hl, Ho, Hxs, Hxr, Hys, Hyr⟩
  ihave HBF' := (Entails.of_eq (bigSep_univ_equiv xring (fun c : Dev nD => (dutyTok ER (barCell c) 0 false : sProp 𝕄)))) $$ HBF
  ihave HBT' := (Entails.of_eq (bigSep_univ_equiv yring (fun c : Dev nD => (dutyTok ER (barCell c) 0 true : sProp 𝕄)))) $$ HBT
  ihave Hxr' := (Entails.of_eq (bigSep_univ_equiv xring (fun c : Dev nD => (bigSep Finset.univ fun k : Fin 32 => dutyTok ER (dcell c .xr k) 0 false : sProp 𝕄)))) $$ Hxr
  ihave Hyr' := (Entails.of_eq (bigSep_univ_equiv yring (fun c : Dev nD => (bigSep Finset.univ fun k : Fin 32 => dutyTok ER (dcell c .yr k) 0 false : sProp 𝕄)))) $$ Hyr
  isplitl [HBF']; · iexact HBF'
  isplitl [HBT']; · iexact HBT'
  isplitl [Hl]; · iexact Hl
  isplitl [Ho]; · iexact Ho
  isplitl [Hxs]; · iexact Hxs
  isplitl [Hys]; · iexact Hys
  isplitl [Hxr']; · iexact Hxr'
  iexact Hyr'

theorem ghost_intro (K : Dev nD × CellIx → ℕ) (c : Dev nD) : iprop(records m K ∗ linear (F := F) c) ⊢ G' m c := by
  unfold linear payToks G' ghost
  iintro ⟨#HR, ⟨HaB, Hpos⟩, HtBF, HtBT, Htk⟩
  iexists K
  isplitr; · iexact HR
  isplitl [HaB]; · iexact HaB
  isplitl [HtBF]; · iexact HtBF
  isplitl [HtBT]; · iexact HtBT
  unfold chunkGhost
  iapply (Entails.of_eq (bigSep_sep' Finset.univ (fun k : Fin 32 => posAll (F := F) c k (fun _ => 0))
    (fun k : Fin 32 => iprop(dutyTok ER (dcell c .l k) 0 false ∗ dutyTok ER (dcell c .o k) 0 false ∗ dutyTok ER (dcell c .xs k) 0 false ∗ dutyTok ER (dcell c .ys k) 0 false
        ∗ dutyTok ER (dcell (xpeer c) .xr k) 0 false ∗ dutyTok ER (dcell (ypeer c) .yr k) 0 false))).symm)
  isplitl [Hpos]; · iexact Hpos
  iexact Htk

theorem regroup :
    (bigSep Finset.univ fun c : Dev nD => iprop((bigSep Finset.univ fun i : CellIx => iprop(∃ κ : ℕ, cellInv ER (sched m) κ (kcell (c, i))))
          ∗ (bigSep Finset.univ fun i : CellIx => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CellIx => (atPos ER (kcell (c, i)) 0 ∅ 0 : sProp 𝕄)) (payToks (F := F))).symm).trans
      (bigSep_mono fun c _ => show _ ⊢ linear (F := F) c from Entails.of_eq (by unfold linear posAll; rw [bigSep_cellIx])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What each device owes at launch: all 66 payments. -/
abbrev O₀ (c : Dev nD) : CellTallies nD τ sig Unit := Oat c 0

/-- What payment i of device d brings cell g. -/
def paid (d : Dev nD) (g : GSem nD τ sig) (i : ℕ) : ℕ := if g = (owedAt d i).1 then (owedAt d i).2 else 0

/-- The last n payments, cell by cell. -/
theorem Orem_apply (d : Dev nD) (g : GSem nD τ sig) : ∀ n, n ≤ 66 → Orem d n g () = ∑ i ∈ Finset.range n, paid d g (66 - n + i)
  | 0, _ => by
    show (0 : ℕ) = ∑ i ∈ Finset.range 0, paid d g (66 - 0 + i)
    rw [Finset.range_zero, Finset.sum_empty]
  | n + 1, h => by
    have e1 : ∀ i, 66 - (n + 1) + (i + 1) = 66 - n + i := fun i => by omega
    have e2 : 66 - (n + 1) + 0 = 65 - n := by omega
    have e3 : ∑ i ∈ Finset.range n, paid d g (66 - (n + 1) + (i + 1)) = ∑ i ∈ Finset.range n, paid d g (66 - n + i) :=
      Finset.sum_congr rfl fun i _ => by rw [e1 i]
    rw [Finset.sum_range_succ', e2, e3, ← Orem_apply d g n (by omega)]
    show (Orem d n + tallyAt (owedAt d (65 - n)).1 () (owedAt d (65 - n)).2) g () = _
    rw [Pi.add_apply, Finsupp.add_apply, tallyAt_apply]
    congr 1
    unfold paid
    by_cases hg : g = (owedAt d (65 - n)).1
    · rw [if_pos ⟨hg, rfl⟩, if_pos hg]
    · rw [if_neg (fun h' => hg h'.1), if_neg hg]

theorem sum_range66 (w : ℕ → ℕ) :
    ∑ i ∈ Finset.range 66, w i = w 0 + w 1 + (∑ k : Fin 32, w (2 + k.val)) + ∑ k : Fin 32, w (34 + k.val) := by
  rw [show (66 : ℕ) = 2 + 32 + 32 from rfl, Finset.sum_range_add, Finset.sum_range_add, Finset.sum_range_succ, Finset.sum_range_one,
    Finset.sum_range (fun x => w (2 + x)), Finset.sum_range (fun x => w (2 + 32 + x))]

/-- All 66 payments, cell by cell: the two barrier units, the 32 first-axis arrivals, the 32 second-axis arrivals. -/
theorem O₀_apply (d : Dev nD) (g : GSem nD τ sig) :
    O₀ d g () = paid d g 0 + paid d g 1 + (∑ k : Fin 32, paid d g (2 + k.val)) + ∑ k : Fin 32, paid d g (34 + k.val) := by
  rw [← sum_range66 (paid d g)]
  refine (Orem_apply d g 66 le_rfl).trans (Finset.sum_congr rfl fun i _ => ?_)
  rw [Nat.sub_self, Nat.zero_add]

theorem owedAt_zero (d : Dev nD) : owedAt d 0 = (barCell (xpeer d), 1) := by unfold owedAt; rw [if_pos rfl]
theorem owedAt_one (d : Dev nD) : owedAt d 1 = (barCell (ypeer d), 1) := by unfold owedAt; rw [if_neg (show ¬ (1 : ℕ) = 0 by decide), if_pos rfl]

theorem paid_zero (d : Dev nD) (g : GSem nD τ sig) : paid d g 0 = if g = barCell (xpeer d) then 1 else 0 := by unfold paid; rw [owedAt_zero]
theorem paid_one (d : Dev nD) (g : GSem nD τ sig) : paid d g 1 = if g = barCell (ypeer d) then 1 else 0 := by unfold paid; rw [owedAt_one]
theorem paid_x (d : Dev nD) (g : GSem nD τ sig) (k : Fin 32) : paid d g (2 + k.val) = if g = dcell (xpeer d) .xr k then N16 else 0 := by
  unfold paid; rw [owedAt_x]
theorem paid_y (d : Dev nD) (g : GSem nD τ sig) (k : Fin 32) : paid d g (34 + k.val) = if g = dcell (ypeer d) .yr k then N16 else 0 := by
  unfold paid; rw [owedAt_y]

theorem bar_ne_dcell (c c' : Dev nD) (f : Fam) (k : Fin 32) : barCell c ≠ dcell c' f k := fun h => by
  have h2 : (SemLoc.reg barSem : SemLoc sig) = dsem f k := congrArg Prod.snd h
  cases h2
theorem barCell_inj {a b : Dev nD} (h : barCell a = barCell b) : a = b := by
  have := congrArg (fun g : GSem nD τ sig => g.1.1) h; exact this
theorem dcell_inj {a b : Dev nD} {f f' : Fam} {k k' : Fin 32} (h : dcell a f k = dcell b f' k') : a = b ∧ f = f' ∧ k = k' :=
  ⟨by have := congrArg (fun g : GSem nD τ sig => g.1.1) h; exact this, dsem_injective f f' k k' (congrArg Prod.snd h)⟩

/-- A device's barrier cell is owed one unit by each of its two neighbours. -/
theorem owed_bar (d c : Dev nD) : O₀ d (barCell c) () = (if d = xpeer c then 1 else 0) + (if d = ypeer c then 1 else 0) := by
  have hx : ∑ k : Fin 32, paid d (barCell c) (2 + k.val) = 0 :=
    Finset.sum_eq_zero fun k _ => by rw [paid_x]; exact if_neg (bar_ne_dcell _ _ _ _)
  have hy : ∑ k : Fin 32, paid d (barCell c) (34 + k.val) = 0 :=
    Finset.sum_eq_zero fun k _ => by rw [paid_y]; exact if_neg (bar_ne_dcell _ _ _ _)
  have e1 : (if barCell c = barCell (xpeer d) then (1 : ℕ) else 0) = if d = xpeer c then 1 else 0 := by
    by_cases h : d = xpeer c
    · subst h; rw [xpeer_xpeer, if_pos rfl, if_pos rfl]
    · rw [if_neg h, if_neg (fun h1 => h (by rw [barCell_inj h1, xpeer_xpeer]))]
  have e2 : (if barCell c = barCell (ypeer d) then (1 : ℕ) else 0) = if d = ypeer c then 1 else 0 := by
    by_cases h : d = ypeer c
    · subst h; rw [ypeer_ypeer, if_pos rfl, if_pos rfl]
    · rw [if_neg h, if_neg (fun h1 => h (by rw [barCell_inj h1, ypeer_ypeer]))]
  rw [O₀_apply, hx, hy, paid_zero, paid_one, e1, e2]
  simp only [Nat.add_zero]

/-- A first-axis arrival cell is owed its chunk's credit by the first-axis neighbour alone. -/
theorem owed_xr (d c : Dev nD) (k : Fin 32) : O₀ d (dcell c .xr k) () = if d = xpeer c then N16 else 0 := by
  have hy : ∑ k' : Fin 32, paid d (dcell c .xr k) (34 + k'.val) = 0 :=
    Finset.sum_eq_zero fun k' _ => by rw [paid_y]; exact if_neg (fun e => by cases (dcell_inj e).2.1)
  have hx : ∑ k' : Fin 32, paid d (dcell c .xr k) (2 + k'.val) = if d = xpeer c then N16 else 0 := by
    by_cases h : d = xpeer c
    · subst h
      rw [if_pos rfl]
      refine (Finset.sum_eq_single k (fun k' _ hk => ?_) (fun h' => absurd (Finset.mem_univ _) h')).trans ?_
      · rw [paid_x]; exact if_neg (fun e => hk (dcell_inj e).2.2.symm)
      · rw [paid_x, xpeer_xpeer, if_pos rfl]
    · rw [if_neg h]
      exact Finset.sum_eq_zero fun k' _ => by rw [paid_x]; exact if_neg (fun e => h (by rw [(dcell_inj e).1, xpeer_xpeer]))
  rw [O₀_apply, hx, hy, paid_zero, paid_one, if_neg (bar_ne_dcell _ _ _ _).symm, if_neg (bar_ne_dcell _ _ _ _).symm]
  simp only [Nat.add_zero, Nat.zero_add]

/-- A second-axis arrival cell is owed its chunk's credit by the second-axis neighbour alone. -/
theorem owed_yr (d c : Dev nD) (k : Fin 32) : O₀ d (dcell c .yr k) () = if d = ypeer c then N16 else 0 := by
  have hx : ∑ k' : Fin 32, paid d (dcell c .yr k) (2 + k'.val) = 0 :=
    Finset.sum_eq_zero fun k' _ => by rw [paid_x]; exact if_neg (fun e => by cases (dcell_inj e).2.1)
  have hy : ∑ k' : Fin 32, paid d (dcell c .yr k) (34 + k'.val) = if d = ypeer c then N16 else 0 := by
    by_cases h : d = ypeer c
    · subst h
      rw [if_pos rfl]
      refine (Finset.sum_eq_single k (fun k' _ hk => ?_) (fun h' => absurd (Finset.mem_univ _) h')).trans ?_
      · rw [paid_y]; exact if_neg (fun e => hk (dcell_inj e).2.2.symm)
      · rw [paid_y, ypeer_ypeer, if_pos rfl]
    · rw [if_neg h]
      exact Finset.sum_eq_zero fun k' _ => by rw [paid_y]; exact if_neg (fun e => h (by rw [(dcell_inj e).1, ypeer_ypeer]))
  rw [O₀_apply, hx, hy, paid_zero, paid_one, if_neg (bar_ne_dcell _ _ _ _).symm, if_neg (bar_ne_dcell _ _ _ _).symm]
  simp only [Nat.add_zero, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xpeer c) fun _ => 1, Finset.sum_ite_eq' Finset.univ (ypeer c) fun _ => 1, if_pos (Finset.mem_univ _), if_pos (Finset.mem_univ _)]

theorem launch_xr (c : Dev nD) (k : Fin 32) :
    tallyOn (dcell c .xr k) (launchCredit (Pipeline.owing O₀) 0 (dcell c .xr k)) = (tallyAt (dcell c .xr k) () N16 : CellTallies nD τ sig Unit) := by
  unfold tallyAt; refine congrArg _ (Finsupp.ext fun u => ?_); cases u
  rw [Pipeline.launchCredit_owing, Finsupp.single_eq_same, Finset.sum_congr rfl fun d _ => owed_xr d c k,
    Finset.sum_ite_eq' Finset.univ (xpeer c) fun _ => N16, if_pos (Finset.mem_univ _)]

theorem launch_yr (c : Dev nD) (k : Fin 32) :
    tallyOn (dcell c .yr k) (launchCredit (Pipeline.owing O₀) 0 (dcell c .yr k)) = (tallyAt (dcell c .yr k) () N16 : CellTallies nD τ sig Unit) := by
  unfold tallyAt; refine congrArg _ (Finsupp.ext fun u => ?_); cases u
  rw [Pipeline.launchCredit_owing, Finsupp.single_eq_same, Finset.sum_congr rfl fun d _ => owed_yr d c k,
    Finset.sum_ite_eq' Finset.univ (ypeer c) fun _ => N16, if_pos (Finset.mem_univ _)]

/-- The launch's credit tokens hold what the body's start asks: two barrier units and, per chunk, both arrivals' credit. -/
theorem creds_intro (c : Dev nD) : (Pipeline.launchCred O₀ c : sProp 𝕄) ⊢ creds (F := F) c := by
  unfold Pipeline.launchCred creds
  refine (bigSep_subset (t := Finset.univ.map ⟨(csem : CellIx → SemLoc sig), csem_injective⟩) (Finset.subset_univ _)).trans ?_
  rw [bigSep_map, bigSep_cellIx]
  refine BIClass.sep_mono (Entails.of_eq (congrArg cred (launch_bar c))) (bigSep_mono fun k _ => ?_)
  show (_ : sProp 𝕄) ⊢ _
  iintro ⟨-, -, -, Hxr, -, Hyr⟩
  isplitl [Hxr]
  · iapply (Entails.of_eq (congrArg cred (launch_xr c k))); iexact Hxr
  · iapply (Entails.of_eq (congrArg cred (launch_yr c k))); iexact Hyr

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device keeps of the last point: its block and its result's 64 chunks. -/
def Y (c : Dev nD) : sProp 𝕄 := iprop((((c : Thread nD τ).loc main_arg0) ↦{fullShare} blk m c) ∗ outDone m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨Hx, Hout, Hz, Hr⟩
  isplitl [Hx Hout]
  · isplitl [Hx] <;> iassumption
  isplitl [Hz]; · iexact Hz
  iexact Hr

/-- No window: no staging cell to wait on. -/
theorem waits (c : Dev nD) : (levAts L lv : sProp 𝕄) ⊢ Pipeline.cellsWaits cfgs (dats m) () 0 c :=
  Pipeline.cellsWaits_intro cfgs (dats m) () 0 c fun w _ _ => w.elim0

/-! ## Reading the final memory -/

/-- A chunk held at contents X reads X in the memory. -/
theorem read_of_owns (c : Dev nD) {sp : Space} {sh : Shape} {e : EltTy} (M : Memref sig .tc sp sh e) (q : PosShare TreeShare) (X : sh.Idx → Elt F e)
    (s' : Phys nD τ sig (Elt F)) :
    iprop(owns (c : Thread nD τ) M q X ∗ SI s') ⊢ (⌜M.view.read (Elt F) (s'.mem.mem (M.view.loc (c : Thread nD τ))) = X⌝ : sProp 𝕄) := by
  unfold owns
  iintro ⟨⟨%f, %hf, Hp⟩, HSI⟩
  icombine HSI Hp gives %h
  ipureintro
  rw [← hf]; exact View.read_congr h

/-- What the launch theorem's post says of device c's final memory. -/
def QY (c : Dev nD) (s : MemSt nD τ sig (Elt F)) : Prop :=
  s.mem ((c : Thread nD τ).loc main_arg0) = m ((c : Thread nD τ).loc main_arg0)
    ∧ (∀ k : Fin 32, (oK c k).view.read (Elt F) (s.mem ((c : Thread nD τ).loc main_v1)) = tchunk m c k)
    ∧ (∀ k : Fin 32, (oK (ypeer c) k).view.read (Elt F) (s.mem ((c : Thread nD τ).loc main_v1)) = tchunk m (ypeer c) k)

theorem final_pure (c : Dev nD) (s' : Phys nD τ sig (Elt F)) : iprop(Y m c ∗ emp ∗ SI s') ⊢ (⌜QY m c s'.mem⌝ : sProp 𝕄) := by
  have hA : iprop(Y m c ∗ emp ∗ SI s') ⊢ (⌜s'.mem.mem ((c : Thread nD τ).loc main_arg0) = m ((c : Thread nD τ).loc main_arg0)⌝ : sProp 𝕄) := by
    unfold Y
    iintro ⟨⟨Hx, -⟩, -, HSI⟩
    icombine HSI Hx gives %hx
    ipureintro
    exact Buf.eq_of_forall_mem_univ hx
  have hB (k : Fin 32) : iprop(Y m c ∗ emp ∗ SI s')
      ⊢ (⌜(oK c k).view.read (Elt F) (s'.mem.mem ((c : Thread nD τ).loc main_v1)) = tchunk m c k⌝ : sProp 𝕄) := by
    unfold Y outDone
    iintro ⟨⟨-, Hout⟩, -, HSI⟩
    ihave Hk := (bigSep_univ_elim _ k) $$ Hout
    icases Hk with ⟨H1, -⟩
    iapply (read_of_owns c (oK c k) fullShare (tchunk m c k) s')
    isplitl [H1] <;> iassumption
  have hC (k : Fin 32) : iprop(Y m c ∗ emp ∗ SI s')
      ⊢ (⌜(oK (ypeer c) k).view.read (Elt F) (s'.mem.mem ((c : Thread nD τ).loc main_v1)) = tchunk m (ypeer c) k⌝ : sProp 𝕄) := by
    unfold Y outDone
    iintro ⟨⟨-, Hout⟩, -, HSI⟩
    ihave Hk := (bigSep_univ_elim _ k) $$ Hout
    icases Hk with ⟨-, H2⟩
    iapply (read_of_owns c (oK (ypeer c) k) fullShare (tchunk m (ypeer c) k) s')
    isplitl [H2] <;> iassumption
  unfold QY
  exact fun a h => ⟨hA a h, fun k => hB k a h, fun k => hC k a h⟩

/-- The launch theorem's last side condition: the final memory's facts, the state interpretation kept. -/
theorem final_keep (c : Dev nD) (s' : Phys nD τ sig (Elt F)) :
    iprop(Y m c ∗ emp ∗ SI s') ⊢ (|={Set.univ}=> iprop(⌜QY m c s'.mem⌝ ∗ SI s') : sProp 𝕄) := by
  have hrest (hq : QY m c s'.mem) : iprop(Y m c ∗ emp ∗ SI s') ⊢ (|={Set.univ}=> iprop(⌜QY m c s'.mem⌝ ∗ SI s') : sProp 𝕄) := by
    iintro ⟨-, -, HSI⟩
    imodintro
    isplitr; · ipureintro; exact hq
    iexact HSI
  exact fun a h => hrest (final_pure m c s' a h) a h

/-! ## The run -/

set_option maxRecDepth 16000 in
/-- From any memory with every semaphore at zero, every weakly fair execution of @main on the four devices terminates
    without a fault; in every final state each device's block is unchanged, and each of the 64 chunks of its result —
    its own half's and its second-axis neighbour's half's — reads the sum chunk of the device that formed it. -/
theorem run_main : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)
    ∧ ∀ d : Dev nD, (d = c ∨ d = ypeer c) → ∀ k : Fin 32,
        (oK d k).view.read (Elt F) (r.2.mem ((c.tc : Thread nD τ).loc main_v1)) = tchunk m d k) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?_)
    (hbody := ?_) (hne := ?_) (harr := ?_) (hstage := ?_) (hshare := ?_)
    (hdistinct := ?_)
    (O₀ := O₀) (howed₀ := ?_) (howedN := ?_)
    (L := L) (lv := lv) (hL := ?_) (hwaits := ?_)
    (G := G m) (G' := G' m) (u₀ := u₀)
    (hu₀ := ?_)
    (hglob := ?_)
    (hA := ?_) (hpf := ?_)
    (X := start m) (Y := Y m) (Z := fun _ => iprop(emp))
    (hX := ?_) (hin := ?_) (hout := ?_)
    (QY := QY m)
    (hY := ?_)
    (hQ := ?_)
  · exact fun _ => rfl
  · exact fun c => (body_obligation m c).loose
  · exact fun w => w.elim0
  · exact arr_whole0
  · exact stage_whole0
  · exact fun _ w => w.elim0
  · exact winFacts0.arr_inj
  · exact fun _ => rfl
  · exact fun _ => rfl
  · exact L_of_ne
  · exact waits m
  · unfold u₀
    iintro Hu
    ihave H := (ownU_pair _ _) $$ Hu
    icases H with ⟨HP, HX⟩
    imod (fund_cells m) $$ HX with HG
    imodintro
    isplitl [HP] <;> iassumption
  · exact glob m
  · exact fun _ w => w.elim0
  · exact fun _ k => k.elim0
  · exact start_intro m ρ
  · exact phi0_intro m
  · exact phi1_exit m
  · exact final_keep m
  · intro s h c
    obtain ⟨hA, hB, hC⟩ : QY m c s := (h c).2.2
    refine ⟨hA, fun d hd k => ?_⟩
    obtain hd | hd := hd
    · rw [hd]; exact hB k
    · rw [hd]; exact hC k

end Cert.KernelIdeal.Hand

end
-- ==== Proof.KProg.lean ====
/-
  The kernel's body as five runs over the chunk index.

  The half of the block a device works on is cut into 32 chunks of 64 rows; chunk `k` is rows `64 k … 64 k + 63` of
  each scratch buffer and rows `2048·y + 64 k …` of the device's block and of its result (`y` the device's coordinate
  on the second mesh axis).  The body does, in order: start the 32 loads of the chunks of the block into `stage`;
  wait for chunk 0 and narrow it into `xsend`; exchange one unit with both neighbours on the barrier semaphore and wait
  for two; for each chunk (after chunk 0: wait for its load and narrow it) send it to the neighbour on the first mesh
  axis; for each chunk wait for the neighbour's, add the two into `ssum`, send the sum to the neighbour on the second
  mesh axis and copy it into the own result; finally wait, chunk by chunk, for the four transfers of that chunk.
  Each of these per-chunk pieces is written ONCE here as a function of `k : Fin 32`, and the printed body is their
  sequence at `k = 0, …, 31`: `body_eq`, by unfolding.
-/
import proofs.«900132_g7700000000000133_dist_ar_v7x_xy2x2_x_m4096_n1024_bf16_1_alg».proof.Proof.Gen.Kernel.Skeleton
import Idealize.ShloMosaic.Lib.Tactic

set_option synthInstance.maxSize 4096

noncomputable section

namespace Cert.Kernel.Hand

open Idealize.ShloMosaic Idealize.SL.Sem
open Cert.Kernel Cert.Kernel.Gen
open Idealize.ShloMosaic.Tactic

variable {F : FTy → Type} [FloatOps F]

/-! ## Chunk geometry -/

/-- Chunk `k`'s first row inside a half, and column 0. -/
abbrev offK (k : Fin 32) : Fin 2 → Nat := ![64 * k.val, 0]

theorem inbK : ∀ (k : Fin 32) a, offK k a + S64x1024.size a ≤ S2048x1024.size a := by decide +kernel
theorem inbS : ∀ (k : Fin 32) a, (![k.val] : Fin 1 → Nat) a + S1.size a ≤ S32.size a := by decide +kernel

/-- Chunk `k` of a scratch buffer: 64 whole rows. -/
abbrev rectK (k : Fin 32) : Rect S2048x1024 := Rect.unit (s := S2048x1024) (offK k) S64x1024.size (inbK k)
/-- Chunk `k` of the half of a 4096-row array that device `d0` works on. -/
abbrev rectG (d0 : Dev nD) (k : Fin 32) : Rect S4096x1024 :=
  Rect.unit (s := S4096x1024) (k0_off1 d0 (BitVec.ofNat 32 (64 * k.val))) S64x1024.size (k0_off1_inb d0 k)

theorem wordsK : ∀ k : Fin 32, (rectK k).WholeWords (EltTy.packing .bf16) := by decide +kernel
theorem packedK : ∀ k : Fin 32, (rectK k).PackedRows (EltTy.packing .bf16) := by decide +kernel

/-- Semaphore `k` of an array of 32. -/
abbrev semK (a : DmaSems sig S32) (k : Fin 32) : DmaSem sig :=
  ((a.slice (Rect.unit (s := S32) ![k.val] S1.size (inbS k))).squeeze S_ Facts₀.squeezes_S1_S_).sem

/-- The runtime's barrier semaphore of collective id 0. -/
abbrev barSem : Sem sig := (SemArray.scalar (sig.barrier 0 rfl) : Sems sig S_).sem

/-! ## The values stored -/

/-- A chunk narrowed to bf16. -/
def castPay (v : Vec F S64x1024 .f32) : FVec F S64x1024 .bf16 :=
  shapeCast S64x1024 (truncf .bf16 v Facts₀.bitsLt_bf16_f32) Facts₀.shapeCasts_S64x1024_S64x1024
/-- The sum of the own chunk and the neighbour's. -/
def addPay (a b : Vec F S64x1024 .bf16) : FVec F S64x1024 .bf16 :=
  shapeCast S64x1024 (addf a b) Facts₀.shapeCasts_S64x1024_S64x1024

/-- A piece of the body: a program of the TensorCore's effects with no result. -/
abbrev PR (F : FTy → Type) [FloatOps F] := Prog (TpuEff nD τ sig (Elt F) Λ₀ .tc) PUnit

/-- The body's operands: the block, the result, the four scratch buffers (whole), and the six arrays of 32 DMA semaphores. -/
structure Args where
  arg0 : Memref sig .tc .hbm S4096x1024 .f32
  harg0 : arg0.IsWhole
  arg1 : Memref sig .tc .hbm S4096x1024 .bf16
  harg1 : arg1.IsWhole
  arg2 : Memref sig .tc .vmem S2048x1024 .f32
  harg2 : arg2.IsWhole
  arg3 : Memref sig .tc .vmem S2048x1024 .bf16
  harg3 : arg3.IsWhole
  arg4 : Memref sig .tc .vmem S2048x1024 .bf16
  harg4 : arg4.IsWhole
  arg5 : Memref sig .tc .vmem S2048x1024 .bf16
  harg5 : arg5.IsWhole
  arg6 : DmaSems sig S32
  arg7 : DmaSems sig S32
  arg8 : DmaSems sig S32
  arg9 : DmaSems sig S32
  arg10 : DmaSems sig S32
  arg11 : DmaSems sig S32

section Body

variable (A : Args)

/-! ## The per-chunk pieces -/

/-- Start the load of chunk `k` of the block into `stage`. -/
def ldEnq (d0 : Dev nD) (k : Fin 32) : PR F :=
  Prog.lift (.enqueueDma (A.arg0.slice (rectG d0 k) (fun _ => rfl)) (.here (A.arg2.slice (rectK k) (fun _ => rfl))) (.dma (semK A.arg6 k)) (View.wordExact_bits rfl) (View.wordExact_bits rfl) ⟨Or.inl rfl, trivial⟩)

/-- Wait for that load. -/
def ldWait (d0 : Dev nD) (k : Fin 32) : PR F :=
  Prog.lift (.waitDma2 (semK A.arg6 k) (A.arg0.slice (rectG d0 k) (fun _ => rfl)) (A.arg2.slice (rectK k) (fun _ => rfl)) (View.wordExact_bits rfl) (View.wordExact_bits rfl))

/-- Narrow chunk `k` of `stage` into `xsend`. -/
def narrow (k : Fin 32) : PR F := do
  let v : Vec F S64x1024 .f32 ← Prog.lift (.load A.arg2 (rectK k).toLoadRect (View.loadsAt_vmem Facts₀.h_S64x1024))
  let _w : Vec F S64x1024 .bf16 ← Prog.lift (.load A.arg3 (rectK k).toLoadRect (View.loadsAt_vmem Facts₀.h_S64x1024))
  Prog.lift (.store A.arg3 (rectK k) (castPay v) Finset.univ (View.stores_vmem Facts₀.h_S64x1024 (A.harg3.storeExact_slice rfl _ (packedK k)) (fun _ => rfl)) (.inl rfl))

/-- Wait for chunk `k`'s load, then narrow it. -/
def ldNarrow (d0 : Dev nD) (k : Fin 32) : PR F := do
  ldWait (F := F) A d0 k
  narrow (F := F) A k

/-- One unit to each neighbour's barrier semaphore, then wait for two. -/
def handshake (d0 : Dev nD) : PR F := do
  semSignalWord (⟨k0_dev1 d0, k0_dev1_lt d0⟩ : Dev nD) barSem 1#32 Facts₀.hamt_1
  semSignalWord (⟨k0_dev2 d0, k0_dev2_lt d0⟩ : Dev nD) barSem 1#32 Facts₀.hamt_1
  semWaitWord barSem 2#32 Facts₀.hamt_2

/-- Send chunk `k` of `xsend` into chunk `k` of the first-axis neighbour's `xrecv`. -/
def sendX (d0 : Dev nD) (k : Fin 32) : PR F :=
  Prog.lift (.enqueueDma (A.arg3.slice (rectK k) (fun _ => rfl)) (.remote (Dev.tc (⟨k0_dev3 d0, k0_dev3_lt d0⟩ : Dev nD)) (A.arg4.slice (rectK k) (fun _ => rfl)) (.dma (semK A.arg8 k))) (.dma (semK A.arg9 k)) (A.harg3.wordExact_slice rfl _ (wordsK k)) (A.harg4.wordExact_slice rfl _ (wordsK k)) ⟨⟨rfl, Or.inl rfl⟩, trivial⟩)

/-- Wait for the neighbour's chunk `k`, add, and send the sum on: to the second-axis neighbour's result and to the own. -/
def reduceSend (d0 : Dev nD) (k : Fin 32) : PR F := do
  Prog.lift (.waitDma2 (semK A.arg9 k) (A.arg3.slice (rectK k) (fun _ => rfl)) (A.arg4.slice (rectK k) (fun _ => rfl)) (A.harg3.wordExact_slice rfl _ (wordsK k)) (A.harg4.wordExact_slice rfl _ (wordsK k)))
  let a : Vec F S64x1024 .bf16 ← Prog.lift (.load A.arg3 (rectK k).toLoadRect (View.loadsAt_vmem Facts₀.h_S64x1024))
  let b : Vec F S64x1024 .bf16 ← Prog.lift (.load A.arg4 (rectK k).toLoadRect (View.loadsAt_vmem Facts₀.h_S64x1024))
  let _w : Vec F S64x1024 .bf16 ← Prog.lift (.load A.arg5 (rectK k).toLoadRect (View.loadsAt_vmem Facts₀.h_S64x1024))
  Prog.lift (.store A.arg5 (rectK k) (addPay a b) Finset.univ (View.stores_vmem Facts₀.h_S64x1024 (A.harg5.storeExact_slice rfl _ (packedK k)) (fun _ => rfl)) (.inl rfl))
  Prog.lift (.enqueueDma (A.arg5.slice (rectK k) (fun _ => rfl)) (.remote (Dev.tc (⟨k0_dev35 d0, k0_dev35_lt d0⟩ : Dev nD)) (A.arg1.slice (rectG d0 k) (fun _ => rfl)) (.dma (semK A.arg10 k))) (.dma (semK A.arg11 k)) (A.harg5.wordExact_slice rfl _ (wordsK k)) (A.harg1.wordExact_slice rfl _ (k0_off1_wordsbf16 d0 k)) ⟨⟨rfl, Or.inl rfl⟩, trivial⟩)
  Prog.lift (.enqueueDma (A.arg5.slice (rectK k) (fun _ => rfl)) (.here (A.arg1.slice (rectG d0 k) (fun _ => rfl))) (.dma (semK A.arg7 k)) (A.harg5.wordExact_slice rfl _ (wordsK k)) (A.harg1.wordExact_slice rfl _ (k0_off1_wordsbf16 d0 k)) ⟨Or.inl rfl, trivial⟩)

/-- Wait for chunk `k`'s four transfers: both sends' departures, the second-axis neighbour's arrival, the own copy. -/
def drain (d0 : Dev nD) (k : Fin 32) : PR F := do
  Prog.lift (.waitDma2 (semK A.arg8 k) (A.arg4.slice (rectK k) (fun _ => rfl)) (A.arg3.slice (rectK k) (fun _ => rfl)) (A.harg4.wordExact_slice rfl _ (wordsK k)) (A.harg3.wordExact_slice rfl _ (wordsK k)))
  Prog.lift (.waitDma2 (semK A.arg10 k) (A.arg1.slice (rectG d0 k) (fun _ => rfl)) (A.arg5.slice (rectK k) (fun _ => rfl)) (A.harg1.wordExact_slice rfl _ (k0_off1_wordsbf16 d0 k)) (A.harg5.wordExact_slice rfl _ (wordsK k)))
  Prog.lift (.waitDma2 (semK A.arg11 k) (A.arg5.slice (rectK k) (fun _ => rfl)) (A.arg1.slice (rectG d0 k) (fun _ => rfl)) (A.harg5.wordExact_slice rfl _ (wordsK k)) (A.harg1.wordExact_slice rfl _ (k0_off1_wordsbf16 d0 k)))
  Prog.lift (.waitDma2 (semK A.arg7 k) (A.arg5.slice (rectK k) (fun _ => rfl)) (A.arg1.slice (rectG d0 k) (fun _ => rfl)) (A.harg5.wordExact_slice rfl _ (wordsK k)) (A.harg1.wordExact_slice rfl _ (k0_off1_wordsbf16 d0 k)))

/-! ## Runs over the chunk index -/

/-- `f i, f (i+1), …`: `n` pieces from chunk `i` on (nothing past chunk 31). -/
def runFrom (f : Fin 32 → PR F) : ℕ → ℕ → PR F
  | _, 0 => pure ⟨⟩
  | i, n + 1 => do
      (if h : i < 32 then f ⟨i, h⟩ else pure ⟨⟩)
      runFrom f (i + 1) n

/-- The body, phase by phase. -/
def body : PR F := do
  let d0 : Dev nD ← Prog.lift .deviceId
  runFrom (ldEnq (F := F) A d0) 0 32
  ldNarrow (F := F) A d0 0
  handshake (F := F) d0
  sendX (F := F) A d0 0
  runFrom (fun k => do ldNarrow (F := F) A d0 k; sendX (F := F) A d0 k) 1 31
  runFrom (reduceSend (F := F) A d0) 0 32
  runFrom (drain (F := F) A d0) 0 32

set_option maxRecDepth 1000000 in
/-- The printed body is that sequence: both sides unfold to the same operations in the same order. -/
theorem body_eq (arg0 : Memref sig .tc .hbm S4096x1024 .f32) (harg0 : arg0.IsWhole) (arg1 : Memref sig .tc .hbm S4096x1024 .bf16) (harg1 : arg1.IsWhole) (arg2 : Memref sig .tc .vmem S2048x1024 .f32) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x1024 .bf16) (harg5 : arg5.IsWhole) (arg6 : DmaSems sig S32) (arg7 : DmaSems sig S32) (arg8 : DmaSems sig S32) (arg9 : DmaSems sig S32) (arg10 : DmaSems sig S32) (arg11 : DmaSems sig S32) :
    cc0_body (F := F) arg0 harg0 arg1 harg1 arg2 harg2 arg3 harg3 arg4 harg4 arg5 harg5 arg6 arg7 arg8 arg9 arg10 arg11 = body (F := F) ⟨arg0, harg0, arg1, harg1, arg2, harg2, arg3, harg3, arg4, harg4, arg5, harg5, arg6, arg7, arg8, arg9, arg10, arg11⟩ := by
  sl_kernel_rfl

end Body

end Cert.Kernel.Hand

end
-- ==== Proof.KSched.lean ====
/-
  The protocol of the two-phase all-reduce on the 2 × 2 mesh, under the rounds discipline.

  Device `c` has a neighbour on each mesh axis: `xpeer c` (the other coordinate on the first axis) and `ypeer c` (on the
  second).  Per device there are 193 semaphore cells: the barrier cell and, for each of the 32 chunks, six DMA cells —
  the load of the chunk into `stage` (`l`), the copy of the summed chunk into the own result (`o`), the departure
  (`xs`) and the arrival (`xr`) of the first-axis exchange, the departure (`ys`) and the arrival (`yr`) of the
  second-axis one.  Every cell has ONE round.  The barrier cell's round has two duties of one unit: `false`, paid by
  `xpeer c`, which hands `c` that neighbour's 32 `xrecv` chunks to write into, and `true`, paid by `ypeer c`, which
  hands `c` the 32 chunks of that neighbour's result that `c` will write.  A DMA cell's round has the one duty
  `false`, of the chunk's credit, whose payload says what the landing leaves where:
    l   the chunk of `stage` holding the block's chunk, and the block's chunk back;
    xs  the lent share of the `xsend` chunk back;          xr  the own `xrecv` chunk holding the neighbour's narrowed chunk;
    ys  a lent share of the `ssum` chunk back;              yr  the result's chunk in the neighbour's half holding the neighbour's sum;
    o   the result's chunk in the own half holding the own sum, and the other lent share of the `ssum` chunk back.
  Levels: a device waits on a barrier cell (level 1) while it still owes arrivals on `xr` (2) and `yr` (3) cells, on an
  `xr` cell while it owes only `yr` arrivals, and on a `yr` cell owing nothing; every other cell is at level 0.
-/
import proofs.«900132_g7700000000000133_dist_ar_v7x_xy2x2_x_m4096_n1024_bf16_1_alg».proof.Proof.KProg
import proofs.«900132_g7700000000000133_dist_ar_v7x_xy2x2_x_m4096_n1024_bf16_1_alg».proof.Proof.Gen.Kernel.Launch
import Idealize.ShloMosaic.Lib.Pipeline.Launch
import Idealize.ShloMosaic.Lib.Pipeline.Kit
import Idealize.ShloMosaic.Lib.Tactic

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The neighbours -/

/-- The neighbour on the first mesh axis (as the kernel computes its id), and on the second. -/
abbrev xpeer (c : Dev nD) : Dev nD := ⟨k0_dev3 c, k0_dev3_lt c⟩
abbrev ypeer (c : Dev nD) : Dev nD := ⟨k0_dev35 c, k0_dev35_lt c⟩

theorem xpeer_xpeer : ∀ c : Dev nD, xpeer (xpeer c) = c := by decide +kernel
theorem ypeer_ypeer : ∀ c : Dev nD, ypeer (ypeer c) = c := by decide +kernel
theorem xpeer_ypeer : ∀ c : Dev nD, xpeer (ypeer c) = ypeer (xpeer c) := by decide +kernel
theorem xpeer_ne : ∀ c : Dev nD, xpeer c ≠ c := by decide +kernel
theorem ypeer_ne : ∀ c : Dev nD, ypeer c ≠ c := by decide +kernel
theorem xpeer_ne_ypeer : ∀ c : Dev nD, xpeer c ≠ ypeer c := by decide +kernel
/-- The two barrier signals address the first-axis neighbour, then the second-axis one. -/
theorem dev1_eq : ∀ c : Dev nD, (⟨k0_dev1 c, k0_dev1_lt c⟩ : Dev nD) = xpeer c := by decide +kernel
theorem dev2_eq : ∀ c : Dev nD, (⟨k0_dev2 c, k0_dev2_lt c⟩ : Dev nD) = ypeer c := by decide +kernel
/-- The two neighbours work on the same half (first axis) and on the other half (second axis) of a 4096-row array. -/
theorem rectG_xpeer : ∀ (c : Dev nD) (k : Fin 32), k0_off1 (xpeer c) (BitVec.ofNat 32 (64 * k.val)) = k0_off1 c (BitVec.ofNat 32 (64 * k.val)) := by decide +kernel

def xring : Dev nD ≃ Dev nD := ⟨xpeer, xpeer, xpeer_xpeer, xpeer_xpeer⟩
def yring : Dev nD ≃ Dev nD := ⟨ypeer, ypeer, ypeer_ypeer, ypeer_ypeer⟩

/-! ## The buffers and their chunks -/

abbrev xM : Memref sig .tc .hbm S4096x1024 .f32 := Memref.whole main_arg0
abbrev oM : Memref sig .tc .hbm S4096x1024 .bf16 := Memref.whole main_v1
abbrev stM : Memref sig .tc .vmem S2048x1024 .f32 := Memref.whole cc0_scratch0
abbrev sdM : Memref sig .tc .vmem S2048x1024 .bf16 := Memref.whole cc0_scratch1
abbrev rvM : Memref sig .tc .vmem S2048x1024 .bf16 := Memref.whole cc0_scratch2
abbrev smM : Memref sig .tc .vmem S2048x1024 .bf16 := Memref.whole cc0_scratch3

/-- The body's operands as the launch passes them. -/
abbrev theArgs : Args :=
  ⟨xM, Memref.isWhole_whole _, oM, Memref.isWhole_whole _, stM, Memref.isWhole_whole _, sdM, Memref.isWhole_whole _,
   rvM, Memref.isWhole_whole _, smM, Memref.isWhole_whole _, cc0_scratch4, cc0_scratch5, cc0_scratch6, cc0_scratch7, cc0_scratch8, cc0_scratch9⟩

/-- Chunk `k` of `stage`, `xsend`, `xrecv`, `ssum`. -/
abbrev stK (k : Fin 32) : Memref sig .tc .vmem S64x1024 .f32 := stM.slice (rectK k) (fun _ => rfl)
abbrev sdK (k : Fin 32) : Memref sig .tc .vmem S64x1024 .bf16 := sdM.slice (rectK k) (fun _ => rfl)
abbrev rvK (k : Fin 32) : Memref sig .tc .vmem S64x1024 .bf16 := rvM.slice (rectK k) (fun _ => rfl)
abbrev smK (k : Fin 32) : Memref sig .tc .vmem S64x1024 .bf16 := smM.slice (rectK k) (fun _ => rfl)
/-- Chunk `k` of the half device `d` works on, in a block and in a result (in whichever device's memory). -/
abbrev xK (d : Dev nD) (k : Fin 32) : Memref sig .tc .hbm S64x1024 .f32 := xM.slice (rectG d k) (fun _ => rfl)
abbrev oK (d : Dev nD) (k : Fin 32) : Memref sig .tc .hbm S64x1024 .bf16 := oM.slice (rectG d k) (fun _ => rfl)

/-! ## The cells -/

/-- The six families of DMA cells, in the order of the kernel's semaphore arrays:
    loads, result copies, first-axis departures and arrivals, second-axis departures and arrivals. -/
inductive Fam | l | o | xs | xr | ys | yr
  deriving DecidableEq

instance : Fintype Fam := ⟨{.l, .o, .xs, .xr, .ys, .yr}, fun f => by cases f <;> decide⟩

abbrev famSems : Fam → DmaSems sig S32
  | .l => cc0_scratch4 | .o => cc0_scratch5 | .xs => cc0_scratch6 | .xr => cc0_scratch7 | .ys => cc0_scratch8 | .yr => cc0_scratch9

abbrev dsem (f : Fam) (k : Fin 32) : SemLoc sig := .dma (semK (famSems f) k)
abbrev dcell (c : Dev nD) (f : Fam) (k : Fin 32) : GSem nD τ sig := ((c : Thread nD τ), dsem f k)
abbrev barCell (c : Dev nD) : GSem nD τ sig := ((c : Thread nD τ), .reg barSem)

/-- Which family and chunk a DMA semaphore belongs to (32 consecutive semaphores per family). -/
def famOf (i : DmaSem sig) : Fam :=
  match i.val / 32 with | 0 => .l | 1 => .o | 2 => .xs | 3 => .xr | 4 => .ys | _ => .yr
def idxOf (i : DmaSem sig) : Fin 32 := ⟨i.val % 32, Nat.mod_lt _ (by decide)⟩

theorem famOf_semK : ∀ (f : Fam) (k : Fin 32), famOf (semK (famSems f) k) = f := by decide +kernel
theorem idxOf_semK : ∀ (f : Fam) (k : Fin 32), idxOf (semK (famSems f) k) = k := by decide +kernel
theorem dsem_injective : ∀ (f f' : Fam) (k k' : Fin 32), dsem f k = dsem f' k' → f = f' ∧ k = k' := by
  intro f f' k k' h
  have h' : semK (famSems f) k = semK (famSems f') k' := by injection h
  exact ⟨by rw [← famOf_semK f k, h', famOf_semK], by rw [← idxOf_semK f k, h', idxOf_semK]⟩

/-- The credit of a chunk's transfer: into `stage` (f32), and everywhere else (bf16). -/
abbrev N32 : ℕ := (stK 0).view.dmaCredit
abbrev N16 : ℕ := (rvK 0).view.dmaCredit
theorem N32_pos : 0 < N32 := View.dmaCredit_pos _ (by decide)
theorem N16_pos : 0 < N16 := View.dmaCredit_pos _ (by decide)
abbrev amt : Fam → ℕ | .l => N32 | _ => N16

/-! ## What the chunks hold -/

/-- Device `c`'s block of the input, as launched. -/
abbrev blk (c : Dev nD) : Buf (Elt F) ((c : Thread nD τ).loc main_arg0) := m ((c : Thread nD τ).loc main_arg0)

/-- Chunk `k` of the half of its block that device `c` works on; that chunk narrowed; the first-axis neighbour's; their sum. -/
def xchunk (c : Dev nD) (k : Fin 32) : Vec F S64x1024 .f32 := (xK c k).view.read (Elt F) (blk m c)
def schunk (c : Dev nD) (k : Fin 32) : Vec F S64x1024 .bf16 := castPay (xchunk m c k)
def rchunk (c : Dev nD) (k : Fin 32) : Vec F S64x1024 .bf16 := schunk m (xpeer c) k
def tchunk (c : Dev nD) (k : Fin 32) : Vec F S64x1024 .bf16 := addPay (schunk m c k) (rchunk m c k)

/-- The block's chunk, held in place (never written: always at the launch contents). -/
def xPts (c : Dev nD) (k : Fin 32) : sProp 𝕄 :=
  (xK c k).view.loc (c : Thread nD τ) ↦[(xK c k).view.set]{fullShare} blk m c
/-- A chunk held outright at contents of no interest. -/
def anyK {sp : Space} {e : EltTy} (c : Dev nD) (M : Memref sig .tc sp S64x1024 e) : sProp 𝕄 :=
  iprop(∃ f, M.view.loc (c : Thread nD τ) ↦[M.view.set]{fullShare} f)

abbrev hL : PosShare TreeShare := fullShare.left
abbrev hR : PosShare TreeShare := fullShare.right

/-! ## The schedule -/

/-- What a DMA cell's one duty hands its owner `c`. -/
def chunkPay (c : Dev nD) : Fam → Fin 32 → sProp 𝕄
  | .l, k => iprop(owns (c : Thread nD τ) (stK k) fullShare (xchunk m c k) ∗ xPts m c k)
  | .xs, k => owns (c : Thread nD τ) (sdK k) hL (schunk m c k)
  | .xr, k => owns (c : Thread nD τ) (rvK k) fullShare (rchunk m c k)
  | .ys, k => owns (c : Thread nD τ) (smK k) hL (tchunk m c k)
  | .yr, k => owns (c : Thread nD τ) (oK (ypeer c) k) fullShare (tchunk m (ypeer c) k)
  | .o, k => iprop(owns (c : Thread nD τ) (oK c k) fullShare (tchunk m c k) ∗ owns (c : Thread nD τ) (smK k) hR (tchunk m c k))

/-- Device `c`'s 32 `xrecv` chunks, and the 32 chunks of its result in its second-axis neighbour's half: what it lends. -/
def lendX (c : Dev nD) : sProp 𝕄 := bigSep Finset.univ fun k : Fin 32 => anyK (F := F) c (rvK k)
def lendY (c : Dev nD) : sProp 𝕄 := bigSep Finset.univ fun k : Fin 32 => anyK (F := F) c (oK (ypeer c) k)

/-- What the two duties of `c`'s barrier cell hand `c`: `false` (from `xpeer c`) that neighbour's `xrecv` chunks,
    `true` (from `ypeer c`) that neighbour's result chunks in `c`'s half. -/
def barPay (c : Dev nD) : Bool → sProp 𝕄
  | false => lendX (F := F) (xpeer c)
  | true => lendY (F := F) (ypeer c)

/-- One round, round 0: a barrier cell has two duties of one unit; a DMA cell one duty of its chunk's credit. -/
def sched : Rounds.Schedule (GSem nD τ sig) Bool 𝕄 where
  duties g r := if r = 0 ∧ g.1.2 = .tc then (match g.2 with | .reg s => if s = barSem then Finset.univ else ∅ | .dma _ => {false}) else ∅
  unitless _ := False
  amount g _ _ := match g.2 with | .reg _ => 1 | .dma i => amt (famOf i)
  payload g _ d := match g.2 with
    | .reg s => if s = barSem then barPay (F := F) g.1.1 d else iprop(emp)
    | .dma i => chunkPay m g.1.1 (famOf i) (idxOf i)
  amount_pos g _ _ _ := by
    cases hg : g.2 with
    | reg s => exact Nat.one_pos
    | dma i =>
      show 0 < amt (famOf i)
      generalize famOf i = f
      cases f <;> first | exact N32_pos | exact N16_pos

/-- The schedule's payloads may sit in a cell's invariant. -/
instance sched_payload_storable (g : GSem nD τ sig) (r : ℕ) (d : Bool) :
    BI.Storable (upEmb : UEmb _ 𝕄) ((sched (F := F) m).payload g r d) := by
  obtain ⟨⟨c, q⟩, s | i⟩ := g
  · show BI.Storable upEmb (if s = barSem then barPay (F := F) c d else iprop(emp))
    split
    · cases d <;> (unfold barPay lendX lendY anyK; infer_instance)
    · infer_instance
  · show BI.Storable upEmb (chunkPay m c (famOf i) (idxOf i))
    generalize famOf i = f
    cases f <;> (unfold chunkPay xPts; infer_instance)

/-! ### Its tables (each a rewrite the steps use) -/

section Tables
variable (c : Dev nD) (f : Fam) (k : Fin 32)

theorem duties_bar : (sched (F := F) m).duties (barCell c) 0 = Finset.univ := by
  dsimp only [sched]; rw [if_pos ⟨rfl, rfl⟩]; exact if_pos rfl
theorem duties_dma : (sched (F := F) m).duties (dcell c f k) 0 = {false} := by
  dsimp only [sched]; exact if_pos ⟨rfl, rfl⟩
theorem duties_later (g : GSem nD τ sig) : ∀ r, 1 ≤ r → (sched (F := F) m).duties g r = ∅ :=
  fun r hr => by dsimp only [sched]; exact if_neg fun h => by have := h.1; omega
theorem amount_bar (d : Bool) : (sched (F := F) m).amount (barCell c) 0 d = 1 := rfl
theorem amount_dma (d : Bool) : (sched (F := F) m).amount (dcell c f k) 0 d = amt f := by
  show amt (famOf (semK (famSems f) k)) = amt f
  rw [famOf_semK]
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (sched (F := F) m).expect (dcell c f k) 0 = amt f := by
  unfold Schedule.expect Schedule.amountOf
  rw [duties_dma, Finset.sum_singleton, amount_dma]
theorem payload_bar (d : Bool) : (sched (F := F) m).payload (barCell c) 0 d = barPay (F := F) c d := by
  dsimp only [sched]; exact if_pos rfl
theorem payload_dma (d : Bool) : (sched (F := F) m).payload (dcell c f k) 0 d = chunkPay m c f k := by
  show chunkPay m c (famOf (semK (famSems f) k)) (idxOf (semK (famSems f) k)) = chunkPay m c f k
  rw [famOf_semK, idxOf_semK]
/-- The rest of a round no duty of which has been taken. -/
theorem rest_bar : bigSep ((sched (F := F) m).duties (barCell c) 0 \ ∅) (fun d => (sched (F := F) m).payload (barCell c) 0 d)
    = iprop(lendX (F := F) (xpeer c) ∗ lendY (F := F) (ypeer c)) := by
  rw [Finset.sdiff_empty, duties_bar, bigSep_univ_eq_bigSepL [false, true] (by decide) (by decide), bigSepL_cons_cons, bigSepL_singleton,
    payload_bar, payload_bar]
  rfl
theorem rest_dma : bigSep ((sched (F := F) m).duties (dcell c f k) 0 \ ∅) (fun d => (sched (F := F) m).payload (dcell c f k) 0 d)
    = chunkPay m c f k := by
  rw [Finset.sdiff_empty, duties_dma, bigSep_singleton, payload_dma]

end Tables

/-! ## What a device owes, payment by payment -/

/-- Device `c`'s payments to other devices' cells, in program order: the two barrier units, the 32 first-axis
    arrivals, the 32 second-axis arrivals. -/
def owedAt (c : Dev nD) (j : ℕ) : GSem nD τ sig × ℕ :=
  if j = 0 then (barCell (xpeer c), 1) else if j = 1 then (barCell (ypeer c), 1)
  else if j < 34 then (dcell (xpeer c) .xr ⟨(j - 2) % 32, Nat.mod_lt _ (by decide)⟩, N16)
  else (dcell (ypeer c) .yr ⟨(j - 34) % 32, Nat.mod_lt _ (by decide)⟩, N16)

/-- The last `n` of the 66 payments. -/
def Orem (c : Dev nD) : ℕ → CellTallies nD τ sig Unit
  | 0 => 0
  | n + 1 => Orem c n + tallyAt (owedAt c (65 - n)).1 () (owedAt c (65 - n)).2
/-- What `c` still owes when its first `j` payments are made. -/
abbrev Oat (c : Dev nD) (j : ℕ) : CellTallies nD τ sig Unit := Orem c (66 - j)

theorem Oat_succ (c : Dev nD) (j : ℕ) (hj : j < 66) :
    Oat c j = Oat c (j + 1) + tallyAt (owedAt c j).1 () (owedAt c j).2 := by
  have h1 : 66 - j = (65 - j) + 1 := by omega
  have h2 : 66 - (j + 1) = 65 - j := by omega
  have h3 : 65 - (65 - j) = j := by omega
  show Orem c (66 - j) = Orem c (66 - (j + 1)) + _
  rw [h1, h2]; show Orem c (65 - j) + _ = _; rw [h3]
theorem Oat_done (c : Dev nD) : Oat c 66 = 0 := rfl
theorem owedAt_x (c : Dev nD) (k : Fin 32) : owedAt c (2 + k.val) = (dcell (xpeer c) .xr k, N16) := by
  have hk := k.isLt
  unfold owedAt
  rw [if_neg (show ¬ (2 + k.val = 0) by omega), if_neg (show ¬ (2 + k.val = 1) by omega), if_pos (show 2 + k.val < 34 by omega)]
  exact congrArg (fun q : Fin 32 => ((dcell (xpeer c) Fam.xr q, N16) : GSem nD τ sig × ℕ))
    (Fin.ext (show (2 + k.val - 2) % 32 = k.val by omega))
theorem owedAt_y (c : Dev nD) (k : Fin 32) : owedAt c (34 + k.val) = (dcell (ypeer c) .yr k, N16) := by
  have hk := k.isLt
  unfold owedAt
  rw [if_neg (show ¬ (34 + k.val = 0) by omega), if_neg (show ¬ (34 + k.val = 1) by omega), if_neg (show ¬ (34 + k.val < 34) by omega)]
  exact congrArg (fun q : Fin 32 => ((dcell (ypeer c) Fam.yr q, N16) : GSem nD τ sig × ℕ))
    (Fin.ext (show (34 + k.val - 34) % 32 = k.val by omega))
/-- A cell that is still owed something is one of the payments not yet made. -/
theorem Oat_pos {c : Dev nD} {j : ℕ} {g : GSem nD τ sig} {u : Unit} (h : 0 < Oat c j g u) : ∃ i, j ≤ i ∧ i < 66 ∧ g = (owedAt c i).1 := by
  -- the last `n` payments are the payments `66 - n, …, 65`
  have key : ∀ n, 0 < Orem c n g u → ∃ i, 66 - n ≤ i ∧ i < 66 ∧ g = (owedAt c i).1 := by
    intro n
    induction n with
    | zero =>
      intro h0
      change 0 < (0 : CellTallies nD τ sig Unit) g u at h0
      rw [Pi.zero_apply, Finsupp.coe_zero, Pi.zero_apply] at h0
      exact absurd h0 (Nat.lt_irrefl 0)
    | succ n ih =>
      intro hn
      change 0 < (Orem c n + tallyAt (owedAt c (65 - n)).1 () (owedAt c (65 - n)).2) g u at hn
      rw [Pi.add_apply, Finsupp.add_apply, tallyAt_apply] at hn
      by_cases hg : g = (owedAt c (65 - n)).1 ∧ u = ()
      · exact ⟨65 - n, by omega, by omega, hg.1⟩
      · rw [if_neg hg, Nat.add_zero] at hn
        obtain ⟨i, h1, h2, h3⟩ := ih hn
        exact ⟨i, by omega, h2, h3⟩
  obtain ⟨i, h1, h2, h3⟩ := key (66 - j) h
  exact ⟨i, by omega, h2, h3⟩

/-! ## Levels -/

def L (g : GSem nD τ sig) : Finset Unit := if g.1.2 = .tc then {()} else ∅
def lvl : SemLoc sig → ℕ
  | .reg _ => 1
  | .dma i => match famOf i with | .xr => 2 | .yr => 3 | _ => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- The level of a family's cells, and of the cell of each payment. -/
theorem lvl_dsem : ∀ (f : Fam) (k : Fin 32), lvl (dsem f k) = (match f with | .xr => 2 | .yr => 3 | _ => 0) := by decide +kernel
theorem lvl_owedAt (c : Dev nD) (i : ℕ) : lvl (owedAt c i).1.2 = if i < 2 then 1 else if i < 34 then 2 else 3 := by
  unfold owedAt
  by_cases h0 : i = 0
  · rw [if_pos h0, if_pos (show i < 2 by omega)]; rfl
  · by_cases h1 : i = 1
    · rw [if_neg h0, if_pos h1, if_pos (show i < 2 by omega)]; rfl
    · by_cases h2 : i < 34
      · rw [if_neg h0, if_neg h1, if_pos h2, if_neg (show ¬ i < 2 by omega), if_pos h2]; exact lvl_dsem .xr _
      · rw [if_neg h0, if_neg h1, if_neg h2, if_neg (show ¬ i < 2 by omega), if_neg h2]; exact lvl_dsem .yr _
/-- Every payment goes to a TensorCore's cell. -/
theorem owedAt_tc (c : Dev nD) (i : ℕ) : (owedAt c i).1.1.2 = .tc := by
  unfold owedAt
  by_cases h0 : i = 0
  · rw [if_pos h0]
  · by_cases h1 : i = 1
    · rw [if_neg h0, if_pos h1]
    · by_cases h2 : i < 34
      · rw [if_neg h0, if_neg h1, if_pos h2]
      · rw [if_neg h0, if_neg h1, if_neg h2]

/-- A device may wait on a cell of its own whose level is below that of every payment it has not yet made. -/
theorem mayWait_of_lvl (c : Dev nD) (sm : SemLoc sig) (j : ℕ) (h : ∀ i, j ≤ i → i < 66 → lvl sm < lvl (owedAt c i).1.2) :
    (levAts L lv : sProp 𝕄) ⊢ MayWait (c : Thread nD τ) sm () (Oat c j) :=
  MayOwe.of_cut (L := L) (lev := lv) (lvl sm)
    (fun p hp => by rw [Finset.mem_singleton.mp hp, L_tc]; exact Finset.mem_singleton_self _)
    (fun g u hg => by
      obtain ⟨i, _, _, rfl⟩ := Oat_pos hg
      unfold L; rw [if_pos (owedAt_tc c i)]; exact Finset.mem_singleton_self _)
    (fun p hp => by rw [Finset.mem_singleton.mp hp]; exact le_refl _)
    (fun g u hg => by
      obtain ⟨i, h1, h2, rfl⟩ := Oat_pos hg
      exact h i h1 h2)
/-- The instances the body uses: a level-0 cell at any time; the barrier cell once both units are paid; an `xr` cell once
    every first-axis chunk is sent. -/
theorem mayWait_low (c : Dev nD) (f : Fam) (k : Fin 32) (hf : f ≠ .xr ∧ f ≠ .yr) (j : ℕ) :
    (levAts L lv : sProp 𝕄) ⊢ MayWait (c : Thread nD τ) (dsem f k) () (Oat c j) := by
  have h0 : lvl (dsem f k) = 0 := by
    rw [lvl_dsem]; cases f <;> first | rfl | exact absurd rfl hf.1 | exact absurd rfl hf.2
  refine mayWait_of_lvl c (dsem f k) j fun i _ _ => ?_
  rw [h0, lvl_owedAt]
  by_cases a : i < 2
  · rw [if_pos a]; decide
  · rw [if_neg a]; by_cases b : i < 34
    · rw [if_pos b]; decide
    · rw [if_neg b]; decide
theorem mayWait_bar (c : Dev nD) : (levAts L lv : sProp 𝕄) ⊢ MayWait (c : Thread nD τ) (.reg barSem) () (Oat c 2) := by
  refine mayWait_of_lvl c (.reg barSem) 2 fun i hi _ => ?_
  rw [show lvl (SemLoc.reg barSem : SemLoc sig) = 1 from rfl, lvl_owedAt, if_neg (show ¬ i < 2 by omega)]
  by_cases b : i < 34
  · rw [if_pos b]; decide
  · rw [if_neg b]; decide
theorem mayWait_xr (c : Dev nD) (k : Fin 32) (j : ℕ) (hj : 34 ≤ j) :
    (levAts L lv : sProp 𝕄) ⊢ MayWait (c : Thread nD τ) (dsem .xr k) () (Oat c j) := by
  refine mayWait_of_lvl c (dsem .xr k) j fun i hi _ => ?_
  rw [show lvl (dsem .xr k) = 2 from lvl_dsem .xr k, lvl_owedAt, if_neg (show ¬ i < 2 by omega), if_neg (show ¬ i < 34 by omega)]
  decide

/-! ## The cells' invariants, as every device knows them -/

/-- A device's cells: the barrier cell, or a family's chunk. -/
abbrev CellIx : Type := Option (Fam × Fin 32)
abbrev csem : CellIx → SemLoc sig
  | none => .reg barSem
  | some (f, k) => dsem f k
abbrev kcell (ck : Dev nD × CellIx) : GSem nD τ sig := ((ck.1 : Thread nD τ), csem ck.2)

/-- Every cell's invariant (at the names `K` the launch allocated) and that its round 0 is reached: persistent,
    known to every device. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records (F := F) m K) := by unfold records; infer_instance

theorem inv_at (K : Dev nD × CellIx → ℕ) (ck : Dev nD × CellIx) : records (F := F) m K ⊢ cellInv ER (sched m) (K ck) (kcell ck) := by
  have h1 : records (F := F) m K ⊢ (bigSep Finset.univ fun ck : Dev nD × CellIx => cellInv ER (sched m) (K ck) (kcell ck)) := by
    unfold records; iintro ⟨H, -⟩; iexact H
  exact h1.trans (bigSep_elim (Finset.mem_univ ck))
theorem reached_at (K : Dev nD × CellIx → ℕ) (ck : Dev nD × CellIx) : records (F := F) m K ⊢ reached ER (kcell ck) 0 := by
  have h1 : records (F := F) m K ⊢ (bigSep Finset.univ fun ck : Dev nD × CellIx => (reached ER (kcell ck) 0 : sProp 𝕄)) := by
    unfold records; iintro ⟨-, H⟩; iexact H
  exact h1.trans (bigSep_elim (Finset.mem_univ ck))

/-! ## A chunk's resources on device `c`, stage by stage -/

/-- The positions of the chunk's six cells, all at round `r`. -/
def posAll (c : Dev nD) (k : Fin 32) (r : Fam → ℕ) : sProp 𝕄 :=
  iprop(atPos ER (dcell c .l k) (r .l) ∅ 0 ∗ atPos ER (dcell c .o k) (r .o) ∅ 0 ∗ atPos ER (dcell c .xs k) (r .xs) ∅ 0
    ∗ atPos ER (dcell c .xr k) (r .xr) ∅ 0 ∗ atPos ER (dcell c .ys k) (r .ys) ∅ 0 ∗ atPos ER (dcell c .yr k) (r .yr) ∅ 0)

/-- As dealt: the block's chunk; the chunks of `stage`, `xsend`, `ssum` and of the result's own half at anything; the six
    positions at round 0; the tokens of the six duties `c` pays for this chunk; the credit of the two arrivals. -/
def C0 (c : Dev nD) (k : Fin 32) : sProp 𝕄 :=
  iprop(xPts m c k ∗ anyK (F := F) c (stK k) ∗ anyK (F := F) c (sdK k) ∗ anyK (F := F) c (smK k) ∗ anyK (F := F) c (oK c k)
    ∗ posAll (F := F) c k (fun _ => 0)
    ∗ dutyTok ER (dcell c .l k) 0 false ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- The load under way: the block's chunk and the `stage` chunk lent, the load's credit in hand. -/
def C1 (c : Dev nD) (k : Fin 32) : sProp 𝕄 :=
  iprop(cred (tallyAt (dcell c .l k) () N32) ∗ anyK (F := F) c (sdK k) ∗ anyK (F := F) c (smK k) ∗ anyK (F := F) c (oK c k)
    ∗ posAll (F := F) c k (fun _ => 0)
    ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- Loaded and narrowed. -/
def C2 (c : Dev nD) (k : Fin 32) : sProp 𝕄 :=
  iprop(xPts m c k ∗ owns (c : Thread nD τ) (stK k) fullShare (xchunk m c k) ∗ owns (c : Thread nD τ) (sdK k) fullShare (schunk m c k)
    ∗ anyK (F := F) c (smK k) ∗ anyK (F := F) c (oK c k)
    ∗ posAll (F := F) c k (fun f => if f = .l then 1 else 0)
    ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false
    ∗ cred (tallyAt (dcell c .xr k) () N16) ∗ cred (tallyAt (dcell c .yr k) () N16))

/-- Sent on the first axis: one share of the `xsend` chunk lent, the other kept to read; the departure's credit in hand. -/
def C3 (c : Dev nD) (k : Fin 32) : sProp 𝕄 :=
  iprop(xPts m c k ∗ owns (c : Thread nD τ) (stK k) fullShare (xchunk m c k) ∗ owns (c : Thread nD τ) (sdK k) hR (schunk m c k)
    ∗ cred (tallyAt (dcell c .xs k) () N16)
    ∗ anyK (F := F) c (smK k) ∗ anyK (F := F) c (oK c k)
    ∗ posAll (F := F) c k (fun f => if f = .l then 1 else 0)
    ∗ dutyTok ER (dcell c .o k) 0 false ∗ dutyTok ER (dcell c .ys k) 0 false ∗ dutyTok ER (dcell (ypeer c) .yr k) 0 false
    ∗ cred (tallyAt (dcell c .xr k) () N16) ∗ cred (tallyAt (dcell c .yr k) () N16))

/-- Reduced and sent on: the neighbour's chunk received, the sum's chunk lent whole (half to each copy), the result's own
    chunk lent to the copy; three credits in hand beside the second-axis arrival's. -/
def C4 (c : Dev nD) (k : Fin 32) : sProp 𝕄 :=
  iprop(xPts m c k ∗ owns (c : Thread nD τ) (stK k) fullShare (xchunk m c k) ∗ owns (c : Thread nD τ) (sdK k) hR (schunk m c k)
    ∗ owns (c : Thread nD τ) (rvK k) fullShare (rchunk m c k)
    ∗ cred (tallyAt (dcell c .xs k) () N16) ∗ cred (tallyAt (dcell c .ys k) () N16) ∗ cred (tallyAt (dcell c .o k) () N16)
    ∗ posAll (F := F) c k (fun f => if f = .l ∨ f = .xr then 1 else 0)
    ∗ cred (tallyAt (dcell c .yr k) () N16))

/-- Drained: every buffer's chunk back, the result's two chunks (own half, neighbour's half) at the sums, the six counters
    at zero. -/
def C5 (c : Dev nD) (k : Fin 32) : sProp 𝕄 :=
  iprop(xPts m c k ∗ owns (c : Thread nD τ) (stK k) fullShare (xchunk m c k) ∗ owns (c : Thread nD τ) (sdK k) fullShare (schunk m c k)
    ∗ owns (c : Thread nD τ) (rvK k) fullShare (rchunk m c k) ∗ owns (c : Thread nD τ) (smK k) fullShare (tchunk m c k)
    ∗ owns (c : Thread nD τ) (oK c k) fullShare (tchunk m c k) ∗ owns (c : Thread nD τ) (oK (ypeer c) k) fullShare (tchunk m (ypeer c) k)
    ∗ semVal (dcell c .l k) 0 ∗ semVal (dcell c .o k) 0 ∗ semVal (dcell c .xs k) 0 ∗ semVal (dcell c .xr k) 0 ∗ semVal (dcell c .ys k) 0 ∗ semVal (dcell c .yr k) 0)

end Cert.Kernel.Hand

end
-- ==== Proof.KRuns.lean ====
/-
  Running a per-chunk piece over the chunks in order.

  If one piece, run on chunk `k`, takes the chunk's resources from `B k` to `A k` and what is shared among the chunks
  from `R k` to `R (k + 1)`, then the pieces run on chunks `i, …, i + n − 1` take `R i` and the chunks below `i` at `A`,
  the others at `B`, to `R (i + n)` and the chunks below `i + n` at `A`, the others at `B`.
-/
import proofs.«900132_g7700000000000133_dist_ar_v7x_xy2x2_x_m4096_n1024_bf16_1_alg».proof.Proof.KSched

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Pieces in sequence, one invariant per position. -/
theorem wp_runFrom (c : Dev nD) (f : Fin 32 → Prog (TpuEff nD τ sig (Elt F) Λ₀ .tc) PUnit) (I : ℕ → sProp 𝕄)
    (hstep : ∀ k : Fin 32, I k.val ⊢ WP c (f k) (fun _ => I (k.val + 1))) :
    ∀ (n i : ℕ), i + n ≤ 32 → I i ⊢ WP c (runFrom f i n) (fun _ => I (i + n)) := by
  intro n
  induction n with
  | zero =>
    intro i _
    unfold runFrom
    exact fupd_intro
  | succ n ih =>
    intro i hi
    have hlt : i < 32 := by omega
    unfold runFrom
    rw [dif_pos hlt]
    show I i ⊢ wp frame _ Set.univ ((f ⟨i, hlt⟩) >>= fun _ => runFrom f (i + 1) n) _
    rw [wp_bind]
    refine (hstep ⟨i, hlt⟩).trans (wp_mono _ _ _ fun _ => ?_)
    have h := ih (i + 1) (by omega)
    rw [show i + 1 + n = i + (n + 1) from by omega] at h
    exact h

/-- The chunks' resources when the chunks below `i` are done. -/
def upTo (A B : Fin 32 → sProp 𝕄) (i : ℕ) : sProp 𝕄 :=
  bigSep Finset.univ fun k : Fin 32 => if k.val < i then A k else B k

theorem upTo_zero (A B : Fin 32 → sProp 𝕄) : upTo A B 0 = bigSep Finset.univ B :=
  bigSep_congr fun k _ => if_neg (Nat.not_lt_zero _)
theorem upTo_all (A B : Fin 32 → sProp 𝕄) : upTo A B 32 = bigSep Finset.univ A :=
  bigSep_congr fun k _ => if_pos k.isLt

/-- Taking chunk `k` out, at `B` before its turn and put back at `A` after it. -/
theorem upTo_at (A B : Fin 32 → sProp 𝕄) (k : Fin 32) :
    upTo A B k.val = iprop(B k ∗ bigSep (Finset.univ.erase k) fun j : Fin 32 => if j.val < k.val then A j else B j) := by
  unfold upTo; rw [bigSep_univ_at _ k, if_neg (Nat.lt_irrefl _)]
theorem upTo_at_succ (A B : Fin 32 → sProp 𝕄) (k : Fin 32) :
    upTo A B (k.val + 1) = iprop(A k ∗ bigSep (Finset.univ.erase k) fun j : Fin 32 => if j.val < k.val then A j else B j) := by
  unfold upTo; rw [bigSep_univ_at _ k, if_pos (Nat.lt_succ_self _)]
  refine congrArg (fun X => iprop(A k ∗ X)) (bigSep_congr fun j hj => ?_)
  have hne : j.val ≠ k.val := fun h => (Finset.mem_erase.mp hj).1 (Fin.ext h)
  by_cases h : j.val < k.val
  · rw [if_pos h, if_pos (Nat.lt_succ_of_lt h)]
  · rw [if_neg h, if_neg (by omega)]

/-- A per-chunk piece run over the chunks `i, …, i + n − 1`. -/
theorem wp_chunks (c : Dev nD) (f : Fin 32 → Prog (TpuEff nD τ sig (Elt F) Λ₀ .tc) PUnit) (R : ℕ → sProp 𝕄) (A B : Fin 32 → sProp 𝕄)
    (hstep : ∀ k : Fin 32, iprop(R k.val ∗ B k) ⊢ WP c (f k) (fun _ => iprop(R (k.val + 1) ∗ A k)))
    (n i : ℕ) (h : i + n ≤ 32) :
    iprop(R i ∗ upTo A B i) ⊢ WP c (runFrom f i n) (fun _ => iprop(R (i + n) ∗ upTo A B (i + n))) := by
  refine wp_runFrom c f (fun j => iprop(R j ∗ upTo A B j)) (fun k => ?_) n i h
  show iprop(R k.val ∗ upTo A B k.val) ⊢ WP c (f k) (fun _ => iprop(R (k.val + 1) ∗ upTo A B (k.val + 1)))
  rw [upTo_at, upTo_at_succ]
  iintro ⟨HR, HB, Hrest⟩
  iapply (wp_mono _ _ _ (fun _ => (show iprop((R (k.val + 1) ∗ A k) ∗ bigSep (Finset.univ.erase k) fun j : Fin 32 => if j.val < k.val then A j else B j)
      ⊢ iprop(R (k.val + 1) ∗ A k ∗ bigSep (Finset.univ.erase k) fun j : Fin 32 => if j.val < k.val then A j else B j) from sep_assoc.1)))
  iapply (wp_frame_r _ _ _)
  isplitl [HR HB]
  · iapply (hstep k); isplitl [HR] <;> iassumption
  · iexact Hrest

end Cert.Kernel.Hand

end
-- ==== Proof.KBodySpec.lean ====
/-
  What the body is proved to do, and what the launch hands it and takes back.

  The body starts from the cells' invariants, the level facts, what it owes (all 66 payments), its barrier cell's
  position, credit and the two barrier tokens it pays with, the chunks it lends its neighbours, and every chunk's
  resources as dealt (`C0`); it ends owing nothing with every chunk drained (`C5`).  The launch hands a device its block
  and its result buffer whole, its four scratch buffers whole, the ghost state and the credit of the arrivals it will wait
  for; the body's first act is to cut the buffers into chunks and its last to put them together again.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's specification over the chunk states -/

/-- The barrier cell's part of a device's start. -/
def barStart (c : Dev nD) : sProp 𝕄 :=
  iprop(atPos ER (barCell c) 0 ∅ 0 ∗ cred (tallyAt (barCell c) () 2)
    ∗ dutyTok ER (barCell (xpeer c)) 0 false ∗ dutyTok ER (barCell (ypeer c)) 0 true)

def bodyPre (K : Dev nD × CellIx → ℕ) (c : Dev nD) : sProp 𝕄 :=
  iprop(records m K ∗ levAts L lv ∗ (∃ W, owes (c : Thread nD τ) (Oat c 0) W) ∗ barStart (F := F) c
    ∗ lendX (F := F) c ∗ lendY (F := F) c ∗ bigSep Finset.univ fun k : Fin 32 => C0 m c k)

def bodyPost (c : Dev nD) : sProp 𝕄 :=
  iprop((∃ W, owes (c : Thread nD τ) 0 W) ∗ bigSep Finset.univ fun k : Fin 32 => C5 m c k)

/-! ## What the launch hands a device, and what it takes back -/

/-- Per chunk, as the launch deals it: the six positions at round 0 and the tokens of the six duties the device pays. -/
def chunkGhost (c : Dev nD) (k : Fin 32) : sProp 𝕄 :=
  iprop(posAll (F := F) c k (fun _ => 0)
    ∗ dutyTok ER (dcell c .l k) 0 false ∗ dutyTok ER (dcell c .o k) 0 false ∗ dutyTok ER (dcell c .xs k) 0 false ∗ dutyTok ER (dcell c .ys k) 0 false
    ∗ dutyTok ER (dcell (xpeer c) .xr k) 0 false ∗ dutyTok ER (dcell (ypeer c) .yr k) 0 false)

def ghost (K : Dev nD × CellIx → ℕ) (c : Dev nD) : sProp 𝕄 :=
  iprop(records m K ∗ atPos ER (barCell c) 0 ∅ 0 ∗ dutyTok ER (barCell (xpeer c)) 0 false ∗ dutyTok ER (barCell (ypeer c)) 0 true
    ∗ bigSep Finset.univ fun k : Fin 32 => chunkGhost (F := F) c k)

/-- The credit of what the neighbours owe the device: two barrier units, and per chunk the two arrivals. -/
def creds (c : Dev nD) : sProp 𝕄 :=
  iprop(cred (tallyAt (barCell c) () 2)
    ∗ bigSep Finset.univ fun k : Fin 32 => iprop(cred (tallyAt (dcell c .xr k) () N16) ∗ cred (tallyAt (dcell c .yr k) () N16)))

def start (c : Dev nD) : sProp 𝕄 :=
  iprop((∃ K, ghost m K c) ∗ creds (F := F) c ∗ levAts L lv
    ∗ (((c : Thread nD τ).loc main_arg0) ↦{fullShare} blk m c) ∗ ∃ f : Buf (Elt F) ((c : Thread nD τ).loc main_v1), ((c : Thread nD τ).loc main_v1) ↦{fullShare} f)

/-- The four scratch buffers, whole, at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch (F := F) c)

/-- The result after the body: its 64 chunks, the own half's and the neighbour's half's, at the sums. -/
def outDone (c : Dev nD) : sProp 𝕄 :=
  bigSep Finset.univ fun k : Fin 32 =>
    iprop(owns (c : Thread nD τ) (oK c k) fullShare (tchunk m c k) ∗ owns (c : Thread nD τ) (oK (ypeer c) k) fullShare (tchunk m (ypeer c) k))
/-- The kernel's 192 DMA semaphores back at zero. -/
def zeros (c : Dev nD) : sProp 𝕄 := bigSep Finset.univ fun fk : Fam × Fin 32 => semVal (dcell c fk.1 fk.2) 0

def Φ₁ (c : Dev nD) : sProp 𝕄 :=
  iprop((((c : Thread nD τ).loc main_arg0) ↦{fullShare} blk m c) ∗ outDone m c ∗ zeros (F := F) c ∗ scratch (F := F) c)

/-- The pipeline's proof data: no window; before the one point `Φ₀`, after it `Φ₁`; the device owes its 66 payments
    before and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Oat c 0
    | ⟨_ + 1, _⟩ => 0

end Cert.Kernel.Hand

end
-- ==== Proof.KStepLoad.lean ====
/-
  The load of a chunk: its start, and its wait followed by the narrowing.

  Starting the load lends the block's chunk and the `stage` chunk to the transfer and pays the load cell's one duty,
  whose payload is those two chunks with the `stage` chunk now holding the block's chunk.  Waiting for the rest of
  that cell's round hands the payload back; the narrowing then reads the `stage` chunk and stores it, narrowed, over the
  `xsend` chunk.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small facts about the chunks -/

/-- The credit of a transfer into a chunk of `stage` is the same for every chunk: it depends on the buffer, the chunk's
    shape and the element type only. -/
theorem credit_st (k : Fin 32) : (stK k).view.dmaCredit = N32 := rfl

/-- The load cell's payload, spelt out. -/
theorem chunkPay_l {F : FTy → Type} [FloatOps F] (m : (ℓ : Loc nD τ sig) → Buf (Elt F) ℓ) (c : Dev nD) (k : Fin 32) :
    chunkPay m c .l k = iprop(owns (c : Thread nD τ) (stK k) fullShare (xchunk m c k) ∗ xPts m c k) := rfl

/-- A memref's elements at contents that it reads as `X` are owned at `X`. -/
theorem owns_of {F : FTy → Type} [FloatOps F] (c : Dev nD) {sp : Space} {sh : Shape} {e : EltTy} (M : Memref sig .tc sp sh e)
    (q : PosShare TreeShare) (f : Buf (Elt F) (M.view.loc (c : Thread nD τ))) (X : sh.Idx → Elt F e) (h : M.view.read (Elt F) f = X) :
    (M.view.loc (c : Thread nD τ) ↦[M.view.set]{q} f : sProp (MT nD τ sig Unit (Elt F) ℕ UU ℕ)) ⊢ owns (c : Thread nD τ) M q X := by
  subst h; exact owns_intro (c : Thread nD τ) M q f

/-- Owning a memref at `X` is holding its elements at some contents that it reads as `X`. -/
theorem owns_elim {F : FTy → Type} [FloatOps F] (c : Dev nD) {sp : Space} {sh : Shape} {e : EltTy} (M : Memref sig .tc sp sh e)
    (q : PosShare TreeShare) (X : sh.Idx → Elt F e) :
    (owns (c : Thread nD τ) M q X : sProp (MT nD τ sig Unit (Elt F) ℕ UU ℕ))
      ⊢ iprop(∃ f : Buf (Elt F) (M.view.loc (c : Thread nD τ)), ⌜M.view.read (Elt F) f = X⌝ ∗ (M.view.loc (c : Thread nD τ) ↦[M.view.set]{q} f)) := .rfl

/-- A chunk held at anything is held at some contents. -/
theorem anyK_elim {F : FTy → Type} [FloatOps F] (c : Dev nD) {sp : Space} {e : EltTy} (M : Memref sig .tc sp S64x1024 e) :
    (anyK (F := F) c M : sProp (MT nD τ sig Unit (Elt F) ℕ UU ℕ))
      ⊢ iprop(∃ f : Buf (Elt F) (M.view.loc (c : Thread nD τ)), M.view.loc (c : Thread nD τ) ↦[M.view.set]{fullShare} f) := .rfl

/-- What the landing of the load leaves — the `stage` chunk overwritten with what the block's chunk reads, and the
    block's chunk back — is the load cell's payload. -/
theorem pay_l {F : FTy → Type} [FloatOps F] (m : (ℓ : Loc nD τ sig) → Buf (Elt F) ℓ) (c : Dev nD) (k : Fin 32)
    (fd : Buf (Elt F) ((stK k).view.loc (c : Thread nD τ))) :
    (iprop(((stK k).view.loc (c : Thread nD τ) ↦[(stK k).view.set]{fullShare}
              ((stK k).view.write (Elt F) fd ((xK c k).view.read (Elt F) (blk m c)) Finset.univ))
          ∗ ((xK c k).view.loc (c : Thread nD τ) ↦[(xK c k).view.set]{fullShare} blk m c)) : sProp (MT nD τ sig Unit (Elt F) ℕ UU ℕ))
      ⊢ chunkPay m c .l k := by
  rw [chunkPay_l]
  exact sep_mono (owns_of c (stK k) fullShare _ _ (View.read_write_univ _ _)) .rfl

/-- The six positions, the load cell's apart: all at round 0, and the load cell's at round 1. -/
def posRest {F : FTy → Type} [FloatOps F] (c : Dev nD) (k : Fin 32) : sProp (MT nD τ sig Unit (Elt F) ℕ UU ℕ) :=
  iprop(atPos ER (dcell c .o k) 0 ∅ 0 ∗ atPos ER (dcell c .xs k) 0 ∅ 0
    ∗ atPos ER (dcell c .xr k) 0 ∅ 0 ∗ atPos ER (dcell c .ys k) 0 ∅ 0 ∗ atPos ER (dcell c .yr k) 0 ∅ 0)

theorem posAll_0 {F : FTy → Type} [FloatOps F] (c : Dev nD) (k : Fin 32) :
    posAll (F := F) c k (fun _ => 0) = iprop(atPos ER (dcell c .l k) 0 ∅ 0 ∗ posRest (F := F) c k) := rfl
theorem posAll_1 {F : FTy → Type} [FloatOps F] (c : Dev nD) (k : Fin 32) :
    posAll (F := F) c k (fun f => if f = .l then 1 else 0) = iprop(atPos ER (dcell c .l k) 1 ∅ 0 ∗ posRest (F := F) c k) := rfl

/-- The load cell's round, whole: its one duty's payload. -/
theorem round_l {F : FTy → Type} [FloatOps F] (m : (ℓ : Loc nD τ sig) → Buf (Elt F) ℓ) (c : Dev nD) (k : Fin 32) :
    bigSep ((sched (F := F) m).duties (dcell c .l k) 0) (fun d => (sched (F := F) m).payload (dcell c .l k) 0 d)
      = iprop(owns (c : Thread nD τ) (stK k) fullShare (xchunk m c k) ∗ xPts m c k) := by
  have h := rest_dma m c .l k
  rw [Finset.sdiff_empty] at h
  exact h.trans (chunkPay_l m c k)

/-- Start the load of chunk `k`. -/
theorem step_ldEnq (K : Dev nD × CellIx → ℕ) (c : Dev nD) (k : Fin 32) :
    iprop(records m K ∗ C0 m c k) ⊢ WP c (ldEnq (F := F) theArgs c k) (fun _ => C1 (F := F) c k) := by
  unfold ldEnq C0 C1 xPts
  simp only [Prog.lift]
  iintro ⟨#Hrec, Hx, Hst, Hsd, Hsm, Ho, Hpos, HtL, Hrest⟩
  ihave #HI := (inv_at m K (c, some (.l, k))) $$ Hrec
  ihave #Hr := (reached_at m K (c, some (.l, k))) $$ Hrec
  ihave Hst' := (anyK_elim (F := F) c (stK k)) $$ Hst
  icases Hst' with ⟨%fd, Hst⟩
  -- the copy pays the load cell's one duty; its landing leaves the cell's payload
  iapply (Rounds.wp_copy_pointsTo 𝒱₀ ER (sched m) (c : Thread nD τ) none (src := xK c k) (dst := stK k) (sem := dsem .l k)
      (q := fullShare) (fs := blk m c) (fd := fd) (r := 0) (d := false) (κ := K (c, some (.l, k)))
      (by rw [duties_dma m c .l k]; exact Finset.mem_singleton_self _) () N32 (credit_st k) (amount_dma m c .l k false)
      (by rw [payload_dma m c .l k false]; exact pay_l m c k fd)) $$ [Hx Hst HtL]
  · isplitr; · iexact HI
    isplitl [Hx]; · iexact Hx
    isplitl [Hst]; · iexact Hst
    isplitl [HtL]; · iexact HtL
    iexact Hr
  iintro Hc
  rw [wp_ret]; imodintro
  isplitl [Hc]; · iexact Hc
  isplitl [Hsd]; · iexact Hsd
  isplitl [Hsm]; · iexact Hsm
  isplitl [Ho]; · iexact Ho
  isplitl [Hpos]; · iexact Hpos
  iexact Hrest

open Idealize.ShloMosaic.Tactic in
attribute [local sl_rounds] duties_dma amount_dma expect_dma payload_dma rest_dma credit_st

open Idealize.ShloMosaic.Tactic in
/-- Wait for the load of chunk `k` and narrow it into `xsend`; allowed whatever the device still owes, the load cells
    being at the lowest level. -/
theorem step_ldNarrow (K : Dev nD × CellIx → ℕ) (c : Dev nD) (k : Fin 32) (O : CellTallies nD τ sig Unit) (W : Waits sig Unit)
    (hO : (levAts L lv : sProp 𝕄) ⊢ MayWait (c : Thread nD τ) (dsem .l k) () O) :
    iprop(records m K ∗ levAts L lv ∗ owes (c : Thread nD τ) O W ∗ C1 (F := F) c k)
      ⊢ WP c (ldNarrow (F := F) theArgs c k) (fun _ => iprop((∃ W', owes (c : Thread nD τ) O W') ∗ C2 m c k)) := by
  unfold WP ldNarrow ldWait narrow C1 C2
  rw [posAll_0, posAll_1]
  simp only [theArgs]
  iintro ⟨#Hrec, #Hlev, HO, HcL, Hsd, Hsm, Ho, ⟨HatL, Hpos⟩, Hrest⟩
  ihave #HI := (show records m K ⊢ cellInv ER (sched m) (K (c, some (.l, k))) (dcell c .l k) from inv_at m K (c, some (.l, k))) $$ Hrec
  -- the wait for the rest of the load cell's one round: the round's payload comes back
  sl_exec (disch := first | (rw [Nat.zero_add]; exact (expect_dma m c .l k).symm) | (exact (expect_dma m c .l k).symm) | omega)
  ihave Hp := (Entails.of_eq (round_l m c k)) $$ HatL_pay1
  icases Hp with ⟨Hst, Hx⟩
  ihave Hst' := (owns_elim (F := F) c (stK k) fullShare (xchunk m c k)) $$ Hst
  icases Hst' with ⟨%f, %hf, Hst⟩
  ihave Hsd' := (anyK_elim (F := F) c (sdK k)) $$ Hsd
  icases Hsd' with ⟨%g, Hsd⟩
  -- the chunk of `stage` is read through the whole buffer at the chunk's rectangle (what is read is the block's chunk);
  -- the chunk of `xsend` is read (the value is not used) and overwritten with the narrowed chunk
  sl_exec
  sl_step
  isplitl [HO]; · iexists _; iexact HO
  isplitl [Hx]; · iexact Hx
  isplitl [Hst]; · iapply (owns_of (F := F) c (stK k) fullShare f _ hf); iexact Hst
  -- reading back what was written over the whole chunk gives what was written
  isplitl [Hsd]; · iapply (owns_of (F := F) c (sdK k) fullShare _ _ (View.read_write_univ _ _)); iexact Hsd
  isplitl [Hsm]; · iexact Hsm
  isplitl [Ho]; · iexact Ho
  isplitl [HatL Hpos]
  · isplitl [HatL]; · iexact HatL
    iexact Hpos
  iexact Hrest

/-- info: 'Cert.Kernel.Hand.step_ldEnq' depends on axioms: [propext, Classical.choice, Quot.sound] -/
#guard_msgs in #print axioms step_ldEnq

/-- info: 'Cert.Kernel.Hand.step_ldNarrow' depends on axioms: [propext, Classical.choice, Quot.sound] -/
#guard_msgs in #print axioms step_ldNarrow

end Cert.Kernel.Hand

end
-- ==== Proof.KStepBar.lean ====
/-
  The entry handshake on the barrier semaphore.

  The device pays its unit to each neighbour's barrier cell, handing the first-axis neighbour its 32 `xrecv` chunks and
  the second-axis neighbour the 32 chunks of its result in that neighbour's half; it then waits for the two units of its
  own barrier cell, which hand it the neighbours' corresponding chunks.  At that wait it owes only arrivals, which lie
  above the barrier cells.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two barrier units are the first two of the device's payments. -/
theorem handshake_Oat_zero (c : Dev nD) : Oat c 0 = Oat c 1 + tallyAt (barCell (xpeer c)) () 1 := by
  have h := Oat_succ c 0 (by decide)
  rw [show owedAt c 0 = (barCell (xpeer c), 1) from if_pos rfl] at h
  exact h
theorem handshake_Oat_one (c : Dev nD) : Oat c 1 = Oat c 2 + tallyAt (barCell (ypeer c)) () 1 := by
  have h := Oat_succ c 1 (by decide)
  rw [show owedAt c 1 = (barCell (ypeer c), 1) from (if_neg (by decide)).trans (if_pos rfl)] at h
  exact h

/-- The barrier cell's round has the two duties. -/
theorem handshake_duties (c : Dev nD) : (sched (F := F) m).duties (barCell c) 0 = {false, true} := by
  rw [duties_bar]; decide
/-- What each duty of `c`'s barrier cell hands `c`: the first-axis neighbour's `xrecv` chunks, and the second-axis
    neighbour's result chunks in `c`'s half.  Paid by `c` to a neighbour's cell, the neighbour's neighbour is `c` again: the
    unit to the first-axis neighbour hands over `c`'s own `xrecv` chunks, the unit to the second-axis neighbour `c`'s result
    chunks in that neighbour's half. -/
theorem handshake_pay_false (c : Dev nD) : barPay (F := F) c false = lendX (F := F) (xpeer c) := rfl
theorem handshake_pay_true (c : Dev nD) : barPay (F := F) c true = lendY (F := F) (ypeer c) := rfl

open Idealize.ShloMosaic.Tactic

attribute [local sl_rounds] handshake_duties amount_bar expect_bar payload_bar handshake_pay_false handshake_pay_true xpeer_xpeer ypeer_ypeer

theorem step_handshake (K : Dev nD × CellIx → ℕ) (c : Dev nD) (W : Waits sig Unit) :
    iprop(records m K ∗ levAts L lv ∗ owes (c : Thread nD τ) (Oat c 0) W
        ∗ atPos ER (barCell c) 0 ∅ 0 ∗ cred (tallyAt (barCell c) () 2)
        ∗ dutyTok ER (barCell (xpeer c)) 0 false ∗ dutyTok ER (barCell (ypeer c)) 0 true
        ∗ lendX (F := F) c ∗ lendY (F := F) c)
      ⊢ WP c (handshake (F := F) c) (fun _ => iprop((∃ W', owes (c : Thread nD τ) (Oat c 2) W') ∗ lendX (F := F) (xpeer c) ∗ lendY (F := F) (ypeer c))) := by
  unfold WP handshake
  simp only [semSignalWord, semWaitWord, Prog.lift, Prog.bind_op, Prog.bind_ret, Prog.pure_eq_ret, dev1_eq c, dev2_eq c,
    show (1#32 : BitVec 32).toNat = 1 from rfl, show (2#32 : BitVec 32).toNat = 2 from rfl]
  -- what is owed, with the two barrier units as summands
  rw [handshake_Oat_zero c, handshake_Oat_one c]
  iintro ⟨#Hrec, #Hlev, HO, Hat, Hc, Htx, Hty, HX, HY⟩
  -- the three barrier cells' invariants, and that round 0 of the neighbours' is reached
  ihave #HIx := (show records (F := F) m K ⊢ cellInv ER (sched m) (K (xpeer c, none)) (barCell (xpeer c)) from inv_at m K (xpeer c, none)) $$ Hrec
  ihave #HIy := (show records (F := F) m K ⊢ cellInv ER (sched m) (K (ypeer c, none)) (barCell (ypeer c)) from inv_at m K (ypeer c, none)) $$ Hrec
  ihave #HIc := (show records (F := F) m K ⊢ cellInv ER (sched m) (K (c, none)) (barCell c) from inv_at m K (c, none)) $$ Hrec
  ihave #HRx := (show records (F := F) m K ⊢ reached ER (barCell (xpeer c)) 0 from reached_at m K (xpeer c, none)) $$ Hrec
  ihave #HRy := (show records (F := F) m K ⊢ reached ER (barCell (ypeer c)) 0 from reached_at m K (ypeer c, none)) $$ Hrec
  -- once both units are paid the device owes only arrivals, which lie above its barrier cell
  have hmw := mayWait_bar (F := F) c
  -- the unit to the first-axis neighbour (duty `false`, the own `xrecv` chunks), the unit to the second-axis neighbour
  -- (duty `true`, the result chunks in its half), and the wait for the two units of the own cell, which brings both
  -- neighbours' chunks
  sl_exec
  sl_step
  isplitl [HO]; · iexists _; iexact HO
  iexact Hat_pay1

end Cert.Kernel.Hand

end
-- ==== Proof.KStepSendX.lean ====
/-
  Sending a narrowed chunk to the first-axis neighbour.

  The `xsend` chunk is split in two shares: one is lent to the transfer (and comes back with the departure cell's
  round), the other is kept, to be read when the sum is formed.  The neighbour's `xrecv` chunk, received at the
  handshake, is written by the transfer and becomes the payload of the neighbour's arrival cell: that chunk holding this
  device's narrowed chunk.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts and payloads -/

/-- A transfer into any chunk of `xrecv` credits what the transfer into chunk 0 does: the credit depends on the
    buffer, the chunk's shape and the element type only. -/
theorem credit_rvK (k : Fin 32) : (rvK k).view.amount (dsem .xr k) = N16 := rfl

/-- The lent share of the `xsend` chunk, holding the narrowed chunk, is what the departure cell's duty hands back. -/
theorem departed_xs (m : (ℓ : Loc nD τ sig) → Buf (Elt F) ℓ) (c : Dev nD) (k : Fin 32)
    (f : Buf (Elt F) ((sdK k).view.loc (c : Thread nD τ))) (hf : (sdK k).view.read (Elt F) f = schunk m c k) :
    ((sdK k).view.loc (c : Thread nD τ) ↦[(sdK k).view.set]{hL} f : sProp 𝕄) ⊢ (sched m).payload (dcell c .xs k) 0 false := by
  rw [payload_dma]
  show _ ⊢ owns (c : Thread nD τ) (sdK k) hL (schunk m c k)
  rw [← hf]
  exact owns_intro (c : Thread nD τ) (sdK k) hL f

/-- The neighbour's `xrecv` chunk, overwritten whole by what the `xsend` chunk reads, reads as this device's narrowed
    chunk — which is, for the neighbour, its first-axis neighbour's: the arrival cell's payload. -/
theorem landed_xr (m : (ℓ : Loc nD τ sig) → Buf (Elt F) ℓ) (c : Dev nD) (k : Fin 32)
    (f : Buf (Elt F) ((sdK k).view.loc (c : Thread nD τ))) (fd : Buf (Elt F) ((rvK k).view.loc (xpeer c : Thread nD τ)))
    (hf : (sdK k).view.read (Elt F) f = schunk m c k) :
    ((rvK k).view.loc (xpeer c : Thread nD τ) ↦[(rvK k).view.set]{fullShare}
        ((rvK k).view.write (Elt F) fd ((sdK k).view.read (Elt F) f) Finset.univ) : sProp 𝕄)
      ⊢ (sched m).payload (dcell (xpeer c) .xr k) 0 false := by
  rw [payload_dma]
  show _ ⊢ owns (xpeer c : Thread nD τ) (rvK k) fullShare (rchunk m (xpeer c) k)
  have hv : (rvK k).view.read (Elt F) ((rvK k).view.write (Elt F) fd ((sdK k).view.read (Elt F) f) Finset.univ) = rchunk m (xpeer c) k := by
    rw [View.read_write_univ, hf]; unfold rchunk; rw [xpeer_xpeer]
  rw [← hv]
  exact owns_intro (xpeer c : Thread nD τ) (rvK k) fullShare _

/-- The payment of the first-axis arrival of chunk `k` is the `(2 + k)`-th of the device's payments. -/
theorem Oat_sendX (c : Dev nD) (k : Fin 32) :
    Oat c (2 + k.val) = Oat c (2 + k.val + 1) + tallyAt (dcell (xpeer c) .xr k) () N16 := by
  have h := Oat_succ c (2 + k.val) (by have := k.isLt; omega)
  rw [owedAt_x] at h
  exact h

/-! ## The step -/

theorem step_sendX (K : Dev nD × CellIx → ℕ) (c : Dev nD) (k : Fin 32) (W : Waits sig Unit) :
    iprop(records m K ∗ owes (c : Thread nD τ) (Oat c (2 + k.val)) W ∗ C2 m c k ∗ anyK (F := F) (xpeer c) (rvK k))
      ⊢ WP c (sendX (F := F) theArgs c k) (fun _ => iprop((∃ W', owes (c : Thread nD τ) (Oat c (2 + k.val + 1)) W') ∗ C3 m c k)) := by
  have hIs : records (F := F) m K ⊢ cellInv ER (sched m) (K (c, some (.xs, k))) (dcell c .xs k) := inv_at m K (c, some (.xs, k))
  have hIr : records (F := F) m K ⊢ cellInv ER (sched m) (K (xpeer c, some (.xr, k))) (dcell (xpeer c) .xr k) := inv_at m K (xpeer c, some (.xr, k))
  have hRs : records (F := F) m K ⊢ reached ER (dcell c .xs k) 0 := reached_at m K (c, some (.xs, k))
  have hRr : records (F := F) m K ⊢ reached ER (dcell (xpeer c) .xr k) 0 := reached_at m K (xpeer c, some (.xr, k))
  unfold C2 C3 anyK owns sendX
  simp only [Prog.lift]
  show _ ⊢ wp frame (wpE (defs₀ (F := F)) 𝒱₀ (c : Thread nD τ) none) Set.univ
    (.op (.enqueueDma (sdK k) (.remote (xpeer c : Thread nD τ) (rvK k) (dsem .xs k)) (dsem .xr k) _ _ _) .ret) _
  iintro ⟨#Hrec, HO, ⟨Hx, Hst, ⟨%f, %hf, Hsd⟩, Hsm, Ho, Hpos, HtO, HtXs, HtYs, HtXr, HtYr, HcXr, HcYr⟩, ⟨%fd, Hrv⟩⟩
  ihave #HIs := hIs $$ Hrec
  ihave #HIr := hIr $$ Hrec
  ihave #HRs := hRs $$ Hrec
  ihave #HRr := hRr $$ Hrec
  -- one share of the chunk is lent to the transfer, the other kept
  ihave Hsd2 := (pointsTo_share (PosShare.mem_left_op_right fullShare)).1 $$ Hsd
  icases Hsd2 with ⟨HsdL, HsdR⟩
  iapply (Rounds.wp_send_pointsTo 𝒱₀ ER (sched m) (c : Thread nD τ) none
      (κ₁ := K (c, some (.xs, k))) (κ₂ := K (xpeer c, some (.xr, k)))
      (c' := (xpeer c : Thread nD τ)) (src := sdK k) (dst := rvK k) (sS := dsem .xs k) (sem := dsem .xr k)
      (q := hL) (fs := f) (fd := fd) (r₁ := 0) (r₂ := 0) (d₁ := false) (d₂ := false)
      (by rw [duties_dma]; exact Finset.mem_singleton_self _) (by rw [duties_dma]; exact Finset.mem_singleton_self _)
      () () N16 (credit_rvK k) (amount_dma m c .xs k false) (amount_dma m (xpeer c) .xr k false)
      (Oat c (2 + k.val + 1)) (Oat_sendX c k) (W := W)
      (departed_xs m c k f hf) (landed_xr m c k f fd hf)) $$ [HsdL Hrv HO HtXs HtXr]
  · isplitr; · iexact HIs
    isplitr; · iexact HIr
    isplitl [HsdL]; · iexact HsdL
    isplitl [Hrv]; · iexact Hrv
    isplitl [HO]; · iexact HO
    isplitl [HtXs]; · iexact HtXs
    isplitr; · iexact HRs
    isplitl [HtXr]; · iexact HtXr
    iexact HRr
  iintro ⟨HcXs, HO⟩
  iapply (le_wp_ret _ _ _ _ _)
  isplitl [HO]
  · iexists W; iexact HO
  isplitl [Hx]; · iexact Hx
  isplitl [Hst]; · iexact Hst
  isplitl [HsdR]
  · iexists f; isplitr
    · ipureintro; exact hf
    · iexact HsdR
  isplitl [HcXs]; · iexact HcXs
  isplitl [Hsm]; · iexact Hsm
  isplitl [Ho]; · iexact Ho
  isplitl [Hpos]; · iexact Hpos
  isplitl [HtO]; · iexact HtO
  isplitl [HtYs]; · iexact HtYs
  isplitl [HtYr]; · iexact HtYr
  isplitl [HcXr]; · iexact HcXr
  iexact HcYr

end Cert.Kernel.Hand

end
-- ==== Proof.KStepReduce.lean ====
/-
  Forming a chunk of the sum and sending it on.

  The device waits for the neighbour's narrowed chunk (owing only second-axis arrivals, which lie above), adds it to its
  own narrowed chunk, stores the sum over the `ssum` chunk, and lends that chunk in two shares: one to the transfer into
  the second-axis neighbour's result (the chunk received at the handshake), one to the copy into its own result.

  Each of the seven operations is stepped once, over an arbitrary rest of the program: the wait, a load through a whole
  scratch buffer of a chunk held by its own elements, the store of the sum, the addressed transfer, the local copy.
  The step is their sequence.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts -/

/-- A chunk of a bf16 scratch buffer credits the amount of chunk 0's. -/
theorem credit_rv (k : Fin 32) : (rvK k).view.dmaCredit = N16 := rfl
/-- So does a chunk of the result, in either half. -/
theorem credit_o (d : Dev nD) (k : Fin 32) : (oK d k).view.dmaCredit = N16 := rfl

/-! ## The positions of a chunk's cells, spelt out -/

theorem posAll_l (c : Dev nD) (k : Fin 32) :
    posAll (F := F) c k (fun f => if f = .l then 1 else 0)
      = iprop(atPos ER (dcell c .l k) 1 ∅ 0 ∗ atPos ER (dcell c .o k) 0 ∅ 0 ∗ atPos ER (dcell c .xs k) 0 ∅ 0
          ∗ atPos ER (dcell c .xr k) 0 ∅ 0 ∗ atPos ER (dcell c .ys k) 0 ∅ 0 ∗ atPos ER (dcell c .yr k) 0 ∅ 0) := rfl
theorem posAll_lxr (c : Dev nD) (k : Fin 32) :
    posAll (F := F) c k (fun f => if f = .l ∨ f = .xr then 1 else 0)
      = iprop(atPos ER (dcell c .l k) 1 ∅ 0 ∗ atPos ER (dcell c .o k) 0 ∅ 0 ∗ atPos ER (dcell c .xs k) 0 ∅ 0
          ∗ atPos ER (dcell c .xr k) 1 ∅ 0 ∗ atPos ER (dcell c .ys k) 0 ∅ 0 ∗ atPos ER (dcell c .yr k) 0 ∅ 0) := rfl

/-! ## What the device still owes once chunk `k`'s sum is sent -/

theorem Oat_y (c : Dev nD) (k : Fin 32) :
    Oat c (34 + k.val) = Oat c (34 + k.val + 1) + tallyAt (dcell (ypeer c) .yr k) () N16 := by
  have h := Oat_succ c (34 + k.val) (by have := k.isLt; omega)
  rw [owedAt_y] at h
  exact h

/-! ## The payloads of the four cells of this step, spelt out -/

theorem chunkPay_xr (c : Dev nD) (k : Fin 32) : chunkPay m c .xr k = owns (c : Thread nD τ) (rvK k) fullShare (rchunk m c k) := rfl
theorem chunkPay_ys (c : Dev nD) (k : Fin 32) : chunkPay m c .ys k = owns (c : Thread nD τ) (smK k) hL (tchunk m c k) := rfl
/-- The arrival cell of the neighbour's neighbour's half is the own half. -/
theorem chunkPay_yr (c : Dev nD) (k : Fin 32) :
    chunkPay m (ypeer c) .yr k = owns (ypeer c : Thread nD τ) (oK c k) fullShare (tchunk m c k) := by
  show owns (ypeer c : Thread nD τ) (oK (ypeer (ypeer c)) k) fullShare (tchunk m (ypeer (ypeer c)) k) = _
  rw [ypeer_ypeer]
theorem chunkPay_o (c : Dev nD) (k : Fin 32) : chunkPay m c .o k
    = iprop(owns (c : Thread nD τ) (oK c k) fullShare (tchunk m c k) ∗ owns (c : Thread nD τ) (smK k) hR (tchunk m c k)) := rfl

/-! ## The wait for the neighbour's chunk -/

/-- The wait on the first-axis arrival cell of chunk `k`: the rest of its one round, whose payload is the own `xrecv`
    chunk holding the neighbour's narrowed chunk. Every payment still owed is a second-axis arrival, above the cell. -/
theorem wp_waitXr (K : Dev nD × CellIx → ℕ) (c : Dev nD) (k : Fin 32) (W : Waits sig Unit) {α : Type} (Q : α → sProp 𝕄)
    {hs : (sdK k).view.WordExact} {hd : (rvK k).view.WordExact}
    (kont : PUnit → Prog (TpuEff nD τ sig (Elt F) Λ₀ .tc) α) :
    iprop(records m K ∗ levAts L lv ∗ owes (c : Thread nD τ) (Oat c (34 + k.val)) W
        ∗ cred (tallyAt (dcell c .xr k) () N16) ∗ atPos ER (dcell c .xr k) 0 ∅ 0)
      ⊢ iprop(((owes (c : Thread nD τ) (Oat c (34 + k.val)) (insert (dsem .xr k, ()) W)
              ∗ atPos ER (dcell c .xr k) 1 ∅ 0 ∗ owns (c : Thread nD τ) (rvK k) fullShare (rchunk m c k))
            -∗ WP c (kont ⟨⟩) Q)
          -∗ WP c (.op (.waitDma2 (semK cc0_scratch7 k) (sdK k) (rvK k) hs hd) kont) Q) := by
  iintro ⟨#Hrec, #Hlev, HO, Hc, Hat⟩ Hk
  iapply (Rounds.wp_wait_rest_token 𝒱₀ ER (sched m) (c : Thread nD τ) none (κ := K (c, some (.xr, k)))
      (w := .waitDma2 (semK cc0_scratch7 k) (sdK k) (rvK k) hs hd)
      (wpE_waitDma2_eq 𝒱₀ (c : Thread nD τ) none Set.univ) (Set.mem_univ _) () (O := Oat c (34 + k.val)) (W := W) (R := 0) (m := 0) (T := ∅)
      (by rw [Nat.zero_add]; exact (expect_dma m c .xr k).symm)) $$ [HO Hc Hat]
  · isplitr; · iapply (inv_at m K (c, some (.xr, k))); iexact Hrec
    isplitl [Hc]; · iexact Hc
    isplitl [HO]; · iexact HO
    isplitr; · iapply (mayWait_xr (F := F) c k (34 + k.val) (Nat.le_add_right _ _)); iexact Hlev
    iexact Hat
  iintro ⟨HO, Hat, -, Hpay⟩
  ihave Hp := (Entails.of_eq ((rest_dma m c .xr k).trans (chunkPay_xr m c k))) $$ Hpay
  iapply Hk
  isplitl [HO]; · iexact HO
  isplitl [Hat]; · iexact Hat
  iexact Hp

/-! ## A load of chunk `k` through a whole scratch buffer -/

/-- The chunk's elements, held at any share by the chunk's own view, serve the load through the whole buffer at the
    chunk's rectangle; what is loaded is what the chunk's view reads. -/
theorem wp_loadK {e : EltTy} (c : Dev nD) (k : Fin 32) (M : Memref sig .tc .vmem S2048x1024 e) (q : PosShare TreeShare)
    (X : Vec F S64x1024 e) {hl : M.view.LoadsAt (rectK k).toLoadRect} {α : Type} (Q : α → sProp 𝕄)
    (kont : Vec F S64x1024 e → Prog (TpuEff nD τ sig (Elt F) Λ₀ .tc) α) :
    owns (c : Thread nD τ) (M.slice (rectK k) (fun _ => rfl)) q X
      ⊢ iprop((owns (c : Thread nD τ) (M.slice (rectK k) (fun _ => rfl)) q X -∗ WP c (kont X) Q)
          -∗ WP c (.op (.load M (rectK k).toLoadRect hl) kont) Q) := by
  unfold owns
  iintro ⟨%f, %hf, H⟩ Hk
  subst hf
  iapply (wp_load_rect 𝒱₀ (c : Thread nD τ) none Set.univ (m := M) (r := rectK k) (Finset.Subset.refl _)) $$ H
  iintro H
  iapply Hk
  iexists f
  isplitr; · ipureintro; rfl
  iexact H

/-- The same of a chunk held at contents of no interest. -/
theorem wp_loadAny {e : EltTy} (c : Dev nD) (k : Fin 32) (M : Memref sig .tc .vmem S2048x1024 e)
    {hl : M.view.LoadsAt (rectK k).toLoadRect} {α : Type} (Q : α → sProp 𝕄)
    (kont : Vec F S64x1024 e → Prog (TpuEff nD τ sig (Elt F) Λ₀ .tc) α) :
    anyK (F := F) c (M.slice (rectK k) (fun _ => rfl))
      ⊢ iprop((∀ X, anyK (F := F) c (M.slice (rectK k) (fun _ => rfl)) -∗ WP c (kont X) Q)
          -∗ WP c (.op (.load M (rectK k).toLoadRect hl) kont) Q) := by
  unfold anyK
  iintro ⟨%f, H⟩ Hk
  iapply (wp_load_rect 𝒱₀ (c : Thread nD τ) none Set.univ (m := M) (r := rectK k) (Finset.Subset.refl _)) $$ H
  iintro H
  iapply Hk $$ %((M.access (rectK k)).read (Elt F) f)
  iexists f
  iexact H

/-! ## The store of the sum -/

/-- Storing `w` over the whole `ssum` chunk, held outright: the chunk then reads `w`. -/
theorem wp_storeSum (c : Dev nD) (k : Fin 32) (w : Vec F S64x1024 .bf16)
    {hx : (smM.access (rectK k)).Stores Finset.univ} {hm : (Finset.univ : Finset (rectK k).shape.Idx) = Finset.univ ∨ ∀ a, (rectK k).stride a = 1}
    {α : Type} (Q : α → sProp 𝕄) (kont : PUnit → Prog (TpuEff nD τ sig (Elt F) Λ₀ .tc) α) :
    anyK (F := F) c (smK k)
      ⊢ iprop((owns (c : Thread nD τ) (smK k) fullShare w -∗ WP c (kont ⟨⟩) Q)
          -∗ WP c (.op (.store smM (rectK k) w Finset.univ hx hm) kont) Q) := by
  unfold anyK
  iintro ⟨%f, H⟩ Hk
  iapply (wp_store 𝒱₀ (c : Thread nD τ) none Set.univ (m := smM) (r := rectK k) (w := w) (Mk := Finset.univ) (S := (smK k).view.set) (f := f)
      (show (smM.access (rectK k)).setOn Finset.univ ⊆ (smK k).view.set from Finset.Subset.refl _)) $$ H
  iintro H
  iapply Hk
  have h : ((smK k).view.loc (c : Thread nD τ) ↦[(smK k).view.set]{fullShare} ((smK k).view.write (Elt F) f w Finset.univ) : sProp 𝕄)
      ⊢ owns (c : Thread nD τ) (smK k) fullShare w := by
    refine (owns_intro (c : Thread nD τ) (smK k) fullShare _).trans (Entails.of_eq ?_)
    rw [View.read_write_univ]
  iapply h
  iexact H

/-! ## The transfer of the sum into the second-axis neighbour's result -/

/-- The addressed copy of the `ssum` chunk (one share lent) into chunk `k` of the own half of the neighbour's result,
    which the neighbour lent at the handshake: it pays the departure cell's duty (the lent share back) and the
    neighbour's arrival cell's duty (that chunk of its result holding the sum), the latter off what is owed. -/
theorem wp_sendY (K : Dev nD × CellIx → ℕ) (c : Dev nD) (k : Fin 32) (W : Waits sig Unit)
    (fs : Buf (Elt F) ((smK k).view.loc (c : Thread nD τ))) (hfs : (smK k).view.read (Elt F) fs = tchunk m c k)
    {hsc : (oK c k : Memref sig (Dev.tc (ypeer c) : Thread nD τ).2.kind .hbm S64x1024 .bf16).view.ref.isScScratch = false}
    {hsrc : (smK k).view.WordExact} {hdst : (oK c k).view.WordExact}
    {hsem : DmaTarget.Typed .vmem (dsem .yr k) (.remote (Dev.tc (ypeer c) : Thread nD τ) (oK c k) (dsem .ys k) hsc)}
    {α : Type} (Q : α → sProp 𝕄) (kont : PUnit → Prog (TpuEff nD τ sig (Elt F) Λ₀ .tc) α) :
    iprop(records m K ∗ ((smK k).view.loc (c : Thread nD τ) ↦[(smK k).view.set]{hL} fs) ∗ anyK (F := F) (ypeer c) (oK c k)
        ∗ owes (c : Thread nD τ) (Oat c (34 + k.val)) W
        ∗ dutyTok ER (dcell c .ys k) 0 false ∗ dutyTok ER (dcell (ypeer c) .yr k) 0 false)
      ⊢ iprop(((cred (tallyAt (dcell c .ys k) () N16) ∗ owes (c : Thread nD τ) (Oat c (34 + k.val + 1)) W) -∗ WP c (kont ⟨⟩) Q)
          -∗ WP c (.op (.enqueueDma (smK k) (.remote (Dev.tc (ypeer c) : Thread nD τ) (oK c k) (dsem .ys k) hsc) (dsem .yr k) hsrc hdst hsem) kont) Q) := by
  unfold anyK
  iintro ⟨#Hrec, Hsrc, ⟨%fd, Hdst⟩, HO, Ht1, Ht2⟩ Hk
  iapply (Rounds.wp_send_pointsTo 𝒱₀ ER (sched m) (c : Thread nD τ) none (c' := (ypeer c : Thread nD τ)) (src := smK k) (dst := oK c k)
      (sS := dsem .ys k) (sem := dsem .yr k) (q := hL) (fs := fs) (fd := fd)
      (κ₁ := K (c, some (.ys, k))) (κ₂ := K (ypeer c, some (.yr, k))) (r₁ := 0) (r₂ := 0) (d₁ := false) (d₂ := false)
      (by rw [duties_dma]; exact Finset.mem_singleton_self _) (by rw [duties_dma]; exact Finset.mem_singleton_self _)
      () () N16 (credit_o c k) (amount_dma m c .ys k false) (amount_dma m (ypeer c) .yr k false)
      (Oat c (34 + k.val + 1)) (Oat_y c k) (W := W)
      (by
        rw [payload_dma, chunkPay_ys]
        refine (owns_intro (c : Thread nD τ) (smK k) hL fs).trans (Entails.of_eq ?_)
        rw [hfs])
      (by
        rw [payload_dma, chunkPay_yr]
        refine (owns_intro (ypeer c : Thread nD τ) (oK c k) fullShare _).trans (Entails.of_eq ?_)
        rw [View.read_write_univ, hfs])) $$ [Hsrc Hdst HO Ht1 Ht2]
  · isplitr; · iapply (inv_at m K (c, some (.ys, k))); iexact Hrec
    isplitr; · iapply (inv_at m K (ypeer c, some (.yr, k))); iexact Hrec
    isplitl [Hsrc]; · iexact Hsrc
    isplitl [Hdst]; · iexact Hdst
    isplitl [HO]; · iexact HO
    isplitl [Ht1]; · iexact Ht1
    isplitr; · iapply (reached_at m K (c, some (.ys, k))); iexact Hrec
    isplitl [Ht2]; · iexact Ht2
    iapply (reached_at m K (ypeer c, some (.yr, k))); iexact Hrec
  iexact Hk

/-! ## The copy of the sum into the own result -/

/-- The local copy of the `ssum` chunk (the other share lent) into chunk `k` of the own half of the own result: it pays
    the copy cell's duty, whose payload is that chunk of the result holding the sum and the lent share back. -/
theorem wp_copyO (K : Dev nD × CellIx → ℕ) (c : Dev nD) (k : Fin 32)
    (fs : Buf (Elt F) ((smK k).view.loc (c : Thread nD τ))) (hfs : (smK k).view.read (Elt F) fs = tchunk m c k)
    {hsrc : (smK k).view.WordExact} {hdst : (oK c k).view.WordExact}
    {hsem : DmaTarget.Typed .vmem (dsem .o k) (.here (oK c k) : DmaTarget nD τ sig .tc .hbm S64x1024 .bf16)}
    {α : Type} (Q : α → sProp 𝕄) (kont : PUnit → Prog (TpuEff nD τ sig (Elt F) Λ₀ .tc) α) :
    iprop(records m K ∗ ((smK k).view.loc (c : Thread nD τ) ↦[(smK k).view.set]{hR} fs) ∗ anyK (F := F) c (oK c k)
        ∗ dutyTok ER (dcell c .o k) 0 false)
      ⊢ iprop((cred (tallyAt (dcell c .o k) () N16) -∗ WP c (kont ⟨⟩) Q)
          -∗ WP c (.op (.enqueueDma (smK k) (.here (oK c k)) (dsem .o k) hsrc hdst hsem) kont) Q) := by
  unfold anyK
  iintro ⟨#Hrec, Hsrc, ⟨%fd, Hdst⟩, Ht⟩ Hk
  iapply (Rounds.wp_copy_pointsTo 𝒱₀ ER (sched m) (c : Thread nD τ) none (src := smK k) (dst := oK c k) (sem := dsem .o k)
      (q := hR) (fs := fs) (fd := fd) (κ := K (c, some (.o, k))) (r := 0) (d := false)
      (by rw [duties_dma]; exact Finset.mem_singleton_self _) () N16 (credit_o c k) (amount_dma m c .o k false)
      (by
        rw [payload_dma, chunkPay_o]
        refine BIClass.sep_mono ?_ ?_
        · refine (owns_intro (c : Thread nD τ) (oK c k) fullShare _).trans (Entails.of_eq ?_)
          rw [View.read_write_univ, hfs]
        · refine (owns_intro (c : Thread nD τ) (smK k) hR fs).trans (Entails.of_eq ?_)
          rw [hfs])) $$ [Hsrc Hdst Ht]
  · isplitr; · iapply (inv_at m K (c, some (.o, k))); iexact Hrec
    isplitl [Hsrc]; · iexact Hsrc
    isplitl [Hdst]; · iexact Hdst
    isplitl [Ht]; · iexact Ht
    iapply (reached_at m K (c, some (.o, k))); iexact Hrec
  iexact Hk

/-! ## The step -/

/-- The sum's chunk, held whole, in the two shares it is lent in. -/
theorem owns_halves (c : Dev nD) (k : Fin 32) (X : Vec F S64x1024 .bf16) :
    (owns (c : Thread nD τ) (smK k) fullShare X : sProp 𝕄)
      ⊢ iprop(∃ fs : Buf (Elt F) ((smK k).view.loc (c : Thread nD τ)), ⌜(smK k).view.read (Elt F) fs = X⌝
          ∗ ((smK k).view.loc (c : Thread nD τ) ↦[(smK k).view.set]{hL} fs) ∗ ((smK k).view.loc (c : Thread nD τ) ↦[(smK k).view.set]{hR} fs)) := by
  unfold owns
  iintro ⟨%fs, %hfs, H⟩
  ihave H' := (pointsTo_share (PosShare.mem_left_op_right fullShare)).1 $$ H
  iexists fs
  isplitr; · ipureintro; exact hfs
  iexact H'

theorem step_reduceSend (K : Dev nD × CellIx → ℕ) (c : Dev nD) (k : Fin 32) (W : Waits sig Unit) :
    iprop(records m K ∗ levAts L lv ∗ owes (c : Thread nD τ) (Oat c (34 + k.val)) W ∗ C3 m c k ∗ anyK (F := F) (ypeer c) (oK c k))
      ⊢ WP c (reduceSend (F := F) theArgs c k) (fun _ => iprop((∃ W', owes (c : Thread nD τ) (Oat c (34 + k.val + 1)) W') ∗ C4 m c k)) := by
  unfold reduceSend C3 C4
  rw [posAll_l, posAll_lxr]
  simp only [Prog.lift, Prog.bind_op, Prog.bind_ret, Prog.pure_eq_ret]
  iintro ⟨#Hrec, #Hlev, HO, ⟨Hx, Hst, Hsd, Hcxs, Hsm, Ho, ⟨Pl, Po, Pxs, Pxr, Pys, Pyr⟩, Tko, Tkys, Tkyr, Hcxr, Hcyr⟩, Hoy⟩
  -- the wait: the neighbour's chunk
  iapply (wp_waitXr m K c k W) $$ [HO Hcxr Pxr]
  · isplitr; · iexact Hrec
    isplitr; · iexact Hlev
    isplitl [HO]; · iexact HO
    isplitl [Hcxr]; · iexact Hcxr
    iexact Pxr
  iintro ⟨HO, Pxr, Hrv⟩
  -- the three loads
  iapply (wp_loadK c k sdM hR (schunk m c k)) $$ Hsd; iintro Hsd
  iapply (wp_loadK c k rvM fullShare (rchunk m c k)) $$ Hrv; iintro Hrv
  iapply (wp_loadAny c k smM) $$ Hsm; iintro %X0 Hsm
  -- the store of the sum, then its two shares
  iapply (wp_storeSum c k (addPay (schunk m c k) (rchunk m c k))) $$ Hsm; iintro Hsm
  ihave Hsm' := (owns_halves c k (addPay (schunk m c k) (rchunk m c k))) $$ Hsm
  icases Hsm' with ⟨%fs, %hfs, HsmL, HsmR⟩
  -- the transfer to the second-axis neighbour
  iapply (wp_sendY m K c k (insert (dsem .xr k, ()) W) fs hfs) $$ [HsmL Hoy HO Tkys Tkyr]
  · isplitr; · iexact Hrec
    isplitl [HsmL]; · iexact HsmL
    isplitl [Hoy]; · iexact Hoy
    isplitl [HO]; · iexact HO
    isplitl [Tkys]; · iexact Tkys
    iexact Tkyr
  iintro ⟨Hcys, HO⟩
  -- the copy into the own result
  iapply (wp_copyO m K c k fs hfs) $$ [HsmR Ho Tko]
  · isplitr; · iexact Hrec
    isplitl [HsmR]; · iexact HsmR
    isplitl [Ho]; · iexact Ho
    iexact Tko
  iintro Hco
  iapply (le_wp_ret _ _ _ _ _)
  isplitl [HO]; · iexists _; iexact HO
  isplitl [Hx]; · iexact Hx
  isplitl [Hst]; · iexact Hst
  isplitl [Hsd]; · iexact Hsd
  isplitl [Hrv]; · iexact Hrv
  isplitl [Hcxs]; · iexact Hcxs
  isplitl [Hcys]; · iexact Hcys
  isplitl [Hco]; · iexact Hco
  isplitl [Pl Po Pxs Pxr Pys Pyr]
  · isplitl [Pl]; · iexact Pl
    isplitl [Po]; · iexact Po
    isplitl [Pxs]; · iexact Pxs
    isplitl [Pxr]; · iexact Pxr
    isplitl [Pys]; · iexact Pys
    iexact Pyr
  iexact Hcyr

/-- info: 'Cert.Kernel.Hand.step_reduceSend' depends on axioms: [propext, Classical.choice, Quot.sound] -/
#guard_msgs in #print axioms step_reduceSend

end Cert.Kernel.Hand

end
-- ==== Proof.KStepDrain.lean ====
/-
  Draining a chunk's four transfers, and closing its six cells.

  Owing nothing any more, the device waits for the rest of the one round of the chunk's two departure cells (the lent
  shares of the `xsend` and `ssum` chunks come back), of its second-axis arrival cell (the result's chunk in the
  neighbour's half, holding the neighbour's sum) and of its copy cell (the result's own chunk holding the own sum, and the
  other share of the `ssum` chunk).  The six cells of the chunk have then no round left and are closed: their counters,
  at zero, are the device's again.
-/
import proofs.«900132_g7700000000000133_dist_ar_v7x_xy2x2_x_m4096_n1024_bf16_1_alg».proof.Proof.KRuns

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Amounts: the credit of a chunk's transfer depends on the core's kind, the shape and the element type only -/

theorem credit_sd (k : Fin 32) : (sdK k).view.dmaCredit = N16 := rfl
theorem credit_sm (k : Fin 32) : (smK k).view.dmaCredit = N16 := rfl
theorem drain_credit_o (d : Dev nD) (k : Fin 32) : (oK d k).view.dmaCredit = N16 := rfl
theorem amt_xs : amt .xs = N16 := rfl
theorem amt_ys : amt .ys = N16 := rfl
theorem amt_yr : amt .yr = N16 := rfl
theorem amt_o : amt .o = N16 := rfl

/-! ## The schedule's tables at a chunk's cell, as the records name it, and the payloads spelt out -/

theorem expect_k (c : Dev nD) (f : Fam) (k : Fin 32) : (sched (F := F) m).expect (kcell (c, some (f, k))) 0 = amt f := expect_dma m c f k
theorem duties_k (c : Dev nD) (f : Fam) (k : Fin 32) : (sched (F := F) m).duties (kcell (c, some (f, k))) 0 = {false} := duties_dma m c f k
theorem payload_k (c : Dev nD) (f : Fam) (k : Fin 32) (d : Bool) :
    (sched (F := F) m).payload (kcell (c, some (f, k))) 0 d = chunkPay m c f k := payload_dma m c f k d
theorem chunkPay_xs (c : Dev nD) (k : Fin 32) : chunkPay m c .xs k = owns (c : Thread nD τ) (sdK k) hL (schunk m c k) := rfl
theorem drain_chunkPay_ys (c : Dev nD) (k : Fin 32) : chunkPay m c .ys k = owns (c : Thread nD τ) (smK k) hL (tchunk m c k) := rfl
theorem drain_chunkPay_yr (c : Dev nD) (k : Fin 32) :
    chunkPay m c .yr k = owns (c : Thread nD τ) (oK (ypeer c) k) fullShare (tchunk m (ypeer c) k) := rfl
theorem drain_chunkPay_o (c : Dev nD) (k : Fin 32) :
    chunkPay m c .o k = iprop(owns (c : Thread nD τ) (oK c k) fullShare (tchunk m c k) ∗ owns (c : Thread nD τ) (smK k) hR (tchunk m c k)) := rfl

attribute [local sl_rounds] duties_dma duties_later amount_dma expect_dma payload_dma rest_dma chunkPay_xs drain_chunkPay_ys drain_chunkPay_yr drain_chunkPay_o
  expect_k duties_k payload_k amt_xs amt_ys amt_yr amt_o credit_sd credit_sm drain_credit_o

/-! ## Two halves of a chunk -/

/-- Two halves of a chunk that read the same vector are the chunk held whole at that vector: the two contents agree on
    the chunk's elements, so the second half may be restated at the first's contents, and the shares add up. -/
theorem drain_owns_halves (c : Dev nD) (M : Memref sig .tc .vmem S64x1024 .bf16) (X : Vec F S64x1024 .bf16) :
    iprop(owns (c : Thread nD τ) M hL X ∗ owns (c : Thread nD τ) M hR X) ⊢ (owns (c : Thread nD τ) M fullShare X : sProp 𝕄) := by
  unfold owns
  iintro ⟨⟨%f, %hf, Hf⟩, ⟨%g, %hg, Hg⟩⟩
  ihave H := (persistent_entails_right pointsTo_agree) $$ [Hf Hg]
  · isplitl [Hf] <;> iassumption
  icases H with ⟨%hag, Hf, Hg⟩
  iexists f
  isplitr; · ipureintro; exact hf
  have hcg : (M.view.loc (c : Thread nD τ) ↦[M.view.set]{hR} g : sProp 𝕄) = (M.view.loc (c : Thread nD τ) ↦[M.view.set]{hR} f) :=
    pointsTo_congr (fun i hi => ((hag i (Finset.mem_inter.mpr ⟨hi, hi⟩)).1).symm)
  ihave Hg' := (Entails.of_eq hcg) $$ Hg
  iapply (show iprop((M.view.loc (c : Thread nD τ) ↦[M.view.set]{hL} f) ∗ (M.view.loc (c : Thread nD τ) ↦[M.view.set]{hR} f))
      ⊢ (M.view.loc (c : Thread nD τ) ↦[M.view.set]{fullShare} f : sProp 𝕄) from (pointsTo_share (PosShare.mem_left_op_right fullShare)).2)
  isplitl [Hf]; · iexact Hf
  iexact Hg'

/-! ## Positions, and closing a cell -/

/-- The positions of a chunk's cells once its load and its first-axis arrival have been waited for. -/
theorem posAll_C4 (c : Dev nD) (k : Fin 32) :
    posAll (F := F) c k (fun f => if f = .l ∨ f = .xr then 1 else 0)
      = iprop(atPos ER (dcell c .l k) 1 ∅ 0 ∗ atPos ER (dcell c .o k) 0 ∅ 0 ∗ atPos ER (dcell c .xs k) 0 ∅ 0
          ∗ atPos ER (dcell c .xr k) 1 ∅ 0 ∗ atPos ER (dcell c .ys k) 0 ∅ 0 ∗ atPos ER (dcell c .yr k) 0 ∅ 0) := rfl

/-- A chunk's cell at round 1, where no round has a duty any more, is closed: its counter, at zero, is the device's. -/
theorem close_chunk_cell (K : Dev nD × CellIx → ℕ) (c : Dev nD) (f : Fam) (k : Fin 32) :
    iprop(records m K ∗ atPos ER (dcell c f k) 1 ∅ 0) ⊢ (iprop(|={Set.univ}=> semVal (dcell c f k) 0) : sProp 𝕄) := by
  iintro ⟨#Hrec, Hat⟩
  ihave #HI := (inv_at m K (c, some (f, k))) $$ Hrec
  iapply (Rounds.cell_close ER (sched m) (Set.mem_univ (K (c, some (f, k)))) (fun h => h) (R := 1) (duties_later m (dcell c f k)))
  isplitr; · iexact HI
  iexact Hat

/-- Draining chunk `k`: the four waits are for the whole of the one round of the `xs`, `ys`, `yr` and `o` cells, each
    covered by the credit in hand and allowed because the device owes nothing; their payloads bring back the lent halves
    and the result's two chunks; the halves are rejoined and the six cells, all at round 1, closed. -/
theorem step_drain (K : Dev nD × CellIx → ℕ) (c : Dev nD) (k : Fin 32) (W : Waits sig Unit) :
    iprop(records m K ∗ owes (c : Thread nD τ) 0 W ∗ C4 m c k)
      ⊢ WP c (drain (F := F) theArgs c k) (fun _ => iprop((∃ W', owes (c : Thread nD τ) 0 W') ∗ C5 m c k)) := by
  unfold WP drain
  simp only [Prog.lift, Prog.bind_op, Prog.bind_ret, Prog.pure_eq_ret]
  unfold C4
  rw [posAll_C4]
  iintro ⟨#Hrec, HO, Hx, Hst, Hsd, Hrv, Hcxs, Hcys, Hco, ⟨Hpl, Hpo, Hpxs, Hpxr, Hpys, Hpyr⟩, Hcyr⟩
  ihave #Ixs := (inv_at m K (c, some (.xs, k))) $$ Hrec
  ihave #Iys := (inv_at m K (c, some (.ys, k))) $$ Hrec
  ihave #Iyr := (inv_at m K (c, some (.yr, k))) $$ Hrec
  ihave #Io := (inv_at m K (c, some (.o, k))) $$ Hrec
  -- the four waits: each cell's payload comes back, each position moves to round 1
  sl_exec
  -- the two halves of the `xsend` chunk, and of the `ssum` chunk, are whole chunks again
  ihave Hsdf := (drain_owns_halves c (sdK k) (schunk m c k)) $$ [Hpxs_pay1 Hsd]
  · isplitl [Hpxs_pay1] <;> iassumption
  ihave Hsmf := (drain_owns_halves c (smK k) (tchunk m c k)) $$ [Hpys_pay1 Hpo_pay2]
  · isplitl [Hpys_pay1] <;> iassumption
  -- the chunk's six cells, all at round 1, are closed
  imod (close_chunk_cell m K c .l k) $$ [Hpl] with Hzl
  · isplitr; · iexact Hrec
    iexact Hpl
  imod (close_chunk_cell m K c .o k) $$ [Hpo] with Hzo
  · isplitr; · iexact Hrec
    iexact Hpo
  imod (close_chunk_cell m K c .xs k) $$ [Hpxs] with Hzxs
  · isplitr; · iexact Hrec
    iexact Hpxs
  imod (close_chunk_cell m K c .xr k) $$ [Hpxr] with Hzxr
  · isplitr; · iexact Hrec
    iexact Hpxr
  imod (close_chunk_cell m K c .ys k) $$ [Hpys] with Hzys
  · isplitr; · iexact Hrec
    iexact Hpys
  imod (close_chunk_cell m K c .yr k) $$ [Hpyr] with Hzyr
  · isplitr; · iexact Hrec
    iexact Hpyr
  rw [wp_ret]; imodintro
  isplitl [HO]; · iexists _; iexact HO
  unfold C5
  isplitl [Hx]; · iexact Hx
  isplitl [Hst]; · iexact Hst
  isplitl [Hsdf]; · iexact Hsdf
  isplitl [Hrv]; · iexact Hrv
  isplitl [Hsmf]; · iexact Hsmf
  isplitl [Hpo_pay1]; · iexact Hpo_pay1
  isplitl [Hpyr_pay1]; · iexact Hpyr_pay1
  isplitl [Hzl]; · iexact Hzl
  isplitl [Hzo]; · iexact Hzo
  isplitl [Hzxs]; · iexact Hzxs
  isplitl [Hzxr]; · iexact Hzxr
  isplitl [Hzys]; · iexact Hzys
  iexact Hzyr

/-- info: 'Cert.Kernel.Hand.step_drain' depends on axioms: [propext, Classical.choice, Quot.sound] -/
#guard_msgs in #print axioms step_drain

end Cert.Kernel.Hand

end
-- ==== Proof.KPhases.lean ====
/-
  The body, phase by phase, from the per-chunk steps.

  Five runs over the chunks: start the 32 loads; (chunk 0 loaded and narrowed, the handshake, chunk 0 sent;) load, narrow
  and send chunks 1 … 31; reduce and send on chunks 0 … 31; drain chunks 0 … 31.  Between the runs the chunks' resources
  are regrouped: the neighbours' chunks received at the handshake are dealt to the chunks that will write them.  What the
  device owes goes down by one payment at each barrier signal, each first-axis send and each second-axis send.
-/
import proofs.«900132_g7700000000000133_dist_ar_v7x_xy2x2_x_m4096_n1024_bf16_1_alg».proof.Proof.KBodySpec
import proofs.«900132_g7700000000000133_dist_ar_v7x_xy2x2_x_m4096_n1024_bf16_1_alg».proof.Proof.KStepLoad
import proofs.«900132_g7700000000000133_dist_ar_v7x_xy2x2_x_m4096_n1024_bf16_1_alg».proof.Proof.KStepBar
import proofs.«900132_g7700000000000133_dist_ar_v7x_xy2x2_x_m4096_n1024_bf16_1_alg».proof.Proof.KStepSendX
import proofs.«900132_g7700000000000133_dist_ar_v7x_xy2x2_x_m4096_n1024_bf16_1_alg».proof.Proof.KStepReduce
import proofs.«900132_g7700000000000133_dist_ar_v7x_xy2x2_x_m4096_n1024_bf16_1_alg».proof.Proof.KStepDrain

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sequencing -/

/-- One piece after another. -/
theorem wp_then (c : Dev nD) {α β : Type} (p : Prog (TpuEff nD τ sig (Elt F) Λ₀ .tc) α) (k : α → Prog (TpuEff nD τ sig (Elt F) Λ₀ .tc) β)
    (P : sProp 𝕄) (Q : α → sProp 𝕄) (R : β → sProp 𝕄) (h₁ : P ⊢ WP c p Q) (h₂ : ∀ a, Q a ⊢ WP c (k a) R) : P ⊢ WP c (p >>= k) R := by
  show P ⊢ wp frame _ Set.univ (p >>= k) R
  rw [wp_bind]
  exact h₁.trans (wp_mono _ _ _ h₂)

/-- A piece runs beside resources it does not touch, and its post may be weakened. -/
theorem wp_use (c : Dev nD) {α : Type} (p : Prog (TpuEff nD τ sig (Elt F) Λ₀ .tc) α) (P Fr : sProp 𝕄) (Q Q' : α → sProp 𝕄)
    (h : P ⊢ WP c p Q) (hQ : ∀ a, iprop(Q a ∗ Fr) ⊢ Q' a) : iprop(P ∗ Fr) ⊢ WP c p Q' :=
  ((sep_mono_left h).trans (wp_frame_r _ _ _)).trans (wp_mono _ _ _ hQ)

/-- The persistent part of a device's knowledge: the cells' invariants and the levels. -/
abbrev known (K : Dev nD × CellIx → ℕ) : sProp 𝕄 := iprop(records m K ∗ levAts L lv)

/-- Pairing two families over the chunks. -/
theorem upTo_pair (A B B' : Fin 32 → sProp 𝕄) (i : ℕ) (hi : i = 0 ∨ True) :
    iprop(bigSep Finset.univ B ∗ bigSep Finset.univ B') = bigSep Finset.univ fun k : Fin 32 => iprop(B k ∗ B' k) :=
  (bigSep_sep' Finset.univ B B').symm

/-! ## The states between the runs -/

/-- The loads started. -/
def S1 (K : Dev nD × CellIx → ℕ) (c : Dev nD) : sProp 𝕄 :=
  iprop(known m K ∗ (∃ W, owes (c : Thread nD τ) (Oat c 0) W) ∗ barStart (F := F) c ∗ lendX (F := F) c ∗ lendY (F := F) c
    ∗ bigSep Finset.univ fun k : Fin 32 => C1 (F := F) c k)
/-- Chunk 0 loaded and narrowed. -/
def S2 (K : Dev nD × CellIx → ℕ) (c : Dev nD) : sProp 𝕄 :=
  iprop(known m K ∗ (∃ W, owes (c : Thread nD τ) (Oat c 0) W) ∗ barStart (F := F) c ∗ lendX (F := F) c ∗ lendY (F := F) c
    ∗ upTo (fun k => C2 m c k) (fun k => C1 (F := F) c k) 1)
/-- The handshake done: the neighbours' chunks in hand, the two barrier units paid. -/
def S3 (K : Dev nD × CellIx → ℕ) (c : Dev nD) : sProp 𝕄 :=
  iprop(known m K ∗ (∃ W, owes (c : Thread nD τ) (Oat c 2) W) ∗ lendX (F := F) (xpeer c) ∗ lendY (F := F) (ypeer c)
    ∗ upTo (fun k => C2 m c k) (fun k => C1 (F := F) c k) 1)
/-- Chunks below `i` sent on the first axis; the others loading, each beside the neighbour's chunk it will write. -/
def S4 (K : Dev nD × CellIx → ℕ) (c : Dev nD) (i : ℕ) : sProp 𝕄 :=
  iprop((known m K ∗ ∃ W, owes (c : Thread nD τ) (Oat c (2 + i)) W) ∗ lendY (F := F) (ypeer c)
    ∗ upTo (fun k => C3 m c k) (fun k => iprop(C1 (F := F) c k ∗ anyK (F := F) (xpeer c) (rvK k))) i)
/-- Chunks below `i` reduced and sent on; the others sent on the first axis, each beside the neighbour's result chunk. -/
def S5 (K : Dev nD × CellIx → ℕ) (c : Dev nD) (i : ℕ) : sProp 𝕄 :=
  iprop((known m K ∗ ∃ W, owes (c : Thread nD τ) (Oat c (34 + i)) W)
    ∗ upTo (fun k => C4 m c k) (fun k => iprop(C3 m c k ∗ anyK (F := F) (ypeer c) (oK c k))) i)
/-- Chunks below `i` drained. -/
def S6 (K : Dev nD × CellIx → ℕ) (c : Dev nD) (i : ℕ) : sProp 𝕄 :=
  iprop((known m K ∗ ∃ W, owes (c : Thread nD τ) 0 W) ∗ upTo (fun k => C5 m c k) (fun k => C4 m c k) i)

/-! ## The runs -/

/-- Start the 32 loads. -/
theorem run_loads (K : Dev nD × CellIx → ℕ) (c : Dev nD) :
    bodyPre m K c ⊢ WP c (runFrom (ldEnq (F := F) theArgs c) 0 32) (fun _ => S1 m K c) := by
  have h := wp_chunks c (ldEnq (F := F) theArgs c) (fun _ => records m K) (fun k => C1 (F := F) c k) (fun k => C0 m c k)
    (fun k => by
      iintro ⟨#HR, HC⟩
      iapply (wp_use c _ (iprop(records m K ∗ C0 m c k)) (records m K) _ _ (step_ldEnq m K c k) (fun _ => sep_comm.1))
      isplitl [HC]
      · isplitr; · iexact HR
        iexact HC
      · iexact HR) 32 0 (by omega)
  rw [upTo_zero, Nat.zero_add, upTo_all] at h
  unfold bodyPre S1 known
  iintro ⟨#HR, #HL, HO, HB, HX, HY, HC⟩
  iapply (wp_wand_r _ _ _)
  isplitl [HC]
  · iapply h
    isplitr; · iexact HR
    iexact HC
  · iintro %_ ⟨-, HC⟩
    isplitr; · (isplitr <;> iassumption)
    isplitl [HO]; · iexact HO
    isplitl [HB]; · iexact HB
    isplitl [HX]; · iexact HX
    isplitl [HY]; · iexact HY
    iexact HC

/-- Load, narrow and send one chunk. -/
theorem chunk_loadSend (K : Dev nD × CellIx → ℕ) (c : Dev nD) (k : Fin 32) :
    iprop((known m K ∗ ∃ W, owes (c : Thread nD τ) (Oat c (2 + k.val)) W) ∗ (C1 (F := F) c k ∗ anyK (F := F) (xpeer c) (rvK k)))
      ⊢ WP c (do ldNarrow (F := F) theArgs c k; sendX (F := F) theArgs c k)
          (fun _ => iprop((known m K ∗ ∃ W, owes (c : Thread nD τ) (Oat c (2 + (k.val + 1))) W) ∗ C3 m c k)) := by
  show _ ⊢ wp frame _ Set.univ (ldNarrow (F := F) theArgs c k >>= fun _ => sendX (F := F) theArgs c k) _
  rw [wp_bind]
  iintro ⟨⟨⟨#HR, #HL⟩, ⟨%W, HO⟩⟩, HC, HA⟩
  iapply (wp_wand_r _ _ _)
  isplitl [HO HC]
  · iapply (step_ldNarrow m K c k (Oat c (2 + k.val)) W (mayWait_low c .l k ⟨by decide, by decide⟩ (2 + k.val)))
    isplitr; · iexact HR
    isplitr; · iexact HL
    isplitl [HO] <;> iassumption
  · iintro %_ ⟨⟨%W', HO⟩, HC⟩
    iapply (wp_wand_r _ _ _)
    isplitl [HO HC HA]
    · iapply (step_sendX m K c k W')
      isplitr; · iexact HR
      isplitl [HO]; · iexact HO
      isplitl [HC] <;> iassumption
    · iintro %_ ⟨HO, HC⟩
      isplitl [HO]
      · isplitr; · (isplitr <;> iassumption)
        iexact HO
      · iexact HC

/-- Chunks 1 … 31 loaded, narrowed and sent. -/
theorem run_x (K : Dev nD × CellIx → ℕ) (c : Dev nD) :
    S4 m K c 1 ⊢ WP c (runFrom (fun k => do ldNarrow (F := F) theArgs c k; sendX (F := F) theArgs c k) 1 31) (fun _ => S4 m K c 32) := by
  have h := wp_chunks c (fun k => do ldNarrow (F := F) theArgs c k; sendX (F := F) theArgs c k)
    (fun i => iprop(known m K ∗ ∃ W, owes (c : Thread nD τ) (Oat c (2 + i)) W))
    (fun k => C3 m c k) (fun k => iprop(C1 (F := F) c k ∗ anyK (F := F) (xpeer c) (rvK k)))
    (fun k => chunk_loadSend m K c k) 31 1 (by omega)
  unfold S4
  iintro ⟨HR, HY, HU⟩
  iapply (wp_use c _ _ (lendY (F := F) (ypeer c)) _ _ h (fun _ => by
    iintro ⟨⟨HR, HU⟩, HY⟩
    isplitl [HR]; · iexact HR
    isplitl [HY]; · iexact HY
    iexact HU))
  isplitl [HR HU]
  · isplitl [HR] <;> iassumption
  · iexact HY

/-- Reduce and send on one chunk. -/
theorem chunk_reduce (K : Dev nD × CellIx → ℕ) (c : Dev nD) (k : Fin 32) :
    iprop((known m K ∗ ∃ W, owes (c : Thread nD τ) (Oat c (34 + k.val)) W) ∗ (C3 m c k ∗ anyK (F := F) (ypeer c) (oK c k)))
      ⊢ WP c (reduceSend (F := F) theArgs c k)
          (fun _ => iprop((known m K ∗ ∃ W, owes (c : Thread nD τ) (Oat c (34 + (k.val + 1))) W) ∗ C4 m c k)) := by
  iintro ⟨⟨⟨#HR, #HL⟩, ⟨%W, HO⟩⟩, HC, HA⟩
  iapply (wp_wand_r _ _ _)
  isplitl [HO HC HA]
  · iapply (step_reduceSend m K c k W)
    isplitr; · iexact HR
    isplitr; · iexact HL
    isplitl [HO]; · iexact HO
    isplitl [HC] <;> iassumption
  · iintro %_ ⟨HO, HC⟩
    isplitl [HO]
    · isplitr; · (isplitr <;> iassumption)
      iexact HO
    · iexact HC

theorem run_y (K : Dev nD × CellIx → ℕ) (c : Dev nD) :
    S5 m K c 0 ⊢ WP c (runFrom (reduceSend (F := F) theArgs c) 0 32) (fun _ => S5 m K c 32) := by
  have h := wp_chunks c (reduceSend (F := F) theArgs c)
    (fun i => iprop(known m K ∗ ∃ W, owes (c : Thread nD τ) (Oat c (34 + i)) W))
    (fun k => C4 m c k) (fun k => iprop(C3 m c k ∗ anyK (F := F) (ypeer c) (oK c k)))
    (fun k => chunk_reduce m K c k) 32 0 (by omega)
  rw [Nat.zero_add] at h
  exact h

/-- Drain one chunk. -/
theorem chunk_drain (K : Dev nD × CellIx → ℕ) (c : Dev nD) (k : Fin 32) :
    iprop((known m K ∗ ∃ W, owes (c : Thread nD τ) 0 W) ∗ C4 m c k)
      ⊢ WP c (drain (F := F) theArgs c k) (fun _ => iprop((known m K ∗ ∃ W, owes (c : Thread nD τ) 0 W) ∗ C5 m c k)) := by
  iintro ⟨⟨⟨#HR, #HL⟩, ⟨%W, HO⟩⟩, HC⟩
  iapply (wp_wand_r _ _ _)
  isplitl [HO HC]
  · iapply (step_drain m K c k W)
    isplitr; · iexact HR
    isplitl [HO] <;> iassumption
  · iintro %_ ⟨HO, HC⟩
    isplitl [HO]
    · isplitr; · (isplitr <;> iassumption)
      iexact HO
    · iexact HC

theorem run_d (K : Dev nD × CellIx → ℕ) (c : Dev nD) :
    S6 m K c 0 ⊢ WP c (runFrom (drain (F := F) theArgs c) 0 32) (fun _ => S6 m K c 32) := by
  have h := wp_chunks c (drain (F := F) theArgs c)
    (fun _ => iprop(known m K ∗ ∃ W, owes (c : Thread nD τ) 0 W))
    (fun k => C5 m c k) (fun k => C4 m c k)
    (fun k => chunk_drain m K c k) 32 0 (by omega)
  rw [Nat.zero_add] at h
  exact h

/-- Chunk 0 loaded and narrowed, beside everything else. -/
theorem first0 (K : Dev nD × CellIx → ℕ) (c : Dev nD) (Z : sProp 𝕄) :
    iprop((records m K ∗ levAts L lv) ∗ (∃ W, owes (c : Thread nD τ) (Oat c 0) W) ∗ barStart (F := F) c ∗ lendX (F := F) c ∗ lendY (F := F) c ∗ C1 (F := F) c 0 ∗ Z)
      ⊢ WP c (ldNarrow (F := F) theArgs c 0) (fun _ => iprop((records m K ∗ levAts L lv) ∗ (∃ W, owes (c : Thread nD τ) (Oat c 0) W) ∗ barStart (F := F) c ∗ lendX (F := F) c ∗ lendY (F := F) c ∗ C2 m c 0 ∗ Z)) := by
  iintro ⟨⟨#HR, #HL⟩, ⟨%W, HO⟩, HB, HX, HY, HC, HZ⟩
  iapply (wp_use c _ _ (iprop(records m K ∗ levAts L lv ∗ barStart (F := F) c ∗ lendX (F := F) c ∗ lendY (F := F) c ∗ Z)) _ _
    (step_ldNarrow m K c 0 (Oat c 0) W (mayWait_low c .l 0 ⟨by decide, by decide⟩ 0))
    (fun _ => by
      iintro ⟨⟨HO, HC⟩, #HR, #HL, HB, HX, HY, HZ⟩
      iframe HR HL HO HB HX HY HC HZ))
  isplitl [HO HC]
  · iframe HR HL HO HC
  · iframe HR HL HB HX HY HZ

theorem run_first (K : Dev nD × CellIx → ℕ) (c : Dev nD) :
    S1 m K c ⊢ WP c (ldNarrow (F := F) theArgs c 0) (fun _ => S2 m K c) := by
  unfold S1 S2
  rw [← upTo_zero (fun k => C2 m c k) (fun k => C1 (F := F) c k),
    show upTo (fun k => C2 m c k) (fun k => C1 (F := F) c k) 0 = _ from upTo_at _ _ (0 : Fin 32),
    show upTo (fun k => C2 m c k) (fun k => C1 (F := F) c k) 1 = _ from upTo_at_succ _ _ (0 : Fin 32)]
  exact first0 m K c _

/-- The handshake, beside the chunks. -/
theorem run_shake (K : Dev nD × CellIx → ℕ) (c : Dev nD) :
    S2 m K c ⊢ WP c (handshake (F := F) c) (fun _ => S3 m K c) := by
  unfold S2 S3 barStart known
  iintro ⟨⟨#HR, #HL⟩, ⟨%W, HO⟩, ⟨Hp, Hc, Hx, Hy⟩, HX, HY, HU⟩
  iapply (wp_use c _ _ (iprop(records m K ∗ levAts L lv ∗ upTo (fun k => C2 m c k) (fun k => C1 (F := F) c k) 1)) _ _
    (step_handshake m K c W)
    (fun _ => by
      iintro ⟨⟨HO, HX, HY⟩, #HR, #HL, HU⟩
      iframe HR HL HO HX HY HU))
  isplitl [HO Hp Hc Hx Hy HX HY]
  · iframe HR HL HO Hp Hc Hx Hy HX HY
  · iframe HR HL HU

/-- Chunk 0 sent on the first axis, beside everything else. -/
theorem send0 (K : Dev nD × CellIx → ℕ) (c : Dev nD) (Z1 Z2 : sProp 𝕄) :
    iprop((records m K ∗ levAts L lv) ∗ (∃ W, owes (c : Thread nD τ) (Oat c 2) W) ∗ (anyK (F := F) (xpeer c) (rvK 0) ∗ Z2) ∗ lendY (F := F) (ypeer c) ∗ (C2 m c 0 ∗ Z1))
      ⊢ WP c (sendX (F := F) theArgs c 0) (fun _ => iprop(((records m K ∗ levAts L lv) ∗ ∃ W, owes (c : Thread nD τ) (Oat c (2 + 1)) W) ∗ lendY (F := F) (ypeer c) ∗ (C3 m c 0 ∗ (Z1 ∗ Z2)))) := by
  iintro ⟨⟨#HR, #HL⟩, ⟨%W, HO⟩, ⟨HA, HZ2⟩, HY, HC, HZ1⟩
  have h : iprop(records m K ∗ owes (c : Thread nD τ) (Oat c 2) W ∗ C2 m c 0 ∗ anyK (F := F) (xpeer c) (rvK 0))
      ⊢ WP c (sendX (F := F) theArgs c 0) (fun _ => iprop((∃ W', owes (c : Thread nD τ) (Oat c (2 + 1)) W') ∗ C3 m c 0)) := step_sendX m K c 0 W
  iapply (wp_use c _ _ (iprop(records m K ∗ levAts L lv ∗ lendY (F := F) (ypeer c) ∗ Z1 ∗ Z2)) _ _ h
    (fun _ => by
      iintro ⟨⟨HO, HC⟩, #HR, #HL, HY, HZ1, HZ2⟩
      iframe HR HL HO HY HC HZ1 HZ2))
  isplitl [HO HC HA]
  · iframe HR HO HC HA
  · iframe HR HL HY HZ1 HZ2

theorem run_send0 (K : Dev nD × CellIx → ℕ) (c : Dev nD) :
    S3 m K c ⊢ WP c (sendX (F := F) theArgs c 0) (fun _ => S4 m K c 1) := by
  have hz : (bigSep (Finset.univ.erase (0 : Fin 32)) fun j : Fin 32 => if j.val < (0 : Fin 32).val then C3 m c j else iprop(C1 (F := F) c j ∗ anyK (F := F) (xpeer c) (rvK j)))
      = iprop((bigSep (Finset.univ.erase (0 : Fin 32)) fun j : Fin 32 => if j.val < (0 : Fin 32).val then C2 m c j else C1 (F := F) c j)
          ∗ bigSep (Finset.univ.erase (0 : Fin 32)) fun j : Fin 32 => anyK (F := F) (xpeer c) (rvK j)) := by
    rw [← bigSep_sep']
    refine bigSep_congr fun j _ => ?_
    have hj : ¬ j.val < (0 : Fin 32).val := Nat.not_lt_zero _
    rw [if_neg hj, if_neg hj]
  unfold S3 S4 lendX known
  rw [show upTo (fun k => C2 m c k) (fun k => C1 (F := F) c k) 1 = _ from upTo_at_succ _ _ (0 : Fin 32),
    show upTo (fun k => C3 m c k) (fun k => iprop(C1 (F := F) c k ∗ anyK (F := F) (xpeer c) (rvK k))) 1 = _ from upTo_at_succ _ _ (0 : Fin 32),
    bigSep_univ_at (fun k : Fin 32 => anyK (F := F) (xpeer c) (rvK k)) 0, hz]
  exact send0 m K c _ _

/-- All chunks sent on the first axis: the second-axis neighbour's result chunks are dealt to the chunks. -/
theorem regroup45 (K : Dev nD × CellIx → ℕ) (c : Dev nD) : S4 m K c 32 ⊢ S5 m K c 0 := by
  unfold S4 S5 lendY
  rw [upTo_all, upTo_zero, bigSep_sep', ypeer_ypeer, show 2 + 32 = 34 from rfl]
  iintro ⟨HRO, HY, HU⟩
  iframe HRO HU HY

/-- All chunks reduced and sent on: every payment is made. -/
theorem regroup56 (K : Dev nD × CellIx → ℕ) (c : Dev nD) : S5 m K c 32 ⊢ S6 m K c 0 := by
  unfold S5 S6
  rw [upTo_all, upTo_zero, show Oat c (34 + 32) = 0 from Oat_done c]

/-- All chunks drained. -/
theorem regroup6 (K : Dev nD × CellIx → ℕ) (c : Dev nD) : S6 m K c 32 ⊢ bodyPost m c := by
  unfold S6 bodyPost
  rw [upTo_all]
  iintro ⟨⟨-, HO⟩, HU⟩
  iframe HO HU

/-! ## The body -/

set_option maxRecDepth 100000 in
/-- The whole body on device `c`: the device id is its own, and the seven pieces follow one another. -/
theorem body_spec (K : Dev nD × CellIx → ℕ) (c : Dev nD) :
    bodyPre m K c ⊢ WP c (body (F := F) theArgs) (fun _ => bodyPost m c) := by
  unfold body
  simp only [Prog.lift, Prog.bind_op, Prog.bind_ret, Prog.pure_eq_ret]
  show bodyPre m K c ⊢ wp frame (wpE (defs₀ (F := F)) 𝒱₀ (c : Thread nD τ) none) Set.univ (.op .deviceId _) _
  rw [wp_deviceId]
  refine wp_then c _ _ _ (fun _ => S1 m K c) _ (run_loads m K c) fun _ => ?_
  refine wp_then c _ _ _ (fun _ => S2 m K c) _ (run_first m K c) fun _ => ?_
  refine wp_then c _ _ _ (fun _ => S3 m K c) _ (run_shake m K c) fun _ => ?_
  refine wp_then c _ _ _ (fun _ => S4 m K c 1) _ (run_send0 m K c) fun _ => ?_
  refine wp_then c _ _ _ (fun _ => S4 m K c 32) _ (run_x m K c) fun _ => ?_
  refine wp_then c _ _ _ (fun _ => S5 m K c 32) _ ((regroup45 m K c).trans (run_y m K c)) fun _ => ?_
  exact (regroup56 m K c).trans ((run_d m K c).trans (wp_mono _ _ _ fun _ => regroup6 m K c))

end Cert.Kernel.Hand

end
-- ==== Proof.KEntry.lean ====
/-
  Entering and leaving the body: the buffers cut into chunks and put together again, and the library's body obligation.

  At entry the block is cut into the half the device works on, chunk by chunk, and the rest; the result into its 64 chunks
  (32 to keep, 32 lent to the second-axis neighbour); `stage`, `xsend`, `ssum` into their 32 chunks each and `xrecv` into
  the 32 chunks lent to the first-axis neighbour.  The 32 chunks of a 2048-row buffer are pairwise disjoint and cover it.
  At exit the block's chunks, never written, give the block back at its launch contents, and the scratch buffers' chunks
  give the four buffers back whole.
-/
import proofs.«900132_g7700000000000133_dist_ar_v7x_xy2x2_x_m4096_n1024_bf16_1_alg».proof.Proof.KPhases

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The geometry: rows `64 k … 64 k + 63`, for `k` below 32, are disjoint and make up 2048 rows -/

/-- Two different chunks of a 2048-row shape share no index. -/
theorem rectK_disjoint (k k' : Fin 32) (h : k ≠ k') : Disjoint (rectK k).set (rectK k').set := by
  refine Rect.unit_disjoint (s := S2048x1024) (0 : Fin 2) ?_
  have hne : k.val ≠ k'.val := fun e => h (Fin.ext e)
  show 64 * k.val + 64 ≤ 64 * k'.val ∨ 64 * k'.val + 64 ≤ 64 * k.val
  omega

/-- Every index of a 2048-row shape lies in the chunk of its row divided by 64. -/
theorem rectK_cover (i : S2048x1024.Idx) : ∃ k : Fin 32, i ∈ (rectK k).set := by
  have h0 : (i (0 : Fin 2)).val < 2048 := (i (0 : Fin 2)).isLt
  have h1 : (i (1 : Fin 2)).val < 1024 := (i (1 : Fin 2)).isLt
  have hk : (i (0 : Fin 2)).val / 64 < 32 := by omega
  refine ⟨⟨(i (0 : Fin 2)).val / 64, hk⟩, Rect.mem_set_unit.mpr (Fin.forall_fin_two.mpr ⟨?_, ?_⟩)⟩
  · show 64 * ((i (0 : Fin 2)).val / 64) ≤ (i (0 : Fin 2)).val ∧ (i (0 : Fin 2)).val < 64 * ((i (0 : Fin 2)).val / 64) + 64
    omega
  · show 0 ≤ (i (1 : Fin 2)).val ∧ (i (1 : Fin 2)).val < 0 + 1024
    omega

/-- The first row of chunk `k` of the half device `d` works on, and its first column. -/
theorem off1_row (d : Dev nD) (k : Fin 32) :
    k0_off1 d (BitVec.ofNat 32 (64 * k.val)) 0 = 2048 * (d.val % 2) + 64 * k.val := congrFun (k0_off1_eq d k) 0
theorem off1_col (d : Dev nD) (k : Fin 32) : k0_off1 d (BitVec.ofNat 32 (64 * k.val)) 1 = 0 := congrFun (k0_off1_eq d k) 1

/-- Chunks of a 4096-row shape in different halves, or different chunks of one half, share no index. -/
theorem rectG_disjoint (d d' : Dev nD) (k k' : Fin 32) (h : d.val % 2 ≠ d'.val % 2 ∨ k ≠ k') :
    Disjoint (rectG d k).set (rectG d' k').set := by
  refine Rect.unit_disjoint (s := S4096x1024) (0 : Fin 2) ?_
  have hne : d.val % 2 ≠ d'.val % 2 ∨ k.val ≠ k'.val := h.imp id fun h e => h (Fin.ext e)
  have hk := k.isLt
  have hk' := k'.isLt
  have e := off1_row d k
  have e' := off1_row d' k'
  show k0_off1 d (BitVec.ofNat 32 (64 * k.val)) 0 + 64 ≤ k0_off1 d' (BitVec.ofNat 32 (64 * k'.val)) 0
    ∨ k0_off1 d' (BitVec.ofNat 32 (64 * k'.val)) 0 + 64 ≤ k0_off1 d (BitVec.ofNat 32 (64 * k.val)) 0
  omega

/-- An index whose row lies in chunk `k` of `d`'s half is in that chunk. -/
theorem mem_rectG (d : Dev nD) (k : Fin 32) (i : S4096x1024.Idx)
    (hlo : 2048 * (d.val % 2) + 64 * k.val ≤ (i (0 : Fin 2)).val)
    (hhi : (i (0 : Fin 2)).val < 2048 * (d.val % 2) + 64 * k.val + 64) : i ∈ (rectG d k).set := by
  have h1 : (i (1 : Fin 2)).val < 1024 := (i (1 : Fin 2)).isLt
  have e0 := off1_row d k
  have e1 := off1_col d k
  refine Rect.mem_set_unit.mpr (Fin.forall_fin_two.mpr ⟨?_, ?_⟩)
  · show k0_off1 d (BitVec.ofNat 32 (64 * k.val)) 0 ≤ (i (0 : Fin 2)).val
      ∧ (i (0 : Fin 2)).val < k0_off1 d (BitVec.ofNat 32 (64 * k.val)) 0 + 64
    omega
  · show k0_off1 d (BitVec.ofNat 32 (64 * k.val)) 1 ≤ (i (1 : Fin 2)).val
      ∧ (i (1 : Fin 2)).val < k0_off1 d (BitVec.ofNat 32 (64 * k.val)) 1 + 1024
    omega

/-- The second-axis neighbour works on the other half. -/
theorem ypeer_parity : ∀ c : Dev nD, (ypeer c).val % 2 = 1 - c.val % 2 := by decide +kernel

/-- Every index of a 4096-row shape lies in a chunk of the device's half or of its second-axis neighbour's. -/
theorem rectG_cover (c : Dev nD) (i : S4096x1024.Idx) :
    (∃ k : Fin 32, i ∈ (rectG c k).set) ∨ ∃ k : Fin 32, i ∈ (rectG (ypeer c) k).set := by
  have h0 : (i (0 : Fin 2)).val < 4096 := (i (0 : Fin 2)).isLt
  have hp := ypeer_parity c
  have hk : ((i (0 : Fin 2)).val % 2048) / 64 < 32 := by omega
  by_cases hc : c.val % 2 = (i (0 : Fin 2)).val / 2048
  · refine Or.inl ⟨⟨((i (0 : Fin 2)).val % 2048) / 64, hk⟩, mem_rectG c _ i ?_ ?_⟩
    · show 2048 * (c.val % 2) + 64 * (((i (0 : Fin 2)).val % 2048) / 64) ≤ (i (0 : Fin 2)).val
      omega
    · show (i (0 : Fin 2)).val < 2048 * (c.val % 2) + 64 * (((i (0 : Fin 2)).val % 2048) / 64) + 64
      omega
  · refine Or.inr ⟨⟨((i (0 : Fin 2)).val % 2048) / 64, hk⟩, mem_rectG (ypeer c) _ i ?_ ?_⟩
    · show 2048 * ((ypeer c).val % 2) + 64 * (((i (0 : Fin 2)).val % 2048) / 64) ≤ (i (0 : Fin 2)).val
      omega
    · show (i (0 : Fin 2)).val < 2048 * ((ypeer c).val % 2) + 64 * (((i (0 : Fin 2)).val % 2048) / 64) + 64
      omega

/-! ## The same of the elements of a buffer seen through a view -/

theorem chunkK_disjoint {sp : Space} {e : EltTy} (v : View sig .tc sp S2048x1024 e) (k k' : Fin 32) (h : k ≠ k') :
    Disjoint (v.slice (rectK k)).set (v.slice (rectK k')).set := by
  rw [View.set_slice, View.set_slice]; exact (Finset.disjoint_map _).mpr (rectK_disjoint k k' h)

theorem chunkK_cover {sp : Space} {e : EltTy} (v : View sig .tc sp S2048x1024 e) :
    v.set = Finset.univ.biUnion fun k : Fin 32 => (v.slice (rectK k)).set := by
  ext i; constructor
  · intro hi
    rw [View.set, Finset.mem_map] at hi
    obtain ⟨x, -, rfl⟩ := hi
    obtain ⟨k, hk⟩ := rectK_cover x
    exact Finset.mem_biUnion.mpr ⟨k, Finset.mem_univ _, by rw [View.set_slice]; exact Finset.mem_map_of_mem _ hk⟩
  · intro hi
    obtain ⟨k, -, hi⟩ := Finset.mem_biUnion.mp hi
    exact View.set_slice_subset _ _ hi

/-- The elements of a 4096-row view under chunk `k` of the half device `d` works on. -/
abbrev gset {sp : Space} {e : EltTy} (v : View sig .tc sp S4096x1024 e) (d : Dev nD) (k : Fin 32) : Finset v.ty.Idx :=
  (rectG d k).set.map v.emb

theorem gset_disjoint {sp : Space} {e : EltTy} (v : View sig .tc sp S4096x1024 e) (d d' : Dev nD) (k k' : Fin 32)
    (h : d.val % 2 ≠ d'.val % 2 ∨ k ≠ k') : Disjoint (gset v d k) (gset v d' k') :=
  (Finset.disjoint_map _).mpr (rectG_disjoint d d' k k' h)

/-- The elements of a 4096-row view in the 32 chunks of the half device `d` works on. -/
abbrev halfSet {sp : Space} {e : EltTy} (v : View sig .tc sp S4096x1024 e) (d : Dev nD) : Finset v.ty.Idx :=
  Finset.univ.biUnion fun k : Fin 32 => gset v d k

theorem halves_disjoint {sp : Space} {e : EltTy} (c : Dev nD) (v : View sig .tc sp S4096x1024 e) :
    Disjoint (halfSet v c) (halfSet v (ypeer c)) := by
  refine (Finset.disjoint_biUnion_left _ _ _).mpr fun k _ => (Finset.disjoint_biUnion_right _ _ _).mpr fun k' _ => ?_
  exact gset_disjoint v c (ypeer c) k k' (Or.inl (by have := ypeer_parity c; omega))

theorem halves_cover {sp : Space} {e : EltTy} (c : Dev nD) (v : View sig .tc sp S4096x1024 e) :
    v.set = halfSet v c ∪ halfSet v (ypeer c) := by
  ext i; constructor
  · intro hi
    rw [View.set, Finset.mem_map] at hi
    obtain ⟨x, -, rfl⟩ := hi
    rcases rectG_cover c x with ⟨k, hk⟩ | ⟨k, hk⟩
    · exact Finset.mem_union_left _ (Finset.mem_biUnion.mpr ⟨k, Finset.mem_univ _, Finset.mem_map_of_mem _ hk⟩)
    · exact Finset.mem_union_right _ (Finset.mem_biUnion.mpr ⟨k, Finset.mem_univ _, Finset.mem_map_of_mem _ hk⟩)
  · intro hi
    rcases Finset.mem_union.mp hi with hi | hi
    · obtain ⟨k, -, hi⟩ := Finset.mem_biUnion.mp hi
      obtain ⟨x, -, rfl⟩ := Finset.mem_map.mp hi
      exact v.emb_mem_set x
    · obtain ⟨k, -, hi⟩ := Finset.mem_biUnion.mp hi
      obtain ⟨x, -, rfl⟩ := Finset.mem_map.mp hi
      exact v.emb_mem_set x

/-! ## A buffer's points-to, chunk by chunk -/

/-- A 2048-row buffer held at contents `g` is its 32 chunks held at `g`. -/
theorem cutK (c : Dev nD) {sp : Space} {e : EltTy} (M : Memref sig .tc sp S2048x1024 e) (q : PosShare TreeShare)
    (g : Buf (Elt F) (M.view.loc (c : Thread nD τ))) :
    (M.view.loc (c : Thread nD τ) ↦[M.view.set]{q} g : sProp 𝕄)
      = bigSep Finset.univ fun k : Fin 32 => M.view.loc (c : Thread nD τ) ↦[(M.view.slice (rectK k)).set]{q} g := by
  rw [chunkK_cover M.view]
  exact pointsTo_biUnion _ _ fun k _ k' _ h => chunkK_disjoint M.view k k' h

/-- A 4096-row buffer held at `g` is the 32 chunks of the device's half and the 32 of the other half, held at `g`. -/
theorem cutG (c : Dev nD) {sp : Space} {e : EltTy} (M : Memref sig .tc sp S4096x1024 e) (q : PosShare TreeShare)
    (g : Buf (Elt F) (M.view.loc (c : Thread nD τ))) :
    (M.view.loc (c : Thread nD τ) ↦[M.view.set]{q} g : sProp 𝕄)
      = iprop((bigSep Finset.univ fun k : Fin 32 => M.view.loc (c : Thread nD τ) ↦[(M.view.slice (rectG c k)).set]{q} g)
          ∗ bigSep Finset.univ fun k : Fin 32 => M.view.loc (c : Thread nD τ) ↦[(M.view.slice (rectG (ypeer c) k)).set]{q} g) := by
  have hu : (M.view.loc (c : Thread nD τ) ↦[halfSet M.view c ∪ halfSet M.view (ypeer c)]{q} g : sProp 𝕄)
      ⊣⊢ iprop((M.view.loc (c : Thread nD τ) ↦[halfSet M.view c]{q} g) ∗ M.view.loc (c : Thread nD τ) ↦[halfSet M.view (ypeer c)]{q} g) :=
    pointsTo_union (halves_disjoint c M.view)
  have hA : (M.view.loc (c : Thread nD τ) ↦[halfSet M.view c]{q} g : sProp 𝕄)
      = bigSep Finset.univ fun k : Fin 32 => M.view.loc (c : Thread nD τ) ↦[gset M.view c k]{q} g :=
    pointsTo_biUnion _ _ fun k _ k' _ h => gset_disjoint M.view c c k k' (Or.inr h)
  have hB : (M.view.loc (c : Thread nD τ) ↦[halfSet M.view (ypeer c)]{q} g : sProp 𝕄)
      = bigSep Finset.univ fun k : Fin 32 => M.view.loc (c : Thread nD τ) ↦[gset M.view (ypeer c) k]{q} g :=
    pointsTo_biUnion _ _ fun k _ k' _ h => gset_disjoint M.view (ypeer c) (ypeer c) k k' (Or.inr h)
  have h1 : (M.view.loc (c : Thread nD τ) ↦[halfSet M.view c ∪ halfSet M.view (ypeer c)]{q} g : sProp 𝕄)
      = iprop((M.view.loc (c : Thread nD τ) ↦[halfSet M.view c]{q} g) ∗ M.view.loc (c : Thread nD τ) ↦[halfSet M.view (ypeer c)]{q} g) :=
    BI.equiv_iff.mp ⟨hu.1, hu.2⟩
  have hk : ∀ (d : Dev nD) (k : Fin 32), (M.view.loc (c : Thread nD τ) ↦[(M.view.slice (rectG d k)).set]{q} g : sProp 𝕄)
      = (M.view.loc (c : Thread nD τ) ↦[gset M.view d k]{q} g) := by
    intro d k
    rw [View.set_slice]
  rw [halves_cover c M.view, h1, hA, hB, bigSep_congr (fun k _ => hk c k), bigSep_congr (fun k _ => hk (ypeer c) k)]

/-- A chunk owned at known contents is held at some contents. -/
theorem anyK_of_owns (c : Dev nD) {sp : Space} {e : EltTy} (M : Memref sig .tc sp S64x1024 e) (X : S64x1024.Idx → Elt F e) :
    (owns (c : Thread nD τ) M fullShare X : sProp 𝕄) ⊢ anyK (F := F) c M := by
  unfold owns anyK
  iintro ⟨%f, %hf, H⟩
  iexists f
  iexact H

/-- A whole 2048-row buffer at contents `f`: each of its chunks at some contents. -/
theorem whole_cutK (c : Dev nD) {sp : Space} {e : EltTy} (M : Memref sig .tc sp S2048x1024 e) (hM : M.view.set = Finset.univ)
    (f : Buf (Elt F) (M.view.loc (c : Thread nD τ))) :
    (M.view.loc (c : Thread nD τ) ↦{fullShare} f : sProp 𝕄)
      ⊢ bigSep Finset.univ fun k : Fin 32 => anyK (F := F) c (M.slice (rectK k) (fun _ => rfl)) := by
  have h := cutK (F := F) c M fullShare f
  rw [hM] at h
  have hk : ∀ k : Fin 32, (M.view.loc (c : Thread nD τ) ↦[(M.view.slice (rectK k)).set]{fullShare} f : sProp 𝕄)
      ⊢ anyK (F := F) c (M.slice (rectK k) (fun _ => rfl)) := by
    intro k
    unfold anyK
    iintro H
    iexists f
    iexact H
  exact (Entails.of_eq h).trans (BI.bigSep_mono fun k _ => hk k)

/-- Every element type has a value (zero bits). -/
instance elt_nonempty (e : EltTy) : Nonempty (Elt F e) := by
  cases e
  · exact ⟨(0 : BitVec 1)⟩
  · exact ⟨(0 : BitVec 4)⟩
  · exact ⟨(0 : BitVec 8)⟩
  · exact ⟨(0 : BitVec 16)⟩
  · exact ⟨(0 : BitVec 32)⟩
  · exact ⟨(0 : BitVec 64)⟩
  · exact ⟨FloatOps.ofBits (F := F) .fp8e4m3 0⟩
  · exact ⟨FloatOps.ofBits (F := F) .fp8e5m2 0⟩
  · exact ⟨FloatOps.ofBits (F := F) .bf16 0⟩
  · exact ⟨FloatOps.ofBits (F := F) .f16 0⟩
  · exact ⟨FloatOps.ofBits (F := F) .f32 0⟩

/-- The 32 chunks of a whole 2048-row buffer, each at some contents, are the buffer at some contents. -/
theorem whole_joinK (c : Dev nD) {sp : Space} {e : EltTy} (M : Memref sig .tc sp S2048x1024 e) (hM : M.view.set = Finset.univ) :
    (bigSep Finset.univ fun k : Fin 32 => anyK (F := F) c (M.slice (rectK k) (fun _ => rfl)))
      ⊢ (iprop(∃ f : Buf (Elt F) (M.view.loc (c : Thread nD τ)), M.view.loc (c : Thread nD τ) ↦{fullShare} f) : sProp 𝕄) := by
  have h1 : (bigSep Finset.univ fun k : Fin 32 => anyK (F := F) c (M.slice (rectK k) (fun _ => rfl)))
      ⊢ (iprop(∃ y : Fin 32 → Buf (Elt F) (M.view.loc (c : Thread nD τ)),
          bigSep Finset.univ fun k : Fin 32 => M.view.loc (c : Thread nD τ) ↦[(M.view.slice (rectK k)).set]{fullShare} y k) : sProp 𝕄) :=
    bigSep_exists_pi Finset.univ (fun (k : Fin 32) (f : Buf (Elt F) (M.view.loc (c : Thread nD τ))) =>
      (M.view.loc (c : Thread nD τ) ↦[(M.view.slice (rectK k)).set]{fullShare} f : sProp 𝕄))
  refine h1.trans ?_
  iintro ⟨%y, H⟩
  ihave H' := (pointsTo_biUnion_join (ℓ := M.view.loc (c : Thread nD τ)) (q := fullShare) Finset.univ
      (fun k : Fin 32 => (M.view.slice (rectK k)).set) y (y 0) (fun k _ k' _ h => chunkK_disjoint M.view k k' h)) $$ H
  icases H' with ⟨%g, %hg, H⟩
  have hS : (Finset.univ.biUnion fun k : Fin 32 => (M.view.slice (rectK k)).set)
      = (Finset.univ : Finset (Idx (M.view.loc (c : Thread nD τ)))) := (chunkK_cover M.view).symm.trans hM
  iexists g
  rw [hS]
  iexact H

/-- The same from the chunks owned at known contents. -/
theorem owns_joinK (c : Dev nD) {sp : Space} {e : EltTy} (M : Memref sig .tc sp S2048x1024 e) (hM : M.view.set = Finset.univ)
    (X : Fin 32 → S64x1024.Idx → Elt F e) :
    (bigSep Finset.univ fun k : Fin 32 => owns (c : Thread nD τ) (M.slice (rectK k) (fun _ => rfl)) fullShare (X k))
      ⊢ (iprop(∃ f : Buf (Elt F) (M.view.loc (c : Thread nD τ)), M.view.loc (c : Thread nD τ) ↦{fullShare} f) : sProp 𝕄) :=
  (bigSep_mono fun k _ => anyK_of_owns (F := F) c (M.slice (rectK k) (fun _ => rfl)) (X k)).trans (whole_joinK (F := F) c M hM)

/-- A list of the six families. -/
theorem bigSep_fam (Φ : Fam → sProp 𝕄) : bigSep Finset.univ Φ = iprop(Φ .l ∗ Φ .o ∗ Φ .xs ∗ Φ .xr ∗ Φ .ys ∗ Φ .yr) :=
  bigSep_univ_eq_bigSepL [Fam.l, Fam.o, Fam.xs, Fam.xr, Fam.ys, Fam.yr] (by decide) (by decide) Φ

/-- The 192 counters, family by family. -/
theorem zeros_eq (c : Dev nD) : zeros (F := F) c = iprop(
    (bigSep Finset.univ fun k : Fin 32 => semVal (dcell c .l k) 0) ∗ (bigSep Finset.univ fun k : Fin 32 => semVal (dcell c .o k) 0)
    ∗ (bigSep Finset.univ fun k : Fin 32 => semVal (dcell c .xs k) 0) ∗ (bigSep Finset.univ fun k : Fin 32 => semVal (dcell c .xr k) 0)
    ∗ (bigSep Finset.univ fun k : Fin 32 => semVal (dcell c .ys k) 0) ∗ (bigSep Finset.univ fun k : Fin 32 => semVal (dcell c .yr k) 0)) := by
  unfold zeros
  exact (bigSep_univ_prod _).trans (bigSep_fam _)

/-- No window: the pipeline's conjunction over its windows is empty. -/
theorem bigSep_noWin (Φ : Fin cfg0.W → sProp 𝕄) : bigSep Finset.univ Φ = iprop(emp) := by
  have h : (Finset.univ : Finset (Fin cfg0.W)) = ∅ := by ext w; exact w.elim0
  exact (congrArg (fun S => bigSep S Φ) h).trans bigSep_empty

theorem sep_emp_eq (P : sProp 𝕄) : iprop(P ∗ emp) = P := BI.equiv_iff.mp ⟨BI.sep_emp_elim, BI.sep_emp_intro⟩

/-! ## The block and the result -/

/-- The other half of the block, kept aside while the body runs: never touched. -/
def restBlk (c : Dev nD) : sProp 𝕄 :=
  bigSep Finset.univ fun k : Fin 32 =>
    xM.view.loc (c : Thread nD τ) ↦[(xM.view.slice (rectG (ypeer c) k)).set]{fullShare} blk m c

/-- The block whole is the 32 chunks of the own half and the other half. -/
theorem blk_eq (c : Dev nD) :
    ((((c : Thread nD τ).loc main_arg0) ↦{fullShare} blk m c : sProp 𝕄))
      = iprop((bigSep Finset.univ fun k : Fin 32 => xPts m c k) ∗ restBlk m c) := by
  have h := cutG (F := F) c xM fullShare (blk m c)
  rw [show xM.view.set = Finset.univ from View.set_whole _] at h
  exact h

/-- The result whole at anything: the 32 chunks to keep and the 32 to lend, at anything. -/
theorem out_cut (c : Dev nD) (fo : Buf (Elt F) ((c : Thread nD τ).loc main_v1)) :
    ((((c : Thread nD τ).loc main_v1) ↦{fullShare} fo : sProp 𝕄))
      ⊢ iprop((bigSep Finset.univ fun k : Fin 32 => anyK (F := F) c (oK c k)) ∗ lendY (F := F) c) := by
  unfold lendY
  have h := cutG (F := F) c oM fullShare fo
  rw [show oM.view.set = Finset.univ from View.set_whole _] at h
  have hk : ∀ (d : Dev nD) (k : Fin 32),
      (oM.view.loc (c : Thread nD τ) ↦[(oM.view.slice (rectG d k)).set]{fullShare} fo : sProp 𝕄) ⊢ anyK (F := F) c (oK d k) := by
    intro d k
    unfold anyK
    iintro H
    iexists fo
    iexact H
  have hA : (bigSep Finset.univ fun k : Fin 32 => oM.view.loc (c : Thread nD τ) ↦[(oM.view.slice (rectG c k)).set]{fullShare} fo : sProp 𝕄)
      ⊢ bigSep Finset.univ fun k : Fin 32 => anyK (F := F) c (oK c k) := BI.bigSep_mono fun k _ => hk c k
  have hB : (bigSep Finset.univ fun k : Fin 32 => oM.view.loc (c : Thread nD τ) ↦[(oM.view.slice (rectG (ypeer c) k)).set]{fullShare} fo : sProp 𝕄)
      ⊢ bigSep Finset.univ fun k : Fin 32 => anyK (F := F) c (oK (ypeer c) k) := BI.bigSep_mono fun k _ => hk (ypeer c) k
  refine (Entails.of_eq h).trans ?_
  iintro ⟨HA, HB⟩
  isplitl [HA]
  · iapply hA
    iexact HA
  · iapply hB
    iexact HB

/-! ## Dealing the chunks, and collecting them -/

set_option maxRecDepth 4000 in
/-- What the launch hands over, the buffers already cut, is the body's precondition. -/
theorem deal (K : Dev nD × CellIx → ℕ) (c : Dev nD) :
    iprop(ghost m K c ∗ creds (F := F) c ∗ levAts L lv ∗ (∃ W, owes (c : Thread nD τ) (Oat c 0) W)
      ∗ (bigSep Finset.univ fun k : Fin 32 => xPts m c k)
      ∗ (bigSep Finset.univ fun k : Fin 32 => anyK (F := F) c (stK k))
      ∗ (bigSep Finset.univ fun k : Fin 32 => anyK (F := F) c (sdK k))
      ∗ (bigSep Finset.univ fun k : Fin 32 => anyK (F := F) c (rvK k))
      ∗ (bigSep Finset.univ fun k : Fin 32 => anyK (F := F) c (smK k))
      ∗ (bigSep Finset.univ fun k : Fin 32 => anyK (F := F) c (oK c k))
      ∗ lendY (F := F) c)
    ⊢ bodyPre m K c := by
  unfold bodyPre ghost creds barStart lendX lendY C0 chunkGhost
  simp only [bigSep_sep']
  iintro ⟨⟨Hrec, HatB, HtX, HtY, Hpos, Ht1, Ht2, Ht3, Ht4, Ht5, Ht6⟩, ⟨HcB, Hcx, Hcy⟩, Hlev, Ho, Hx, Hst, Hsd, Hrv, Hsm, Hoc, Hoy⟩
  isplitl [Hrec]; · iexact Hrec
  isplitl [Hlev]; · iexact Hlev
  isplitl [Ho]; · iexact Ho
  isplitl [HatB HcB HtX HtY]
  · isplitl [HatB]; · iexact HatB
    isplitl [HcB]; · iexact HcB
    isplitl [HtX]; · iexact HtX
    iexact HtY
  isplitl [Hrv]; · iexact Hrv
  isplitl [Hoy]; · iexact Hoy
  isplitl [Hx]; · iexact Hx
  isplitl [Hst]; · iexact Hst
  isplitl [Hsd]; · iexact Hsd
  isplitl [Hsm]; · iexact Hsm
  isplitl [Hoc]; · iexact Hoc
  isplitl [Hpos]; · iexact Hpos
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Hcx]; · iexact Hcx
  iexact Hcy

set_option maxRecDepth 4000 in
/-- What the body leaves, buffer by buffer. -/
theorem undeal (c : Dev nD) :
    bodyPost m c ⊢ iprop((∃ W, owes (c : Thread nD τ) 0 W)
      ∗ (bigSep Finset.univ fun k : Fin 32 => xPts m c k)
      ∗ (bigSep Finset.univ fun k : Fin 32 => owns (c : Thread nD τ) (stK k) fullShare (xchunk m c k))
      ∗ (bigSep Finset.univ fun k : Fin 32 => owns (c : Thread nD τ) (sdK k) fullShare (schunk m c k))
      ∗ (bigSep Finset.univ fun k : Fin 32 => owns (c : Thread nD τ) (rvK k) fullShare (rchunk m c k))
      ∗ (bigSep Finset.univ fun k : Fin 32 => owns (c : Thread nD τ) (smK k) fullShare (tchunk m c k))
      ∗ outDone m c ∗ zeros (F := F) c) := by
  rw [zeros_eq]
  unfold bodyPost C5 outDone
  simp only [bigSep_sep']
  iintro ⟨Ho, Hx, Hst, Hsd, Hrv, Hsm, Hoc, Hoy, Hl, Hoo, Hxs, Hxr, Hys, Hyr⟩
  isplitl [Ho]; · iexact Ho
  isplitl [Hx]; · iexact Hx
  isplitl [Hst]; · iexact Hst
  isplitl [Hsd]; · iexact Hsd
  isplitl [Hrv]; · iexact Hrv
  isplitl [Hsm]; · iexact Hsm
  isplitl [Hoc Hoy]
  · isplitl [Hoc]; · iexact Hoc
    iexact Hoy
  isplitl [Hl]; · iexact Hl
  isplitl [Hoo]; · iexact Hoo
  isplitl [Hxs]; · iexact Hxs
  isplitl [Hxr]; · iexact Hxr
  isplitl [Hys]; · iexact Hys
  iexact Hyr

/-! ## Entry and exit -/

set_option maxRecDepth 4000 in
/-- Entry: the launch's invariant and what the device owes give, at some names, the body's precondition and the
    other half of the block. -/
theorem entry_ (c : Dev nD) :
    iprop(Φ₀ m c ∗ (dats (F := F) m 0 c).owesAt () t0_0.castSucc) ⊢ iprop(∃ K, bodyPre m K c ∗ restBlk m c) := by
  unfold Φ₀ start scratch Dat.owesAt Pipeline.owesWithin
  rw [show (dats (F := F) m 0 c).owed t0_0.castSucc = Oat c 0 from rfl]
  iintro ⟨⟨⟨⟨%K, Hg⟩, Hcr, Hlev, Hblk, ⟨%fo, Hout⟩⟩, ⟨%f0, H0⟩, ⟨%f1, H1⟩, ⟨%f2, H2⟩, ⟨%f3, H3⟩⟩, ⟨%W, %hW, HO⟩⟩
  iexists K
  ihave Hb := (Entails.of_eq (blk_eq m c)) $$ Hblk
  icases Hb with ⟨Hx, Hrest⟩
  ihave Ho := (out_cut (F := F) c fo) $$ Hout
  icases Ho with ⟨Hoc, Hoy⟩
  ihave Hst := (show ((((c : Thread nD τ).loc cc0_scratch0) ↦{fullShare} f0 : sProp 𝕄))
      ⊢ bigSep Finset.univ (fun k : Fin 32 => anyK (F := F) c (stK k)) from whole_cutK (F := F) c stM (View.set_whole _) f0) $$ H0
  ihave Hsd := (show ((((c : Thread nD τ).loc cc0_scratch1) ↦{fullShare} f1 : sProp 𝕄))
      ⊢ bigSep Finset.univ (fun k : Fin 32 => anyK (F := F) c (sdK k)) from whole_cutK (F := F) c sdM (View.set_whole _) f1) $$ H1
  ihave Hrv := (show ((((c : Thread nD τ).loc cc0_scratch2) ↦{fullShare} f2 : sProp 𝕄))
      ⊢ bigSep Finset.univ (fun k : Fin 32 => anyK (F := F) c (rvK k)) from whole_cutK (F := F) c rvM (View.set_whole _) f2) $$ H2
  ihave Hsm := (show ((((c : Thread nD τ).loc cc0_scratch3) ↦{fullShare} f3 : sProp 𝕄))
      ⊢ bigSep Finset.univ (fun k : Fin 32 => anyK (F := F) c (smK k)) from whole_cutK (F := F) c smM (View.set_whole _) f3) $$ H3
  isplitr [Hrest]
  · iapply (deal m K c)
    isplitl [Hg]; · iexact Hg
    isplitl [Hcr]; · iexact Hcr
    isplitl [Hlev]; · iexact Hlev
    isplitl [HO]
    · iexists W
      iexact HO
    isplitl [Hx]; · iexact Hx
    isplitl [Hst]; · iexact Hst
    isplitl [Hsd]; · iexact Hsd
    isplitl [Hrv]; · iexact Hrv
    isplitl [Hsm]; · iexact Hsm
    isplitl [Hoc]; · iexact Hoc
    iexact Hoy
  · iexact Hrest

set_option maxRecDepth 4000 in
/-- Exit: what the body leaves and the other half of the block give the invariant after the point, owing nothing. -/
theorem exit_ (c : Dev nD) :
    iprop(bodyPost m c ∗ restBlk m c) ⊢ iprop(Φ₁ m c ∗ (dats (F := F) m 0 c).owesAt () t0_0.succ) := by
  iintro ⟨Hpost, Hrest⟩
  ihave Hp := (undeal m c) $$ Hpost
  icases Hp with ⟨⟨%W, HO⟩, Hx, Hst, Hsd, Hrv, Hsm, Hout, Hz⟩
  ihave Hb := (Entails.of_eq (blk_eq m c).symm) $$ [Hx Hrest]
  · isplitl [Hx]; · iexact Hx
    iexact Hrest
  ihave H0 := (show (bigSep Finset.univ fun k : Fin 32 => owns (c : Thread nD τ) (stK k) fullShare (xchunk m c k))
      ⊢ (iprop(∃ f : Buf (Elt F) ((c : Thread nD τ).loc cc0_scratch0), ((c : Thread nD τ).loc cc0_scratch0) ↦{fullShare} f) : sProp 𝕄)
      from owns_joinK (F := F) c stM (View.set_whole _) (fun k => xchunk m c k)) $$ Hst
  ihave H1 := (show (bigSep Finset.univ fun k : Fin 32 => owns (c : Thread nD τ) (sdK k) fullShare (schunk m c k))
      ⊢ (iprop(∃ f : Buf (Elt F) ((c : Thread nD τ).loc cc0_scratch1), ((c : Thread nD τ).loc cc0_scratch1) ↦{fullShare} f) : sProp 𝕄)
      from owns_joinK (F := F) c sdM (View.set_whole _) (fun k => schunk m c k)) $$ Hsd
  ihave H2 := (show (bigSep Finset.univ fun k : Fin 32 => owns (c : Thread nD τ) (rvK k) fullShare (rchunk m c k))
      ⊢ (iprop(∃ f : Buf (Elt F) ((c : Thread nD τ).loc cc0_scratch2), ((c : Thread nD τ).loc cc0_scratch2) ↦{fullShare} f) : sProp 𝕄)
      from owns_joinK (F := F) c rvM (View.set_whole _) (fun k => rchunk m c k)) $$ Hrv
  ihave H3 := (show (bigSep Finset.univ fun k : Fin 32 => owns (c : Thread nD τ) (smK k) fullShare (tchunk m c k))
      ⊢ (iprop(∃ f : Buf (Elt F) ((c : Thread nD τ).loc cc0_scratch3), ((c : Thread nD τ).loc cc0_scratch3) ↦{fullShare} f) : sProp 𝕄)
      from owns_joinK (F := F) c smM (View.set_whole _) (fun k => tchunk m c k)) $$ Hsm
  unfold Φ₁ scratch Dat.owesAt Pipeline.owesWithin
  rw [show (dats (F := F) m 0 c).owed t0_0.succ = 0 from rfl]
  isplitr [HO]
  · isplitl [Hb]; · iexact Hb
    isplitl [Hout]; · iexact Hout
    isplitl [Hz]; · iexact Hz
    isplitl [H0]; · iexact H0
    isplitl [H1]; · iexact H1
    isplitl [H2]; · iexact H2
    iexact H3
  · iexists W
    isplitr
    · ipureintro
      exact fun _ _ => Or.inl trivial
    iexact HO

set_option maxRecDepth 4000 in
/-- The library's body obligation on device `c`: from `Φ₀` and what the device owes at the one point, the printed body
    runs to `Φ₁` owing nothing. -/
theorem body_obligation (c : Dev nD) : BodyObligation (dats (F := F) m 0 c) (defs₀ (F := F)) 𝒱₀ () Set.univ := fun t => by
  rw [fin_N0 t]
  rw [bigSep_noWin, bigSep_noWin, sep_emp_eq, sep_emp_eq]
  have hb : (defs₀ (F := F)) .tc cfg0.body (cfg0.bodyArgs t0_0 (cfg0.slots t0_0)) = body (F := F) theArgs :=
    body_eq _ _ _ _ _ _ _ _ _ _ _ _ _ _ _ _ _ _
  rw [hb]
  refine (entry_ m c).trans ?_
  iintro ⟨%K, Hpre, Hrest⟩
  iapply (wp_mono _ _ _ (fun _ => exit_ m c))
  iapply (wp_frame_r _ _ _)
  isplitl [Hpre]
  · iapply (body_spec m K c)
    iexact Hpre
  · iexact Hrest

/-- info: 'Cert.Kernel.Hand.body_obligation' depends on axioms: [propext, Classical.choice, Quot.sound] -/
#guard_msgs in #print axioms body_obligation

end Cert.Kernel.Hand

end
-- ==== Proof.KLaunch.lean ====
/-
  The launch: every device's body obligation becomes a run of the program on the whole mesh.
-/
import proofs.«900132_g7700000000000133_dist_ar_v7x_xy2x2_x_m4096_n1024_bf16_1_alg».proof.Proof.KEntry

set_option synthInstance.maxSize 4096

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens, as the launch mints them -/

theorem csem_injective : Function.Injective (csem : CellIx → SemLoc sig) := by
  rintro (_ | ⟨f, k⟩) (_ | ⟨f', k'⟩) h
  · rfl
  · have h2 : (SemLoc.reg barSem : SemLoc sig) = dsem f' k' := h
    cases h2
  · have h2 : dsem f k = (SemLoc.reg barSem : SemLoc sig) := h
    cases h2
  · obtain ⟨rfl, rfl⟩ := dsem_injective f f' k k' h; rfl

theorem kcell_injective : Function.Injective (kcell : Dev nD × CellIx → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

/-- Every device's 193 cells. -/
def allCells : Finset (GSem nD τ sig) := Finset.univ.map ⟨kcell, kcell_injective⟩

/-- A device's cells' duties: the barrier cell's two, and each DMA cell's one. -/
abbrev TokIx : Type := Bool ⊕ (Fam × Fin 32)
abbrev tokOf (cj : Dev nD × TokIx) : GSem nD τ sig × ℕ × Bool := match cj.2 with
  | .inl b => (barCell cj.1, 0, b)
  | .inr fk => (dcell cj.1 fk.1 fk.2, 0, false)

theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    rcases j with b | fk <;> rcases j' with b' | fk' <;> exact this
  subst h1
  rcases j with b | ⟨f, k⟩ <;> rcases j' with b' | ⟨f', k'⟩
  · have h2 : b = b' := congrArg (fun x : GSem nD τ sig × ℕ × Bool => x.2.2) h
    subst h2; rfl
  · have h2 : (SemLoc.reg barSem : SemLoc sig) = dsem f' k' := congrArg (fun x : GSem nD τ sig × ℕ × Bool => x.1.2) h
    cases h2
  · have h2 : dsem f k = (SemLoc.reg barSem : SemLoc sig) := congrArg (fun x : GSem nD τ sig × ℕ × Bool => x.1.2) h
    cases h2
  · obtain ⟨rfl, rfl⟩ := dsem_injective f f' k k' (congrArg (fun x : GSem nD τ sig × ℕ × Bool => x.1.2) h); rfl

def allToks : Finset (GSem nD τ sig × ℕ × Bool) := Finset.univ.map ⟨tokOf, tokOf_injective⟩

/-- The launch element: the pipeline library's copy (no staging cell here) and the protocol's. -/
def u₀ : UU :=
  (initOf (Pipeline.cells cfgs cellOf_inj) (Pipeline.launchToks cfgs cellOf_inj), initOf allCells allToks)

/-! ## Sums over the index types -/

theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]; rfl

theorem bigSep_fam6 (Φ : Fam → sProp 𝕄) : bigSep Finset.univ Φ = iprop(Φ .l ∗ Φ .o ∗ Φ .xs ∗ Φ .xr ∗ Φ .ys ∗ Φ .yr) :=
  bigSep_univ_eq_bigSepL [Fam.l, Fam.o, Fam.xs, Fam.xr, Fam.ys, Fam.yr] (by decide) (by decide) Φ

theorem bigSep_bool (Φ : Bool → sProp 𝕄) : bigSep Finset.univ Φ = iprop(Φ false ∗ Φ true) :=
  bigSep_univ_eq_bigSepL [false, true] (by decide) (by decide) Φ

/-- Over the DMA cells, chunk by chunk and family by family. -/
theorem bigSep_famChunk (Φ : Fam × Fin 32 → sProp 𝕄) :
    bigSep Finset.univ Φ = bigSep Finset.univ fun k : Fin 32 =>
      iprop(Φ (.l, k) ∗ Φ (.o, k) ∗ Φ (.xs, k) ∗ Φ (.xr, k) ∗ Φ (.ys, k) ∗ Φ (.yr, k)) := by
  rw [bigSep_univ_prod, bigSep_univ_comm]
  exact bigSep_congr fun k _ => bigSep_fam6 fun f => Φ (f, k)

/-- Over a device's cells: the barrier cell, then the DMA cells chunk by chunk. -/
theorem bigSep_cellIx (Φ : CellIx → sProp 𝕄) :
    bigSep Finset.univ Φ = iprop(Φ none ∗ bigSep Finset.univ fun k : Fin 32 =>
      iprop(Φ (some (.l, k)) ∗ Φ (some (.o, k)) ∗ Φ (some (.xs, k)) ∗ Φ (some (.xr, k)) ∗ Φ (some (.ys, k)) ∗ Φ (some (.yr, k)))) := by
  rw [bigSep_univ_option, bigSep_famChunk]

/-- One summand out of a sum over a whole index type. -/
theorem bigSep_univ_elim {I : Type} [Fintype I] [DecidableEq I] (Φ : I → sProp 𝕄) (i : I) : bigSep Finset.univ Φ ⊢ Φ i :=
  bigSep_elim (Finset.mem_univ i)

/-! ## What the launch element deals a device, and what the global step makes of it -/

/-- The tokens of the duties of device c's own cells. -/
def toks (c : Dev nD) : sProp 𝕄 :=
  bigSep Finset.univ fun j : TokIx => dutyTok ER (tokOf (c, j)).1 (tokOf (c, j)).2.1 (tokOf (c, j)).2.2

def G (c : Dev nD) : sProp 𝕄 :=
  iprop((bigSep Finset.univ fun i : CellIx => roundState ER (sched m) (kcell (c, i)) 0)
    ∗ (bigSep Finset.univ fun i : CellIx => iprop(atPos ER (kcell (c, i)) 0 ∅ 0 ∗ reached ER (kcell (c, i)) 0)) ∗ toks (F := F) c)

def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun i : CellIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores, as the launch theorem indexes them: the 192 DMA semaphores by family and chunk. -/
abbrev osem : Fam × Fin 32 → SemLoc sig := fun fk => dsem fk.1 fk.2

theorem ownSemFacts : Pipeline.OwnSemFacts cfg0.spec osem :=
  ⟨by decide +kernel, fun a b h => by obtain ⟨h1, h2⟩ := dsem_injective _ _ _ _ h; exact Prod.ext h1 h2, fun _ w => w.elim0⟩

theorem ownSems0_eq (c : Dev nD) :
    (Pipeline.ownSems0 (Ix := Unit) (Name := ℕ) (U := UU) (Lvl := ℕ) (Val := Elt F) (τ := τ) osem c : sProp 𝕄) = zeros (F := F) c := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CellIx => iprop(∃ κ : ℕ, cellInv ER (sched m) κ (kcell (c, i))))
          ∗ (bigSep Finset.univ fun i : CellIx => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell (c, i)) 0) ∗ bigSep Finset.univ fun i : CellIx => roundState ER (sched m) (kcell (c, i)) 0)
      ⊢ (|={Set.univ}=> bigSep Finset.univ fun i : CellIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the devices that pay them -/

/-- The tokens device c pays with: its first-axis neighbour's barrier duty false, its second-axis neighbour's barrier duty
    true, and per chunk its own load, copy and two departures, the first-axis neighbour's arrival and the second-axis
    neighbour's arrival. -/
def payToks (c : Dev nD) : sProp 𝕄 :=
  iprop(dutyTok ER (barCell (xpeer c)) 0 false ∗ dutyTok ER (barCell (ypeer c)) 0 true
    ∗ bigSep Finset.univ fun k : Fin 32 =>
      iprop(dutyTok ER (dcell c .l k) 0 false ∗ dutyTok ER (dcell c .o k) 0 false ∗ dutyTok ER (dcell c .xs k) 0 false ∗ dutyTok ER (dcell c .ys k) 0 false
        ∗ dutyTok ER (dcell (xpeer c) .xr k) 0 false ∗ dutyTok ER (dcell (ypeer c) .yr k) 0 false))

/-- What stays with device c: its positions and the tokens it pays with. -/
def linear (c : Dev nD) : sProp 𝕄 :=
  iprop((atPos ER (barCell c) 0 ∅ 0 ∗ bigSep Finset.univ fun k : Fin 32 => posAll (F := F) c k (fun _ => 0)) ∗ payToks (F := F) c)

theorem toks_eq (c : Dev nD) : toks (F := F) c = iprop((dutyTok ER (barCell c) 0 false ∗ dutyTok ER (barCell c) 0 true)
    ∗ bigSep Finset.univ fun k : Fin 32 => iprop(dutyTok ER (dcell c .l k) 0 false ∗ dutyTok ER (dcell c .o k) 0 false ∗ dutyTok ER (dcell c .xs k) 0 false
        ∗ dutyTok ER (dcell c .xr k) 0 false ∗ dutyTok ER (dcell c .ys k) 0 false ∗ dutyTok ER (dcell c .yr k) 0 false)) := by
  unfold toks; rw [bigSep_univ_sum, bigSep_bool, bigSep_famChunk]; rfl

/-- A barrier cell's duty false goes to the first-axis neighbour and its duty true to the second-axis one; an arrival
    cell's duty goes to the neighbour on its axis; the other duties stay. Both neighbour maps are involutions. -/
theorem toks_around : (bigSep Finset.univ fun c : Dev nD => (toks (F := F) c : sProp 𝕄)) ⊢ bigSep Finset.univ fun c : Dev nD => payToks (F := F) c := by
  rw [bigSep_congr (s := Finset.univ) fun (c : Dev nD) _ => toks_eq (F := F) c]
  unfold payToks
  simp only [bigSep_sep']
  iintro ⟨⟨HBF, HBT⟩, Hl, Ho, Hxs, Hxr, Hys, Hyr⟩
  ihave HBF' := (Entails.of_eq (bigSep_univ_equiv xring (fun c : Dev nD => (dutyTok ER (barCell c) 0 false : sProp 𝕄)))) $$ HBF
  ihave HBT' := (Entails.of_eq (bigSep_univ_equiv yring (fun c : Dev nD => (dutyTok ER (barCell c) 0 true : sProp 𝕄)))) $$ HBT
  ihave Hxr' := (Entails.of_eq (bigSep_univ_equiv xring (fun c : Dev nD => (bigSep Finset.univ fun k : Fin 32 => dutyTok ER (dcell c .xr k) 0 false : sProp 𝕄)))) $$ Hxr
  ihave Hyr' := (Entails.of_eq (bigSep_univ_equiv yring (fun c : Dev nD => (bigSep Finset.univ fun k : Fin 32 => dutyTok ER (dcell c .yr k) 0 false : sProp 𝕄)))) $$ Hyr
  isplitl [HBF']; · iexact HBF'
  isplitl [HBT']; · iexact HBT'
  isplitl [Hl]; · iexact Hl
  isplitl [Ho]; · iexact Ho
  isplitl [Hxs]; · iexact Hxs
  isplitl [Hys]; · iexact Hys
  isplitl [Hxr']; · iexact Hxr'
  iexact Hyr'

theorem ghost_intro (K : Dev nD × CellIx → ℕ) (c : Dev nD) : iprop(records m K ∗ linear (F := F) c) ⊢ G' m c := by
  unfold linear payToks G' ghost
  iintro ⟨#HR, ⟨HaB, Hpos⟩, HtBF, HtBT, Htk⟩
  iexists K
  isplitr; · iexact HR
  isplitl [HaB]; · iexact HaB
  isplitl [HtBF]; · iexact HtBF
  isplitl [HtBT]; · iexact HtBT
  unfold chunkGhost
  iapply (Entails.of_eq (bigSep_sep' Finset.univ (fun k : Fin 32 => posAll (F := F) c k (fun _ => 0))
    (fun k : Fin 32 => iprop(dutyTok ER (dcell c .l k) 0 false ∗ dutyTok ER (dcell c .o k) 0 false ∗ dutyTok ER (dcell c .xs k) 0 false ∗ dutyTok ER (dcell c .ys k) 0 false
        ∗ dutyTok ER (dcell (xpeer c) .xr k) 0 false ∗ dutyTok ER (dcell (ypeer c) .yr k) 0 false))).symm)
  isplitl [Hpos]; · iexact Hpos
  iexact Htk

theorem regroup :
    (bigSep Finset.univ fun c : Dev nD => iprop((bigSep Finset.univ fun i : CellIx => iprop(∃ κ : ℕ, cellInv ER (sched m) κ (kcell (c, i))))
          ∗ (bigSep Finset.univ fun i : CellIx => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun ck : Dev nD × CellIx => iprop(∃ κ : ℕ, cellInv ER (sched m) κ (kcell ck))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CellIx => (atPos ER (kcell (c, i)) 0 ∅ 0 : sProp 𝕄)) (payToks (F := F))).symm).trans
      (bigSep_mono fun c _ => show _ ⊢ linear (F := F) c from Entails.of_eq (by unfold linear posAll; rw [bigSep_cellIx])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What each device owes at launch: all 66 payments. -/
abbrev O₀ (c : Dev nD) : CellTallies nD τ sig Unit := Oat c 0

/-- What payment i of device d brings cell g. -/
def paid (d : Dev nD) (g : GSem nD τ sig) (i : ℕ) : ℕ := if g = (owedAt d i).1 then (owedAt d i).2 else 0

/-- The last n payments, cell by cell. -/
theorem Orem_apply (d : Dev nD) (g : GSem nD τ sig) : ∀ n, n ≤ 66 → Orem d n g () = ∑ i ∈ Finset.range n, paid d g (66 - n + i)
  | 0, _ => by
    show (0 : ℕ) = ∑ i ∈ Finset.range 0, paid d g (66 - 0 + i)
    rw [Finset.range_zero, Finset.sum_empty]
  | n + 1, h => by
    have e1 : ∀ i, 66 - (n + 1) + (i + 1) = 66 - n + i := fun i => by omega
    have e2 : 66 - (n + 1) + 0 = 65 - n := by omega
    have e3 : ∑ i ∈ Finset.range n, paid d g (66 - (n + 1) + (i + 1)) = ∑ i ∈ Finset.range n, paid d g (66 - n + i) :=
      Finset.sum_congr rfl fun i _ => by rw [e1 i]
    rw [Finset.sum_range_succ', e2, e3, ← Orem_apply d g n (by omega)]
    show (Orem d n + tallyAt (owedAt d (65 - n)).1 () (owedAt d (65 - n)).2) g () = _
    rw [Pi.add_apply, Finsupp.add_apply, tallyAt_apply]
    congr 1
    unfold paid
    by_cases hg : g = (owedAt d (65 - n)).1
    · rw [if_pos ⟨hg, rfl⟩, if_pos hg]
    · rw [if_neg (fun h' => hg h'.1), if_neg hg]

theorem sum_range66 (w : ℕ → ℕ) :
    ∑ i ∈ Finset.range 66, w i = w 0 + w 1 + (∑ k : Fin 32, w (2 + k.val)) + ∑ k : Fin 32, w (34 + k.val) := by
  rw [show (66 : ℕ) = 2 + 32 + 32 from rfl, Finset.sum_range_add, Finset.sum_range_add, Finset.sum_range_succ, Finset.sum_range_one,
    Finset.sum_range (fun x => w (2 + x)), Finset.sum_range (fun x => w (2 + 32 + x))]

/-- All 66 payments, cell by cell: the two barrier units, the 32 first-axis arrivals, the 32 second-axis arrivals. -/
theorem O₀_apply (d : Dev nD) (g : GSem nD τ sig) :
    O₀ d g () = paid d g 0 + paid d g 1 + (∑ k : Fin 32, paid d g (2 + k.val)) + ∑ k : Fin 32, paid d g (34 + k.val) := by
  rw [← sum_range66 (paid d g)]
  refine (Orem_apply d g 66 le_rfl).trans (Finset.sum_congr rfl fun i _ => ?_)
  rw [Nat.sub_self, Nat.zero_add]

theorem owedAt_zero (d : Dev nD) : owedAt d 0 = (barCell (xpeer d), 1) := by unfold owedAt; rw [if_pos rfl]
theorem owedAt_one (d : Dev nD) : owedAt d 1 = (barCell (ypeer d), 1) := by unfold owedAt; rw [if_neg (show ¬ (1 : ℕ) = 0 by decide), if_pos rfl]

theorem paid_zero (d : Dev nD) (g : GSem nD τ sig) : paid d g 0 = if g = barCell (xpeer d) then 1 else 0 := by unfold paid; rw [owedAt_zero]
theorem paid_one (d : Dev nD) (g : GSem nD τ sig) : paid d g 1 = if g = barCell (ypeer d) then 1 else 0 := by unfold paid; rw [owedAt_one]
theorem paid_x (d : Dev nD) (g : GSem nD τ sig) (k : Fin 32) : paid d g (2 + k.val) = if g = dcell (xpeer d) .xr k then N16 else 0 := by
  unfold paid; rw [owedAt_x]
theorem paid_y (d : Dev nD) (g : GSem nD τ sig) (k : Fin 32) : paid d g (34 + k.val) = if g = dcell (ypeer d) .yr k then N16 else 0 := by
  unfold paid; rw [owedAt_y]

theorem bar_ne_dcell (c c' : Dev nD) (f : Fam) (k : Fin 32) : barCell c ≠ dcell c' f k := fun h => by
  have h2 : (SemLoc.reg barSem : SemLoc sig) = dsem f k := congrArg Prod.snd h
  cases h2
theorem barCell_inj {a b : Dev nD} (h : barCell a = barCell b) : a = b := by
  have := congrArg (fun g : GSem nD τ sig => g.1.1) h; exact this
theorem dcell_inj {a b : Dev nD} {f f' : Fam} {k k' : Fin 32} (h : dcell a f k = dcell b f' k') : a = b ∧ f = f' ∧ k = k' :=
  ⟨by have := congrArg (fun g : GSem nD τ sig => g.1.1) h; exact this, dsem_injective f f' k k' (congrArg Prod.snd h)⟩

/-- A device's barrier cell is owed one unit by each of its two neighbours. -/
theorem owed_bar (d c : Dev nD) : O₀ d (barCell c) () = (if d = xpeer c then 1 else 0) + (if d = ypeer c then 1 else 0) := by
  have hx : ∑ k : Fin 32, paid d (barCell c) (2 + k.val) = 0 :=
    Finset.sum_eq_zero fun k _ => by rw [paid_x]; exact if_neg (bar_ne_dcell _ _ _ _)
  have hy : ∑ k : Fin 32, paid d (barCell c) (34 + k.val) = 0 :=
    Finset.sum_eq_zero fun k _ => by rw [paid_y]; exact if_neg (bar_ne_dcell _ _ _ _)
  have e1 : (if barCell c = barCell (xpeer d) then (1 : ℕ) else 0) = if d = xpeer c then 1 else 0 := by
    by_cases h : d = xpeer c
    · subst h; rw [xpeer_xpeer, if_pos rfl, if_pos rfl]
    · rw [if_neg h, if_neg (fun h1 => h (by rw [barCell_inj h1, xpeer_xpeer]))]
  have e2 : (if barCell c = barCell (ypeer d) then (1 : ℕ) else 0) = if d = ypeer c then 1 else 0 := by
    by_cases h : d = ypeer c
    · subst h; rw [ypeer_ypeer, if_pos rfl, if_pos rfl]
    · rw [if_neg h, if_neg (fun h1 => h (by rw [barCell_inj h1, ypeer_ypeer]))]
  rw [O₀_apply, hx, hy, paid_zero, paid_one, e1, e2]
  simp only [Nat.add_zero]

/-- A first-axis arrival cell is owed its chunk's credit by the first-axis neighbour alone. -/
theorem owed_xr (d c : Dev nD) (k : Fin 32) : O₀ d (dcell c .xr k) () = if d = xpeer c then N16 else 0 := by
  have hy : ∑ k' : Fin 32, paid d (dcell c .xr k) (34 + k'.val) = 0 :=
    Finset.sum_eq_zero fun k' _ => by rw [paid_y]; exact if_neg (fun e => by cases (dcell_inj e).2.1)
  have hx : ∑ k' : Fin 32, paid d (dcell c .xr k) (2 + k'.val) = if d = xpeer c then N16 else 0 := by
    by_cases h : d = xpeer c
    · subst h
      rw [if_pos rfl]
      refine (Finset.sum_eq_single k (fun k' _ hk => ?_) (fun h' => absurd (Finset.mem_univ _) h')).trans ?_
      · rw [paid_x]; exact if_neg (fun e => hk (dcell_inj e).2.2.symm)
      · rw [paid_x, xpeer_xpeer, if_pos rfl]
    · rw [if_neg h]
      exact Finset.sum_eq_zero fun k' _ => by rw [paid_x]; exact if_neg (fun e => h (by rw [(dcell_inj e).1, xpeer_xpeer]))
  rw [O₀_apply, hx, hy, paid_zero, paid_one, if_neg (bar_ne_dcell _ _ _ _).symm, if_neg (bar_ne_dcell _ _ _ _).symm]
  simp only [Nat.add_zero, Nat.zero_add]

/-- A second-axis arrival cell is owed its chunk's credit by the second-axis neighbour alone. -/
theorem owed_yr (d c : Dev nD) (k : Fin 32) : O₀ d (dcell c .yr k) () = if d = ypeer c then N16 else 0 := by
  have hx : ∑ k' : Fin 32, paid d (dcell c .yr k) (2 + k'.val) = 0 :=
    Finset.sum_eq_zero fun k' _ => by rw [paid_x]; exact if_neg (fun e => by cases (dcell_inj e).2.1)
  have hy : ∑ k' : Fin 32, paid d (dcell c .yr k) (34 + k'.val) = if d = ypeer c then N16 else 0 := by
    by_cases h : d = ypeer c
    · subst h
      rw [if_pos rfl]
      refine (Finset.sum_eq_single k (fun k' _ hk => ?_) (fun h' => absurd (Finset.mem_univ _) h')).trans ?_
      · rw [paid_y]; exact if_neg (fun e => hk (dcell_inj e).2.2.symm)
      · rw [paid_y, ypeer_ypeer, if_pos rfl]
    · rw [if_neg h]
      exact Finset.sum_eq_zero fun k' _ => by rw [paid_y]; exact if_neg (fun e => h (by rw [(dcell_inj e).1, ypeer_ypeer]))
  rw [O₀_apply, hx, hy, paid_zero, paid_one, if_neg (bar_ne_dcell _ _ _ _).symm, if_neg (bar_ne_dcell _ _ _ _).symm]
  simp only [Nat.add_zero, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xpeer c) fun _ => 1, Finset.sum_ite_eq' Finset.univ (ypeer c) fun _ => 1, if_pos (Finset.mem_univ _), if_pos (Finset.mem_univ _)]

theorem launch_xr (c : Dev nD) (k : Fin 32) :
    tallyOn (dcell c .xr k) (launchCredit (Pipeline.owing O₀) 0 (dcell c .xr k)) = (tallyAt (dcell c .xr k) () N16 : CellTallies nD τ sig Unit) := by
  unfold tallyAt; refine congrArg _ (Finsupp.ext fun u => ?_); cases u
  rw [Pipeline.launchCredit_owing, Finsupp.single_eq_same, Finset.sum_congr rfl fun d _ => owed_xr d c k,
    Finset.sum_ite_eq' Finset.univ (xpeer c) fun _ => N16, if_pos (Finset.mem_univ _)]

theorem launch_yr (c : Dev nD) (k : Fin 32) :
    tallyOn (dcell c .yr k) (launchCredit (Pipeline.owing O₀) 0 (dcell c .yr k)) = (tallyAt (dcell c .yr k) () N16 : CellTallies nD τ sig Unit) := by
  unfold tallyAt; refine congrArg _ (Finsupp.ext fun u => ?_); cases u
  rw [Pipeline.launchCredit_owing, Finsupp.single_eq_same, Finset.sum_congr rfl fun d _ => owed_yr d c k,
    Finset.sum_ite_eq' Finset.univ (ypeer c) fun _ => N16, if_pos (Finset.mem_univ _)]

/-- The launch's credit tokens hold what the body's start asks: two barrier units and, per chunk, both arrivals' credit. -/
theorem creds_intro (c : Dev nD) : (Pipeline.launchCred O₀ c : sProp 𝕄) ⊢ creds (F := F) c := by
  unfold Pipeline.launchCred creds
  refine (bigSep_subset (t := Finset.univ.map ⟨(csem : CellIx → SemLoc sig), csem_injective⟩) (Finset.subset_univ _)).trans ?_
  rw [bigSep_map, bigSep_cellIx]
  refine BIClass.sep_mono (Entails.of_eq (congrArg cred (launch_bar c))) (bigSep_mono fun k _ => ?_)
  show (_ : sProp 𝕄) ⊢ _
  iintro ⟨-, -, -, Hxr, -, Hyr⟩
  isplitl [Hxr]
  · iapply (Entails.of_eq (congrArg cred (launch_xr c k))); iexact Hxr
  · iapply (Entails.of_eq (congrArg cred (launch_yr c k))); iexact Hyr

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device keeps of the last point: its block and its result's 64 chunks. -/
def Y (c : Dev nD) : sProp 𝕄 := iprop((((c : Thread nD τ).loc main_arg0) ↦{fullShare} blk m c) ∗ outDone m c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨Hx, Hout, Hz, Hr⟩
  isplitl [Hx Hout]
  · isplitl [Hx] <;> iassumption
  isplitl [Hz]; · iexact Hz
  iexact Hr

/-- No window: no staging cell to wait on. -/
theorem waits (c : Dev nD) : (levAts L lv : sProp 𝕄) ⊢ Pipeline.cellsWaits cfgs (dats m) () 0 c :=
  Pipeline.cellsWaits_intro cfgs (dats m) () 0 c fun w _ _ => w.elim0

/-! ## Reading the final memory -/

/-- A chunk held at contents X reads X in the memory. -/
theorem read_of_owns (c : Dev nD) {sp : Space} {sh : Shape} {e : EltTy} (M : Memref sig .tc sp sh e) (q : PosShare TreeShare) (X : sh.Idx → Elt F e)
    (s' : Phys nD τ sig (Elt F)) :
    iprop(owns (c : Thread nD τ) M q X ∗ SI s') ⊢ (⌜M.view.read (Elt F) (s'.mem.mem (M.view.loc (c : Thread nD τ))) = X⌝ : sProp 𝕄) := by
  unfold owns
  iintro ⟨⟨%f, %hf, Hp⟩, HSI⟩
  icombine HSI Hp gives %h
  ipureintro
  rw [← hf]; exact View.read_congr h

/-- What the launch theorem's post says of device c's final memory. -/
def QY (c : Dev nD) (s : MemSt nD τ sig (Elt F)) : Prop :=
  s.mem ((c : Thread nD τ).loc main_arg0) = m ((c : Thread nD τ).loc main_arg0)
    ∧ (∀ k : Fin 32, (oK c k).view.read (Elt F) (s.mem ((c : Thread nD τ).loc main_v1)) = tchunk m c k)
    ∧ (∀ k : Fin 32, (oK (ypeer c) k).view.read (Elt F) (s.mem ((c : Thread nD τ).loc main_v1)) = tchunk m (ypeer c) k)

theorem final_pure (c : Dev nD) (s' : Phys nD τ sig (Elt F)) : iprop(Y m c ∗ emp ∗ SI s') ⊢ (⌜QY m c s'.mem⌝ : sProp 𝕄) := by
  have hA : iprop(Y m c ∗ emp ∗ SI s') ⊢ (⌜s'.mem.mem ((c : Thread nD τ).loc main_arg0) = m ((c : Thread nD τ).loc main_arg0)⌝ : sProp 𝕄) := by
    unfold Y
    iintro ⟨⟨Hx, -⟩, -, HSI⟩
    icombine HSI Hx gives %hx
    ipureintro
    exact Buf.eq_of_forall_mem_univ hx
  have hB (k : Fin 32) : iprop(Y m c ∗ emp ∗ SI s')
      ⊢ (⌜(oK c k).view.read (Elt F) (s'.mem.mem ((c : Thread nD τ).loc main_v1)) = tchunk m c k⌝ : sProp 𝕄) := by
    unfold Y outDone
    iintro ⟨⟨-, Hout⟩, -, HSI⟩
    ihave Hk := (bigSep_univ_elim _ k) $$ Hout
    icases Hk with ⟨H1, -⟩
    iapply (read_of_owns c (oK c k) fullShare (tchunk m c k) s')
    isplitl [H1] <;> iassumption
  have hC (k : Fin 32) : iprop(Y m c ∗ emp ∗ SI s')
      ⊢ (⌜(oK (ypeer c) k).view.read (Elt F) (s'.mem.mem ((c : Thread nD τ).loc main_v1)) = tchunk m (ypeer c) k⌝ : sProp 𝕄) := by
    unfold Y outDone
    iintro ⟨⟨-, Hout⟩, -, HSI⟩
    ihave Hk := (bigSep_univ_elim _ k) $$ Hout
    icases Hk with ⟨-, H2⟩
    iapply (read_of_owns c (oK (ypeer c) k) fullShare (tchunk m (ypeer c) k) s')
    isplitl [H2] <;> iassumption
  unfold QY
  exact fun a h => ⟨hA a h, fun k => hB k a h, fun k => hC k a h⟩

/-- The launch theorem's last side condition: the final memory's facts, the state interpretation kept. -/
theorem final_keep (c : Dev nD) (s' : Phys nD τ sig (Elt F)) :
    iprop(Y m c ∗ emp ∗ SI s') ⊢ (|={Set.univ}=> iprop(⌜QY m c s'.mem⌝ ∗ SI s') : sProp 𝕄) := by
  have hrest (hq : QY m c s'.mem) : iprop(Y m c ∗ emp ∗ SI s') ⊢ (|={Set.univ}=> iprop(⌜QY m c s'.mem⌝ ∗ SI s') : sProp 𝕄) := by
    iintro ⟨-, -, HSI⟩
    imodintro
    isplitr; · ipureintro; exact hq
    iexact HSI
  exact fun a h => hrest (final_pure m c s' a h) a h

/-! ## The run -/

set_option maxRecDepth 16000 in
/-- From any memory with every semaphore at zero, every weakly fair execution of @main on the four devices terminates
    without a fault; in every final state each device's block is unchanged, and each of the 64 chunks of its result —
    its own half's and its second-axis neighbour's half's — reads the sum chunk of the device that formed it. -/
theorem run_main : θ_run (defs (F := F)) (onTc (τ := τ) (main (F := F))) ⟨m, fun _ => 0, ρ⟩ (fun r => ∀ c : Dev nD,
    r.2.mem ((c.tc : Thread nD τ).loc main_arg0) = m ((c.tc : Thread nD τ).loc main_arg0)
    ∧ ∀ d : Dev nD, (d = c ∨ d = ypeer c) → ∀ k : Fin 32,
        (oK d k).view.read (Elt F) (r.2.mem ((c.tc : Thread nD τ).loc main_v1)) = tchunk m d k) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?_)
    (hbody := ?_) (hne := ?_) (harr := ?_) (hstage := ?_) (hshare := ?_)
    (hdistinct := ?_)
    (O₀ := O₀) (howed₀ := ?_) (howedN := ?_)
    (L := L) (lv := lv) (hL := ?_) (hwaits := ?_)
    (G := G m) (G' := G' m) (u₀ := u₀)
    (hu₀ := ?_)
    (hglob := ?_)
    (hA := ?_) (hpf := ?_)
    (X := start m) (Y := Y m) (Z := fun _ => iprop(emp))
    (hX := ?_) (hin := ?_) (hout := ?_)
    (QY := QY m)
    (hY := ?_)
    (hQ := ?_)
  · exact fun _ => rfl
  · exact fun c => (body_obligation m c).loose
  · exact fun w => w.elim0
  · exact arr_whole0
  · exact stage_whole0
  · exact fun _ w => w.elim0
  · exact winFacts0.arr_inj
  · exact fun _ => rfl
  · exact fun _ => rfl
  · exact L_of_ne
  · exact waits m
  · unfold u₀
    iintro Hu
    ihave H := (ownU_pair _ _) $$ Hu
    icases H with ⟨HP, HX⟩
    imod (fund_cells m) $$ HX with HG
    imodintro
    isplitl [HP] <;> iassumption
  · exact glob m
  · exact fun _ w => w.elim0
  · exact fun _ k => k.elim0
  · exact start_intro m ρ
  · exact phi0_intro m
  · exact phi1_exit m
  · exact final_keep m
  · intro s h c
    obtain ⟨hA, hB, hC⟩ : QY m c s := (h c).2.2
    refine ⟨hA, fun d hd k => ?_⟩
    obtain hd | hd := hd
    · rw [hd]; exact hB k
    · rw [hd]; exact hC k

end Cert.Kernel.Hand

end
-- ==== Proof.RefValue.lean ====
/-
  The reference's side of the claim, and the join of the mesh's results to it.

  The reference reshapes the 8192 × 1024 array to 2 × 4096 × 1024 and sums over the first axis: its result at (i, j) is
  X[i, j] + X[4096 + i, j].  Device `d`'s block of the array is its rows 4096·(d / 2) … 4096·(d / 2) + 4095; the devices
  `d` and `xpeer d` hold the two blocks, they work on the same half (rows 2048·(d mod 2) …) of their blocks, and chunk
  `k` of the summed half is the sum of the two devices' chunks at the same rows.  The 64 chunks of the devices `c` and
  `ypeer c` (the two halves) tile the 4096 rows of the result.
-/
import proofs.«900132_g7700000000000133_dist_ar_v7x_xy2x2_x_m4096_n1024_bf16_1_alg».proof.Proof.Sched
import proofs.«900132_g7700000000000133_dist_ar_v7x_xy2x2_x_m4096_n1024_bf16_1_alg».proof.Proof.Gen.ReferenceIdeal.Run
import proofs.«900132_g7700000000000133_dist_ar_v7x_xy2x2_x_m4096_n1024_bf16_1_alg».proof.Proof.Gen.ReferenceIdeal.Read
import proofs.«900132_g7700000000000133_dist_ar_v7x_xy2x2_x_m4096_n1024_bf16_1_alg».proof.Proof.Gen.Pre_finite_inputs_ReferenceIdeal
import proofs.«900132_g7700000000000133_dist_ar_v7x_xy2x2_x_m4096_n1024_bf16_1_alg».proof.Defs
import Idealize.ShloMosaic.Lib.Layout
import Idealize.ShloMosaic.Lib.Pipeline.Value
import Idealize.ShloMosaic.Lib.ValueIdx
import Idealize.ShloMosaic.PureOps.Ideal
import Idealize.ShloMosaic.PureOps.Ideal.Laws

set_option synthInstance.maxSize 4096

noncomputable section

namespace Cert.KernelIdeal.Hand

open Cert.KernelIdeal Cert.KernelIdeal.Gen

open Idealize.ShloMosaic
open Idealize.ShloMosaic.TcCoe
open Idealize.SL.Sem
open Idealize.ShloMosaic.ValueIdx

/-! ## The reference's result as one function of its argument -/

/-- The reference's argument array and its result, as contents. -/
abbrev RefArg : Type := (⟨Cert.ReferenceIdeal.S8192x1024, .f32⟩ : BufTy).Contents (Elt Ideal)
abbrev RefOut : Type := (⟨Cert.ReferenceIdeal.S4096x1024, .bf16⟩ : BufTy).Contents (Elt Ideal)

/-- The sum of two elements, as extended reals. -/
def eadd (a b : EReal) : EReal := a + b

theorem eadd_comm (a b : EReal) : eadd a b = eadd b a := add_comm a b

/-- Row `4096 q + i₀`, column `i₁` of the whole array: where element `i` of block `q` lies. -/
def wholeIdx (q : Fin 2) (i : (⟨2, ![4096, 1024]⟩ : Shape).Idx) : (⟨2, ![8192, 1024]⟩ : Shape).Idx :=
  ix2 ⟨4096 * q.val + (i 0).val, by have h := idx2_lt0 i; have hq := q.isLt; omega⟩ ⟨(i 1).val, idx2_lt1 i⟩

/-- The reference's result: at `(i₀, i₁)` the sum of the two blocks' elements there. -/
def refVal (X : RefArg) : RefOut :=
  fun (i : (⟨2, ![4096, 1024]⟩ : Shape).Idx) => eadd (X (wholeIdx 0 i)) (X (wholeIdx 1 i))

/-- The reshape's source index of `(k, i₀, i₁)` is row `4096 k + i₀`, column `i₁`. -/
theorem idx_wholeIdx (i : Cert.ReferenceIdeal.S4096x1024.Idx) (k : Fin 2) :
    Cert.ReferenceIdeal.Read.idx_main_v0 (Cert.ReferenceIdeal.Read.idx_main_v1 i k) = wholeIdx k i := by
  have h1 : (i 1).val < 1024 := idx2_lt1 i
  refine Shape.idx_ext₂ ?_ ?_
  · show ((k.val * 4096 + (i 0).val) * 1024 + (i 1).val) / 1024 = 4096 * k.val + (i 0).val
    omega
  · show ((k.val * 4096 + (i 0).val) * 1024 + (i 1).val) % 1024 = (i 1).val
    omega

/-- The reference's last stage is `refVal`. -/
theorem val_eq_refVal (X : RefArg) : Cert.ReferenceIdeal.Read.val_main_v2 (F := Ideal) X = refVal X := by
  funext i
  rw [Cert.ReferenceIdeal.Read.val_main_v2_apply, Cert.ReferenceIdeal.Read.val_main_v1_apply, Fin.sum_univ_two,
    Cert.ReferenceIdeal.Read.val_main_v0_apply, Cert.ReferenceIdeal.Read.val_main_v0_apply,
    Cert.ReferenceIdeal.Read.val_main_cst_apply, idx_wholeIdx, idx_wholeIdx]
  simp only [Ideal.truncf_def, Ideal.ofBits_def, Ideal.ofBits_zero_f32, zero_add]
  rfl

/-- The reference runs, and leaves its argument unchanged. -/
theorem frame_ref : Cert.frame_ReferenceIdeal := fun m ρ _ =>
  (θ_run Cert.ReferenceIdeal.defs _ _).mono (fun _ h c => (h c).2) (Cert.ReferenceIdeal.Value.run (F := Ideal) m ρ)

/-- The reference runs to `refVal` of its argument, which it leaves unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v2)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨((h 0).1.trans (Cert.ReferenceIdeal.Read.val_main_v2_eq _)).trans (val_eq_refVal _), (h 0).2⟩)
    (Cert.ReferenceIdeal.Value.run (F := Ideal) m' g')

/-! ## The mesh: which block and which half a device works on -/

/-- A device's block coordinates: its coordinate on the first mesh axis along the rows, none along the columns. -/
theorem meshBlock_val0 : ∀ d : Dev nD, ((Layout.meshBlock [2, 2] ![[0], []] d) 0).val = d.val / 2 := by decide +kernel
theorem meshBlock_val1 : ∀ d : Dev nD, ((Layout.meshBlock [2, 2] ![[0], []] d) 1).val = 0 := by decide +kernel

/-- The first-axis neighbour holds the other block and works on the same half; the second-axis neighbour on the other half. -/
theorem block_cases : ∀ d : Dev nD,
    (d.val / 2 = (0 : Fin 2).val ∧ (xpeer d).val / 2 = (1 : Fin 2).val)
      ∨ (d.val / 2 = (1 : Fin 2).val ∧ (xpeer d).val / 2 = (0 : Fin 2).val) := by decide +kernel
theorem xpeer_half : ∀ d : Dev nD, (xpeer d).val % 2 = d.val % 2 := by decide +kernel
theorem ypeer_half : ∀ d : Dev nD, (ypeer d).val % 2 = 1 - d.val % 2 := by decide +kernel

section Join

/-- Device `d`'s block at an index is the whole array at that index of block `d / 2`. -/
theorem blk_apply (m : (ℓ : Loc nD τ sig) → Buf (Elt Ideal) ℓ) (X : RefArg)
    (hagree : ∀ c : Dev nD, m ((c.tc : Thread nD τ).loc main_arg0)
      = Layout.blockN ⟨2, ![4096, 1024]⟩ ⟨2, ![8192, 1024]⟩ (Layout.meshBlock [2, 2] ![[0], []] c) X)
    (d : Dev nD) (q : Fin 2) (hq : d.val / 2 = q.val) (i : (⟨2, ![4096, 1024]⟩ : Shape).Idx) :
    m ((d.tc : Thread nD τ).loc main_arg0) i = X (wholeIdx q i) := by
  refine (congrFun (hagree d) i).trans ((Layout.blockN_apply _ _ _ _).trans ?_)
  refine congrArg X (Shape.idx_ext₂ ?_ ?_)
  · show ((Layout.meshBlock [2, 2] ![[0], []] d) 0).val * 4096 + (i 0).val = 4096 * q.val + (i 0).val
    rw [meshBlock_val0 d, hq]; omega
  · show ((Layout.meshBlock [2, 2] ![[0], []] d) 1).val * 1024 + (i 1).val = (i 1).val
    rw [meshBlock_val1 d]; omega

/-! ## Reading a chunk at an index -/

/-- Chunk `k` of the half device `d` works on, read off a block's contents at `x`: the contents at row
    `2048·(d mod 2) + 64 k + x₀`, column `x₁`. -/
theorem xK_read_apply (c : Dev nD) (f : Buf (Elt Ideal) ((c.tc : Thread nD τ).loc main_arg0)) (d : Dev nD) (k : Fin 32)
    (x : S64x1024.Idx) (i : S4096x1024.Idx)
    (h0 : (i 0).val = 2048 * (d.val % 2) + 64 * k.val + (x 0).val) (h1 : (i 1).val = (x 1).val) :
    (xK d k).view.read (Elt Ideal) f x = f i := by
  have e0 := congrFun (k0_off1_eq d k) 0
  have e1 := congrFun (k0_off1_eq d k) 1
  have e0' : k0_off1 d (BitVec.ofNat 32 (64 * k.val)) 0 = 2048 * (d.val % 2) + 64 * k.val := e0
  have e1' : k0_off1 d (BitVec.ofNat 32 (64 * k.val)) 1 = 0 := e1
  rw [View.read_apply]
  refine (cast_eq _ _).trans (congrArg f (Shape.idx_ext₂ ?_ ?_))
  · show k0_off1 d (BitVec.ofNat 32 (64 * k.val)) 0 + 1 * (x 0).val = (i 0).val
    omega
  · show k0_off1 d (BitVec.ofNat 32 (64 * k.val)) 1 + 1 * (x 1).val = (i 1).val
    omega

/-- The same through a result's chunk. -/
theorem oK_read_apply (c : Dev nD) (o : Buf (Elt Ideal) ((c.tc : Thread nD τ).loc main_v1)) (d : Dev nD) (k : Fin 32)
    (x : S64x1024.Idx) (i : S4096x1024.Idx)
    (h0 : (i 0).val = 2048 * (d.val % 2) + 64 * k.val + (x 0).val) (h1 : (i 1).val = (x 1).val) :
    (oK d k).view.read (Elt Ideal) o x = o i := by
  have e0 := congrFun (k0_off1_eq d k) 0
  have e1 := congrFun (k0_off1_eq d k) 1
  have e0' : k0_off1 d (BitVec.ofNat 32 (64 * k.val)) 0 = 2048 * (d.val % 2) + 64 * k.val := e0
  have e1' : k0_off1 d (BitVec.ofNat 32 (64 * k.val)) 1 = 0 := e1
  rw [View.read_apply]
  refine (cast_eq _ _).trans (congrArg o (Shape.idx_ext₂ ?_ ?_))
  · show k0_off1 d (BitVec.ofNat 32 (64 * k.val)) 0 + 1 * (x 0).val = (i 0).val
    omega
  · show k0_off1 d (BitVec.ofNat 32 (64 * k.val)) 1 + 1 * (x 1).val = (i 1).val
    omega

/-- The summed chunk at an index: the own chunk's element plus the first-axis neighbour's (narrowing and the shape casts
    change no value). -/
theorem tchunk_apply (m : (ℓ : Loc nD τ sig) → Buf (Elt Ideal) ℓ) (d : Dev nD) (k : Fin 32) (x : S64x1024.Idx) :
    tchunk (F := Ideal) m d k x = eadd (xchunk (F := Ideal) m d k x) (xchunk (F := Ideal) m (xpeer d) k x) := by
  simp only [tchunk, rchunk, schunk, addPay, castPay, shapeCast_self]
  rfl

/-- The summed chunk at an index is the reference's result at the row and column it covers. -/
theorem tchunk_eq (m : (ℓ : Loc nD τ sig) → Buf (Elt Ideal) ℓ) (X : RefArg)
    (hagree : ∀ c : Dev nD, m ((c.tc : Thread nD τ).loc main_arg0)
      = Layout.blockN ⟨2, ![4096, 1024]⟩ ⟨2, ![8192, 1024]⟩ (Layout.meshBlock [2, 2] ![[0], []] c) X)
    (d : Dev nD) (k : Fin 32) (x : S64x1024.Idx) (i : S4096x1024.Idx)
    (h0 : (i 0).val = 2048 * (d.val % 2) + 64 * k.val + (x 0).val) (h1 : (i 1).val = (x 1).val) :
    tchunk (F := Ideal) m d k x = refVal X i := by
  have h0' : (i 0).val = 2048 * ((xpeer d).val % 2) + 64 * k.val + (x 0).val := by
    have := xpeer_half d; omega
  rcases block_cases d with ⟨hq, hq'⟩ | ⟨hq, hq'⟩
  · have ha := (xK_read_apply d (m ((d.tc : Thread nD τ).loc main_arg0)) d k x i h0 h1).trans (blk_apply m X hagree d 0 hq i)
    have hb := (xK_read_apply (xpeer d) (m (((xpeer d).tc : Thread nD τ).loc main_arg0)) (xpeer d) k x i h0' h1).trans
      (blk_apply m X hagree (xpeer d) 1 hq' i)
    exact (tchunk_apply m d k x).trans ((congrArg₂ eadd ha hb).trans rfl)
  · have ha := (xK_read_apply d (m ((d.tc : Thread nD τ).loc main_arg0)) d k x i h0 h1).trans (blk_apply m X hagree d 1 hq i)
    have hb := (xK_read_apply (xpeer d) (m (((xpeer d).tc : Thread nD τ).loc main_arg0)) (xpeer d) k x i h0' h1).trans
      (blk_apply m X hagree (xpeer d) 0 hq' i)
    refine (tchunk_apply m d k x).trans ((congrArg₂ eadd ha hb).trans ?_)
    show eadd (X (wholeIdx 1 i)) (X (wholeIdx 0 i)) = eadd (X (wholeIdx 0 i)) (X (wholeIdx 1 i))
    exact eadd_comm _ _

/-! ## The join -/

/-- A result whose chunks in both halves hold the summed chunks is the reference's result. -/
theorem out_eq_ref (m : (ℓ : Loc nD τ sig) → Buf (Elt Ideal) ℓ) (X : RefArg)
    (hagree : ∀ c : Dev nD, m ((c.tc : Thread nD τ).loc main_arg0)
      = Layout.blockN ⟨2, ![4096, 1024]⟩ ⟨2, ![8192, 1024]⟩ (Layout.meshBlock [2, 2] ![[0], []] c) X)
    (c : Dev nD) (o : Buf (Elt Ideal) ((c.tc : Thread nD τ).loc main_v1))
    (ho : ∀ d : Dev nD, (d = c ∨ d = ypeer c) → ∀ k : Fin 32, (oK d k).view.read (Elt Ideal) o = tchunk (F := Ideal) m d k) :
    o = refVal X := by
  refine funext fun (i : S4096x1024.Idx) => ?_
  have hi0 : (i 0).val < 4096 := idx2_lt0 i
  have hi1 : (i 1).val < 1024 := idx2_lt1 i
  obtain ⟨d, hd, hdh⟩ : ∃ d : Dev nD, (d = c ∨ d = ypeer c) ∧ d.val % 2 = (i 0).val / 2048 := by
    by_cases h : c.val % 2 = (i 0).val / 2048
    · exact ⟨c, Or.inl rfl, h⟩
    · refine ⟨ypeer c, Or.inr rfl, ?_⟩
      have := ypeer_half c
      omega
  obtain ⟨k, hk⟩ : ∃ k : Fin 32, k.val = (i 0).val % 2048 / 64 := ⟨⟨(i 0).val % 2048 / 64, by omega⟩, rfl⟩
  obtain ⟨x, hx0, hx1⟩ : ∃ x : S64x1024.Idx, (x 0).val = (i 0).val % 64 ∧ (x 1).val = (i 1).val :=
    ⟨ix2 ⟨(i 0).val % 64, by omega⟩ ⟨(i 1).val, hi1⟩, rfl, rfl⟩
  have h0 : (i 0).val = 2048 * (d.val % 2) + 64 * k.val + (x 0).val := by omega
  have h1 : (i 1).val = (x 1).val := hx1.symm
  exact ((oK_read_apply c o d k x i h0 h1).symm.trans (congrFun (ho d hd k) x)).trans (tchunk_eq m X hagree d k x i h0 h1)

end Join

/-- info: 'Cert.KernelIdeal.Hand.out_eq_ref' depends on axioms: [propext, Classical.choice, Quot.sound] -/
#guard_msgs in #print axioms out_eq_ref
/-- info: 'Cert.KernelIdeal.Hand.ref_run' depends on axioms: [propext, Classical.choice, Quot.sound] -/
#guard_msgs in #print axioms ref_run

end Cert.KernelIdeal.Hand

end
-- ==== Proof.lean ====
/-
  The two-phase all-reduce on the 2 × 2 mesh against the sum of the two halves of the array.

  Each of the four devices holds a block of 4096 rows of the 8192 × 1024 array (the two devices of a first-axis pair hold the
  two blocks) and works on one half of its block, 2048 rows, chosen by its second-axis coordinate, in 32 chunks of 64 rows.
  A chunk is loaded, narrowed to bf16 and exchanged with the first-axis neighbour; the two narrowed chunks are added; the
  sum is written into the own result and into the second-axis neighbour's result, so that every device ends with all 4096
  rows: row i of the result is X[i] + X[4096 + i], the reference's sum over the first axis of the array reshaped to
  2 × 4096 × 1024 (at the ideal instance narrowing is the identity and the sum of two extended reals does not depend on
  their order).
  The run (`run_main`, for both printed programs) is the launch theorem applied to the per-device body obligation, which is
  the body — restated as five runs over the chunk index — proved chunk by chunk under the rounds discipline; it gives, in
  every final state, each device's block unchanged and each chunk of its result reading the sum chunk.  The frames are that
  run with the values dropped; the algebraic claim is its ideal instance joined to the reference's generated run.
-/
import proofs.«900132_g7700000000000133_dist_ar_v7x_xy2x2_x_m4096_n1024_bf16_1_alg».proof.Defs
import proofs.«900132_g7700000000000133_dist_ar_v7x_xy2x2_x_m4096_n1024_bf16_1_alg».proof.Proof.Launch
import proofs.«900132_g7700000000000133_dist_ar_v7x_xy2x2_x_m4096_n1024_bf16_1_alg».proof.Proof.KLaunch
import proofs.«900132_g7700000000000133_dist_ar_v7x_xy2x2_x_m4096_n1024_bf16_1_alg».proof.Proof.RefValue
import proofs.«900132_g7700000000000133_dist_ar_v7x_xy2x2_x_m4096_n1024_bf16_1_alg».proof.Proof.Gen.Kernel
import proofs.«900132_g7700000000000133_dist_ar_v7x_xy2x2_x_m4096_n1024_bf16_1_alg».proof.Proof.Gen.KernelIdeal
import proofs.«900132_g7700000000000133_dist_ar_v7x_xy2x2_x_m4096_n1024_bf16_1_alg».proof.Proof.Gen.ReferenceIdeal
import proofs.«900132_g7700000000000133_dist_ar_v7x_xy2x2_x_m4096_n1024_bf16_1_alg».proof.Proof.Gen.Pre_finite_inputs_Kernel
import proofs.«900132_g7700000000000133_dist_ar_v7x_xy2x2_x_m4096_n1024_bf16_1_alg».proof.Proof.Gen.Pre_finite_inputs_ReferenceIdeal
import Idealize.ShloMosaic.Adequacy
import Idealize.ShloMosaic.Init

noncomputable section

namespace Cert.Proof

open Idealize.ShloMosaic Idealize.SL.Sem

/-- The word-level program runs and leaves each device's block unchanged. -/
theorem frame_k : Cert.frame_Kernel := fun m g _ =>
  (θ_run _ _ _).mono (fun _ h c => (h c).1) (Cert.Kernel.Hand.run_main (F := Bits) m g)

/-- So does the idealized program. -/
theorem frame_ki : Cert.frame_KernelIdeal := fun m g _ =>
  (θ_run _ _ _).mono (fun _ h c => (h c).1) (Cert.KernelIdeal.Hand.run_main (F := Ideal) m g)

/-- The ideal pass rewrote nothing. -/
theorem preserves : Cert.preserves_Kernel_KernelIdeal := trivial

/-- Every device's result is the reference's: its 64 chunks read the sum chunks, which tile the reference's value. -/
theorem algebraic : Cert.algebraic_KernelIdeal_ReferenceIdeal := by
  intro m g m' g' _ hagree
  refine ⟨Cert.KernelIdeal.Hand.refVal _, ?_, Cert.KernelIdeal.Hand.ref_run m' g'⟩
  refine (θ_run _ _ _).mono (fun _ h c => ⟨?_, (h c).1⟩) (Cert.KernelIdeal.Hand.run_main (F := Ideal) m g)
  exact Cert.KernelIdeal.Hand.out_eq_ref m _ hagree c _ (h c).2

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.KernelIdeal.Hand.frame_ref, preserves, algebraic⟩

end Cert.Proof

end
